-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v128)) (v1 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_v110) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_v203) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S655360x128 : Shape := ⟨2, ![655360, 128]⟩
abbrev S2x256x128 : Shape := ⟨3, ![2, 256, 128]⟩
abbrev S2x256 : Shape := ⟨2, ![2, 256]⟩
abbrev S2x384x256 : Shape := ⟨3, ![2, 384, 256]⟩
abbrev S2x384x128 : Shape := ⟨3, ![2, 384, 128]⟩
abbrev S2x384 : Shape := ⟨2, ![2, 384]⟩
abbrev S256x128 : Shape := ⟨2, ![256, 128]⟩
abbrev S256 : Shape := ⟨1, ![256]⟩
abbrev S33x256 : Shape := ⟨2, ![33, 256]⟩
abbrev S33 : Shape := ⟨1, ![33]⟩
abbrev S32x128 : Shape := ⟨2, ![32, 128]⟩
abbrev S128x128 : Shape := ⟨2, ![128, 128]⟩
abbrev S128 : Shape := ⟨1, ![128]⟩
abbrev S128x256 : Shape := ⟨2, ![128, 256]⟩
abbrev S655360 : Shape := ⟨1, ![655360]⟩
abbrev S65536 : Shape := ⟨1, ![65536]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S655360x128 : S_.BroadcastsInDim S655360x128 (![] : Fin 0 → Fin S655360x128.rank)
  reducesTo_S655360x128_S_d0_1 : S655360x128.ReducesTo [0, 1] S_
  bcast_S_S2x256x128 : S_.BroadcastsInDim S2x256x128 (![] : Fin 0 → Fin S2x256x128.rank)
  reducesTo_S2x256x128_S_d0_1_2 : S2x256x128.ReducesTo [0, 1, 2] S_
  bcast_S_S2x256 : S_.BroadcastsInDim S2x256 (![] : Fin 0 → Fin S2x256.rank)
  reducesTo_S2x256_S_d0_1 : S2x256.ReducesTo [0, 1] S_
  bcast_S_S2x384x256 : S_.BroadcastsInDim S2x384x256 (![] : Fin 0 → Fin S2x384x256.rank)
  reducesTo_S2x384x256_S_d0_1_2 : S2x384x256.ReducesTo [0, 1, 2] S_
  bcast_S_S2x384x128 : S_.BroadcastsInDim S2x384x128 (![] : Fin 0 → Fin S2x384x128.rank)
  reducesTo_S2x384x128_S_d0_1_2 : S2x384x128.ReducesTo [0, 1, 2] S_
  bcast_S_S2x384 : S_.BroadcastsInDim S2x384 (![] : Fin 0 → Fin S2x384.rank)
  reducesTo_S2x384_S_d0_1 : S2x384.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S33x256 : S_.BroadcastsInDim S33x256 (![] : Fin 0 → Fin S33x256.rank)
  reducesTo_S33x256_S_d0_1 : S33x256.ReducesTo [0, 1] S_
  bcast_S_S33 : S_.BroadcastsInDim S33 (![] : Fin 0 → Fin S33.rank)
  reducesTo_S33_S_d0 : S33.ReducesTo [0] S_
  bcast_S_S32x128 : S_.BroadcastsInDim S32x128 (![] : Fin 0 → Fin S32x128.rank)
  reducesTo_S32x128_S_d0_1 : S32x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part6 {F : FTy → Type} [FloatOps F] (main_arg21 : FVec F S128x128 .f32) (main_arg22 : FVec F S128 .f32) (main_arg23 : FVec F S128x256 .f32) (main_v98 : IVec S_ 1) (main_v101 : IVec S32x128 1) (main_c_39 : IVec S_ 1) : IVec S_ 1 :=
  let main_v102 : IVec S_ 1 := (fun x v => Host.reduce IntOp.andi x v reducesTo_S32x128_S_d0_1 h_S_) main_v101 main_c_39
  let main_v103 : IVec S_ 1 := andi main_v98 main_v102
  let main_v104 : FVec F S128x128 .f32 := Host.absf main_arg21
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x256 .f32 := Host.absf main_arg23
  let main_cst_44 : FVec F S_ .f32 := constant S_ .f32 0x7F800000#32
  let main_v115 : FVec F S128x256 .f32 := broadcastInDim S128x256 ![] bcast_S_S128x256 main_cst_44
  let main_v116 : IVec S128x256 1 := cmpf .olt main_v114 main_v115
  let main_c_45 : IVec S_ 1 := constantI S_ 1 1#1
  let main_v117 : IVec S_ 1 := (fun x v => Host.reduce IntOp.andi x v reducesTo_S128x256_S_d0_1 h_S_) main_v116 main_c_45
  let main_v118 : IVec S_ 1 := andi main_v113 main_v117
  main_v118

def fn_part5 {F : FTy → Type} [FloatOps F] (main_arg18 : FVec F S33x256 .f32) (main_arg19 : FVec F S33 .f32) (main_arg20 : FVec F S32x128 .f32) (main_arg21 : FVec F S128x128 .f32) (main_arg22 : FVec F S128 .f32) (main_arg23 : FVec F S128x256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S33x256 .f32 := Host.absf main_arg18
  let main_cst_34 : FVec F S_ .f32 := constant S_ .f32 0x7F800000#32
  let main_v90 : FVec F S33x256 .f32 := broadcastInDim S33x256 ![] bcast_S_S33x256 main_cst_34
  let main_v91 : IVec S33x256 1 := cmpf .olt main_v89 main_v90
  let main_c_35 : IVec S_ 1 := constantI S_ 1 1#1
  let main_v92 : IVec S_ 1 := (fun x v => Host.reduce IntOp.andi x v reducesTo_S33x256_S_d0_1 h_S_) main_v91 main_c_35
  let main_v93 : IVec S_ 1 := andi main_v88 main_v92
  let main_v94 : FVec F S33 .f32 := Host.absf main_arg19
  let main_cst_36 : FVec F S_ .f32 := constant S_ .f32 0x7F800000#32
  let main_v95 : FVec F S33 .f32 := broadcastInDim S33 ![] bcast_S_S33 main_cst_36
  let main_v96 : IVec S33 1 := cmpf .olt main_v94 main_v95
  let main_c_37 : IVec S_ 1 := constantI S_ 1 1#1
  let main_v97 : IVec S_ 1 := (fun x v => Host.reduce IntOp.andi x v reducesTo_S33_S_d0 h_S_) main_v96 main_c_37
  let main_v98 : IVec S_ 1 := andi main_v93 main_v97
  let main_v99 : FVec F S32x128 .f32 := Host.absf main_arg20
  let main_cst_38 : FVec F S_ .f32 := constant S_ .f32 0x7F800000#32
  let main_v100 : FVec F S32x128 .f32 := broadcastInDim S32x128 ![] bcast_S_S32x128 main_cst_38
  let main_v101 : IVec S32x128 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S256x128 .f32) (main_arg15 : FVec F S256 .f32) (main_arg16 : FVec F S256x128 .f32) (main_arg17 : FVec F S256 .f32) (main_arg18 : FVec F S33x256 .f32) (main_arg19 : FVec F S33 .f32) (main_arg20 : FVec F S32x128 .f32) (main_arg21 : FVec F S128x128 .f32) (main_arg22 : FVec F S128 .f32) (main_arg23 : FVec F S128x256 .f32) (main_v63 : IVec S_ 1) (main_v67 : IVec S_ 1) : IVec S_ 1 :=
  let main_v68 : IVec S_ 1 := andi main_v63 main_v67
  let main_v69 : FVec F S256x128 .f32 := Host.absf main_arg14
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x128 .f32 := Host.absf main_arg16
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S256 .f32) (main_arg12 : FVec F S256x128 .f32) (main_arg13 : FVec F S256 .f32) (main_arg14 : FVec F S256x128 .f32) (main_arg15 : FVec F S256 .f32) (main_arg16 : FVec F S256x128 .f32) (main_arg17 : FVec F S256 .f32) (main_arg18 : FVec F S33x256 .f32) (main_arg19 : FVec F S33 .f32) (main_arg20 : FVec F S32x128 .f32) (main_arg21 : FVec F S128x128 .f32) (main_arg22 : FVec F S128 .f32) (main_arg23 : FVec F S128x256 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg12
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S2x384x128 .f32) (main_arg8 : FVec F S2x384 .f32) (main_arg9 : FVec F S2x384 .f32) (main_arg10 : FVec F S256x128 .f32) (main_arg11 : FVec F S256 .f32) (main_arg12 : FVec F S256x128 .f32) (main_arg13 : FVec F S256 .f32) (main_arg14 : FVec F S256x128 .f32) (main_arg15 : FVec F S256 .f32) (main_arg16 : FVec F S256x128 .f32) (main_arg17 : FVec F S256 .f32) (main_arg18 : FVec F S33x256 .f32) (main_arg19 : FVec F S33 .f32) (main_arg20 : FVec F S32x128 .f32) (main_arg21 : FVec F S128x128 .f32) (main_arg22 : FVec F S128 .f32) (main_arg23 : FVec F S128x256 .f32) (main_v33 : IVec S_ 1) : IVec S_ 1 :=
  let main_v34 : FVec F S2x384x128 .f32 := Host.absf main_arg7
  let main_cst_12 : FVec F S_ .f32 := constant S_ .f32 0x7F800000#32
  let main_v35 : FVec F S2x384x128 .f32 := broadcastInDim S2x384x128 ![] bcast_S_S2x384x128 main_cst_12
  let main_v36 : IVec S2x384x128 1 := cmpf .olt main_v34 main_v35
  let main_c_13 : IVec S_ 1 := constantI S_ 1 1#1
  let main_v37 : IVec S_ 1 := (fun x v => Host.reduce IntOp.andi x v reducesTo_S2x384x128_S_d0_1_2 h_S_) main_v36 main_c_13
  let main_v38 : IVec S_ 1 := andi main_v33 main_v37
  let main_v39 : FVec F S2x384 .f32 := Host.absf main_arg8
  let main_cst_14 : FVec F S_ .f32 := constant S_ .f32 0x7F800000#32
  let main_v40 : FVec F S2x384 .f32 := broadcastInDim S2x384 ![] bcast_S_S2x384 main_cst_14
  let main_v41 : IVec S2x384 1 := cmpf .olt main_v39 main_v40
  let main_c_15 : IVec S_ 1 := constantI S_ 1 1#1
  let main_v42 : IVec S_ 1 := (fun x v => Host.reduce IntOp.andi x v reducesTo_S2x384_S_d0_1 h_S_) main_v41 main_c_15
  let main_v43 : IVec S_ 1 := andi main_v38 main_v42
  let main_v44 : FVec F S2x384 .f32 := Host.absf main_arg9
  let main_cst_16 : FVec F S_ .f32 := constant S_ .f32 0x7F800000#32
  let main_v45 : FVec F S2x384 .f32 := broadcastInDim S2x384 ![] bcast_S_S2x384 main_cst_16
  let main_v46 : IVec S2x384 1 := cmpf .olt main_v44 main_v45
  let main_c_17 : IVec S_ 1 := constantI S_ 1 1#1
  let main_v47 : IVec S_ 1 := (fun x v => Host.reduce IntOp.andi x v reducesTo_S2x384_S_d0_1 h_S_) main_v46 main_c_17
  let main_v48 : IVec S_ 1 := andi main_v43 main_v47
  let main_v49 : FVec F S256x128 .f32 := Host.absf main_arg10
  let main_cst_18 : FVec F S_ .f32 := constant S_ .f32 0x7F800000#32
  let main_v50 : FVec F S256x128 .f32 := broadcastInDim S256x128 ![] bcast_S_S256x128 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S2x256 .f32) (main_arg5 : FVec F S2x256x128 .f32) (main_arg6 : FVec F S2x384x256 .f32) (main_arg7 : FVec F S2x384x128 .f32) (main_arg8 : FVec F S2x384 .f32) (main_arg9 : FVec F S2x384 .f32) (main_arg10 : FVec F S256x128 .f32) (main_arg11 : FVec F S256 .f32) (main_arg12 : FVec F S256x128 .f32) (main_arg13 : FVec F S256 .f32) (main_arg14 : FVec F S256x128 .f32) (main_arg15 : FVec F S256 .f32) (main_arg16 : FVec F S256x128 .f32) (main_arg17 : FVec F S256 .f32) (main_arg18 : FVec F S33x256 .f32) (main_arg19 : FVec F S33 .f32) (main_arg20 : FVec F S32x128 .f32) (main_arg21 : FVec F S128x128 .f32) (main_arg22 : FVec F S128 .f32) (main_arg23 : FVec F S128x256 .f32) (main_v13 : IVec S_ 1) (main_v16 : IVec S2x256x128 1) : IVec S_ 1 :=
  let main_c_5 : IVec S_ 1 := constantI S_ 1 1#1
  let main_v17 : IVec S_ 1 := (fun x v => Host.reduce IntOp.andi x v reducesTo_S2x256x128_S_d0_1_2 h_S_) main_v16 main_c_5
  let main_v18 : IVec S_ 1 := andi main_v13 main_v17
  let main_v19 : FVec F S2x256 .f32 := Host.absf main_arg4
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2x256x128 .f32 := Host.absf main_arg5
  let main_cst_8 : FVec F S_ .f32 := constant S_ .f32 0x7F800000#32
  let main_v25 : FVec F S2x256x128 .f32 := broadcastInDim S2x256x128 ![] bcast_S_S2x256x128 main_cst_8
  let main_v26 : IVec S2x256x128 1 := cmpf .olt main_v24 main_v25
  let main_c_9 : IVec S_ 1 := constantI S_ 1 1#1
  let main_v27 : IVec S_ 1 := (fun x v => Host.reduce IntOp.andi x v reducesTo_S2x256x128_S_d0_1_2 h_S_) main_v26 main_c_9
  let main_v28 : IVec S_ 1 := andi main_v23 main_v27
  let main_v29 : FVec F S2x384x256 .f32 := Host.absf main_arg6
  let main_cst_10 : FVec F S_ .f32 := constant S_ .f32 0x7F800000#32
  let main_v30 : FVec F S2x384x256 .f32 := broadcastInDim S2x384x256 ![] bcast_S_S2x384x256 main_cst_10
  let main_v31 : IVec S2x384x256 1 := cmpf .olt main_v29 main_v30
  let main_c_11 : IVec S_ 1 := constantI S_ 1 1#1
  let main_v32 : IVec S_ 1 := (fun x v => Host.reduce IntOp.andi x v reducesTo_S2x384x256_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S65536x128 .f32) (main_arg1 : FVec F S655360x128 .f32) (main_arg2 : FVec F S2x256x128 .f32) (main_arg3 : FVec F S2x256x128 .f32) (main_arg4 : FVec F S2x256 .f32) (main_arg5 : FVec F S2x256x128 .f32) (main_arg6 : FVec F S2x384x256 .f32) (main_arg7 : FVec F S2x384x128 .f32) (main_arg8 : FVec F S2x384 .f32) (main_arg9 : FVec F S2x384 .f32) (main_arg10 : FVec F S256x128 .f32) (main_arg11 : FVec F S256 .f32) (main_arg12 : FVec F S256x128 .f32) (main_arg13 : FVec F S256 .f32) (main_arg14 : FVec F S256x128 .f32) (main_arg15 : FVec F S256 .f32) (main_arg16 : FVec F S256x128 .f32) (main_arg17 : FVec F S256 .f32) (main_arg18 : FVec F S33x256 .f32) (main_arg19 : FVec F S33 .f32) (main_arg20 : FVec F S32x128 .f32) (main_arg21 : FVec F S128x128 .f32) (main_arg22 : FVec F S128 .f32) (main_arg23 : FVec F S128x256 .f32) (main_arg24 : IVec S655360 32) (main_arg25 : IVec S655360 32) (main_arg26 : IVec S128 32) (main_arg27 : IVec S65536 32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S655360x128 .f32 := Host.absf main_arg1
  let main_cst_0 : FVec F S_ .f32 := constant S_ .f32 0x7F800000#32
  let main_v5 : FVec F S655360x128 .f32 := broadcastInDim S655360x128 ![] bcast_S_S655360x128 main_cst_0
  let main_v6 : IVec S655360x128 1 := cmpf .olt main_v4 main_v5
  let main_c_1 : IVec S_ 1 := constantI S_ 1 1#1
  let main_v7 : IVec S_ 1 := (fun x v => Host.reduce IntOp.andi x v reducesTo_S655360x128_S_d0_1 h_S_) main_v6 main_c_1
  let main_v8 : IVec S_ 1 := andi main_v3 main_v7
  let main_v9 : FVec F S2x256x128 .f32 := Host.absf main_arg2
  let main_cst_2 : FVec F S_ .f32 := constant S_ .f32 0x7F800000#32
  let main_v10 : FVec F S2x256x128 .f32 := broadcastInDim S2x256x128 ![] bcast_S_S2x256x128 main_cst_2
  let main_v11 : IVec S2x256x128 1 := cmpf .olt main_v9 main_v10
  let main_c_3 : IVec S_ 1 := constantI S_ 1 1#1
  let main_v12 : IVec S_ 1 := (fun x v => Host.reduce IntOp.andi x v reducesTo_S2x256x128_S_d0_1_2 h_S_) main_v11 main_c_3
  let main_v13 : IVec S_ 1 := andi main_v8 main_v12
  let main_v14 : FVec F S2x256x128 .f32 := Host.absf main_arg3
  let main_cst_4 : FVec F S_ .f32 := constant S_ .f32 0x7F800000#32
  let main_v15 : FVec F S2x256x128 .f32 := broadcastInDim S2x256x128 ![] bcast_S_S2x256x128 main_cst_4
  let main_v16 : IVec S2x256x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S65536x128 : Shape := ⟨2, ![65536, 128]⟩
abbrev S655360x128 : Shape := ⟨2, ![655360, 128]⟩
abbrev S2x256x128 : Shape := ⟨3, ![2, 256, 128]⟩
abbrev S2x256 : Shape := ⟨2, ![2, 256]⟩
abbrev S2x384x256 : Shape := ⟨3, ![2, 384, 256]⟩
abbrev S2x384x128 : Shape := ⟨3, ![2, 384, 128]⟩
abbrev S2x384 : Shape := ⟨2, ![2, 384]⟩
abbrev S256x128 : Shape := ⟨2, ![256, 128]⟩
abbrev S256 : Shape := ⟨1, ![256]⟩
abbrev S33x256 : Shape := ⟨2, ![33, 256]⟩
abbrev S33 : Shape := ⟨1, ![33]⟩
abbrev S32x128 : Shape := ⟨2, ![32, 128]⟩
abbrev S128x128 : Shape := ⟨2, ![128, 128]⟩
abbrev S128 : Shape := ⟨1, ![128]⟩
abbrev S128x256 : Shape := ⟨2, ![128, 256]⟩
abbrev S655360 : Shape := ⟨1, ![655360]⟩
abbrev S65536 : Shape := ⟨1, ![65536]⟩
abbrev S_ : Shape := ⟨0, ![]⟩
abbrev S65536x1 : Shape := ⟨2, ![65536, 1]⟩
abbrev S655360x1 : Shape := ⟨2, ![655360, 1]⟩
abbrev S65536x256 : Shape := ⟨2, ![65536, 256]⟩
abbrev S1x256x128 : Shape := ⟨3, ![1, 256, 128]⟩
abbrev S1x384x256 : Shape := ⟨3, ![1, 384, 256]⟩
abbrev S384x256 : Shape := ⟨2, ![384, 256]⟩
abbrev S256x384 : Shape := ⟨2, ![256, 384]⟩
abbrev S1x384x128 : Shape := ⟨3, ![1, 384, 128]⟩
abbrev S384x128 : Shape := ⟨2, ![384, 128]⟩
abbrev S128x384 : Shape := ⟨2, ![128, 384]⟩
abbrev S1x256 : Shape := ⟨2, ![1, 256]⟩
abbrev S1x384 : Shape := ⟨2, ![1, 384]⟩
abbrev S384 : Shape := ⟨1, ![384]⟩
abbrev S2048x128 : Shape := ⟨2, ![2048, 128]⟩
abbrev S2048x256 : Shape := ⟨2, ![2048, 256]⟩
abbrev S2048x384 : Shape := ⟨2, ![2048, 384]⟩
abbrev S1x128 : Shape := ⟨2, ![1, 128]⟩
abbrev S128x2048 : Shape := ⟨2, ![128, 2048]⟩
abbrev S256x33 : Shape := ⟨2, ![256, 33]⟩
abbrev S128x33 : Shape := ⟨2, ![128, 33]⟩
abbrev S1x33 : Shape := ⟨2, ![1, 33]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩
abbrev S65664x128 : Shape := ⟨2, ![65664, 128]⟩

abbrev nBuf : Space → Nat
  | .hbm => 217
  | .vmem => 50
  | .smem => 0
  | _ => 0

abbrev hbmTy0_0 (i : Nat) : BufTy := match i % 128 with
  | 0 => ⟨S65536x128, .f32⟩
  | 1 => ⟨S655360x128, .f32⟩
  | 2 => ⟨S2x256x128, .f32⟩
  | 3 => ⟨S2x256x128, .f32⟩
  | 4 => ⟨S2x256, .f32⟩
  | 5 => ⟨S2x256x128, .f32⟩
  | 6 => ⟨S2x384x256, .f32⟩
  | 7 => ⟨S2x384x128, .f32⟩
  | 8 => ⟨S2x384, .f32⟩
  | 9 => ⟨S2x384, .f32⟩
  | 10 => ⟨S256x128, .f32⟩
  | 11 => ⟨S256, .f32⟩
  | 12 => ⟨S256x128, .f32⟩
  | 13 => ⟨S256, .f32⟩
  | 14 => ⟨S256x128, .f32⟩
  | 15 => ⟨S256, .f32⟩
  | 16 => ⟨S256x128, .f32⟩
  | 17 => ⟨S256, .f32⟩
  | 18 => ⟨S33x256, .f32⟩
  | 19 => ⟨S33, .f32⟩
  | 20 => ⟨S32x128, .f32⟩
  | 21 => ⟨S128x128, .f32⟩
  | 22 => ⟨S128, .f32⟩
  | 23 => ⟨S128x256, .f32⟩
  | 24 => ⟨S655360, .i32⟩
  | 25 => ⟨S655360, .i32⟩
  | 26 => ⟨S128, .i32⟩
  | 27 => ⟨S65536, .i32⟩
  | 28 => ⟨S_, .i32⟩
  | 29 => ⟨S65536, .i32⟩
  | 30 => ⟨S65536, .i1⟩
  | 31 => ⟨S_, .i32⟩
  | 32 => ⟨S65536, .i32⟩
  | 33 => ⟨S65536, .i1⟩
  | 34 => ⟨S65536, .i1⟩
  | 35 => ⟨S65536x1, .i1⟩
  | 36 => ⟨S_, .f32⟩
  | 37 => ⟨S65536x128, .f32⟩
  | 38 => ⟨S655360x1, .i32⟩
  | 39 => ⟨S65536x128, .f32⟩
  | 40 => ⟨S_, .f32⟩
  | 41 => ⟨S655360, .f32⟩
  | 42 => ⟨S_, .f32⟩
  | 43 => ⟨S65536, .f32⟩
  | 44 => ⟨S655360x1, .i32⟩
  | 45 => ⟨S65536, .f32⟩
  | 46 => ⟨S65536x1, .f32⟩
  | 47 => ⟨S65536x256, .f32⟩
  | 48 => ⟨S1x256x128, .f32⟩
  | 49 => ⟨S256x128, .f32⟩
  | 50 => ⟨S128x256, .f32⟩
  | 51 => ⟨S1x256x128, .f32⟩
  | 52 => ⟨S256x128, .f32⟩
  | 53 => ⟨S128x256, .f32⟩
  | 54 => ⟨S1x256x128, .f32⟩
  | 55 => ⟨S256x128, .f32⟩
  | 56 => ⟨S128x256, .f32⟩
  | 57 => ⟨S1x384x256, .f32⟩
  | 58 => ⟨S384x256, .f32⟩
  | 59 => ⟨S256x384, .f32⟩
  | 60 => ⟨S1x384x128, .f32⟩
  | 61 => ⟨S384x128, .f32⟩
  | 62 => ⟨S128x384, .f32⟩
  | 63 => ⟨S1x256, .f32⟩
  | 64 => ⟨S256, .f32⟩
  | 65 => ⟨S1x256, .f32⟩
  | 66 => ⟨S1x384, .f32⟩
  | 67 => ⟨S384, .f32⟩
  | 68 => ⟨S1x384, .f32⟩
  | 69 => ⟨S1x384, .f32⟩
  | 70 => ⟨S384, .f32⟩
  | 71 => ⟨S1x384, .f32⟩
  | 72 => ⟨S_, .i32⟩
  | 73 => ⟨S655360, .i32⟩
  | 74 => ⟨S655360, .i1⟩
  | 75 => ⟨S_, .i32⟩
  | 76 => ⟨S655360, .i32⟩
  | 77 => ⟨S655360, .i32⟩
  | 78 => ⟨S655360, .i32⟩
  | 79 => ⟨S655360x1, .i32⟩
  | 80 => ⟨S655360x128, .f32⟩
  | 81 => ⟨S_, .f32⟩
  | 82 => ⟨S65536x128, .f32⟩
  | 83 => ⟨S655360x1, .i32⟩
  | 84 => ⟨S65536x128, .f32⟩
  | 85 => ⟨S65536x128, .f32⟩
  | 86 => ⟨S65536x128, .i1⟩
  | 87 => ⟨S65536x128, .f32⟩
  | 88 => ⟨S1x256x128, .f32⟩
  | 89 => ⟨S256x128, .f32⟩
  | 90 => ⟨S128x256, .f32⟩
  | 91 => ⟨S1x256x128, .f32⟩
  | 92 => ⟨S256x128, .f32⟩
  | 93 => ⟨S128x256, .f32⟩
  | 94 => ⟨S1x256x128, .f32⟩
  | 95 => ⟨S256x128, .f32⟩
  | 96 => ⟨S128x256, .f32⟩
  | 97 => ⟨S1x384x256, .f32⟩
  | 98 => ⟨S384x256, .f32⟩
  | 99 => ⟨S256x384, .f32⟩
  | 100 => ⟨S1x384x128, .f32⟩
  | 101 => ⟨S384x128, .f32⟩
  | 102 => ⟨S128x384, .f32⟩
  | 103 => ⟨S1x256, .f32⟩
  | 104 => ⟨S256, .f32⟩
  | 105 => ⟨S1x256, .f32⟩
  | 106 => ⟨S1x384, .f32⟩
  | 107 => ⟨S384, .f32⟩
  | 108 => ⟨S1x384, .f32⟩
  | 109 => ⟨S1x384, .f32⟩
  | 110 => ⟨S384, .f32⟩
  | 111 => ⟨S1x384, .f32⟩
  | 112 => ⟨S_, .i32⟩
  | 113 => ⟨S655360, .i32⟩
  | 114 => ⟨S655360, .i1⟩
  | 115 => ⟨S_, .i32⟩
  | 116 => ⟨S655360, .i32⟩
  | 117 => ⟨S655360, .i32⟩
  | 118 => ⟨S655360, .i32⟩
  | 119 => ⟨S655360x1, .i32⟩
  | 120 => ⟨S655360x128, .f32⟩
  | 121 => ⟨S_, .f32⟩
  | 122 => ⟨S65536x128, .f32⟩
  | 123 => ⟨S655360x1, .i32⟩
  | 124 => ⟨S65536x128, .f32⟩
  | 125 => ⟨S65536x128, .f32⟩
  | 126 => ⟨S65536x128, .i1⟩
  | 127 => ⟨S65536x128, .f32⟩
  | _ => ⟨S65536x128, .f32⟩

abbrev hbmTy0_1 (i : Nat) : BufTy := match i % 128 with
  | 0 => ⟨S65536x1, .i32⟩
  | 1 => ⟨S1x128, .i32⟩
  | 2 => ⟨S65536x128, .i32⟩
  | 3 => ⟨S65536x128, .i32⟩
  | 4 => ⟨S65536x128, .i1⟩
  | 5 => ⟨S65536x128, .f32⟩
  | 6 => ⟨S128x256, .f32⟩
  | 7 => ⟨S1x256, .f32⟩
  | 8 => ⟨S128x256, .f32⟩
  | 9 => ⟨S1x256, .f32⟩
  | 10 => ⟨S128x256, .f32⟩
  | 11 => ⟨S1x256, .f32⟩
  | 12 => ⟨S128x256, .f32⟩
  | 13 => ⟨S1x256, .f32⟩
  | 14 => ⟨S128x256, .f32⟩
  | 15 => ⟨S128x256, .f32⟩
  | 16 => ⟨S256x33, .f32⟩
  | 17 => ⟨S128x33, .f32⟩
  | 18 => ⟨S1x33, .f32⟩
  | 19 => ⟨S128x33, .f32⟩
  | 20 => ⟨S128x33, .f32⟩
  | 21 => ⟨S_, .i32⟩
  | 22 => ⟨S128, .i32⟩
  | 23 => ⟨S128, .i32⟩
  | 24 => ⟨S_, .f32⟩
  | 25 => ⟨S128, .f32⟩
  | 26 => ⟨S_, .f32⟩
  | 27 => ⟨S128, .f32⟩
  | 28 => ⟨S128, .f32⟩
  | 29 => ⟨S128x1, .f32⟩
  | 30 => ⟨S128x33, .f32⟩
  | 31 => ⟨S128x33, .f32⟩
  | 32 => ⟨S128x33, .f32⟩
  | 33 => ⟨S_, .f32⟩
  | 34 => ⟨S128, .f32⟩
  | 35 => ⟨S128x1, .f32⟩
  | 36 => ⟨S128x1, .f32⟩
  | 37 => ⟨S128x33, .f32⟩
  | 38 => ⟨S128x33, .f32⟩
  | 39 => ⟨S128x1, .i32⟩
  | 40 => ⟨S_, .i32⟩
  | 41 => ⟨S128x1, .i32⟩
  | 42 => ⟨S128x1, .i1⟩
  | 43 => ⟨S_, .i32⟩
  | 44 => ⟨S128x1, .i32⟩
  | 45 => ⟨S128x1, .i32⟩
  | 46 => ⟨S128x1, .i32⟩
  | 47 => ⟨S128x1x1, .i32⟩
  | 48 => ⟨S1, .i32⟩
  | 49 => ⟨S_, .i32⟩
  | 50 => ⟨S128x1x1, .i32⟩
  | 51 => ⟨S128x1x1, .i1⟩
  | 52 => ⟨S1x1x1, .i32⟩
  | 53 => ⟨S128x1x1, .i32⟩
  | 54 => ⟨S128x1x1, .i1⟩
  | 55 => ⟨S128x1x1, .i1⟩
  | 56 => ⟨S_, .i1⟩
  | 57 => ⟨S128x1, .i1⟩
  | 58 => ⟨S128x1, .f32⟩
  | 59 => ⟨S_, .f32⟩
  | 60 => ⟨S128x1, .f32⟩
  | 61 => ⟨S128x1, .f32⟩
  | 62 => ⟨S128, .f32⟩
  | 63 => ⟨S_, .f32⟩
  | 64 => ⟨S_, .f32⟩
  | 65 => ⟨S_, .f32⟩
  | 66 => ⟨S_, .f32⟩
  | 67 => ⟨S_, .f32⟩
  | 68 => ⟨S_, .i32⟩
  | 69 => ⟨S128, .i32⟩
  | 70 => ⟨S128, .i32⟩
  | 71 => ⟨S_, .i32⟩
  | 72 => ⟨S128, .i32⟩
  | 73 => ⟨S128, .i1⟩
  | 74 => ⟨S_, .i32⟩
  | 75 => ⟨S128, .i32⟩
  | 76 => ⟨S128, .i32⟩
  | 77 => ⟨S128, .i32⟩
  | 78 => ⟨S128x1, .i32⟩
  | 79 => ⟨S128x128, .f32⟩
  | 80 => ⟨S128x128, .f32⟩
  | 81 => ⟨S128x128, .f32⟩
  | 82 => ⟨S1x128, .f32⟩
  | 83 => ⟨S128x128, .f32⟩
  | 84 => ⟨S128x128, .f32⟩
  | 85 => ⟨S256x128, .f32⟩
  | 86 => ⟨S128x128, .f32⟩
  | 87 => ⟨S128x128, .f32⟩
  | 88 => ⟨S65664x128, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x256, .f32⟩
  | .local _ .vmem, ⟨7, _⟩ => ⟨S2048x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S1x256, .f32⟩
  | .local _ .vmem, ⟨12, _⟩ => ⟨S256x384, .f32⟩
  | .local _ .vmem, ⟨13, _⟩ => ⟨S128x384, .f32⟩
  | .local _ .vmem, ⟨14, _⟩ => ⟨S1x384, .f32⟩
  | .local _ .vmem, ⟨15, _⟩ => ⟨S1x384, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x256, .f32⟩
  | .local _ .vmem, ⟨25, _⟩ => ⟨S2048x256, .f32⟩
  | .local _ .vmem, ⟨26, _⟩ => ⟨S128x256, .f32⟩
  | .local _ .vmem, ⟨27, _⟩ => ⟨S128x256, .f32⟩
  | .local _ .vmem, ⟨28, _⟩ => ⟨S128x256, .f32⟩
  | .local _ .vmem, ⟨29, _⟩ => ⟨S1x256, .f32⟩
  | .local _ .vmem, ⟨30, _⟩ => ⟨S256x384, .f32⟩
  | .local _ .vmem, ⟨31, _⟩ => ⟨S128x384, .f32⟩
  | .local _ .vmem, ⟨32, _⟩ => ⟨S1x384, .f32⟩
  | .local _ .vmem, ⟨33, _⟩ => ⟨S1x384, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S2048x128, .f32⟩
  | .local _ .vmem, ⟨40, _⟩ => ⟨S128x256, .f32⟩
  | .local _ .vmem, ⟨41, _⟩ => ⟨S1x256, .f32⟩
  | .local _ .vmem, ⟨42, _⟩ => ⟨S128x256, .f32⟩
  | .local _ .vmem, ⟨43, _⟩ => ⟨S1x256, .f32⟩
  | .local _ .vmem, ⟨44, _⟩ => ⟨S128x256, .f32⟩
  | .local _ .vmem, ⟨45, _⟩ => ⟨S1x256, .f32⟩
  | .local _ .vmem, ⟨46, _⟩ => ⟨S128x256, .f32⟩
  | .local _ .vmem, ⟨47, _⟩ => ⟨S1x256, .f32⟩
  | .local _ .vmem, ⟨48, _⟩ => ⟨S128x256, .f32⟩
  | .local _ .vmem, ⟨49, _⟩ => ⟨S128x256, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_cst : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_1 : Ref sig .tc := ⟨.hbm, 40, rfl⟩
abbrev main_v9 : Ref sig .tc := ⟨.hbm, 41, rfl⟩
abbrev main_cst_2 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_c_3 : Ref sig .tc := ⟨.hbm, 72, rfl⟩
abbrev main_v39 : Ref sig .tc := ⟨.hbm, 73, rfl⟩
abbrev main_v40 : Ref sig .tc := ⟨.hbm, 74, rfl⟩
abbrev main_c_4 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_5 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_call0_v0 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_6 : Ref sig .tc := ⟨.hbm, 112, rfl⟩
abbrev main_v75 : Ref sig .tc := ⟨.hbm, 113, rfl⟩
abbrev main_v76 : Ref sig .tc := ⟨.hbm, 114, rfl⟩
abbrev main_c_7 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_8 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_call1_v0 : Ref sig .tc := ⟨.hbm, 126, rfl⟩
abbrev main_v86 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96_0 : Ref sig .tc := ⟨.hbm, 142, rfl⟩
abbrev main_v96_1 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_c_9 : Ref sig .tc := ⟨.hbm, 149, rfl⟩
abbrev main_v102 : Ref sig .tc := ⟨.hbm, 150, rfl⟩
abbrev main_v103 : Ref sig .tc := ⟨.hbm, 151, rfl⟩
abbrev main_call3_cst : Ref sig .tc := ⟨.hbm, 152, rfl⟩
abbrev main_call3_v0 : Ref sig .tc := ⟨.hbm, 153, rfl⟩
abbrev main_call3_cst_0 : Ref sig .tc := ⟨.hbm, 154, rfl⟩
abbrev main_call3_v1 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_v6 : Ref sig .tc := ⟨.hbm, 160, rfl⟩
abbrev main_call3_cst_1 : Ref sig .tc := ⟨.hbm, 161, rfl⟩
abbrev main_call3_v7 : Ref sig .tc := ⟨.hbm, 162, rfl⟩
abbrev main_call3_v8 : Ref sig .tc := ⟨.hbm, 163, rfl⟩
abbrev main_call3_v9 : Ref sig .tc := ⟨.hbm, 164, rfl⟩
abbrev main_call3_v10 : Ref sig .tc := ⟨.hbm, 165, rfl⟩
abbrev main_v104 : Ref sig .tc := ⟨.hbm, 166, rfl⟩
abbrev main_v105 : Ref sig .tc := ⟨.hbm, 167, rfl⟩
abbrev main_call4_c : Ref sig .tc := ⟨.hbm, 168, rfl⟩
abbrev main_call4_v0 : Ref sig .tc := ⟨.hbm, 169, rfl⟩
abbrev main_call4_v1 : Ref sig .tc := ⟨.hbm, 170, rfl⟩
abbrev main_call4_c_0 : Ref sig .tc := ⟨.hbm, 171, rfl⟩
abbrev main_call4_v2 : Ref sig .tc := ⟨.hbm, 172, rfl⟩
abbrev main_call4_v3 : Ref sig .tc := ⟨.hbm, 173, rfl⟩
abbrev main_call4_v4 : Ref sig .tc := ⟨.hbm, 174, rfl⟩
abbrev main_call4_v5 : Ref sig .tc := ⟨.hbm, 175, rfl⟩
abbrev main_call4_c_1 : Ref sig .tc := ⟨.hbm, 176, rfl⟩
abbrev main_call4_c_2 : Ref sig .tc := ⟨.hbm, 177, rfl⟩
abbrev main_call4_v6 : Ref sig .tc := ⟨.hbm, 178, rfl⟩
abbrev main_call4_v7 : Ref sig .tc := ⟨.hbm, 179, rfl⟩
abbrev main_call4_v8 : Ref sig .tc := ⟨.hbm, 180, rfl⟩
abbrev main_call4_v9 : Ref sig .tc := ⟨.hbm, 181, rfl⟩
abbrev main_call4_v10 : Ref sig .tc := ⟨.hbm, 182, rfl⟩
abbrev main_call4_v11 : Ref sig .tc := ⟨.hbm, 183, rfl⟩
abbrev main_call4_c_3 : Ref sig .tc := ⟨.hbm, 184, rfl⟩
abbrev main_call4_v12 : Ref sig .tc := ⟨.hbm, 185, rfl⟩
abbrev main_call4_v13 : Ref sig .tc := ⟨.hbm, 186, rfl⟩
abbrev main_call4_cst : Ref sig .tc := ⟨.hbm, 187, rfl⟩
abbrev main_call4_v14 : Ref sig .tc := ⟨.hbm, 188, rfl⟩
abbrev main_v106 : Ref sig .tc := ⟨.hbm, 189, rfl⟩
abbrev main_v107 : Ref sig .tc := ⟨.hbm, 190, rfl⟩
abbrev main_cst_10 : Ref sig .tc := ⟨.hbm, 191, rfl⟩
abbrev main_v108 : Ref sig .tc := ⟨.hbm, 192, rfl⟩
abbrev main_cst_11 : Ref sig .tc := ⟨.hbm, 193, rfl⟩
abbrev main_v109 : Ref sig .tc := ⟨.hbm, 194, rfl⟩
abbrev main_v110 : Ref sig .tc := ⟨.hbm, 195, rfl⟩
abbrev main_c_12 : Ref sig .tc := ⟨.hbm, 196, rfl⟩
abbrev main_v111 : Ref sig .tc := ⟨.hbm, 197, rfl⟩
abbrev main_v112 : Ref sig .tc := ⟨.hbm, 198, rfl⟩
abbrev main_c_13 : Ref sig .tc := ⟨.hbm, 199, rfl⟩
abbrev main_v113 : Ref sig .tc := ⟨.hbm, 200, rfl⟩
abbrev main_v114 : Ref sig .tc := ⟨.hbm, 201, rfl⟩
abbrev main_c_14 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg12_0 : Ref sig .tc := ⟨.vmem, 34, rfl⟩
abbrev cc1_stg12_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg3_0 : Ref sig .tc := ⟨.vmem, 41, rfl⟩
abbrev cc2_stg4_0 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg8_0 : Ref sig .tc := ⟨.vmem, 46, rfl⟩
abbrev cc2_stg9_0 : Ref sig .tc := ⟨.vmem, 47, rfl⟩
abbrev cc2_stg10_0 : Ref sig .tc := ⟨.vmem, 48, rfl⟩
abbrev cc2_stg11_0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem12_0 : DmaSem sig := 34
abbrev cc1_sem12_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem3_0 : DmaSem sig := 41
abbrev cc2_sem4_0 : DmaSem sig := 42
abbrev cc2_sem5_0 : DmaSem sig := 43
abbrev cc2_sem6_0 : DmaSem sig := 44
abbrev cc2_sem7_0 : DmaSem sig := 45
abbrev cc2_sem8_0 : DmaSem sig := 46
abbrev cc2_sem9_0 : DmaSem sig := 47
abbrev cc2_sem10_0 : DmaSem sig := 48
abbrev cc2_sem11_0 : DmaSem sig := 49

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x384 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x384 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x384 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x384 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2048x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S65536x128 : S_.BroadcastsInDim S65536x128 (![] : Fin 0 → Fin S65536x128.rank)
  bcast_S655360_S655360x1_0 : S655360.BroadcastsInDim S655360x1 (![0] : Fin 1 → Fin S655360x1.rank)
  bcast_S_S655360 : S_.BroadcastsInDim S655360 (![] : Fin 0 → Fin S655360.rank)
  bcast_S65536x1_S65536x256_0_1 : S65536x1.BroadcastsInDim S65536x256 (![0, 1] : Fin 2 → Fin S65536x256.rank)
  slices_S2x256x128_S1x256x128_0_0_0 : S2x256x128.Slices ![0, 0, 0] S1x256x128
  shapeCasts_S1x256x128_S256x128 : S1x256x128.ShapeCasts S256x128
  transposes_S256x128_S128x256_1_0 : S256x128.Transposes [1, 0] S128x256
  slices_S2x384x256_S1x384x256_0_0_0 : S2x384x256.Slices ![0, 0, 0] S1x384x256
  shapeCasts_S1x384x256_S384x256 : S1x384x256.ShapeCasts S384x256
  transposes_S384x256_S256x384_1_0 : S384x256.Transposes [1, 0] S256x384
  slices_S2x384x128_S1x384x128_0_0_0 : S2x384x128.Slices ![0, 0, 0] S1x384x128
  shapeCasts_S1x384x128_S384x128 : S1x384x128.ShapeCasts S384x128
  transposes_S384x128_S128x384_1_0 : S384x128.Transposes [1, 0] S128x384
  slices_S2x256_S1x256_0_0 : S2x256.Slices ![0, 0] S1x256
  shapeCasts_S1x256_S256 : S1x256.ShapeCasts S256
  shapeCasts_S256_S1x256 : S256.ShapeCasts S1x256
  slices_S2x384_S1x384_0_0 : S2x384.Slices ![0, 0] S1x384
  shapeCasts_S1x384_S384 : S1x384.ShapeCasts S384
  shapeCasts_S384_S1x384 : S384.ShapeCasts S1x384
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  bcast_S65536x1_S65536x128_0_1 : S65536x1.BroadcastsInDim S65536x128 (![0, 1] : Fin 2 → Fin S65536x128.rank)
  slices_S2x256x128_S1x256x128_1_0_0 : S2x256x128.Slices ![1, 0, 0] S1x256x128
  slices_S2x384x256_S1x384x256_1_0_0 : S2x384x256.Slices ![1, 0, 0] S1x384x256
  slices_S2x384x128_S1x384x128_1_0_0 : S2x384x128.Slices ![1, 0, 0] S1x384x128
  slices_S2x256_S1x256_1_0 : S2x256.Slices ![1, 0] S1x256
  slices_S2x384_S1x384_1_0 : S2x384.Slices ![1, 0] S1x384
  bcast_S1x128_S65536x128_0_1 : S1x128.BroadcastsInDim S65536x128 (![0, 1] : Fin 2 → Fin S65536x128.rank)
  transposes_S2048x128_p1_0_S128x2048 : S2048x128.Transposes [1, 0] S128x2048
  transposes_S33x256_S256x33_1_0 : S33x256.Transposes [1, 0] S256x33
  bcast_S33_S1x33_1 : S33.BroadcastsInDim S1x33 (![1] : Fin 1 → Fin S1x33.rank)
  bcast_S1x33_S128x33_0_1 : S1x33.BroadcastsInDim S128x33 (![0, 1] : Fin 2 → Fin S128x33.rank)
  bcast_S_S128 : S_.BroadcastsInDim S128 (![] : Fin 0 → Fin S128.rank)
  reducesTo_S128x33_S128_d1 : S128x33.ReducesTo [1] S128
  h_S_ : 0 < S_.numel
  bcast_S128_S128x1_0 : S128.BroadcastsInDim S128x1 (![0] : Fin 1 → Fin S128x1.rank)
  bcast_S128x1_S128x33_0_1 : S128x1.BroadcastsInDim S128x33 (![0, 1] : Fin 2 → Fin S128x33.rank)
  bcast_S_S128x1 : S_.BroadcastsInDim S128x1 (![] : Fin 0 → Fin S128x1.rank)
  shapeCasts_S128x1_S128x1x1 : S128x1.ShapeCasts S128x1x1
  bcast_S_S128x1x1 : S_.BroadcastsInDim S128x1x1 (![] : Fin 0 → Fin S128x1x1.rank)
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  reducesTo_S128x1x1_S128x1_d2 : S128x1x1.ReducesTo [2] S128x1
  shapeCasts_S128x1_S128 : S128x1.ShapeCasts S128
  reducesTo_S128_S_d0 : S128.ReducesTo [0] S_
  transposes_S128x128_S128x128_1_0 : S128x128.Transposes [1, 0] S128x128
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  transposes_S128x256_S256x128_1_0 : S128x256.Transposes [1, 0] S256x128
  concatenates_S65536x128_S128x128_S65664x128_d0 : Shape.Concatenates [S65536x128, S128x128] S65664x128 0
  scatter_S65536x128_S655360x1_S655360x128_1_0_0_1_wf : ScatterDims.WF S65536x128 S655360x1 S655360x128 [1] [0] [0] 1
  scatter_S65536_S655360x1_S655360_n_0_0_1_wf : ScatterDims.WF S65536 S655360x1 S655360 [] [0] [0] 1
  gather_S65536x128_S655360x1_S655360x128_1_0_n_n_0_1_1128_wf : GatherDims.WF S65536x128 S655360x1 S655360x128 [1] [0] [] [0] [] 1 ![1, 128]
  dot_S2048x128_S128x256_S2048x256_1_0_0_1_n_n_wf : DotDims.WF S2048x128 S128x256 S2048x256 [1] [0] [0] [1] [] []
  dot_S2048x256_S256x384_S2048x384_1_0_0_1_n_n_wf : DotDims.WF S2048x256 S256x384 S2048x384 [1] [0] [0] [1] [] []
  dot_S2048x128_S128x384_S2048x384_1_0_0_1_n_n_wf : DotDims.WF S2048x128 S128x384 S2048x384 [1] [0] [0] [1] [] []
  dot_S128x2048_S2048x256_S128x256_1_0_0_1_n_n_wf : DotDims.WF S128x2048 S2048x256 S128x256 [1] [0] [0] [1] [] []
  dot_S128x256_S256x33_S128x33_1_0_0_1_n_n_wf : DotDims.WF S128x256 S256x33 S128x33 [1] [0] [0] [1] [] []
  gather_S128x33_S128x1x1_S128x1_n_1_0_0_1_2_11_wf : GatherDims.WF S128x33 S128x1x1 S128x1 [] [1] [0] [1] [0] 2 ![1, 1]
  gather_S32x128_S128x1_S128x128_1_0_n_n_0_1_1128_wf : GatherDims.WF S32x128 S128x1 S128x128 [1] [0] [] [0] [] 1 ![1, 128]
  dot_S128x128_S128x128_S128x128_1_0_0_1_n_n_wf : DotDims.WF S128x128 S128x128 S128x128 [1] [0] [0] [1] [] []
  dot_S128x256_S256x128_S128x128_1_0_0_1_n_n_wf : DotDims.WF S128x256 S256x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .f32 = 32 ∨ (Rect.block (s := S65536x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S65536x256.size a
  hwx0_3 : ∀ i : grid0.Coords, EltTy.bits .f32 = 32 ∨ (Rect.block (s := S65536x256) S2048x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x384.size a ≤ S256x384.size a
  hwx0_8 : ∀ i : grid0.Coords, EltTy.bits .f32 = 32 ∨ (Rect.block (s := S256x384) S256x384.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x384.size a ≤ S128x384.size a
  hwx0_9 : ∀ i : grid0.Coords, EltTy.bits .f32 = 32 ∨ (Rect.block (s := S128x384) S128x384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x384.size a ≤ S1x384.size a
  hwx0_10 : ∀ i : grid0.Coords, EltTy.bits .f32 = 32 ∨ (Rect.block (s := S1x384) S1x384.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x384.size a ≤ S1x384.size a
  hwx0_11 : ∀ i : grid0.Coords, EltTy.bits .f32 = 32 ∨ (Rect.block (s := S1x384) S1x384.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x128.size a ≤ S65536x128.size a
  hwx0_12 : ∀ i : grid0.Coords, EltTy.bits .f32 = 32 ∨ (Rect.block (s := S65536x128) S2048x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S65536x128.size a
  hwx1_0 : ∀ i : grid1.Coords, EltTy.bits .f32 = 32 ∨ (Rect.block (s := S65536x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S65536x128.size a
  hwx1_1 : ∀ i : grid1.Coords, EltTy.bits .f32 = 32 ∨ (Rect.block (s := S65536x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S65536x128.size a
  hwx1_2 : ∀ i : grid1.Coords, EltTy.bits .f32 = 32 ∨ (Rect.block (s := S65536x128) S2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S65536x256.size a
  hwx1_3 : ∀ i : grid1.Coords, EltTy.bits .f32 = 32 ∨ (Rect.block (s := S65536x256) S2048x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .f32 = 32 ∨ (Rect.block (s := S128x256) S128x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x384.size a ≤ S256x384.size a
  hwx1_8 : ∀ i : grid1.Coords, EltTy.bits .f32 = 32 ∨ (Rect.block (s := S256x384) S256x384.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x384.size a ≤ S128x384.size a
  hwx1_9 : ∀ i : grid1.Coords, EltTy.bits .f32 = 32 ∨ (Rect.block (s := S128x384) S128x384.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x384.size a ≤ S1x384.size a
  hwx1_10 : ∀ i : grid1.Coords, EltTy.bits .f32 = 32 ∨ (Rect.block (s := S1x384) S1x384.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x384.size a ≤ S1x384.size a
  hwx1_11 : ∀ i : grid1.Coords, EltTy.bits .f32 = 32 ∨ (Rect.block (s := S1x384) S1x384.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2048x128.size a ≤ S65536x128.size a
  hwx1_12 : ∀ i : grid1.Coords, EltTy.bits .f32 = 32 ∨ (Rect.block (s := S65536x128) S2048x128.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S65536x128.size a
  hwx2_0 : ∀ i : grid2.Coords, EltTy.bits .f32 = 32 ∨ (Rect.block (s := S65536x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S65536x128.size a
  hwx2_1 : ∀ i : grid2.Coords, EltTy.bits .f32 = 32 ∨ (Rect.block (s := S65536x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .f32 = 32 ∨ (Rect.block (s := S128x256) S128x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x256.size a ≤ S128x256.size a
  hwx2_6 : ∀ i : grid2.Coords, EltTy.bits .f32 = 32 ∨ (Rect.block (s := S128x256) S128x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x256.size a ≤ S128x256.size a
  hwx2_8 : ∀ i : grid2.Coords, EltTy.bits .f32 = 32 ∨ (Rect.block (s := S128x256) S128x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x256.size a ≤ S128x256.size a
  hwx2_10 : ∀ i : grid2.Coords, EltTy.bits .f32 = 32 ∨ (Rect.block (s := S128x256) S128x256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x256.size a ≤ S128x256.size a
  hwx2_11 : ∀ i : grid2.Coords, EltTy.bits .f32 = 32 ∨ (Rect.block (s := S128x256) S128x256.size (cc2_transform_11 i) (hinb2_11 i)).WholeWords (EltTy.packing .f32)

variable [Facts₀]

def scatter_S65536x128_S655360x1_S655360x128_1_0_0_1 : ScatterDims S65536x128 S655360x1 S655360x128 where
  updateWindowDims := [1]
  insertedWindowDims := [0]
  scatterDimsToOperandDims := [0]
  indexVectorDim := 1
  wf := scatter_S65536x128_S655360x1_S655360x128_1_0_0_1_wf
def scatter_S65536_S655360x1_S655360_n_0_0_1 : ScatterDims S65536 S655360x1 S655360 where
  updateWindowDims := []
  insertedWindowDims := [0]
  scatterDimsToOperandDims := [0]
  indexVectorDim := 1
  wf := scatter_S65536_S655360x1_S655360_n_0_0_1_wf
def gather_S65536x128_S655360x1_S655360x128_1_0_n_n_0_1_1128 : GatherDims S65536x128 S655360x1 S655360x128 where
  offsetDims := [1]
  collapsedSliceDims := [0]
  operandBatchingDims := []
  startIndicesBatchingDims := []
  startIndexMap := [0]
  indexVectorDim := 1
  sliceSizes := ![1, 128]
  wf := gather_S65536x128_S655360x1_S655360x128_1_0_n_n_0_1_1128_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x384_S2048x384_1_0_0_1_n_n : DotDims S2048x256 S256x384 S2048x384 where
  lhsContracting := [1]
  rhsContracting := [0]
  lhsNonContracting := [0]
  rhsNonContracting := [1]
  lhsBatch := []
  rhsBatch := []
  wf := dot_S2048x256_S256x384_S2048x384_1_0_0_1_n_n_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf
def dot_S128x2048_S2048x256_S128x256_1_0_0_1_n_n : DotDims S128x2048 S2048x256 S128x256 where
  lhsContracting := [1]
  rhsContracting := [0]
  lhsNonContracting := [0]
  rhsNonContracting := [1]
  lhsBatch := []
  rhsBatch := []
  wf := dot_S128x2048_S2048x256_S128x256_1_0_0_1_n_n_wf
def dot_S128x256_S256x33_S128x33_1_0_0_1_n_n : DotDims S128x256 S256x33 S128x33 where
  lhsContracting := [1]
  rhsContracting := [0]
  lhsNonContracting := [0]
  rhsNonContracting := [1]
  lhsBatch := []
  rhsBatch := []
  wf := dot_S128x256_S256x33_S128x33_1_0_0_1_n_n_wf
def gather_S128x33_S128x1x1_S128x1_n_1_0_0_1_2_11 : GatherDims S128x33 S128x1x1 S128x1 where
  offsetDims := []
  collapsedSliceDims := [1]
  operandBatchingDims := [0]
  startIndicesBatchingDims := [0]
  startIndexMap := [1]
  indexVectorDim := 2
  sliceSizes := ![1, 1]
  wf := gather_S128x33_S128x1x1_S128x1_n_1_0_0_1_2_11_wf
def gather_S32x128_S128x1_S128x128_1_0_n_n_0_1_1128 : GatherDims S32x128 S128x1 S128x128 where
  offsetDims := [1]
  collapsedSliceDims := [0]
  operandBatchingDims := []
  startIndicesBatchingDims := []
  startIndexMap := [0]
  indexVectorDim := 1
  sliceSizes := ![1, 128]
  wf := gather_S32x128_S128x1_S128x128_1_0_n_n_0_1_1128_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

abbrev win0_0 : Pipeline.Window sig grid0 :=
  Pipeline.Window.ofSpec (Memref.whole main_v48) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S256x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S128x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v35) S1x384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v38) S1x384.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v49) S2048x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v84) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2048x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v53) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v68) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v62) S256x384.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v65) S128x384.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v71) S1x384.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v74) S1x384.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v85) S2048x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v86) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v88) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v89) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v90) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v91) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v92) S128x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v93) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v94) S128x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v95) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v96_0) S128x256.size cc2_transform_10 reads2_10 true true 1 stage2_10 sem2_10
    hrank2 hreads2_10 hinb2_10 nbuf2_10 (Memref.isWhole_whole _) hwx2_10 hstage2_10

abbrev win2_11 : Pipeline.Window sig grid2 :=
  Pipeline.Window.ofSpec (Memref.whole main_v96_1) S128x256.size cc2_transform_11 reads2_11 true true 1 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S65536x128 : Shape := ⟨2, ![65536, 128]⟩
abbrev S655360x128 : Shape := ⟨2, ![655360, 128]⟩
abbrev S2x256x128 : Shape := ⟨3, ![2, 256, 128]⟩
abbrev S2x256 : Shape := ⟨2, ![2, 256]⟩
abbrev S2x384x256 : Shape := ⟨3, ![2, 384, 256]⟩
abbrev S2x384x128 : Shape := ⟨3, ![2, 384, 128]⟩
abbrev S2x384 : Shape := ⟨2, ![2, 384]⟩
abbrev S256x128 : Shape := ⟨2, ![256, 128]⟩
abbrev S256 : Shape := ⟨1, ![256]⟩
abbrev S33x256 : Shape := ⟨2, ![33, 256]⟩
abbrev S33 : Shape := ⟨1, ![33]⟩
abbrev S32x128 : Shape := ⟨2, ![32, 128]⟩
abbrev S128x128 : Shape := ⟨2, ![128, 128]⟩
abbrev S128 : Shape := ⟨1, ![128]⟩
abbrev S128x256 : Shape := ⟨2, ![128, 256]⟩
abbrev S655360 : Shape := ⟨1, ![655360]⟩
abbrev S65536 : Shape := ⟨1, ![65536]⟩
abbrev S65536x1 : Shape := ⟨2, ![65536, 1]⟩
abbrev S1x128 : Shape := ⟨2, ![1, 128]⟩
abbrev S128x65536 : Shape := ⟨2, ![128, 65536]⟩
abbrev S_ : Shape := ⟨0, ![]⟩
abbrev S1x256x128 : Shape := ⟨3, ![1, 256, 128]⟩
abbrev S65536x256 : Shape := ⟨2, ![65536, 256]⟩
abbrev S1x256 : Shape := ⟨2, ![1, 256]⟩
abbrev S655360x256 : Shape := ⟨2, ![655360, 256]⟩
abbrev S655360x1 : Shape := ⟨2, ![655360, 1]⟩
abbrev S1x384x256 : Shape := ⟨3, ![1, 384, 256]⟩
abbrev S384x256 : Shape := ⟨2, ![384, 256]⟩
abbrev S256x384 : Shape := ⟨2, ![256, 384]⟩
abbrev S65536x384 : Shape := ⟨2, ![65536, 384]⟩
abbrev S1x384 : Shape := ⟨2, ![1, 384]⟩
abbrev S384 : Shape := ⟨1, ![384]⟩
abbrev S1x384x128 : Shape := ⟨3, ![1, 384, 128]⟩
abbrev S384x128 : Shape := ⟨2, ![384, 128]⟩
abbrev S128x384 : Shape := ⟨2, ![128, 384]⟩
abbrev S256x33 : Shape := ⟨2, ![256, 33]⟩
abbrev S128x33 : Shape := ⟨2, ![128, 33]⟩
abbrev S1x33 : Shape := ⟨2, ![1, 33]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩
abbrev S65664x128 : Shape := ⟨2, ![65664, 128]⟩

abbrev nBuf : Space → Nat
  | .hbm => 342
  | .vmem => 0
  | .smem => 0
  | _ => 0

abbrev hbmTy0_0 (i : Nat) : BufTy := match i % 128 with
  | 0 => ⟨S65536x128, .f32⟩
  | 1 => ⟨S655360x128, .f32⟩
  | 2 => ⟨S2x256x128, .f32⟩
  | 3 => ⟨S2x256x128, .f32⟩
  | 4 => ⟨S2x256, .f32⟩
  | 5 => ⟨S2x256x128, .f32⟩
  | 6 => ⟨S2x384x256, .f32⟩
  | 7 => ⟨S2x384x128, .f32⟩
  | 8 => ⟨S2x384, .f32⟩
  | 9 => ⟨S2x384, .f32⟩
  | 10 => ⟨S256x128, .f32⟩
  | 11 => ⟨S256, .f32⟩
  | 12 => ⟨S256x128, .f32⟩
  | 13 => ⟨S256, .f32⟩
  | 14 => ⟨S256x128, .f32⟩
  | 15 => ⟨S256, .f32⟩
  | 16 => ⟨S256x128, .f32⟩
  | 17 => ⟨S256, .f32⟩
  | 18 => ⟨S33x256, .f32⟩
  | 19 => ⟨S33, .f32⟩
  | 20 => ⟨S32x128, .f32⟩
  | 21 => ⟨S128x128, .f32⟩
  | 22 => ⟨S128, .f32⟩
  | 23 => ⟨S128x256, .f32⟩
  | 24 => ⟨S655360, .i32⟩
  | 25 => ⟨S655360, .i32⟩
  | 26 => ⟨S128, .i32⟩
  | 27 => ⟨S65536, .i32⟩
  | 28 => ⟨S65536x1, .i32⟩
  | 29 => ⟨S1x128, .i32⟩
  | 30 => ⟨S65536x128, .i32⟩
  | 31 => ⟨S65536x128, .i32⟩
  | 32 => ⟨S65536x128, .i1⟩
  | 33 => ⟨S65536x128, .f32⟩
  | 34 => ⟨S128x65536, .f32⟩
  | 35 => ⟨S_, .f32⟩
  | 36 => ⟨S65536, .f32⟩
  | 37 => ⟨S_, .f32⟩
  | 38 => ⟨S65536, .f32⟩
  | 39 => ⟨S65536, .i1⟩
  | 40 => ⟨S65536x1, .i1⟩
  | 41 => ⟨S1x256x128, .f32⟩
  | 42 => ⟨S256x128, .f32⟩
  | 43 => ⟨S128x256, .f32⟩
  | 44 => ⟨S65536x256, .f32⟩
  | 45 => ⟨S1x256x128, .f32⟩
  | 46 => ⟨S256x128, .f32⟩
  | 47 => ⟨S128x256, .f32⟩
  | 48 => ⟨S65536x256, .f32⟩
  | 49 => ⟨S1x256, .f32⟩
  | 50 => ⟨S256, .f32⟩
  | 51 => ⟨S1x256, .f32⟩
  | 52 => ⟨S65536x256, .f32⟩
  | 53 => ⟨S65536x256, .f32⟩
  | 54 => ⟨S1x256x128, .f32⟩
  | 55 => ⟨S256x128, .f32⟩
  | 56 => ⟨S128x256, .f32⟩
  | 57 => ⟨S655360x256, .f32⟩
  | 58 => ⟨S_, .i32⟩
  | 59 => ⟨S655360, .i32⟩
  | 60 => ⟨S655360, .i1⟩
  | 61 => ⟨S_, .i32⟩
  | 62 => ⟨S655360, .i32⟩
  | 63 => ⟨S655360, .i32⟩
  | 64 => ⟨S655360, .i32⟩
  | 65 => ⟨S655360x1, .i32⟩
  | 66 => ⟨S655360x256, .f32⟩
  | 67 => ⟨S_, .i32⟩
  | 68 => ⟨S655360, .i32⟩
  | 69 => ⟨S655360, .i1⟩
  | 70 => ⟨S_, .i32⟩
  | 71 => ⟨S655360, .i32⟩
  | 72 => ⟨S655360, .i32⟩
  | 73 => ⟨S655360, .i32⟩
  | 74 => ⟨S655360x1, .i32⟩
  | 75 => ⟨S655360x256, .f32⟩
  | 76 => ⟨S655360x256, .f32⟩
  | 77 => ⟨S655360x256, .f32⟩
  | 78 => ⟨S_, .f32⟩
  | 79 => ⟨S65536x256, .f32⟩
  | 80 => ⟨S655360x1, .i32⟩
  | 81 => ⟨S65536x256, .f32⟩
  | 82 => ⟨S1x384x256, .f32⟩
  | 83 => ⟨S384x256, .f32⟩
  | 84 => ⟨S256x384, .f32⟩
  | 85 => ⟨S65536x384, .f32⟩
  | 86 => ⟨S1x384, .f32⟩
  | 87 => ⟨S384, .f32⟩
  | 88 => ⟨S1x384, .f32⟩
  | 89 => ⟨S65536x384, .f32⟩
  | 90 => ⟨S65536x384, .f32⟩
  | 91 => ⟨S1x384x128, .f32⟩
  | 92 => ⟨S384x128, .f32⟩
  | 93 => ⟨S128x384, .f32⟩
  | 94 => ⟨S65536x384, .f32⟩
  | 95 => ⟨S1x384, .f32⟩
  | 96 => ⟨S384, .f32⟩
  | 97 => ⟨S1x384, .f32⟩
  | 98 => ⟨S65536x384, .f32⟩
  | 99 => ⟨S65536x384, .f32⟩
  | 100 => ⟨S65536x128, .f32⟩
  | 101 => ⟨S65536x128, .f32⟩
  | 102 => ⟨S65536x128, .f32⟩
  | 103 => ⟨S65536x128, .f32⟩
  | 104 => ⟨S65536x128, .f32⟩
  | 105 => ⟨S65536x128, .f32⟩
  | 106 => ⟨S65536x128, .f32⟩
  | 107 => ⟨S65536x128, .f32⟩
  | 108 => ⟨S65536x128, .f32⟩
  | 109 => ⟨S_, .f32⟩
  | 110 => ⟨S65536x128, .f32⟩
  | 111 => ⟨S65536x128, .f32⟩
  | 112 => ⟨S_, .f32⟩
  | 113 => ⟨S65536x128, .f32⟩
  | 114 => ⟨S65536x128, .f32⟩
  | 115 => ⟨S65536x128, .f32⟩
  | 116 => ⟨S65536x128, .f32⟩
  | 117 => ⟨S65536x128, .f32⟩
  | 118 => ⟨S_, .f32⟩
  | 119 => ⟨S65536x128, .f32⟩
  | 120 => ⟨S65536x128, .f32⟩
  | 121 => ⟨S_, .f32⟩
  | 122 => ⟨S65536x128, .f32⟩
  | 123 => ⟨S65536x128, .f32⟩
  | 124 => ⟨S65536x128, .f32⟩
  | 125 => ⟨S65536x128, .f32⟩
  | 126 => ⟨S65536x128, .f32⟩
  | 127 => ⟨S_, .f32⟩
  | _ => ⟨S65536x128, .f32⟩

abbrev hbmTy0_1 (i : Nat) : BufTy := match i % 128 with
  | 0 => ⟨S65536x128, .f32⟩
  | 1 => ⟨S65536x128, .f32⟩
  | 2 => ⟨S65536x128, .f32⟩
  | 3 => ⟨S65536x128, .f32⟩
  | 4 => ⟨S65536x128, .f32⟩
  | 5 => ⟨S65536x128, .i1⟩
  | 6 => ⟨S65536x128, .f32⟩
  | 7 => ⟨S1x256x128, .f32⟩
  | 8 => ⟨S256x128, .f32⟩
  | 9 => ⟨S128x256, .f32⟩
  | 10 => ⟨S65536x256, .f32⟩
  | 11 => ⟨S1x256x128, .f32⟩
  | 12 => ⟨S256x128, .f32⟩
  | 13 => ⟨S128x256, .f32⟩
  | 14 => ⟨S65536x256, .f32⟩
  | 15 => ⟨S1x256, .f32⟩
  | 16 => ⟨S256, .f32⟩
  | 17 => ⟨S1x256, .f32⟩
  | 18 => ⟨S65536x256, .f32⟩
  | 19 => ⟨S65536x256, .f32⟩
  | 20 => ⟨S1x256x128, .f32⟩
  | 21 => ⟨S256x128, .f32⟩
  | 22 => ⟨S128x256, .f32⟩
  | 23 => ⟨S655360x256, .f32⟩
  | 24 => ⟨S_, .i32⟩
  | 25 => ⟨S655360, .i32⟩
  | 26 => ⟨S655360, .i1⟩
  | 27 => ⟨S_, .i32⟩
  | 28 => ⟨S655360, .i32⟩
  | 29 => ⟨S655360, .i32⟩
  | 30 => ⟨S655360, .i32⟩
  | 31 => ⟨S655360x1, .i32⟩
  | 32 => ⟨S655360x256, .f32⟩
  | 33 => ⟨S_, .i32⟩
  | 34 => ⟨S655360, .i32⟩
  | 35 => ⟨S655360, .i1⟩
  | 36 => ⟨S_, .i32⟩
  | 37 => ⟨S655360, .i32⟩
  | 38 => ⟨S655360, .i32⟩
  | 39 => ⟨S655360, .i32⟩
  | 40 => ⟨S655360x1, .i32⟩
  | 41 => ⟨S655360x256, .f32⟩
  | 42 => ⟨S655360x256, .f32⟩
  | 43 => ⟨S655360x256, .f32⟩
  | 44 => ⟨S_, .f32⟩
  | 45 => ⟨S65536x256, .f32⟩
  | 46 => ⟨S655360x1, .i32⟩
  | 47 => ⟨S65536x256, .f32⟩
  | 48 => ⟨S1x384x256, .f32⟩
  | 49 => ⟨S384x256, .f32⟩
  | 50 => ⟨S256x384, .f32⟩
  | 51 => ⟨S65536x384, .f32⟩
  | 52 => ⟨S1x384, .f32⟩
  | 53 => ⟨S384, .f32⟩
  | 54 => ⟨S1x384, .f32⟩
  | 55 => ⟨S65536x384, .f32⟩
  | 56 => ⟨S65536x384, .f32⟩
  | 57 => ⟨S1x384x128, .f32⟩
  | 58 => ⟨S384x128, .f32⟩
  | 59 => ⟨S128x384, .f32⟩
  | 60 => ⟨S65536x384, .f32⟩
  | 61 => ⟨S1x384, .f32⟩
  | 62 => ⟨S384, .f32⟩
  | 63 => ⟨S1x384, .f32⟩
  | 64 => ⟨S65536x384, .f32⟩
  | 65 => ⟨S65536x384, .f32⟩
  | 66 => ⟨S65536x128, .f32⟩
  | 67 => ⟨S65536x128, .f32⟩
  | 68 => ⟨S65536x128, .f32⟩
  | 69 => ⟨S65536x128, .f32⟩
  | 70 => ⟨S65536x128, .f32⟩
  | 71 => ⟨S65536x128, .f32⟩
  | 72 => ⟨S65536x128, .f32⟩
  | 73 => ⟨S65536x128, .f32⟩
  | 74 => ⟨S65536x128, .f32⟩
  | 75 => ⟨S_, .f32⟩
  | 76 => ⟨S65536x128, .f32⟩
  | 77 => ⟨S65536x128, .f32⟩
  | 78 => ⟨S_, .f32⟩
  | 79 => ⟨S65536x128, .f32⟩
  | 80 => ⟨S65536x128, .f32⟩
  | 81 => ⟨S65536x128, .f32⟩
  | 82 => ⟨S65536x128, .f32⟩
  | 83 => ⟨S65536x128, .f32⟩
  | 84 => ⟨S_, .f32⟩
  | 85 => ⟨S65536x128, .f32⟩
  | 86 => ⟨S65536x128, .f32⟩
  | 87 => ⟨S_, .f32⟩
  | 88 => ⟨S65536x128, .f32⟩
  | 89 => ⟨S65536x128, .f32⟩
  | 90 => ⟨S65536x128, .f32⟩
  | 91 => ⟨S65536x128, .f32⟩
  | 92 => ⟨S65536x128, .f32⟩
  | 93 => ⟨S_, .f32⟩
  | 94 => ⟨S65536x128, .f32⟩
  | 95 => ⟨S65536x128, .f32⟩
  | 96 => ⟨S65536x128, .f32⟩
  | 97 => ⟨S65536x128, .f32⟩
  | 98 => ⟨S65536x128, .f32⟩
  | 99 => ⟨S65536x128, .i1⟩
  | 100 => ⟨S65536x128, .f32⟩
  | 101 => ⟨S128x256, .f32⟩
  | 102 => ⟨S65536x256, .f32⟩
  | 103 => ⟨S1x256, .f32⟩
  | 104 => ⟨S65536x256, .f32⟩
  | 105 => ⟨S65536x256, .f32⟩
  | 106 => ⟨S65536x256, .f32⟩
  | 107 => ⟨S65536x256, .f32⟩
  | 108 => ⟨S_, .f32⟩
  | 109 => ⟨S65536x256, .f32⟩
  | 110 => ⟨S65536x256, .f32⟩
  | 111 => ⟨S_, .f32⟩
  | 112 => ⟨S65536x256, .f32⟩
  | 113 => ⟨S65536x256, .f32⟩
  | 114 => ⟨S128x256, .f32⟩
  | 115 => ⟨S65536x256, .f32⟩
  | 116 => ⟨S1x256, .f32⟩
  | 117 => ⟨S65536x256, .f32⟩
  | 118 => ⟨S65536x256, .f32⟩
  | 119 => ⟨S65536x256, .f32⟩
  | 120 => ⟨S128x256, .f32⟩
  | 121 => ⟨S256x33, .f32⟩
  | 122 => ⟨S128x33, .f32⟩
  | 123 => ⟨S1x33, .f32⟩
  | 124 => ⟨S128x33, .f32⟩
  | 125 => ⟨S128x33, .f32⟩
  | 126 => ⟨S_, .i32⟩
  | 127 => ⟨S128, .i32⟩
  | _ => ⟨S65536x128, .f32⟩

abbrev hbmTy0_2 (i : Nat) : BufTy := match i % 128 with
  | 0 => ⟨S128, .i32⟩
  | 1 => ⟨S_, .f32⟩
  | 2 => ⟨S128, .f32⟩
  | 3 => ⟨S_, .f32⟩
  | 4 => ⟨S128, .f32⟩
  | 5 => ⟨S128, .f32⟩
  | 6 => ⟨S128x1, .f32⟩
  | 7 => ⟨S128x33, .f32⟩
  | 8 => ⟨S128x33, .f32⟩
  | 9 => ⟨S128x33, .f32⟩
  | 10 => ⟨S_, .f32⟩
  | 11 => ⟨S128, .f32⟩
  | 12 => ⟨S128x1, .f32⟩
  | 13 => ⟨S128x1, .f32⟩
  | 14 => ⟨S128x33, .f32⟩
  | 15 => ⟨S128x33, .f32⟩
  | 16 => ⟨S128x1, .i32⟩
  | 17 => ⟨S_, .i32⟩
  | 18 => ⟨S128x1, .i32⟩
  | 19 => ⟨S128x1, .i1⟩
  | 20 => ⟨S_, .i32⟩
  | 21 => ⟨S128x1, .i32⟩
  | 22 => ⟨S128x1, .i32⟩
  | 23 => ⟨S128x1, .i32⟩
  | 24 => ⟨S128x1x1, .i32⟩
  | 25 => ⟨S1, .i32⟩
  | 26 => ⟨S_, .i32⟩
  | 27 => ⟨S128x1x1, .i32⟩
  | 28 => ⟨S128x1x1, .i1⟩
  | 29 => ⟨S1x1x1, .i32⟩
  | 30 => ⟨S128x1x1, .i32⟩
  | 31 => ⟨S128x1x1, .i1⟩
  | 32 => ⟨S128x1x1, .i1⟩
  | 33 => ⟨S_, .i1⟩
  | 34 => ⟨S128x1, .i1⟩
  | 35 => ⟨S128x1, .f32⟩
  | 36 => ⟨S_, .f32⟩
  | 37 => ⟨S128x1, .f32⟩
  | 38 => ⟨S128x1, .f32⟩
  | 39 => ⟨S128, .f32⟩
  | 40 => ⟨S_, .f32⟩
  | 41 => ⟨S_, .f32⟩
  | 42 => ⟨S_, .f32⟩
  | 43 => ⟨S_, .f32⟩
  | 44 => ⟨S_, .f32⟩
  | 45 => ⟨S_, .i32⟩
  | 46 => ⟨S128, .i32⟩
  | 47 => ⟨S128, .i32⟩
  | 48 => ⟨S_, .i32⟩
  | 49 => ⟨S128, .i32⟩
  | 50 => ⟨S128, .i1⟩
  | 51 => ⟨S_, .i32⟩
  | 52 => ⟨S128, .i32⟩
  | 53 => ⟨S128, .i32⟩
  | 54 => ⟨S128, .i32⟩
  | 55 => ⟨S128x1, .i32⟩
  | 56 => ⟨S128x128, .f32⟩
  | 57 => ⟨S128x256, .f32⟩
  | 58 => ⟨S65536x256, .f32⟩
  | 59 => ⟨S1x256, .f32⟩
  | 60 => ⟨S65536x256, .f32⟩
  | 61 => ⟨S65536x256, .f32⟩
  | 62 => ⟨S65536x256, .f32⟩
  | 63 => ⟨S65536x256, .f32⟩
  | 64 => ⟨S_, .f32⟩
  | 65 => ⟨S65536x256, .f32⟩
  | 66 => ⟨S65536x256, .f32⟩
  | 67 => ⟨S_, .f32⟩
  | 68 => ⟨S65536x256, .f32⟩
  | 69 => ⟨S65536x256, .f32⟩
  | 70 => ⟨S128x256, .f32⟩
  | 71 => ⟨S65536x256, .f32⟩
  | 72 => ⟨S1x256, .f32⟩
  | 73 => ⟨S65536x256, .f32⟩
  | 74 => ⟨S65536x256, .f32⟩
  | 75 => ⟨S65536x256, .f32⟩
  | 76 => ⟨S128x256, .f32⟩
  | 77 => ⟨S128x128, .f32⟩
  | 78 => ⟨S128x128, .f32⟩
  | 79 => ⟨S1x128, .f32⟩
  | 80 => ⟨S128x128, .f32⟩
  | 81 => ⟨S128x128, .f32⟩
  | 82 => ⟨S256x128, .f32⟩
  | 83 => ⟨S128x128, .f32⟩
  | 84 => ⟨S128x128, .f32⟩
  | 85 => ⟨S65664x128, .f32⟩
  | _ => ⟨S65536x128, .f32⟩

abbrev hbmTy (i : Nat) : BufTy := match i / 128 with
  | 0 => hbmTy0_0 i
  | 1 => hbmTy0_1 i
  | 2 => hbmTy0_2 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v0 : Ref sig .tc := ⟨.hbm, 33, rfl⟩
abbrev main_v1 : Ref sig .tc := ⟨.hbm, 34, rfl⟩
abbrev main_cst : Ref sig .tc := ⟨.hbm, 35, rfl⟩
abbrev main_v2 : Ref sig .tc := ⟨.hbm, 36, rfl⟩
abbrev main_cst_0 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_c : Ref sig .tc := ⟨.hbm, 58, rfl⟩
abbrev main_v23 : Ref sig .tc := ⟨.hbm, 59, rfl⟩
abbrev main_v24 : Ref sig .tc := ⟨.hbm, 60, rfl⟩
abbrev main_c_1 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_c_2 : Ref sig .tc := ⟨.hbm, 67, rfl⟩
abbrev main_v30 : Ref sig .tc := ⟨.hbm, 68, rfl⟩
abbrev main_v31 : Ref sig .tc := ⟨.hbm, 69, rfl⟩
abbrev main_c_3 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_4 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_5 : Ref sig .tc := ⟨.hbm, 109, rfl⟩
abbrev main_v69 : Ref sig .tc := ⟨.hbm, 110, rfl⟩
abbrev main_v70 : Ref sig .tc := ⟨.hbm, 111, rfl⟩
abbrev main_cst_6 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_7 : Ref sig .tc := ⟨.hbm, 118, rfl⟩
abbrev main_v76 : Ref sig .tc := ⟨.hbm, 119, rfl⟩
abbrev main_v77 : Ref sig .tc := ⟨.hbm, 120, rfl⟩
abbrev main_cst_8 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_9 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_call1_v0 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_c_10 : Ref sig .tc := ⟨.hbm, 152, rfl⟩
abbrev main_v106 : Ref sig .tc := ⟨.hbm, 153, rfl⟩
abbrev main_v107 : Ref sig .tc := ⟨.hbm, 154, rfl⟩
abbrev main_c_11 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_c_12 : Ref sig .tc := ⟨.hbm, 161, rfl⟩
abbrev main_v113 : Ref sig .tc := ⟨.hbm, 162, rfl⟩
abbrev main_v114 : Ref sig .tc := ⟨.hbm, 163, rfl⟩
abbrev main_c_13 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_14 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_15 : Ref sig .tc := ⟨.hbm, 203, rfl⟩
abbrev main_v152 : Ref sig .tc := ⟨.hbm, 204, rfl⟩
abbrev main_v153 : Ref sig .tc := ⟨.hbm, 205, rfl⟩
abbrev main_cst_16 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_cst_17 : Ref sig .tc := ⟨.hbm, 212, rfl⟩
abbrev main_v159 : Ref sig .tc := ⟨.hbm, 213, rfl⟩
abbrev main_v160 : Ref sig .tc := ⟨.hbm, 214, rfl⟩
abbrev main_cst_18 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_cst_19 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_call2_v0 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_cst_20 : Ref sig .tc := ⟨.hbm, 236, rfl⟩
abbrev main_v179 : Ref sig .tc := ⟨.hbm, 237, rfl⟩
abbrev main_v180 : Ref sig .tc := ⟨.hbm, 238, rfl⟩
abbrev main_cst_21 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_c_22 : Ref sig .tc := ⟨.hbm, 254, rfl⟩
abbrev main_v195 : Ref sig .tc := ⟨.hbm, 255, rfl⟩
abbrev main_v196 : Ref sig .tc := ⟨.hbm, 256, rfl⟩
abbrev main_call3_cst : Ref sig .tc := ⟨.hbm, 257, rfl⟩
abbrev main_call3_v0 : Ref sig .tc := ⟨.hbm, 258, rfl⟩
abbrev main_call3_cst_0 : Ref sig .tc := ⟨.hbm, 259, rfl⟩
abbrev main_call3_v1 : Ref sig .tc := ⟨.hbm, 260, rfl⟩
abbrev main_call3_v2 : Ref sig .tc := ⟨.hbm, 261, rfl⟩
abbrev main_call3_v3 : Ref sig .tc := ⟨.hbm, 262, rfl⟩
abbrev main_call3_v4 : Ref sig .tc := ⟨.hbm, 263, rfl⟩
abbrev main_call3_v5 : Ref sig .tc := ⟨.hbm, 264, rfl⟩
abbrev main_call3_v6 : Ref sig .tc := ⟨.hbm, 265, rfl⟩
abbrev main_call3_cst_1 : Ref sig .tc := ⟨.hbm, 266, rfl⟩
abbrev main_call3_v7 : Ref sig .tc := ⟨.hbm, 267, rfl⟩
abbrev main_call3_v8 : Ref sig .tc := ⟨.hbm, 268, rfl⟩
abbrev main_call3_v9 : Ref sig .tc := ⟨.hbm, 269, rfl⟩
abbrev main_call3_v10 : Ref sig .tc := ⟨.hbm, 270, rfl⟩
abbrev main_v197 : Ref sig .tc := ⟨.hbm, 271, rfl⟩
abbrev main_v198 : Ref sig .tc := ⟨.hbm, 272, rfl⟩
abbrev main_call4_c : Ref sig .tc := ⟨.hbm, 273, rfl⟩
abbrev main_call4_v0 : Ref sig .tc := ⟨.hbm, 274, rfl⟩
abbrev main_call4_v1 : Ref sig .tc := ⟨.hbm, 275, rfl⟩
abbrev main_call4_c_0 : Ref sig .tc := ⟨.hbm, 276, rfl⟩
abbrev main_call4_v2 : Ref sig .tc := ⟨.hbm, 277, rfl⟩
abbrev main_call4_v3 : Ref sig .tc := ⟨.hbm, 278, rfl⟩
abbrev main_call4_v4 : Ref sig .tc := ⟨.hbm, 279, rfl⟩
abbrev main_call4_v5 : Ref sig .tc := ⟨.hbm, 280, rfl⟩
abbrev main_call4_c_1 : Ref sig .tc := ⟨.hbm, 281, rfl⟩
abbrev main_call4_c_2 : Ref sig .tc := ⟨.hbm, 282, rfl⟩
abbrev main_call4_v6 : Ref sig .tc := ⟨.hbm, 283, rfl⟩
abbrev main_call4_v7 : Ref sig .tc := ⟨.hbm, 284, rfl⟩
abbrev main_call4_v8 : Ref sig .tc := ⟨.hbm, 285, rfl⟩
abbrev main_call4_v9 : Ref sig .tc := ⟨.hbm, 286, rfl⟩
abbrev main_call4_v10 : Ref sig .tc := ⟨.hbm, 287, rfl⟩
abbrev main_call4_v11 : Ref sig .tc := ⟨.hbm, 288, rfl⟩
abbrev main_call4_c_3 : Ref sig .tc := ⟨.hbm, 289, rfl⟩
abbrev main_call4_v12 : Ref sig .tc := ⟨.hbm, 290, rfl⟩
abbrev main_call4_v13 : Ref sig .tc := ⟨.hbm, 291, rfl⟩
abbrev main_call4_cst : Ref sig .tc := ⟨.hbm, 292, rfl⟩
abbrev main_call4_v14 : Ref sig .tc := ⟨.hbm, 293, rfl⟩
abbrev main_v199 : Ref sig .tc := ⟨.hbm, 294, rfl⟩
abbrev main_v200 : Ref sig .tc := ⟨.hbm, 295, rfl⟩
abbrev main_cst_23 : Ref sig .tc := ⟨.hbm, 296, rfl⟩
abbrev main_v201 : Ref sig .tc := ⟨.hbm, 297, rfl⟩
abbrev main_cst_24 : Ref sig .tc := ⟨.hbm, 298, rfl⟩
abbrev main_v202 : Ref sig .tc := ⟨.hbm, 299, rfl⟩
abbrev main_v203 : Ref sig .tc := ⟨.hbm, 300, rfl⟩
abbrev main_c_25 : Ref sig .tc := ⟨.hbm, 301, rfl⟩
abbrev main_v204 : Ref sig .tc := ⟨.hbm, 302, rfl⟩
abbrev main_v205 : Ref sig .tc := ⟨.hbm, 303, rfl⟩
abbrev main_c_26 : Ref sig .tc := ⟨.hbm, 304, rfl⟩
abbrev main_v206 : Ref sig .tc := ⟨.hbm, 305, rfl⟩
abbrev main_v207 : Ref sig .tc := ⟨.hbm, 306, rfl⟩
abbrev main_c_27 : Ref sig .tc := ⟨.hbm, 307, rfl⟩
abbrev main_v208 : Ref sig .tc := ⟨.hbm, 308, rfl⟩
abbrev main_v209 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_cst_28 : Ref sig .tc := ⟨.hbm, 320, rfl⟩
abbrev main_v220 : Ref sig .tc := ⟨.hbm, 321, rfl⟩
abbrev main_v221 : Ref sig .tc := ⟨.hbm, 322, rfl⟩
abbrev main_cst_29 : Ref sig .tc := ⟨.hbm, 323, rfl⟩
abbrev main_v222 : Ref sig .tc := ⟨.hbm, 324, rfl⟩
abbrev main_v223 : Ref sig .tc := ⟨.hbm, 325, rfl⟩
abbrev main_v224 : Ref sig .tc := ⟨.hbm, 326, rfl⟩
abbrev main_v225 : Ref sig .tc := ⟨.hbm, 327, rfl⟩
abbrev main_v226 : Ref sig .tc := ⟨.hbm, 328, rfl⟩
abbrev main_v227 : Ref sig .tc := ⟨.hbm, 329, rfl⟩
abbrev main_v228 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_v232 : Ref sig .tc := ⟨.hbm, 334, rfl⟩
abbrev main_v233 : Ref sig .tc := ⟨.hbm, 335, rfl⟩
abbrev main_v234 : Ref sig .tc := ⟨.hbm, 336, rfl⟩
abbrev main_v235 : Ref sig .tc := ⟨.hbm, 337, rfl⟩
abbrev main_v236 : Ref sig .tc := ⟨.hbm, 338, rfl⟩
abbrev main_v237 : Ref sig .tc := ⟨.hbm, 339, rfl⟩
abbrev main_v238 : Ref sig .tc := ⟨.hbm, 340, rfl⟩
abbrev main_v239 : Ref sig .tc := ⟨.hbm, 341, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  bcast_S1x128_S65536x128_0_1 : S1x128.BroadcastsInDim S65536x128 (![0, 1] : Fin 2 → Fin S65536x128.rank)
  transposes_S65536x128_S128x65536_1_0 : S65536x128.Transposes [1, 0] S128x65536
  reducesTo_S128x65536_S65536_d0 : S128x65536.ReducesTo [0] S65536
  h_S_ : 0 < S_.numel
  bcast_S_S65536 : S_.BroadcastsInDim S65536 (![] : Fin 0 → Fin S65536.rank)
  slices_S2x256x128_S1x256x128_0_0_0 : S2x256x128.Slices ![0, 0, 0] S1x256x128
  shapeCasts_S1x256x128_S256x128 : S1x256x128.ShapeCasts S256x128
  transposes_S256x128_S128x256_1_0 : S256x128.Transposes [1, 0] S128x256
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S655360 : S_.BroadcastsInDim S655360 (![] : Fin 0 → Fin S655360.rank)
  bcast_S655360_S655360x1_0 : S655360.BroadcastsInDim S655360x1 (![0] : Fin 1 → Fin S655360x1.rank)
  bcast_S_S65536x256 : S_.BroadcastsInDim S65536x256 (![] : Fin 0 → Fin S65536x256.rank)
  slices_S2x384x256_S1x384x256_0_0_0 : S2x384x256.Slices ![0, 0, 0] S1x384x256
  shapeCasts_S1x384x256_S384x256 : S1x384x256.ShapeCasts S384x256
  transposes_S384x256_S256x384_1_0 : S384x256.Transposes [1, 0] S256x384
  slices_S2x384_S1x384_0_0 : S2x384.Slices ![0, 0] S1x384
  shapeCasts_S1x384_S384 : S1x384.ShapeCasts S384
  bcast_S384_S1x384_1 : S384.BroadcastsInDim S1x384 (![1] : Fin 1 → Fin S1x384.rank)
  bcast_S1x384_S65536x384_0_1 : S1x384.BroadcastsInDim S65536x384 (![0, 1] : Fin 2 → Fin S65536x384.rank)
  slices_S2x384x128_S1x384x128_0_0_0 : S2x384x128.Slices ![0, 0, 0] S1x384x128
  shapeCasts_S1x384x128_S384x128 : S1x384x128.ShapeCasts S384x128
  transposes_S384x128_S128x384_1_0 : S384x128.Transposes [1, 0] S128x384
  slices_S65536x384_S65536x128_0_0 : S65536x384.Slices ![0, 0] S65536x128
  slices_S65536x384_S65536x128_0_128 : S65536x384.Slices ![0, 128] S65536x128
  slices_S65536x384_S65536x128_0_256 : S65536x384.Slices ![0, 256] S65536x128
  bcast_S_S65536x128 : S_.BroadcastsInDim S65536x128 (![] : Fin 0 → Fin S65536x128.rank)
  slices_S2x256x128_S1x256x128_1_0_0 : S2x256x128.Slices ![1, 0, 0] S1x256x128
  slices_S2x256_S1x256_1_0 : S2x256.Slices ![1, 0] S1x256
  slices_S2x384x256_S1x384x256_1_0_0 : S2x384x256.Slices ![1, 0, 0] S1x384x256
  slices_S2x384_S1x384_1_0 : S2x384.Slices ![1, 0] S1x384
  slices_S2x384x128_S1x384x128_1_0_0 : S2x384x128.Slices ![1, 0, 0] S1x384x128
  transposes_S33x256_S256x33_1_0 : S33x256.Transposes [1, 0] S256x33
  bcast_S33_S1x33_1 : S33.BroadcastsInDim S1x33 (![1] : Fin 1 → Fin S1x33.rank)
  bcast_S1x33_S128x33_0_1 : S1x33.BroadcastsInDim S128x33 (![0, 1] : Fin 2 → Fin S128x33.rank)
  bcast_S_S128 : S_.BroadcastsInDim S128 (![] : Fin 0 → Fin S128.rank)
  reducesTo_S128x33_S128_d1 : S128x33.ReducesTo [1] S128
  bcast_S128_S128x1_0 : S128.BroadcastsInDim S128x1 (![0] : Fin 1 → Fin S128x1.rank)
  bcast_S128x1_S128x33_0_1 : S128x1.BroadcastsInDim S128x33 (![0, 1] : Fin 2 → Fin S128x33.rank)
  bcast_S_S128x1 : S_.BroadcastsInDim S128x1 (![] : Fin 0 → Fin S128x1.rank)
  shapeCasts_S128x1_S128x1x1 : S128x1.ShapeCasts S128x1x1
  bcast_S_S128x1x1 : S_.BroadcastsInDim S128x1x1 (![] : Fin 0 → Fin S128x1x1.rank)
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  reducesTo_S128x1x1_S128x1_d2 : S128x1x1.ReducesTo [2] S128x1
  shapeCasts_S128x1_S128 : S128x1.ShapeCasts S128
  reducesTo_S128_S_d0 : S128.ReducesTo [0] S_
  transposes_S128x128_S128x128_1_0 : S128x128.Transposes [1, 0] S128x128
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  transposes_S128x256_S256x128_1_0 : S128x256.Transposes [1, 0] S256x128
  concatenates_S65536x128_S128x128_S65664x128_d0 : Shape.Concatenates [S65536x128, S128x128] S65664x128 0
  dot_S65536x128_S128x256_S65536x256_1_0_0_1_n_n_wf : DotDims.WF S65536x128 S128x256 S65536x256 [1] [0] [0] [1] [] []
  dot_S655360x128_S128x256_S655360x256_1_0_0_1_n_n_wf : DotDims.WF S655360x128 S128x256 S655360x256 [1] [0] [0] [1] [] []
  gather_S65536x256_S655360x1_S655360x256_1_0_n_n_0_1_1256_wf : GatherDims.WF S65536x256 S655360x1 S655360x256 [1] [0] [] [0] [] 1 ![1, 256]
  scatter_S65536x256_S655360x1_S655360x256_1_0_0_1_wf : ScatterDims.WF S65536x256 S655360x1 S655360x256 [1] [0] [0] 1
  dot_S65536x256_S256x384_S65536x384_1_0_0_1_n_n_wf : DotDims.WF S65536x256 S256x384 S65536x384 [1] [0] [0] [1] [] []
  dot_S65536x128_S128x384_S65536x384_1_0_0_1_n_n_wf : DotDims.WF S65536x128 S128x384 S65536x384 [1] [0] [0] [1] [] []
  dot_S128x65536_S65536x256_S128x256_1_0_0_1_n_n_wf : DotDims.WF S128x65536 S65536x256 S128x256 [1] [0] [0] [1] [] []
  dot_S128x256_S256x33_S128x33_1_0_0_1_n_n_wf : DotDims.WF S128x256 S256x33 S128x33 [1] [0] [0] [1] [] []
  gather_S128x33_S128x1x1_S128x1_n_1_0_0_1_2_11_wf : GatherDims.WF S128x33 S128x1x1 S128x1 [] [1] [0] [1] [0] 2 ![1, 1]
  gather_S32x128_S128x1_S128x128_1_0_n_n_0_1_1128_wf : GatherDims.WF S32x128 S128x1 S128x128 [1] [0] [] [0] [] 1 ![1, 128]
  dot_S128x128_S128x128_S128x128_1_0_0_1_n_n_wf : DotDims.WF S128x128 S128x128 S128x128 [1] [0] [0] [1] [] []
  dot_S128x256_S256x128_S128x128_1_0_0_1_n_n_wf : DotDims.WF S128x256 S256x128 S128x128 [1] [0] [0] [1] [] []

variable [Facts₀]

def dot_S65536x128_S128x256_S65536x256_1_0_0_1_n_n : DotDims S65536x128 S128x256 S65536x256 where
  lhsContracting := [1]
  rhsContracting := [0]
  lhsNonContracting := [0]
  rhsNonContracting := [1]
  lhsBatch := []
  rhsBatch := []
  wf := dot_S65536x128_S128x256_S65536x256_1_0_0_1_n_n_wf
def dot_S655360x128_S128x256_S655360x256_1_0_0_1_n_n : DotDims S655360x128 S128x256 S655360x256 where
  lhsContracting := [1]
  rhsContracting := [0]
  lhsNonContracting := [0]
  rhsNonContracting := [1]
  lhsBatch := []
  rhsBatch := []
  wf := dot_S655360x128_S128x256_S655360x256_1_0_0_1_n_n_wf
def gather_S65536x256_S655360x1_S655360x256_1_0_n_n_0_1_1256 : GatherDims S65536x256 S655360x1 S655360x256 where
  offsetDims := [1]
  collapsedSliceDims := [0]
  operandBatchingDims := []
  startIndicesBatchingDims := []
  startIndexMap := [0]
  indexVectorDim := 1
  sliceSizes := ![1, 256]
  wf := gather_S65536x256_S655360x1_S655360x256_1_0_n_n_0_1_1256_wf
def scatter_S65536x256_S655360x1_S655360x256_1_0_0_1 : ScatterDims S65536x256 S655360x1 S655360x256 where
  updateWindowDims := [1]
  insertedWindowDims := [0]
  scatterDimsToOperandDims := [0]
  indexVectorDim := 1
  wf := scatter_S65536x256_S655360x1_S655360x256_1_0_0_1_wf
def dot_S65536x256_S256x384_S65536x384_1_0_0_1_n_n : DotDims S65536x256 S256x384 S65536x384 where
  lhsContracting := [1]
  rhsContracting := [0]
  lhsNonContracting := [0]
  rhsNonContracting := [1]
  lhsBatch := []
  rhsBatch := []
  wf := dot_S65536x256_S256x384_S65536x384_1_0_0_1_n_n_wf
def dot_S65536x128_S128x384_S65536x384_1_0_0_1_n_n : DotDims S65536x128 S128x384 S65536x384 where
  lhsContracting := [1]
  rhsContracting := [0]
  lhsNonContracting := [0]
  rhsNonContracting := [1]
  lhsBatch := []
  rhsBatch := []
  wf := dot_S65536x128_S128x384_S65536x384_1_0_0_1_n_n_wf
def dot_S128x65536_S65536x256_S128x256_1_0_0_1_n_n : DotDims S128x65536 S65536x256 S128x256 where
  lhsContracting := [1]
  rhsContracting := [0]
  lhsNonContracting := [0]
  rhsNonContracting := [1]
  lhsBatch := []
  rhsBatch := []
  wf := dot_S128x65536_S65536x256_S128x256_1_0_0_1_n_n_wf
def dot_S128x256_S256x33_S128x33_1_0_0_1_n_n : DotDims S128x256 S256x33 S128x33 where
  lhsContracting := [1]
  rhsContracting := [0]
  lhsNonContracting := [0]
  rhsNonContracting := [1]
  lhsBatch := []
  rhsBatch := []
  wf := dot_S128x256_S256x33_S128x33_1_0_0_1_n_n_wf
def gather_S128x33_S128x1x1_S128x1_n_1_0_0_1_2_11 : GatherDims S128x33 S128x1x1 S128x1 where
  offsetDims := []
  collapsedSliceDims := [1]
  operandBatchingDims := [0]
  startIndicesBatchingDims := [0]
  startIndexMap := [1]
  indexVectorDim := 2
  sliceSizes := ![1, 1]
  wf := gather_S128x33_S128x1x1_S128x1_n_1_0_0_1_2_11_wf
def gather_S32x128_S128x1_S128x128_1_0_n_n_0_1_1128 : GatherDims S32x128 S128x1 S128x128 where
  offsetDims := [1]
  collapsedSliceDims := [0]
  operandBatchingDims := []
  startIndicesBatchingDims := []
  startIndexMap := [0]
  indexVectorDim := 1
  sliceSizes := ![1, 128]
  wf := gather_S32x128_S128x1_S128x128_1_0_n_n_0_1_1128_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

class Facts : Prop extends Facts₀ where

variable [Facts]
-- ==== Proof.RRunSt0.lean ====
/- The reference program's stretch 0 (its operations 1 … 33 of 314) read at the buffers later stretches read: from any
  contents `V` that hold, at the buffers this stretch reads, the stages' values of the argument arrays `x…`, each such buffer
  ends the stretch at its own stage's value of the same arrays (the stretch's operations applied to those values ARE the stage).
-/
import proofs.«423165_j21801253994886_2_alg».proof.Proof.RRead
import proofs.«423165_j21801253994886_2_alg».proof.Proof.RRunOps
set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

open Cert.ReferenceIdeal.RunOps

set_option maxHeartbeats 2000000 in
theorem st0_main_v1 (V : Valuation τ sig (Elt F)) (x27 : (⟨S65536, .i32⟩ : BufTy).Contents (Elt F))
    (h_main_arg27 : V (Proc.devRef .tc main_arg27) = x27) :
    after ops0 V (Proc.devRef .tc main_v1) = val_main_v1 (F := F) x27 := by
  simp only [ops0]
  after_results_simp
  simp only [h_main_arg27]
  rfl

set_option maxHeartbeats 2000000 in
theorem st0_main_v5 (V : Valuation τ sig (Elt F)) (x27 : (⟨S65536, .i32⟩ : BufTy).Contents (Elt F))
    (h_main_arg27 : V (Proc.devRef .tc main_arg27) = x27) :
    after ops0 V (Proc.devRef .tc main_v5) = val_main_v5 (F := F) x27 := by
  simp only [ops0]
  after_results_simp
  simp only [h_main_arg27]
  rfl

set_option maxHeartbeats 2000000 in
theorem st0_main_v9 (V : Valuation τ sig (Elt F)) (x0 : (⟨S65536x128, .f32⟩ : BufTy).Contents (Elt F)) (x2 : (⟨S2x256x128, .f32⟩ : BufTy).Contents (Elt F))
    (h_main_arg2 : V (Proc.devRef .tc main_arg2) = x2)
    (h_main_arg0 : V (Proc.devRef .tc main_arg0) = x0) :
    after ops0 V (Proc.devRef .tc main_v9) = val_main_v9 (F := F) x0 x2 := by
  simp only [ops0]
  after_results_simp
  simp only [h_main_arg2, h_main_arg0]
  rfl

set_option maxHeartbeats 2000000 in
theorem st0_main_v18 (V : Valuation τ sig (Elt F)) (x0 : (⟨S65536x128, .f32⟩ : BufTy).Contents (Elt F)) (x3 : (⟨S2x256x128, .f32⟩ : BufTy).Contents (Elt F)) (x4 : (⟨S2x256, .f32⟩ : BufTy).Contents (Elt F))
    (h_main_arg4 : V (Proc.devRef .tc main_arg4) = x4)
    (h_main_arg3 : V (Proc.devRef .tc main_arg3) = x3)
    (h_main_arg0 : V (Proc.devRef .tc main_arg0) = x0) :
    after ops0 V (Proc.devRef .tc main_v18) = val_main_v18 (F := F) x0 x3 x4 := by
  simp only [ops0]
  after_results_simp
  simp only [h_main_arg4, h_main_arg3, h_main_arg0]
  rfl

set_option maxHeartbeats 2000000 in
theorem st0_main_v22 (V : Valuation τ sig (Elt F)) (x1 : (⟨S655360x128, .f32⟩ : BufTy).Contents (Elt F)) (x5 : (⟨S2x256x128, .f32⟩ : BufTy).Contents (Elt F))
    (h_main_arg5 : V (Proc.devRef .tc main_arg5) = x5)
    (h_main_arg1 : V (Proc.devRef .tc main_arg1) = x1) :
    after ops0 V (Proc.devRef .tc main_v22) = val_main_v22 (F := F) x1 x5 := by
  simp only [ops0]
  after_results_simp
  simp only [h_main_arg5, h_main_arg1]
  rfl

set_option maxHeartbeats 2000000 in
theorem st0_main_v24 (V : Valuation τ sig (Elt F)) (x24 : (⟨S655360, .i32⟩ : BufTy).Contents (Elt F))
    (h_main_arg24 : V (Proc.devRef .tc main_arg24) = x24) :
    after ops0 V (Proc.devRef .tc main_v24) = val_main_v24 (F := F) x24 := by
  simp only [ops0]
  after_results_simp
  simp only [h_main_arg24]
  rfl

end Cert.ReferenceIdeal.RunH

end
-- ==== Proof.RRunSt1.lean ====
/- The reference program's stretch 1 (its operations 34 … 65 of 314) read at the buffers later stretches read: from any
  contents `V` that hold, at the buffers this stretch reads, the stages' values of the argument arrays `x…`, each such buffer
  ends the stretch at its own stage's value of the same arrays (the stretch's operations applied to those values ARE the stage).
-/
import proofs.«423165_j21801253994886_2_alg».proof.Proof.RRead
import proofs.«423165_j21801253994886_2_alg».proof.Proof.RRunOps
set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

open Cert.ReferenceIdeal.RunOps

set_option maxHeartbeats 2000000 in
theorem st1_main_v50 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x8 : (⟨S2x384, .f32⟩ : BufTy).Contents (Elt F)) (x24 : (⟨S655360, .i32⟩ : BufTy).Contents (Elt F)) (x25 : (⟨S655360, .i32⟩ : BufTy).Contents (Elt F))
    (h_main_arg8 : V (Proc.devRef .tc main_arg8) = x8)
    (h_main_arg6 : V (Proc.devRef .tc main_arg6) = x6)
    (h_main_v22 : V (Proc.devRef .tc main_v22) = val_main_v22 (F := F) x1 x5)
    (h_main_arg25 : V (Proc.devRef .tc main_arg25) = x25)
    (h_main_v18 : V (Proc.devRef .tc main_v18) = val_main_v18 (F := F) x0 x3 x4)
    (h_main_arg24 : V (Proc.devRef .tc main_arg24) = x24)
    (h_main_v24 : V (Proc.devRef .tc main_v24) = val_main_v24 (F := F) x24)
    (h_main_v9 : V (Proc.devRef .tc main_v9) = val_main_v9 (F := F) x0 x2) :
    after ops1 V (Proc.devRef .tc main_v50) = val_main_v50 (F := F) x0 x1 x2 x3 x4 x5 x6 x8 x24 x25 := by
  simp only [ops1]
  after_results_simp
  simp only [h_main_arg8, h_main_arg6, h_main_v22, h_main_arg25, h_main_v18, h_main_arg24, h_main_v24, h_main_v9]
  rfl

set_option maxHeartbeats 2000000 in
theorem st1_main_v52 (V : Valuation τ sig (Elt F)) (x7 : (⟨S2x384x128, .f32⟩ : BufTy).Contents (Elt F))
    (h_main_arg7 : V (Proc.devRef .tc main_arg7) = x7) :
    after ops1 V (Proc.devRef .tc main_v52) = val_main_v52 (F := F) x7 := by
  simp only [ops1]
  after_results_simp
  simp only [h_main_arg7]
  rfl

end Cert.ReferenceIdeal.RunH

end
-- ==== Proof.RRunSt2.lean ====
/- The reference program's stretch 2 (its operations 66 … 96 of 314) read at the buffers later stretches read: from any
  contents `V` that hold, at the buffers this stretch reads, the stages' values of the argument arrays `x…`, each such buffer
  ends the stretch at its own stage's value of the same arrays (the stretch's operations applied to those values ARE the stage).
-/
import proofs.«423165_j21801253994886_2_alg».proof.Proof.RRead
import proofs.«423165_j21801253994886_2_alg».proof.Proof.RRunOps
set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

open Cert.ReferenceIdeal.RunOps

set_option maxHeartbeats 2000000 in
theorem st2_main_v62 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x8 : (⟨S2x384, .f32⟩ : BufTy).Contents (Elt F)) (x24 : (⟨S655360, .i32⟩ : BufTy).Contents (Elt F)) (x25 : (⟨S655360, .i32⟩ : BufTy).Contents (Elt F))
    (h_main_v50 : V (Proc.devRef .tc main_v50) = val_main_v50 (F := F) x0 x1 x2 x3 x4 x5 x6 x8 x24 x25) :
    after ops2 V (Proc.devRef .tc main_v62) = val_main_v62 (F := F) x0 x1 x2 x3 x4 x5 x6 x8 x24 x25 := by
  simp only [ops2]
  after_results_simp
  simp only [h_main_v50]
  rfl

set_option maxHeartbeats 2000000 in
theorem st2_main_v65 (V : Valuation τ sig (Elt F)) (x0 : (⟨S65536x128, .f32⟩ : BufTy).Contents (Elt F)) (x7 : (⟨S2x384x128, .f32⟩ : BufTy).Contents (Elt F)) (x9 : (⟨S2x384, .f32⟩ : BufTy).Contents (Elt F))
    (h_main_arg9 : V (Proc.devRef .tc main_arg9) = x9)
    (h_main_v52 : V (Proc.devRef .tc main_v52) = val_main_v52 (F := F) x7)
    (h_main_arg0 : V (Proc.devRef .tc main_arg0) = x0) :
    after ops2 V (Proc.devRef .tc main_v65) = val_main_v65 (F := F) x0 x7 x9 := by
  simp only [ops2]
  after_results_simp
  simp only [h_main_arg9, h_main_v52, h_main_arg0]
  rfl

set_option maxHeartbeats 2000000 in
theorem st2_main_v72 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x24 : (⟨S655360, .i32⟩ : BufTy).Contents (Elt F)) (x25 : (⟨S655360, .i32⟩ : BufTy).Contents (Elt F))
    (h_main_arg9 : V (Proc.devRef .tc main_arg9) = x9)
    (h_main_v52 : V (Proc.devRef .tc main_v52) = val_main_v52 (F := F) x7)
    (h_main_arg0 : V (Proc.devRef .tc main_arg0) = x0)
    (h_main_v50 : V (Proc.devRef .tc main_v50) = val_main_v50 (F := F) x0 x1 x2 x3 x4 x5 x6 x8 x24 x25) :
    after ops2 V (Proc.devRef .tc main_v72) = val_main_v72 (F := F) x0 x1 x2 x3 x4 x5 x6 x7 x8 x9 x24 x25 := by
  simp only [ops2]
  after_results_simp
  simp only [h_main_arg9, h_main_v52, h_main_arg0, h_main_v50]
  rfl

set_option maxHeartbeats 2000000 in
theorem st2_main_v79 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x24 : (⟨S655360, .i32⟩ : BufTy).Contents (Elt F)) (x25 : (⟨S655360, .i32⟩ : BufTy).Contents (Elt F))
    (h_main_arg9 : V (Proc.devRef .tc main_arg9) = x9)
    (h_main_v52 : V (Proc.devRef .tc main_v52) = val_main_v52 (F := F) x7)
    (h_main_arg0 : V (Proc.devRef .tc main_arg0) = x0)
    (h_main_v50 : V (Proc.devRef .tc main_v50) = val_main_v50 (F := F) x0 x1 x2 x3 x4 x5 x6 x8 x24 x25) :
    after ops2 V (Proc.devRef .tc main_v79) = val_main_v79 (F := F) x0 x1 x2 x3 x4 x5 x6 x7 x8 x9 x24 x25 := by
  simp only [ops2]
  after_results_simp
  simp only [h_main_arg9, h_main_v52, h_main_arg0, h_main_v50]
  rfl

end Cert.ReferenceIdeal.RunH

end
-- ==== Proof.RRunSt3.lean ====
/- The reference program's stretch 3 (its operations 97 … 126 of 314) read at the buffers later stretches read: from any
  contents `V` that hold, at the buffers this stretch reads, the stages' values of the argument arrays `x…`, each such buffer
  ends the stretch at its own stage's value of the same arrays (the stretch's operations applied to those values ARE the stage).
-/
import proofs.«423165_j21801253994886_2_alg».proof.Proof.RRead
import proofs.«423165_j21801253994886_2_alg».proof.Proof.RRunOps
set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

open Cert.ReferenceIdeal.RunOps

set_option maxHeartbeats 2000000 in
theorem st3_main_v88 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x24 : (⟨S655360, .i32⟩ : BufTy).Contents (Elt F)) (x25 : (⟨S655360, .i32⟩ : BufTy).Contents (Elt F)) (x27 : (⟨S65536, .i32⟩ : BufTy).Contents (Elt F))
    (h_main_arg0 : V (Proc.devRef .tc main_arg0) = x0)
    (h_main_v79 : V (Proc.devRef .tc main_v79) = val_main_v79 (F := F) x0 x1 x2 x3 x4 x5 x6 x7 x8 x9 x24 x25)
    (h_main_v65 : V (Proc.devRef .tc main_v65) = val_main_v65 (F := F) x0 x7 x9)
    (h_main_v72 : V (Proc.devRef .tc main_v72) = val_main_v72 (F := F) x0 x1 x2 x3 x4 x5 x6 x7 x8 x9 x24 x25)
    (h_main_v62 : V (Proc.devRef .tc main_v62) = val_main_v62 (F := F) x0 x1 x2 x3 x4 x5 x6 x8 x24 x25)
    (h_main_v5 : V (Proc.devRef .tc main_v5) = val_main_v5 (F := F) x27) :
    after ops3 V (Proc.devRef .tc main_v88) = val_main_v88 (F := F) x0 x1 x2 x3 x4 x5 x6 x7 x8 x9 x24 x25 x27 := by
  simp only [ops3]
  after_results_simp
  simp only [h_main_arg0, h_main_v79, h_main_v65, h_main_v72, h_main_v62, h_main_v5]
  rfl

set_option maxHeartbeats 2000000 in
theorem st3_main_v92 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x24 : (⟨S655360, .i32⟩ : BufTy).Contents (Elt F)) (x25 : (⟨S655360, .i32⟩ : BufTy).Contents (Elt F)) (x27 : (⟨S65536, .i32⟩ : BufTy).Contents (Elt F))
    (h_main_arg2 : V (Proc.devRef .tc main_arg2) = x2)
    (h_main_arg0 : V (Proc.devRef .tc main_arg0) = x0)
    (h_main_v79 : V (Proc.devRef .tc main_v79) = val_main_v79 (F := F) x0 x1 x2 x3 x4 x5 x6 x7 x8 x9 x24 x25)
    (h_main_v65 : V (Proc.devRef .tc main_v65) = val_main_v65 (F := F) x0 x7 x9)
    (h_main_v72 : V (Proc.devRef .tc main_v72) = val_main_v72 (F := F) x0 x1 x2 x3 x4 x5 x6 x7 x8 x9 x24 x25)
    (h_main_v62 : V (Proc.devRef .tc main_v62) = val_main_v62 (F := F) x0 x1 x2 x3 x4 x5 x6 x8 x24 x25)
    (h_main_v5 : V (Proc.devRef .tc main_v5) = val_main_v5 (F := F) x27) :
    after ops3 V (Proc.devRef .tc main_v92) = val_main_v92 (F := F) x0 x1 x2 x3 x4 x5 x6 x7 x8 x9 x24 x25 x27 := by
  simp only [ops3]
  after_results_simp
  simp only [h_main_arg2, h_main_arg0, h_main_v79, h_main_v65, h_main_v72, h_main_v62, h_main_v5]
  rfl

set_option maxHeartbeats 2000000 in
theorem st3_main_v101 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x24 : (⟨S655360, .i32⟩ : BufTy).Contents (Elt F)) (x25 : (⟨S655360, .i32⟩ : BufTy).Contents (Elt F)) (x27 : (⟨S65536, .i32⟩ : BufTy).Contents (Elt F))
    (h_main_arg4 : V (Proc.devRef .tc main_arg4) = x4)
    (h_main_arg3 : V (Proc.devRef .tc main_arg3) = x3)
    (h_main_arg0 : V (Proc.devRef .tc main_arg0) = x0)
    (h_main_v79 : V (Proc.devRef .tc main_v79) = val_main_v79 (F := F) x0 x1 x2 x3 x4 x5 x6 x7 x8 x9 x24 x25)
    (h_main_v65 : V (Proc.devRef .tc main_v65) = val_main_v65 (F := F) x0 x7 x9)
    (h_main_v72 : V (Proc.devRef .tc main_v72) = val_main_v72 (F := F) x0 x1 x2 x3 x4 x5 x6 x7 x8 x9 x24 x25)
    (h_main_v62 : V (Proc.devRef .tc main_v62) = val_main_v62 (F := F) x0 x1 x2 x3 x4 x5 x6 x8 x24 x25)
    (h_main_v5 : V (Proc.devRef .tc main_v5) = val_main_v5 (F := F) x27) :
    after ops3 V (Proc.devRef .tc main_v101) = val_main_v101 (F := F) x0 x1 x2 x3 x4 x5 x6 x7 x8 x9 x24 x25 x27 := by
  simp only [ops3]
  after_results_simp
  simp only [h_main_arg4, h_main_arg3, h_main_arg0, h_main_v79, h_main_v65, h_main_v72, h_main_v62, h_main_v5]
  rfl

set_option maxHeartbeats 2000000 in
theorem st3_main_v105 (V : Valuation τ sig (Elt F)) (x1 : (⟨S655360x128, .f32⟩ : BufTy).Contents (Elt F)) (x5 : (⟨S2x256x128, .f32⟩ : BufTy).Contents (Elt F))
    (h_main_arg5 : V (Proc.devRef .tc main_arg5) = x5)
    (h_main_arg1 : V (Proc.devRef .tc main_arg1) = x1) :
    after ops3 V (Proc.devRef .tc main_v105) = val_main_v105 (F := F) x1 x5 := by
  simp only [ops3]
  after_results_simp
  simp only [h_main_arg5, h_main_arg1]
  rfl

set_option maxHeartbeats 2000000 in
theorem st3_main_v106 (V : Valuation τ sig (Elt F))
     :
    after ops3 V (Proc.devRef .tc main_v106) = val_main_v106 (F := F) := by
  simp only [ops3]
  after_results_simp
  rfl

end Cert.ReferenceIdeal.RunH

end
-- ==== Proof.RRunSt4.lean ====
/- The reference program's stretch 4 (its operations 127 … 156 of 314) read at the buffers later stretches read: from any
  contents `V` that hold, at the buffers this stretch reads, the stages' values of the argument arrays `x…`, each such buffer
  ends the stretch at its own stage's value of the same arrays (the stretch's operations applied to those values ARE the stage).
-/
import proofs.«423165_j21801253994886_2_alg».proof.Proof.RRead
import proofs.«423165_j21801253994886_2_alg».proof.Proof.RRunOps
set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

open Cert.ReferenceIdeal.RunOps

set_option maxHeartbeats 2000000 in
theorem st4_main_v128 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x24 : (⟨S655360, .i32⟩ : BufTy).Contents (Elt F)) (x25 : (⟨S655360, .i32⟩ : BufTy).Contents (Elt F)) (x27 : (⟨S65536, .i32⟩ : BufTy).Contents (Elt F))
    (h_main_arg6 : V (Proc.devRef .tc main_arg6) = x6)
    (h_main_v105 : V (Proc.devRef .tc main_v105) = val_main_v105 (F := F) x1 x5)
    (h_main_arg25 : V (Proc.devRef .tc main_arg25) = x25)
    (h_main_v101 : V (Proc.devRef .tc main_v101) = val_main_v101 (F := F) x0 x1 x2 x3 x4 x5 x6 x7 x8 x9 x24 x25 x27)
    (h_main_arg24 : V (Proc.devRef .tc main_arg24) = x24)
    (h_main_v106 : V (Proc.devRef .tc main_v106) = val_main_v106 (F := F))
    (h_main_v92 : V (Proc.devRef .tc main_v92) = val_main_v92 (F := F) x0 x1 x2 x3 x4 x5 x6 x7 x8 x9 x24 x25 x27) :
    after ops4 V (Proc.devRef .tc main_v128) = val_main_v128 (F := F) x0 x1 x2 x3 x4 x5 x6 x7 x8 x9 x24 x25 x27 := by
  simp only [ops4]
  after_results_simp
  simp only [h_main_arg6, h_main_v105, h_main_arg25, h_main_v101, h_main_arg24, h_main_v106, h_main_v92]
  rfl

set_option maxHeartbeats 2000000 in
theorem st4_main_v132 (V : Valuation τ sig (Elt F)) (x8 : (⟨S2x384, .f32⟩ : BufTy).Contents (Elt F))
    (h_main_arg8 : V (Proc.devRef .tc main_arg8) = x8) :
    after ops4 V (Proc.devRef .tc main_v132) = val_main_v132 (F := F) x8 := by
  simp only [ops4]
  after_results_simp
  simp only [h_main_arg8]
  rfl

end Cert.ReferenceIdeal.RunH

end
-- ==== Proof.RRunSt5.lean ====
/- The reference program's stretch 5 (its operations 157 … 186 of 314) read at the buffers later stretches read: from any
  contents `V` that hold, at the buffers this stretch reads, the stages' values of the argument arrays `x…`, each such buffer
  ends the stretch at its own stage's value of the same arrays (the stretch's operations applied to those values ARE the stage).
-/
import proofs.«423165_j21801253994886_2_alg».proof.Proof.RRead
import proofs.«423165_j21801253994886_2_alg».proof.Proof.RRunOps
set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

open Cert.ReferenceIdeal.RunOps

set_option maxHeartbeats 2000000 in
theorem st5_main_v145 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x24 : (⟨S655360, .i32⟩ : BufTy).Contents (Elt F)) (x25 : (⟨S655360, .i32⟩ : BufTy).Contents (Elt F)) (x27 : (⟨S65536, .i32⟩ : BufTy).Contents (Elt F))
    (h_main_v132 : V (Proc.devRef .tc main_v132) = val_main_v132 (F := F) x8)
    (h_main_v128 : V (Proc.devRef .tc main_v128) = val_main_v128 (F := F) x0 x1 x2 x3 x4 x5 x6 x7 x8 x9 x24 x25 x27) :
    after ops5 V (Proc.devRef .tc main_v145) = val_main_v145 (F := F) x0 x1 x2 x3 x4 x5 x6 x7 x8 x9 x24 x25 x27 := by
  simp only [ops5]
  after_results_simp
  simp only [h_main_v132, h_main_v128]
  rfl

set_option maxHeartbeats 2000000 in
theorem st5_main_v148 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x24 : (⟨S655360, .i32⟩ : BufTy).Contents (Elt F)) (x25 : (⟨S655360, .i32⟩ : BufTy).Contents (Elt F)) (x27 : (⟨S65536, .i32⟩ : BufTy).Contents (Elt F))
    (h_main_arg9 : V (Proc.devRef .tc main_arg9) = x9)
    (h_main_arg7 : V (Proc.devRef .tc main_arg7) = x7)
    (h_main_v88 : V (Proc.devRef .tc main_v88) = val_main_v88 (F := F) x0 x1 x2 x3 x4 x5 x6 x7 x8 x9 x24 x25 x27) :
    after ops5 V (Proc.devRef .tc main_v148) = val_main_v148 (F := F) x0 x1 x2 x3 x4 x5 x6 x7 x8 x9 x24 x25 x27 := by
  simp only [ops5]
  after_results_simp
  simp only [h_main_arg9, h_main_arg7, h_main_v88]
  rfl

set_option maxHeartbeats 2000000 in
theorem st5_main_v155 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x24 : (⟨S655360, .i32⟩ : BufTy).Contents (Elt F)) (x25 : (⟨S655360, .i32⟩ : BufTy).Contents (Elt F)) (x27 : (⟨S65536, .i32⟩ : BufTy).Contents (Elt F))
    (h_main_arg9 : V (Proc.devRef .tc main_arg9) = x9)
    (h_main_arg7 : V (Proc.devRef .tc main_arg7) = x7)
    (h_main_v88 : V (Proc.devRef .tc main_v88) = val_main_v88 (F := F) x0 x1 x2 x3 x4 x5 x6 x7 x8 x9 x24 x25 x27)
    (h_main_v132 : V (Proc.devRef .tc main_v132) = val_main_v132 (F := F) x8)
    (h_main_v128 : V (Proc.devRef .tc main_v128) = val_main_v128 (F := F) x0 x1 x2 x3 x4 x5 x6 x7 x8 x9 x24 x25 x27) :
    after ops5 V (Proc.devRef .tc main_v155) = val_main_v155 (F := F) x0 x1 x2 x3 x4 x5 x6 x7 x8 x9 x24 x25 x27 := by
  simp only [ops5]
  after_results_simp
  simp only [h_main_arg9, h_main_arg7, h_main_v88, h_main_v132, h_main_v128]
  rfl

set_option maxHeartbeats 2000000 in
theorem st5_main_v158 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x24 : (⟨S655360, .i32⟩ : BufTy).Contents (Elt F)) (x25 : (⟨S655360, .i32⟩ : BufTy).Contents (Elt F)) (x27 : (⟨S65536, .i32⟩ : BufTy).Contents (Elt F))
    (h_main_arg9 : V (Proc.devRef .tc main_arg9) = x9)
    (h_main_arg7 : V (Proc.devRef .tc main_arg7) = x7)
    (h_main_v88 : V (Proc.devRef .tc main_v88) = val_main_v88 (F := F) x0 x1 x2 x3 x4 x5 x6 x7 x8 x9 x24 x25 x27)
    (h_main_v132 : V (Proc.devRef .tc main_v132) = val_main_v132 (F := F) x8)
    (h_main_v128 : V (Proc.devRef .tc main_v128) = val_main_v128 (F := F) x0 x1 x2 x3 x4 x5 x6 x7 x8 x9 x24 x25 x27) :
    after ops5 V (Proc.devRef .tc main_v158) = val_main_v158 (F := F) x0 x1 x2 x3 x4 x5 x6 x7 x8 x9 x24 x25 x27 := by
  simp only [ops5]
  after_results_simp
  simp only [h_main_arg9, h_main_arg7, h_main_v88, h_main_v132, h_main_v128]
  rfl

set_option maxHeartbeats 2000000 in
theorem st5_main_v159 (V : Valuation τ sig (Elt F))
     :
    after ops5 V (Proc.devRef .tc main_v159) = val_main_v159 (F := F) := by
  simp only [ops5]
  after_results_simp
  rfl

end Cert.ReferenceIdeal.RunH

end
-- ==== Proof.RRunSt6.lean ====
/- The reference program's stretch 6 (its operations 187 … 218 of 314) read at the buffers later stretches read: from any
  contents `V` that hold, at the buffers this stretch reads, the stages' values of the argument arrays `x…`, each such buffer
  ends the stretch at its own stage's value of the same arrays (the stretch's operations applied to those values ARE the stage).
-/
import proofs.«423165_j21801253994886_2_alg».proof.Proof.RRead
import proofs.«423165_j21801253994886_2_alg».proof.Proof.RRunOps
set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

open Cert.ReferenceIdeal.RunOps

set_option maxHeartbeats 2000000 in
theorem st6_main_v171 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x24 : (⟨S655360, .i32⟩ : BufTy).Contents (Elt F)) (x25 : (⟨S655360, .i32⟩ : BufTy).Contents (Elt F)) (x27 : (⟨S65536, .i32⟩ : BufTy).Contents (Elt F))
    (h_main_v88 : V (Proc.devRef .tc main_v88) = val_main_v88 (F := F) x0 x1 x2 x3 x4 x5 x6 x7 x8 x9 x24 x25 x27)
    (h_main_v158 : V (Proc.devRef .tc main_v158) = val_main_v158 (F := F) x0 x1 x2 x3 x4 x5 x6 x7 x8 x9 x24 x25 x27)
    (h_main_v159 : V (Proc.devRef .tc main_v159) = val_main_v159 (F := F))
    (h_main_v148 : V (Proc.devRef .tc main_v148) = val_main_v148 (F := F) x0 x1 x2 x3 x4 x5 x6 x7 x8 x9 x24 x25 x27)
    (h_main_v155 : V (Proc.devRef .tc main_v155) = val_main_v155 (F := F) x0 x1 x2 x3 x4 x5 x6 x7 x8 x9 x24 x25 x27)
    (h_main_v145 : V (Proc.devRef .tc main_v145) = val_main_v145 (F := F) x0 x1 x2 x3 x4 x5 x6 x7 x8 x9 x24 x25 x27)
    (h_main_v5 : V (Proc.devRef .tc main_v5) = val_main_v5 (F := F) x27) :
    after ops6 V (Proc.devRef .tc main_v171) = val_main_v171 (F := F) x0 x1 x2 x3 x4 x5 x6 x7 x8 x9 x24 x25 x27 := by
  simp only [ops6]
  after_results_simp
  simp only [h_main_v88, h_main_v158, h_main_v159, h_main_v148, h_main_v155, h_main_v145, h_main_v5]
  rfl

set_option maxHeartbeats 2000000 in
theorem st6_main_v182 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x12 : (⟨S256x128, .f32⟩ : BufTy).Contents (Elt F)) (x13 : (⟨S256, .f32⟩ : BufTy).Contents (Elt F)) (x24 : (⟨S655360, .i32⟩ : BufTy).Contents (Elt F)) (x25 : (⟨S655360, .i32⟩ : BufTy).Contents (Elt F)) (x27 : (⟨S65536, .i32⟩ : BufTy).Contents (Elt F))
    (h_main_arg13 : V (Proc.devRef .tc main_arg13) = x13)
    (h_main_arg12 : V (Proc.devRef .tc main_arg12) = x12)
    (h_main_v88 : V (Proc.devRef .tc main_v88) = val_main_v88 (F := F) x0 x1 x2 x3 x4 x5 x6 x7 x8 x9 x24 x25 x27)
    (h_main_v158 : V (Proc.devRef .tc main_v158) = val_main_v158 (F := F) x0 x1 x2 x3 x4 x5 x6 x7 x8 x9 x24 x25 x27)
    (h_main_v159 : V (Proc.devRef .tc main_v159) = val_main_v159 (F := F))
    (h_main_v148 : V (Proc.devRef .tc main_v148) = val_main_v148 (F := F) x0 x1 x2 x3 x4 x5 x6 x7 x8 x9 x24 x25 x27)
    (h_main_v155 : V (Proc.devRef .tc main_v155) = val_main_v155 (F := F) x0 x1 x2 x3 x4 x5 x6 x7 x8 x9 x24 x25 x27)
    (h_main_v145 : V (Proc.devRef .tc main_v145) = val_main_v145 (F := F) x0 x1 x2 x3 x4 x5 x6 x7 x8 x9 x24 x25 x27)
    (h_main_v5 : V (Proc.devRef .tc main_v5) = val_main_v5 (F := F) x27) :
    after ops6 V (Proc.devRef .tc main_v182) = val_main_v182 (F := F) x0 x1 x2 x3 x4 x5 x6 x7 x8 x9 x12 x13 x24 x25 x27 := by
  simp only [ops6]
  after_results_simp
  simp only [h_main_arg13, h_main_arg12, h_main_v88, h_main_v158, h_main_v159, h_main_v148, h_main_v155, h_main_v145, h_main_v5]
  rfl

set_option maxHeartbeats 2000000 in
theorem st6_main_v184 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x10 : (⟨S256x128, .f32⟩ : BufTy).Contents (Elt F)) (x24 : (⟨S655360, .i32⟩ : BufTy).Contents (Elt F)) (x25 : (⟨S655360, .i32⟩ : BufTy).Contents (Elt F)) (x27 : (⟨S65536, .i32⟩ : BufTy).Contents (Elt F))
    (h_main_arg10 : V (Proc.devRef .tc main_arg10) = x10)
    (h_main_v88 : V (Proc.devRef .tc main_v88) = val_main_v88 (F := F) x0 x1 x2 x3 x4 x5 x6 x7 x8 x9 x24 x25 x27)
    (h_main_v158 : V (Proc.devRef .tc main_v158) = val_main_v158 (F := F) x0 x1 x2 x3 x4 x5 x6 x7 x8 x9 x24 x25 x27)
    (h_main_v159 : V (Proc.devRef .tc main_v159) = val_main_v159 (F := F))
    (h_main_v148 : V (Proc.devRef .tc main_v148) = val_main_v148 (F := F) x0 x1 x2 x3 x4 x5 x6 x7 x8 x9 x24 x25 x27)
    (h_main_v155 : V (Proc.devRef .tc main_v155) = val_main_v155 (F := F) x0 x1 x2 x3 x4 x5 x6 x7 x8 x9 x24 x25 x27)
    (h_main_v145 : V (Proc.devRef .tc main_v145) = val_main_v145 (F := F) x0 x1 x2 x3 x4 x5 x6 x7 x8 x9 x24 x25 x27)
    (h_main_v5 : V (Proc.devRef .tc main_v5) = val_main_v5 (F := F) x27) :
    after ops6 V (Proc.devRef .tc main_v184) = val_main_v184 (F := F) x0 x1 x2 x3 x4 x5 x6 x7 x8 x9 x10 x24 x25 x27 := by
  simp only [ops6]
  after_results_simp
  simp only [h_main_arg10, h_main_v88, h_main_v158, h_main_v159, h_main_v148, h_main_v155, h_main_v145, h_main_v5]
  rfl

set_option maxHeartbeats 2000000 in
theorem st6_main_v186 (V : Valuation τ sig (Elt F)) (x11 : (⟨S256, .f32⟩ : BufTy).Contents (Elt F))
    (h_main_arg11 : V (Proc.devRef .tc main_arg11) = x11) :
    after ops6 V (Proc.devRef .tc main_v186) = val_main_v186 (F := F) x11 := by
  simp only [ops6]
  after_results_simp
  simp only [h_main_arg11]
  rfl

end Cert.ReferenceIdeal.RunH

end
-- ==== Proof.RRunSt7.lean ====
/- The reference program's stretch 7 (its operations 219 … 250 of 314) read at the buffers later stretches read: from any
  contents `V` that hold, at the buffers this stretch reads, the stages' values of the argument arrays `x…`, each such buffer
  ends the stretch at its own stage's value of the same arrays (the stretch's operations applied to those values ARE the stage).
-/
import proofs.«423165_j21801253994886_2_alg».proof.Proof.RRead
import proofs.«423165_j21801253994886_2_alg».proof.Proof.RRunOps
set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

open Cert.ReferenceIdeal.RunOps

set_option maxHeartbeats 2000000 in
theorem st7_main_v196 (V : Valuation τ sig (Elt F)) (x26 : (⟨S128, .i32⟩ : BufTy).Contents (Elt F))
    (h_main_arg26 : V (Proc.devRef .tc main_arg26) = x26) :
    after ops7 V (Proc.devRef .tc main_v196) = val_main_v196 (F := F) x26 := by
  simp only [ops7]
  after_results_simp
  simp only [h_main_arg26]
  rfl

set_option maxHeartbeats 2000000 in
theorem st7_main_v197 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x10 : (⟨S256x128, .f32⟩ : BufTy).Contents (Elt F)) (x11 : (⟨S256, .f32⟩ : BufTy).Contents (Elt F)) (x12 : (⟨S256x128, .f32⟩ : BufTy).Contents (Elt F)) (x13 : (⟨S256, .f32⟩ : BufTy).Contents (Elt F)) (x18 : (⟨S33x256, .f32⟩ : BufTy).Contents (Elt F)) (x19 : (⟨S33, .f32⟩ : BufTy).Contents (Elt F)) (x24 : (⟨S655360, .i32⟩ : BufTy).Contents (Elt F)) (x25 : (⟨S655360, .i32⟩ : BufTy).Contents (Elt F)) (x27 : (⟨S65536, .i32⟩ : BufTy).Contents (Elt F))
    (h_main_arg19 : V (Proc.devRef .tc main_arg19) = x19)
    (h_main_arg18 : V (Proc.devRef .tc main_arg18) = x18)
    (h_main_v182 : V (Proc.devRef .tc main_v182) = val_main_v182 (F := F) x0 x1 x2 x3 x4 x5 x6 x7 x8 x9 x12 x13 x24 x25 x27)
    (h_main_v186 : V (Proc.devRef .tc main_v186) = val_main_v186 (F := F) x11)
    (h_main_v184 : V (Proc.devRef .tc main_v184) = val_main_v184 (F := F) x0 x1 x2 x3 x4 x5 x6 x7 x8 x9 x10 x24 x25 x27)
    (h_main_v1 : V (Proc.devRef .tc main_v1) = val_main_v1 (F := F) x27) :
    after ops7 V (Proc.devRef .tc main_v197) = val_main_v197 (F := F) x0 x1 x2 x3 x4 x5 x6 x7 x8 x9 x10 x11 x12 x13 x18 x19 x24 x25 x27 := by
  simp only [ops7]
  after_results_simp
  simp only [h_main_arg19, h_main_arg18, h_main_v182, h_main_v186, h_main_v184, h_main_v1]
  rfl

set_option maxHeartbeats 2000000 in
theorem st7_main_v198 (V : Valuation τ sig (Elt F)) (x26 : (⟨S128, .i32⟩ : BufTy).Contents (Elt F))
    (h_main_arg26 : V (Proc.devRef .tc main_arg26) = x26) :
    after ops7 V (Proc.devRef .tc main_v198) = val_main_v198 (F := F) x26 := by
  simp only [ops7]
  after_results_simp
  simp only [h_main_arg26]
  rfl

set_option maxHeartbeats 2000000 in
theorem st7_main_call4_v1 (V : Valuation τ sig (Elt F)) (x26 : (⟨S128, .i32⟩ : BufTy).Contents (Elt F))
    (h_main_arg26 : V (Proc.devRef .tc main_arg26) = x26) :
    after ops7 V (Proc.devRef .tc main_call4_v1) = val_main_call4_v1 (F := F) x26 := by
  simp only [ops7]
  after_results_simp
  simp only [h_main_arg26]
  rfl

set_option maxHeartbeats 2000000 in
theorem st7_main_call4_v2 (V : Valuation τ sig (Elt F))
     :
    after ops7 V (Proc.devRef .tc main_call4_v2) = val_main_call4_v2 (F := F) := by
  simp only [ops7]
  after_results_simp
  rfl

end Cert.ReferenceIdeal.RunH

end
-- ==== Proof.RRunSt8.lean ====
/- The reference program's stretch 8 (its operations 251 … 282 of 314) read at the buffers later stretches read: from any
  contents `V` that hold, at the buffers this stretch reads, the stages' values of the argument arrays `x…`, each such buffer
  ends the stretch at its own stage's value of the same arrays (the stretch's operations applied to those values ARE the stage).
-/
import proofs.«423165_j21801253994886_2_alg».proof.Proof.RRead
import proofs.«423165_j21801253994886_2_alg».proof.Proof.RRunOps
set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

open Cert.ReferenceIdeal.RunOps

set_option maxHeartbeats 2000000 in
theorem st8_main_v203 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x10 : (⟨S256x128, .f32⟩ : BufTy).Contents (Elt F)) (x11 : (⟨S256, .f32⟩ : BufTy).Contents (Elt F)) (x12 : (⟨S256x128, .f32⟩ : BufTy).Contents (Elt F)) (x13 : (⟨S256, .f32⟩ : BufTy).Contents (Elt F)) (x18 : (⟨S33x256, .f32⟩ : BufTy).Contents (Elt F)) (x19 : (⟨S33, .f32⟩ : BufTy).Contents (Elt F)) (x24 : (⟨S655360, .i32⟩ : BufTy).Contents (Elt F)) (x25 : (⟨S655360, .i32⟩ : BufTy).Contents (Elt F)) (x26 : (⟨S128, .i32⟩ : BufTy).Contents (Elt F)) (x27 : (⟨S65536, .i32⟩ : BufTy).Contents (Elt F))
    (h_main_v198 : V (Proc.devRef .tc main_v198) = val_main_v198 (F := F) x26)
    (h_main_call4_v2 : V (Proc.devRef .tc main_call4_v2) = val_main_call4_v2 (F := F))
    (h_main_call4_v1 : V (Proc.devRef .tc main_call4_v1) = val_main_call4_v1 (F := F) x26)
    (h_main_v197 : V (Proc.devRef .tc main_v197) = val_main_v197 (F := F) x0 x1 x2 x3 x4 x5 x6 x7 x8 x9 x10 x11 x12 x13 x18 x19 x24 x25 x27) :
    after ops8 V (Proc.devRef .tc main_v203) = val_main_v203 (F := F) x0 x1 x2 x3 x4 x5 x6 x7 x8 x9 x10 x11 x12 x13 x18 x19 x24 x25 x26 x27 := by
  simp only [ops8]
  after_results_simp
  simp only [h_main_v198, h_main_call4_v2, h_main_call4_v1, h_main_v197]
  rfl

set_option maxHeartbeats 2000000 in
theorem st8_main_v205 (V : Valuation τ sig (Elt F)) (x26 : (⟨S128, .i32⟩ : BufTy).Contents (Elt F))
    (h_main_v196 : V (Proc.devRef .tc main_v196) = val_main_v196 (F := F) x26) :
    after ops8 V (Proc.devRef .tc main_v205) = val_main_v205 (F := F) x26 := by
  simp only [ops8]
  after_results_simp
  simp only [h_main_v196]
  rfl

set_option maxHeartbeats 2000000 in
theorem st8_main_v207 (V : Valuation τ sig (Elt F)) (x26 : (⟨S128, .i32⟩ : BufTy).Contents (Elt F))
    (h_main_v196 : V (Proc.devRef .tc main_v196) = val_main_v196 (F := F) x26) :
    after ops8 V (Proc.devRef .tc main_v207) = val_main_v207 (F := F) x26 := by
  simp only [ops8]
  after_results_simp
  simp only [h_main_v196]
  rfl

set_option maxHeartbeats 2000000 in
theorem st8_main_v209 (V : Valuation τ sig (Elt F)) (x26 : (⟨S128, .i32⟩ : BufTy).Contents (Elt F))
    (h_main_v196 : V (Proc.devRef .tc main_v196) = val_main_v196 (F := F) x26) :
    after ops8 V (Proc.devRef .tc main_v209) = val_main_v209 (F := F) x26 := by
  simp only [ops8]
  after_results_simp
  simp only [h_main_v196]
  rfl

end Cert.ReferenceIdeal.RunH

end
-- ==== Proof.RRunSt9.lean ====
/- The reference program's stretch 9 (its operations 283 … 313 of 314) read at the buffers later stretches read: from any
  contents `V` that hold, at the buffers this stretch reads, the stages' values of the argument arrays `x…`, each such buffer
  ends the stretch at its own stage's value of the same arrays (the stretch's operations applied to those values ARE the stage).
-/
import proofs.«423165_j21801253994886_2_alg».proof.Proof.RRead
import proofs.«423165_j21801253994886_2_alg».proof.Proof.RRunOps
set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

open Cert.ReferenceIdeal.RunOps

set_option maxHeartbeats 2000000 in
theorem st9_main_v238 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x14 : (⟨S256x128, .f32⟩ : BufTy).Contents (Elt F)) (x15 : (⟨S256, .f32⟩ : BufTy).Contents (Elt F)) (x16 : (⟨S256x128, .f32⟩ : BufTy).Contents (Elt F)) (x17 : (⟨S256, .f32⟩ : BufTy).Contents (Elt F)) (x20 : (⟨S32x128, .f32⟩ : BufTy).Contents (Elt F)) (x21 : (⟨S128x128, .f32⟩ : BufTy).Contents (Elt F)) (x22 : (⟨S128, .f32⟩ : BufTy).Contents (Elt F)) (x23 : (⟨S128x256, .f32⟩ : BufTy).Contents (Elt F)) (x24 : (⟨S655360, .i32⟩ : BufTy).Contents (Elt F)) (x25 : (⟨S655360, .i32⟩ : BufTy).Contents (Elt F)) (x26 : (⟨S128, .i32⟩ : BufTy).Contents (Elt F)) (x27 : (⟨S65536, .i32⟩ : BufTy).Contents (Elt F))
    (h_main_arg23 : V (Proc.devRef .tc main_arg23) = x23)
    (h_main_arg17 : V (Proc.devRef .tc main_arg17) = x17)
    (h_main_arg16 : V (Proc.devRef .tc main_arg16) = x16)
    (h_main_v171 : V (Proc.devRef .tc main_v171) = val_main_v171 (F := F) x0 x1 x2 x3 x4 x5 x6 x7 x8 x9 x24 x25 x27)
    (h_main_arg15 : V (Proc.devRef .tc main_arg15) = x15)
    (h_main_arg14 : V (Proc.devRef .tc main_arg14) = x14)
    (h_main_v1 : V (Proc.devRef .tc main_v1) = val_main_v1 (F := F) x27)
    (h_main_arg22 : V (Proc.devRef .tc main_arg22) = x22)
    (h_main_arg21 : V (Proc.devRef .tc main_arg21) = x21)
    (h_main_v205 : V (Proc.devRef .tc main_v205) = val_main_v205 (F := F) x26)
    (h_main_v209 : V (Proc.devRef .tc main_v209) = val_main_v209 (F := F) x26)
    (h_main_v207 : V (Proc.devRef .tc main_v207) = val_main_v207 (F := F) x26)
    (h_main_arg20 : V (Proc.devRef .tc main_arg20) = x20) :
    after ops9 V (Proc.devRef .tc main_v238) = val_main_v238 (F := F) x0 x1 x2 x3 x4 x5 x6 x7 x8 x9 x14 x15 x16 x17 x20 x21 x22 x23 x24 x25 x26 x27 := by
  simp only [ops9]
  after_results_simp
  simp only [h_main_arg23, h_main_arg17, h_main_arg16, h_main_v171, h_main_arg15, h_main_arg14, h_main_v1, h_main_arg22, h_main_arg21, h_main_v205, h_main_v209, h_main_v207, h_main_arg20]
  rfl

end Cert.ReferenceIdeal.RunH

end
-- ==== Proof.RRunSt10.lean ====
/- The reference program's stretch 10 (its operations 314 … 314 of 314) read at the buffers later stretches read: from any
  contents `V` that hold, at the buffers this stretch reads, the stages' values of the argument arrays `x…`, each such buffer
  ends the stretch at its own stage's value of the same arrays (the stretch's operations applied to those values ARE the stage).
-/
import proofs.«423165_j21801253994886_2_alg».proof.Proof.RRead
import proofs.«423165_j21801253994886_2_alg».proof.Proof.RRunOps
set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

open Cert.ReferenceIdeal.RunOps

set_option maxHeartbeats 2000000 in
theorem st10_main_v239 (V : Valuation τ sig (Elt F)) (x0 : (⟨S65536x128, .f32⟩ : BufTy).Contents (Elt F)) (x1 : (⟨S655360x128, .f32⟩ : BufTy).Contents (Elt F)) (x2 : (⟨S2x256x128, .f32⟩ : BufTy).Contents (Elt F)) (x3 : (⟨S2x256x128, .f32⟩ : BufTy).Contents (Elt F)) (x4 : (⟨S2x256, .f32⟩ : BufTy).Contents (Elt F)) (x5 : (⟨S2x256x128, .f32⟩ : BufTy).Contents (Elt F)) (x6 : (⟨S2x384x256, .f32⟩ : BufTy).Contents (Elt F)) (x7 : (⟨S2x384x128, .f32⟩ : BufTy).Contents (Elt F)) (x8 : (⟨S2x384, .f32⟩ : BufTy).Contents (Elt F)) (x9 : (⟨S2x384, .f32⟩ : BufTy).Contents (Elt F)) (x14 : (⟨S256x128, .f32⟩ : BufTy).Contents (Elt F)) (x15 : (⟨S256, .f32⟩ : BufTy).Contents (Elt F)) (x16 : (⟨S256x128, .f32⟩ : BufTy).Contents (Elt F)) (x17 : (⟨S256, .f32⟩ : BufTy).Contents (Elt F)) (x20 : (⟨S32x128, .f32⟩ : BufTy).Contents (Elt F)) (x21 : (⟨S128x128, .f32⟩ : BufTy).Contents (Elt F)) (x22 : (⟨S128, .f32⟩ : BufTy).Contents (Elt F)) (x23 : (⟨S128x256, .f32⟩ : BufTy).Contents (Elt F)) (x24 : (⟨S655360, .i32⟩ : BufTy).Contents (Elt F)) (x25 : (⟨S655360, .i32⟩ : BufTy).Contents (Elt F)) (x26 : (⟨S128, .i32⟩ : BufTy).Contents (Elt F)) (x27 : (⟨S65536, .i32⟩ : BufTy).Contents (Elt F))
    (h_main_v238 : V (Proc.devRef .tc main_v238) = val_main_v238 (F := F) x0 x1 x2 x3 x4 x5 x6 x7 x8 x9 x14 x15 x16 x17 x20 x21 x22 x23 x24 x25 x26 x27)
    (h_main_v171 : V (Proc.devRef .tc main_v171) = val_main_v171 (F := F) x0 x1 x2 x3 x4 x5 x6 x7 x8 x9 x24 x25 x27) :
    after ops10 V (Proc.devRef .tc main_v239) = val_main_v239 (F := F) x0 x1 x2 x3 x4 x5 x6 x7 x8 x9 x14 x15 x16 x17 x20 x21 x22 x23 x24 x25 x26 x27 := by
  simp only [ops10]
  after_results
  rw [h_main_v238, h_main_v171]
  rfl

end Cert.ReferenceIdeal.RunH

end
-- ==== Proof.RRunU.lean ====
/- The reference program's buffers between its stretches: before the first stretch every argument buffer holds its launch
  contents; after each stretch every buffer a later stretch reads, each result and each argument holds its stage's value of
  the arguments' launch contents — a buffer the stretch writes by the stretch's own lemma from the boundary before, any other
  because the stretch does not write it.
-/
import proofs.«423165_j21801253994886_2_alg».proof.Proof.RRead
import proofs.«423165_j21801253994886_2_alg».proof.Proof.RRunOps
import proofs.«423165_j21801253994886_2_alg».proof.Proof.RRunSt0
import proofs.«423165_j21801253994886_2_alg».proof.Proof.RRunSt1
import proofs.«423165_j21801253994886_2_alg».proof.Proof.RRunSt2
import proofs.«423165_j21801253994886_2_alg».proof.Proof.RRunSt3
import proofs.«423165_j21801253994886_2_alg».proof.Proof.RRunSt4
import proofs.«423165_j21801253994886_2_alg».proof.Proof.RRunSt5
import proofs.«423165_j21801253994886_2_alg».proof.Proof.RRunSt6
import proofs.«423165_j21801253994886_2_alg».proof.Proof.RRunSt7
import proofs.«423165_j21801253994886_2_alg».proof.Proof.RRunSt8
import proofs.«423165_j21801253994886_2_alg».proof.Proof.RRunSt9
import proofs.«423165_j21801253994886_2_alg».proof.Proof.RRunSt10

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.RunOps

variable {F : FTy → Type} [FloatOps F] (V : Valuation τ sig (Elt F))

/-! Before the first stretch. -/
theorem u0_main_arg0 : U0 V (Proc.devRef .tc main_arg0) = V (Proc.devRef .tc main_arg0) := rfl
theorem u0_main_arg1 : U0 V (Proc.devRef .tc main_arg1) = V (Proc.devRef .tc main_arg1) := rfl
theorem u0_main_arg2 : U0 V (Proc.devRef .tc main_arg2) = V (Proc.devRef .tc main_arg2) := rfl
theorem u0_main_arg3 : U0 V (Proc.devRef .tc main_arg3) = V (Proc.devRef .tc main_arg3) := rfl
theorem u0_main_arg4 : U0 V (Proc.devRef .tc main_arg4) = V (Proc.devRef .tc main_arg4) := rfl
theorem u0_main_arg5 : U0 V (Proc.devRef .tc main_arg5) = V (Proc.devRef .tc main_arg5) := rfl
theorem u0_main_arg6 : U0 V (Proc.devRef .tc main_arg6) = V (Proc.devRef .tc main_arg6) := rfl
theorem u0_main_arg7 : U0 V (Proc.devRef .tc main_arg7) = V (Proc.devRef .tc main_arg7) := rfl
theorem u0_main_arg8 : U0 V (Proc.devRef .tc main_arg8) = V (Proc.devRef .tc main_arg8) := rfl
theorem u0_main_arg9 : U0 V (Proc.devRef .tc main_arg9) = V (Proc.devRef .tc main_arg9) := rfl
theorem u0_main_arg10 : U0 V (Proc.devRef .tc main_arg10) = V (Proc.devRef .tc main_arg10) := rfl
theorem u0_main_arg11 : U0 V (Proc.devRef .tc main_arg11) = V (Proc.devRef .tc main_arg11) := rfl
theorem u0_main_arg12 : U0 V (Proc.devRef .tc main_arg12) = V (Proc.devRef .tc main_arg12) := rfl
theorem u0_main_arg13 : U0 V (Proc.devRef .tc main_arg13) = V (Proc.devRef .tc main_arg13) := rfl
theorem u0_main_arg14 : U0 V (Proc.devRef .tc main_arg14) = V (Proc.devRef .tc main_arg14) := rfl
theorem u0_main_arg15 : U0 V (Proc.devRef .tc main_arg15) = V (Proc.devRef .tc main_arg15) := rfl
theorem u0_main_arg16 : U0 V (Proc.devRef .tc main_arg16) = V (Proc.devRef .tc main_arg16) := rfl
theorem u0_main_arg17 : U0 V (Proc.devRef .tc main_arg17) = V (Proc.devRef .tc main_arg17) := rfl
theorem u0_main_arg18 : U0 V (Proc.devRef .tc main_arg18) = V (Proc.devRef .tc main_arg18) := rfl
theorem u0_main_arg19 : U0 V (Proc.devRef .tc main_arg19) = V (Proc.devRef .tc main_arg19) := rfl
theorem u0_main_arg20 : U0 V (Proc.devRef .tc main_arg20) = V (Proc.devRef .tc main_arg20) := rfl
theorem u0_main_arg21 : U0 V (Proc.devRef .tc main_arg21) = V (Proc.devRef .tc main_arg21) := rfl
theorem u0_main_arg22 : U0 V (Proc.devRef .tc main_arg22) = V (Proc.devRef .tc main_arg22) := rfl
theorem u0_main_arg23 : U0 V (Proc.devRef .tc main_arg23) = V (Proc.devRef .tc main_arg23) := rfl
theorem u0_main_arg24 : U0 V (Proc.devRef .tc main_arg24) = V (Proc.devRef .tc main_arg24) := rfl
theorem u0_main_arg25 : U0 V (Proc.devRef .tc main_arg25) = V (Proc.devRef .tc main_arg25) := rfl
theorem u0_main_arg26 : U0 V (Proc.devRef .tc main_arg26) = V (Proc.devRef .tc main_arg26) := rfl
theorem u0_main_arg27 : U0 V (Proc.devRef .tc main_arg27) = V (Proc.devRef .tc main_arg27) := rfl

/-! After stretch 0. -/
theorem u1_main_arg0 : U1 V (Proc.devRef .tc main_arg0) = V (Proc.devRef .tc main_arg0) :=
  (keep0 (U0 V) main_arg0 (by decide)).trans (u0_main_arg0 V)
theorem u1_main_arg1 : U1 V (Proc.devRef .tc main_arg1) = V (Proc.devRef .tc main_arg1) :=
  (keep0 (U0 V) main_arg1 (by decide)).trans (u0_main_arg1 V)
theorem u1_main_arg2 : U1 V (Proc.devRef .tc main_arg2) = V (Proc.devRef .tc main_arg2) :=
  (keep0 (U0 V) main_arg2 (by decide)).trans (u0_main_arg2 V)
theorem u1_main_arg3 : U1 V (Proc.devRef .tc main_arg3) = V (Proc.devRef .tc main_arg3) :=
  (keep0 (U0 V) main_arg3 (by decide)).trans (u0_main_arg3 V)
theorem u1_main_arg4 : U1 V (Proc.devRef .tc main_arg4) = V (Proc.devRef .tc main_arg4) :=
  (keep0 (U0 V) main_arg4 (by decide)).trans (u0_main_arg4 V)
theorem u1_main_arg5 : U1 V (Proc.devRef .tc main_arg5) = V (Proc.devRef .tc main_arg5) :=
  (keep0 (U0 V) main_arg5 (by decide)).trans (u0_main_arg5 V)
theorem u1_main_arg6 : U1 V (Proc.devRef .tc main_arg6) = V (Proc.devRef .tc main_arg6) :=
  (keep0 (U0 V) main_arg6 (by decide)).trans (u0_main_arg6 V)
theorem u1_main_arg7 : U1 V (Proc.devRef .tc main_arg7) = V (Proc.devRef .tc main_arg7) :=
  (keep0 (U0 V) main_arg7 (by decide)).trans (u0_main_arg7 V)
theorem u1_main_arg8 : U1 V (Proc.devRef .tc main_arg8) = V (Proc.devRef .tc main_arg8) :=
  (keep0 (U0 V) main_arg8 (by decide)).trans (u0_main_arg8 V)
theorem u1_main_arg9 : U1 V (Proc.devRef .tc main_arg9) = V (Proc.devRef .tc main_arg9) :=
  (keep0 (U0 V) main_arg9 (by decide)).trans (u0_main_arg9 V)
theorem u1_main_arg10 : U1 V (Proc.devRef .tc main_arg10) = V (Proc.devRef .tc main_arg10) :=
  (keep0 (U0 V) main_arg10 (by decide)).trans (u0_main_arg10 V)
theorem u1_main_arg11 : U1 V (Proc.devRef .tc main_arg11) = V (Proc.devRef .tc main_arg11) :=
  (keep0 (U0 V) main_arg11 (by decide)).trans (u0_main_arg11 V)
theorem u1_main_arg12 : U1 V (Proc.devRef .tc main_arg12) = V (Proc.devRef .tc main_arg12) :=
  (keep0 (U0 V) main_arg12 (by decide)).trans (u0_main_arg12 V)
theorem u1_main_arg13 : U1 V (Proc.devRef .tc main_arg13) = V (Proc.devRef .tc main_arg13) :=
  (keep0 (U0 V) main_arg13 (by decide)).trans (u0_main_arg13 V)
theorem u1_main_arg14 : U1 V (Proc.devRef .tc main_arg14) = V (Proc.devRef .tc main_arg14) :=
  (keep0 (U0 V) main_arg14 (by decide)).trans (u0_main_arg14 V)
theorem u1_main_arg15 : U1 V (Proc.devRef .tc main_arg15) = V (Proc.devRef .tc main_arg15) :=
  (keep0 (U0 V) main_arg15 (by decide)).trans (u0_main_arg15 V)
theorem u1_main_arg16 : U1 V (Proc.devRef .tc main_arg16) = V (Proc.devRef .tc main_arg16) :=
  (keep0 (U0 V) main_arg16 (by decide)).trans (u0_main_arg16 V)
theorem u1_main_arg17 : U1 V (Proc.devRef .tc main_arg17) = V (Proc.devRef .tc main_arg17) :=
  (keep0 (U0 V) main_arg17 (by decide)).trans (u0_main_arg17 V)
theorem u1_main_arg18 : U1 V (Proc.devRef .tc main_arg18) = V (Proc.devRef .tc main_arg18) :=
  (keep0 (U0 V) main_arg18 (by decide)).trans (u0_main_arg18 V)
theorem u1_main_arg19 : U1 V (Proc.devRef .tc main_arg19) = V (Proc.devRef .tc main_arg19) :=
  (keep0 (U0 V) main_arg19 (by decide)).trans (u0_main_arg19 V)
theorem u1_main_arg20 : U1 V (Proc.devRef .tc main_arg20) = V (Proc.devRef .tc main_arg20) :=
  (keep0 (U0 V) main_arg20 (by decide)).trans (u0_main_arg20 V)
theorem u1_main_arg21 : U1 V (Proc.devRef .tc main_arg21) = V (Proc.devRef .tc main_arg21) :=
  (keep0 (U0 V) main_arg21 (by decide)).trans (u0_main_arg21 V)
theorem u1_main_arg22 : U1 V (Proc.devRef .tc main_arg22) = V (Proc.devRef .tc main_arg22) :=
  (keep0 (U0 V) main_arg22 (by decide)).trans (u0_main_arg22 V)
theorem u1_main_arg23 : U1 V (Proc.devRef .tc main_arg23) = V (Proc.devRef .tc main_arg23) :=
  (keep0 (U0 V) main_arg23 (by decide)).trans (u0_main_arg23 V)
theorem u1_main_arg24 : U1 V (Proc.devRef .tc main_arg24) = V (Proc.devRef .tc main_arg24) :=
  (keep0 (U0 V) main_arg24 (by decide)).trans (u0_main_arg24 V)
theorem u1_main_arg25 : U1 V (Proc.devRef .tc main_arg25) = V (Proc.devRef .tc main_arg25) :=
  (keep0 (U0 V) main_arg25 (by decide)).trans (u0_main_arg25 V)
theorem u1_main_arg26 : U1 V (Proc.devRef .tc main_arg26) = V (Proc.devRef .tc main_arg26) :=
  (keep0 (U0 V) main_arg26 (by decide)).trans (u0_main_arg26 V)
theorem u1_main_arg27 : U1 V (Proc.devRef .tc main_arg27) = V (Proc.devRef .tc main_arg27) :=
  (keep0 (U0 V) main_arg27 (by decide)).trans (u0_main_arg27 V)
theorem u1_main_v1 : U1 V (Proc.devRef .tc main_v1) = val_main_v1 (F := F) (V (Proc.devRef .tc main_arg27)) :=
  st0_main_v1 (U0 V) (V (Proc.devRef .tc main_arg27)) (u0_main_arg27 V)
theorem u1_main_v5 : U1 V (Proc.devRef .tc main_v5) = val_main_v5 (F := F) (V (Proc.devRef .tc main_arg27)) :=
  st0_main_v5 (U0 V) (V (Proc.devRef .tc main_arg27)) (u0_main_arg27 V)
theorem u1_main_v9 : U1 V (Proc.devRef .tc main_v9) = val_main_v9 (F := F) (V (Proc.devRef .tc main_arg0)) (V (Proc.devRef .tc main_arg2)) :=
  st0_main_v9 (U0 V) (V (Proc.devRef .tc main_arg0)) (V (Proc.devRef .tc main_arg2)) (u0_main_arg2 V) (u0_main_arg0 V)
theorem u1_main_v18 : U1 V (Proc.devRef .tc main_v18) = val_main_v18 (F := F) (V (Proc.devRef .tc main_arg0)) (V (Proc.devRef .tc main_arg3)) (V (Proc.devRef .tc main_arg4)) :=
  st0_main_v18 (U0 V) (V (Proc.devRef .tc main_arg0)) (V (Proc.devRef .tc main_arg3)) (V (Proc.devRef .tc main_arg4)) (u0_main_arg4 V) (u0_main_arg3 V) (u0_main_arg0 V)
theorem u1_main_v22 : U1 V (Proc.devRef .tc main_v22) = val_main_v22 (F := F) (V (Proc.devRef .tc main_arg1)) (V (Proc.devRef .tc main_arg5)) :=
  st0_main_v22 (U0 V) (V (Proc.devRef .tc main_arg1)) (V (Proc.devRef .tc main_arg5)) (u0_main_arg5 V) (u0_main_arg1 V)
theorem u1_main_v24 : U1 V (Proc.devRef .tc main_v24) = val_main_v24 (F := F) (V (Proc.devRef .tc main_arg24)) :=
  st0_main_v24 (U0 V) (V (Proc.devRef .tc main_arg24)) (u0_main_arg24 V)

/-! After stretch 1. -/
theorem u2_main_arg0 : U2 V (Proc.devRef .tc main_arg0) = V (Proc.devRef .tc main_arg0) :=
  (keep1 (U1 V) main_arg0 (by decide)).trans (u1_main_arg0 V)
theorem u2_main_arg1 : U2 V (Proc.devRef .tc main_arg1) = V (Proc.devRef .tc main_arg1) :=
  (keep1 (U1 V) main_arg1 (by decide)).trans (u1_main_arg1 V)
theorem u2_main_arg2 : U2 V (Proc.devRef .tc main_arg2) = V (Proc.devRef .tc main_arg2) :=
  (keep1 (U1 V) main_arg2 (by decide)).trans (u1_main_arg2 V)
theorem u2_main_arg3 : U2 V (Proc.devRef .tc main_arg3) = V (Proc.devRef .tc main_arg3) :=
  (keep1 (U1 V) main_arg3 (by decide)).trans (u1_main_arg3 V)
theorem u2_main_arg4 : U2 V (Proc.devRef .tc main_arg4) = V (Proc.devRef .tc main_arg4) :=
  (keep1 (U1 V) main_arg4 (by decide)).trans (u1_main_arg4 V)
theorem u2_main_arg5 : U2 V (Proc.devRef .tc main_arg5) = V (Proc.devRef .tc main_arg5) :=
  (keep1 (U1 V) main_arg5 (by decide)).trans (u1_main_arg5 V)
theorem u2_main_arg6 : U2 V (Proc.devRef .tc main_arg6) = V (Proc.devRef .tc main_arg6) :=
  (keep1 (U1 V) main_arg6 (by decide)).trans (u1_main_arg6 V)
theorem u2_main_arg7 : U2 V (Proc.devRef .tc main_arg7) = V (Proc.devRef .tc main_arg7) :=
  (keep1 (U1 V) main_arg7 (by decide)).trans (u1_main_arg7 V)
theorem u2_main_arg8 : U2 V (Proc.devRef .tc main_arg8) = V (Proc.devRef .tc main_arg8) :=
  (keep1 (U1 V) main_arg8 (by decide)).trans (u1_main_arg8 V)
theorem u2_main_arg9 : U2 V (Proc.devRef .tc main_arg9) = V (Proc.devRef .tc main_arg9) :=
  (keep1 (U1 V) main_arg9 (by decide)).trans (u1_main_arg9 V)
theorem u2_main_arg10 : U2 V (Proc.devRef .tc main_arg10) = V (Proc.devRef .tc main_arg10) :=
  (keep1 (U1 V) main_arg10 (by decide)).trans (u1_main_arg10 V)
theorem u2_main_arg11 : U2 V (Proc.devRef .tc main_arg11) = V (Proc.devRef .tc main_arg11) :=
  (keep1 (U1 V) main_arg11 (by decide)).trans (u1_main_arg11 V)
theorem u2_main_arg12 : U2 V (Proc.devRef .tc main_arg12) = V (Proc.devRef .tc main_arg12) :=
  (keep1 (U1 V) main_arg12 (by decide)).trans (u1_main_arg12 V)
theorem u2_main_arg13 : U2 V (Proc.devRef .tc main_arg13) = V (Proc.devRef .tc main_arg13) :=
  (keep1 (U1 V) main_arg13 (by decide)).trans (u1_main_arg13 V)
theorem u2_main_arg14 : U2 V (Proc.devRef .tc main_arg14) = V (Proc.devRef .tc main_arg14) :=
  (keep1 (U1 V) main_arg14 (by decide)).trans (u1_main_arg14 V)
theorem u2_main_arg15 : U2 V (Proc.devRef .tc main_arg15) = V (Proc.devRef .tc main_arg15) :=
  (keep1 (U1 V) main_arg15 (by decide)).trans (u1_main_arg15 V)
theorem u2_main_arg16 : U2 V (Proc.devRef .tc main_arg16) = V (Proc.devRef .tc main_arg16) :=
  (keep1 (U1 V) main_arg16 (by decide)).trans (u1_main_arg16 V)
theorem u2_main_arg17 : U2 V (Proc.devRef .tc main_arg17) = V (Proc.devRef .tc main_arg17) :=
  (keep1 (U1 V) main_arg17 (by decide)).trans (u1_main_arg17 V)
theorem u2_main_arg18 : U2 V (Proc.devRef .tc main_arg18) = V (Proc.devRef .tc main_arg18) :=
  (keep1 (U1 V) main_arg18 (by decide)).trans (u1_main_arg18 V)
theorem u2_main_arg19 : U2 V (Proc.devRef .tc main_arg19) = V (Proc.devRef .tc main_arg19) :=
  (keep1 (U1 V) main_arg19 (by decide)).trans (u1_main_arg19 V)
theorem u2_main_arg20 : U2 V (Proc.devRef .tc main_arg20) = V (Proc.devRef .tc main_arg20) :=
  (keep1 (U1 V) main_arg20 (by decide)).trans (u1_main_arg20 V)
theorem u2_main_arg21 : U2 V (Proc.devRef .tc main_arg21) = V (Proc.devRef .tc main_arg21) :=
  (keep1 (U1 V) main_arg21 (by decide)).trans (u1_main_arg21 V)
theorem u2_main_arg22 : U2 V (Proc.devRef .tc main_arg22) = V (Proc.devRef .tc main_arg22) :=
  (keep1 (U1 V) main_arg22 (by decide)).trans (u1_main_arg22 V)
theorem u2_main_arg23 : U2 V (Proc.devRef .tc main_arg23) = V (Proc.devRef .tc main_arg23) :=
  (keep1 (U1 V) main_arg23 (by decide)).trans (u1_main_arg23 V)
theorem u2_main_arg24 : U2 V (Proc.devRef .tc main_arg24) = V (Proc.devRef .tc main_arg24) :=
  (keep1 (U1 V) main_arg24 (by decide)).trans (u1_main_arg24 V)
theorem u2_main_arg25 : U2 V (Proc.devRef .tc main_arg25) = V (Proc.devRef .tc main_arg25) :=
  (keep1 (U1 V) main_arg25 (by decide)).trans (u1_main_arg25 V)
theorem u2_main_arg26 : U2 V (Proc.devRef .tc main_arg26) = V (Proc.devRef .tc main_arg26) :=
  (keep1 (U1 V) main_arg26 (by decide)).trans (u1_main_arg26 V)
theorem u2_main_arg27 : U2 V (Proc.devRef .tc main_arg27) = V (Proc.devRef .tc main_arg27) :=
  (keep1 (U1 V) main_arg27 (by decide)).trans (u1_main_arg27 V)
theorem u2_main_v1 : U2 V (Proc.devRef .tc main_v1) = val_main_v1 (F := F) (V (Proc.devRef .tc main_arg27)) :=
  (keep1 (U1 V) main_v1 (by decide)).trans (u1_main_v1 V)
theorem u2_main_v5 : U2 V (Proc.devRef .tc main_v5) = val_main_v5 (F := F) (V (Proc.devRef .tc main_arg27)) :=
  (keep1 (U1 V) main_v5 (by decide)).trans (u1_main_v5 V)
theorem u2_main_v50 : U2 V (Proc.devRef .tc main_v50) = val_main_v50 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg8)) (V (Proc.devRef .tc main_arg24)) (V (Proc.devRef .tc main_arg25)) :=
  st1_main_v50 (U1 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg8)) (V (Proc.devRef .tc main_arg24)) (V (Proc.devRef .tc main_arg25)) (u1_main_arg8 V) (u1_main_arg6 V) (u1_main_v22 V) (u1_main_arg25 V) (u1_main_v18 V) (u1_main_arg24 V) (u1_main_v24 V) (u1_main_v9 V)
theorem u2_main_v52 : U2 V (Proc.devRef .tc main_v52) = val_main_v52 (F := F) (V (Proc.devRef .tc main_arg7)) :=
  st1_main_v52 (U1 V) (V (Proc.devRef .tc main_arg7)) (u1_main_arg7 V)

/-! After stretch 2. -/
theorem u3_main_arg0 : U3 V (Proc.devRef .tc main_arg0) = V (Proc.devRef .tc main_arg0) :=
  (keep2 (U2 V) main_arg0 (by decide)).trans (u2_main_arg0 V)
theorem u3_main_arg1 : U3 V (Proc.devRef .tc main_arg1) = V (Proc.devRef .tc main_arg1) :=
  (keep2 (U2 V) main_arg1 (by decide)).trans (u2_main_arg1 V)
theorem u3_main_arg2 : U3 V (Proc.devRef .tc main_arg2) = V (Proc.devRef .tc main_arg2) :=
  (keep2 (U2 V) main_arg2 (by decide)).trans (u2_main_arg2 V)
theorem u3_main_arg3 : U3 V (Proc.devRef .tc main_arg3) = V (Proc.devRef .tc main_arg3) :=
  (keep2 (U2 V) main_arg3 (by decide)).trans (u2_main_arg3 V)
theorem u3_main_arg4 : U3 V (Proc.devRef .tc main_arg4) = V (Proc.devRef .tc main_arg4) :=
  (keep2 (U2 V) main_arg4 (by decide)).trans (u2_main_arg4 V)
theorem u3_main_arg5 : U3 V (Proc.devRef .tc main_arg5) = V (Proc.devRef .tc main_arg5) :=
  (keep2 (U2 V) main_arg5 (by decide)).trans (u2_main_arg5 V)
theorem u3_main_arg6 : U3 V (Proc.devRef .tc main_arg6) = V (Proc.devRef .tc main_arg6) :=
  (keep2 (U2 V) main_arg6 (by decide)).trans (u2_main_arg6 V)
theorem u3_main_arg7 : U3 V (Proc.devRef .tc main_arg7) = V (Proc.devRef .tc main_arg7) :=
  (keep2 (U2 V) main_arg7 (by decide)).trans (u2_main_arg7 V)
theorem u3_main_arg8 : U3 V (Proc.devRef .tc main_arg8) = V (Proc.devRef .tc main_arg8) :=
  (keep2 (U2 V) main_arg8 (by decide)).trans (u2_main_arg8 V)
theorem u3_main_arg9 : U3 V (Proc.devRef .tc main_arg9) = V (Proc.devRef .tc main_arg9) :=
  (keep2 (U2 V) main_arg9 (by decide)).trans (u2_main_arg9 V)
theorem u3_main_arg10 : U3 V (Proc.devRef .tc main_arg10) = V (Proc.devRef .tc main_arg10) :=
  (keep2 (U2 V) main_arg10 (by decide)).trans (u2_main_arg10 V)
theorem u3_main_arg11 : U3 V (Proc.devRef .tc main_arg11) = V (Proc.devRef .tc main_arg11) :=
  (keep2 (U2 V) main_arg11 (by decide)).trans (u2_main_arg11 V)
theorem u3_main_arg12 : U3 V (Proc.devRef .tc main_arg12) = V (Proc.devRef .tc main_arg12) :=
  (keep2 (U2 V) main_arg12 (by decide)).trans (u2_main_arg12 V)
theorem u3_main_arg13 : U3 V (Proc.devRef .tc main_arg13) = V (Proc.devRef .tc main_arg13) :=
  (keep2 (U2 V) main_arg13 (by decide)).trans (u2_main_arg13 V)
theorem u3_main_arg14 : U3 V (Proc.devRef .tc main_arg14) = V (Proc.devRef .tc main_arg14) :=
  (keep2 (U2 V) main_arg14 (by decide)).trans (u2_main_arg14 V)
theorem u3_main_arg15 : U3 V (Proc.devRef .tc main_arg15) = V (Proc.devRef .tc main_arg15) :=
  (keep2 (U2 V) main_arg15 (by decide)).trans (u2_main_arg15 V)
theorem u3_main_arg16 : U3 V (Proc.devRef .tc main_arg16) = V (Proc.devRef .tc main_arg16) :=
  (keep2 (U2 V) main_arg16 (by decide)).trans (u2_main_arg16 V)
theorem u3_main_arg17 : U3 V (Proc.devRef .tc main_arg17) = V (Proc.devRef .tc main_arg17) :=
  (keep2 (U2 V) main_arg17 (by decide)).trans (u2_main_arg17 V)
theorem u3_main_arg18 : U3 V (Proc.devRef .tc main_arg18) = V (Proc.devRef .tc main_arg18) :=
  (keep2 (U2 V) main_arg18 (by decide)).trans (u2_main_arg18 V)
theorem u3_main_arg19 : U3 V (Proc.devRef .tc main_arg19) = V (Proc.devRef .tc main_arg19) :=
  (keep2 (U2 V) main_arg19 (by decide)).trans (u2_main_arg19 V)
theorem u3_main_arg20 : U3 V (Proc.devRef .tc main_arg20) = V (Proc.devRef .tc main_arg20) :=
  (keep2 (U2 V) main_arg20 (by decide)).trans (u2_main_arg20 V)
theorem u3_main_arg21 : U3 V (Proc.devRef .tc main_arg21) = V (Proc.devRef .tc main_arg21) :=
  (keep2 (U2 V) main_arg21 (by decide)).trans (u2_main_arg21 V)
theorem u3_main_arg22 : U3 V (Proc.devRef .tc main_arg22) = V (Proc.devRef .tc main_arg22) :=
  (keep2 (U2 V) main_arg22 (by decide)).trans (u2_main_arg22 V)
theorem u3_main_arg23 : U3 V (Proc.devRef .tc main_arg23) = V (Proc.devRef .tc main_arg23) :=
  (keep2 (U2 V) main_arg23 (by decide)).trans (u2_main_arg23 V)
theorem u3_main_arg24 : U3 V (Proc.devRef .tc main_arg24) = V (Proc.devRef .tc main_arg24) :=
  (keep2 (U2 V) main_arg24 (by decide)).trans (u2_main_arg24 V)
theorem u3_main_arg25 : U3 V (Proc.devRef .tc main_arg25) = V (Proc.devRef .tc main_arg25) :=
  (keep2 (U2 V) main_arg25 (by decide)).trans (u2_main_arg25 V)
theorem u3_main_arg26 : U3 V (Proc.devRef .tc main_arg26) = V (Proc.devRef .tc main_arg26) :=
  (keep2 (U2 V) main_arg26 (by decide)).trans (u2_main_arg26 V)
theorem u3_main_arg27 : U3 V (Proc.devRef .tc main_arg27) = V (Proc.devRef .tc main_arg27) :=
  (keep2 (U2 V) main_arg27 (by decide)).trans (u2_main_arg27 V)
theorem u3_main_v1 : U3 V (Proc.devRef .tc main_v1) = val_main_v1 (F := F) (V (Proc.devRef .tc main_arg27)) :=
  (keep2 (U2 V) main_v1 (by decide)).trans (u2_main_v1 V)
theorem u3_main_v5 : U3 V (Proc.devRef .tc main_v5) = val_main_v5 (F := F) (V (Proc.devRef .tc main_arg27)) :=
  (keep2 (U2 V) main_v5 (by decide)).trans (u2_main_v5 V)
theorem u3_main_v62 : U3 V (Proc.devRef .tc main_v62) = val_main_v62 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg8)) (V (Proc.devRef .tc main_arg24)) (V (Proc.devRef .tc main_arg25)) :=
  st2_main_v62 (U2 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg8)) (V (Proc.devRef .tc main_arg24)) (V (Proc.devRef .tc main_arg25)) (u2_main_v50 V)
theorem u3_main_v65 : U3 V (Proc.devRef .tc main_v65) = val_main_v65 (F := F) (V (Proc.devRef .tc main_arg0)) (V (Proc.devRef .tc main_arg7)) (V (Proc.devRef .tc main_arg9)) :=
  st2_main_v65 (U2 V) (V (Proc.devRef .tc main_arg0)) (V (Proc.devRef .tc main_arg7)) (V (Proc.devRef .tc main_arg9)) (u2_main_arg9 V) (u2_main_v52 V) (u2_main_arg0 V)
theorem u3_main_v72 : U3 V (Proc.devRef .tc main_v72) = val_main_v72 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) :=
  st2_main_v72 (U2 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (u2_main_arg9 V) (u2_main_v52 V) (u2_main_arg0 V) (u2_main_v50 V)
theorem u3_main_v79 : U3 V (Proc.devRef .tc main_v79) = val_main_v79 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) :=
  st2_main_v79 (U2 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (u2_main_arg9 V) (u2_main_v52 V) (u2_main_arg0 V) (u2_main_v50 V)

/-! After stretch 3. -/
theorem u4_main_arg0 : U4 V (Proc.devRef .tc main_arg0) = V (Proc.devRef .tc main_arg0) :=
  (keep3 (U3 V) main_arg0 (by decide)).trans (u3_main_arg0 V)
theorem u4_main_arg1 : U4 V (Proc.devRef .tc main_arg1) = V (Proc.devRef .tc main_arg1) :=
  (keep3 (U3 V) main_arg1 (by decide)).trans (u3_main_arg1 V)
theorem u4_main_arg2 : U4 V (Proc.devRef .tc main_arg2) = V (Proc.devRef .tc main_arg2) :=
  (keep3 (U3 V) main_arg2 (by decide)).trans (u3_main_arg2 V)
theorem u4_main_arg3 : U4 V (Proc.devRef .tc main_arg3) = V (Proc.devRef .tc main_arg3) :=
  (keep3 (U3 V) main_arg3 (by decide)).trans (u3_main_arg3 V)
theorem u4_main_arg4 : U4 V (Proc.devRef .tc main_arg4) = V (Proc.devRef .tc main_arg4) :=
  (keep3 (U3 V) main_arg4 (by decide)).trans (u3_main_arg4 V)
theorem u4_main_arg5 : U4 V (Proc.devRef .tc main_arg5) = V (Proc.devRef .tc main_arg5) :=
  (keep3 (U3 V) main_arg5 (by decide)).trans (u3_main_arg5 V)
theorem u4_main_arg6 : U4 V (Proc.devRef .tc main_arg6) = V (Proc.devRef .tc main_arg6) :=
  (keep3 (U3 V) main_arg6 (by decide)).trans (u3_main_arg6 V)
theorem u4_main_arg7 : U4 V (Proc.devRef .tc main_arg7) = V (Proc.devRef .tc main_arg7) :=
  (keep3 (U3 V) main_arg7 (by decide)).trans (u3_main_arg7 V)
theorem u4_main_arg8 : U4 V (Proc.devRef .tc main_arg8) = V (Proc.devRef .tc main_arg8) :=
  (keep3 (U3 V) main_arg8 (by decide)).trans (u3_main_arg8 V)
theorem u4_main_arg9 : U4 V (Proc.devRef .tc main_arg9) = V (Proc.devRef .tc main_arg9) :=
  (keep3 (U3 V) main_arg9 (by decide)).trans (u3_main_arg9 V)
theorem u4_main_arg10 : U4 V (Proc.devRef .tc main_arg10) = V (Proc.devRef .tc main_arg10) :=
  (keep3 (U3 V) main_arg10 (by decide)).trans (u3_main_arg10 V)
theorem u4_main_arg11 : U4 V (Proc.devRef .tc main_arg11) = V (Proc.devRef .tc main_arg11) :=
  (keep3 (U3 V) main_arg11 (by decide)).trans (u3_main_arg11 V)
theorem u4_main_arg12 : U4 V (Proc.devRef .tc main_arg12) = V (Proc.devRef .tc main_arg12) :=
  (keep3 (U3 V) main_arg12 (by decide)).trans (u3_main_arg12 V)
theorem u4_main_arg13 : U4 V (Proc.devRef .tc main_arg13) = V (Proc.devRef .tc main_arg13) :=
  (keep3 (U3 V) main_arg13 (by decide)).trans (u3_main_arg13 V)
theorem u4_main_arg14 : U4 V (Proc.devRef .tc main_arg14) = V (Proc.devRef .tc main_arg14) :=
  (keep3 (U3 V) main_arg14 (by decide)).trans (u3_main_arg14 V)
theorem u4_main_arg15 : U4 V (Proc.devRef .tc main_arg15) = V (Proc.devRef .tc main_arg15) :=
  (keep3 (U3 V) main_arg15 (by decide)).trans (u3_main_arg15 V)
theorem u4_main_arg16 : U4 V (Proc.devRef .tc main_arg16) = V (Proc.devRef .tc main_arg16) :=
  (keep3 (U3 V) main_arg16 (by decide)).trans (u3_main_arg16 V)
theorem u4_main_arg17 : U4 V (Proc.devRef .tc main_arg17) = V (Proc.devRef .tc main_arg17) :=
  (keep3 (U3 V) main_arg17 (by decide)).trans (u3_main_arg17 V)
theorem u4_main_arg18 : U4 V (Proc.devRef .tc main_arg18) = V (Proc.devRef .tc main_arg18) :=
  (keep3 (U3 V) main_arg18 (by decide)).trans (u3_main_arg18 V)
theorem u4_main_arg19 : U4 V (Proc.devRef .tc main_arg19) = V (Proc.devRef .tc main_arg19) :=
  (keep3 (U3 V) main_arg19 (by decide)).trans (u3_main_arg19 V)
theorem u4_main_arg20 : U4 V (Proc.devRef .tc main_arg20) = V (Proc.devRef .tc main_arg20) :=
  (keep3 (U3 V) main_arg20 (by decide)).trans (u3_main_arg20 V)
theorem u4_main_arg21 : U4 V (Proc.devRef .tc main_arg21) = V (Proc.devRef .tc main_arg21) :=
  (keep3 (U3 V) main_arg21 (by decide)).trans (u3_main_arg21 V)
theorem u4_main_arg22 : U4 V (Proc.devRef .tc main_arg22) = V (Proc.devRef .tc main_arg22) :=
  (keep3 (U3 V) main_arg22 (by decide)).trans (u3_main_arg22 V)
theorem u4_main_arg23 : U4 V (Proc.devRef .tc main_arg23) = V (Proc.devRef .tc main_arg23) :=
  (keep3 (U3 V) main_arg23 (by decide)).trans (u3_main_arg23 V)
theorem u4_main_arg24 : U4 V (Proc.devRef .tc main_arg24) = V (Proc.devRef .tc main_arg24) :=
  (keep3 (U3 V) main_arg24 (by decide)).trans (u3_main_arg24 V)
theorem u4_main_arg25 : U4 V (Proc.devRef .tc main_arg25) = V (Proc.devRef .tc main_arg25) :=
  (keep3 (U3 V) main_arg25 (by decide)).trans (u3_main_arg25 V)
theorem u4_main_arg26 : U4 V (Proc.devRef .tc main_arg26) = V (Proc.devRef .tc main_arg26) :=
  (keep3 (U3 V) main_arg26 (by decide)).trans (u3_main_arg26 V)
theorem u4_main_arg27 : U4 V (Proc.devRef .tc main_arg27) = V (Proc.devRef .tc main_arg27) :=
  (keep3 (U3 V) main_arg27 (by decide)).trans (u3_main_arg27 V)
theorem u4_main_v1 : U4 V (Proc.devRef .tc main_v1) = val_main_v1 (F := F) (V (Proc.devRef .tc main_arg27)) :=
  (keep3 (U3 V) main_v1 (by decide)).trans (u3_main_v1 V)
theorem u4_main_v5 : U4 V (Proc.devRef .tc main_v5) = val_main_v5 (F := F) (V (Proc.devRef .tc main_arg27)) :=
  (keep3 (U3 V) main_v5 (by decide)).trans (u3_main_v5 V)
theorem u4_main_v88 : U4 V (Proc.devRef .tc main_v88) = val_main_v88 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) :=
  st3_main_v88 (U3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) (u3_main_arg0 V) (u3_main_v79 V) (u3_main_v65 V) (u3_main_v72 V) (u3_main_v62 V) (u3_main_v5 V)
theorem u4_main_v92 : U4 V (Proc.devRef .tc main_v92) = val_main_v92 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) :=
  st3_main_v92 (U3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) (u3_main_arg2 V) (u3_main_arg0 V) (u3_main_v79 V) (u3_main_v65 V) (u3_main_v72 V) (u3_main_v62 V) (u3_main_v5 V)
theorem u4_main_v101 : U4 V (Proc.devRef .tc main_v101) = val_main_v101 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) :=
  st3_main_v101 (U3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) (u3_main_arg4 V) (u3_main_arg3 V) (u3_main_arg0 V) (u3_main_v79 V) (u3_main_v65 V) (u3_main_v72 V) (u3_main_v62 V) (u3_main_v5 V)
theorem u4_main_v105 : U4 V (Proc.devRef .tc main_v105) = val_main_v105 (F := F) (V (Proc.devRef .tc main_arg1)) (V (Proc.devRef .tc main_arg5)) :=
  st3_main_v105 (U3 V) (V (Proc.devRef .tc main_arg1)) (V (Proc.devRef .tc main_arg5)) (u3_main_arg5 V) (u3_main_arg1 V)
theorem u4_main_v106 : U4 V (Proc.devRef .tc main_v106) = val_main_v106 (F := F) :=
  st3_main_v106 (U3 V)

/-! After stretch 4. -/
theorem u5_main_arg0 : U5 V (Proc.devRef .tc main_arg0) = V (Proc.devRef .tc main_arg0) :=
  (keep4 (U4 V) main_arg0 (by decide)).trans (u4_main_arg0 V)
theorem u5_main_arg1 : U5 V (Proc.devRef .tc main_arg1) = V (Proc.devRef .tc main_arg1) :=
  (keep4 (U4 V) main_arg1 (by decide)).trans (u4_main_arg1 V)
theorem u5_main_arg2 : U5 V (Proc.devRef .tc main_arg2) = V (Proc.devRef .tc main_arg2) :=
  (keep4 (U4 V) main_arg2 (by decide)).trans (u4_main_arg2 V)
theorem u5_main_arg3 : U5 V (Proc.devRef .tc main_arg3) = V (Proc.devRef .tc main_arg3) :=
  (keep4 (U4 V) main_arg3 (by decide)).trans (u4_main_arg3 V)
theorem u5_main_arg4 : U5 V (Proc.devRef .tc main_arg4) = V (Proc.devRef .tc main_arg4) :=
  (keep4 (U4 V) main_arg4 (by decide)).trans (u4_main_arg4 V)
theorem u5_main_arg5 : U5 V (Proc.devRef .tc main_arg5) = V (Proc.devRef .tc main_arg5) :=
  (keep4 (U4 V) main_arg5 (by decide)).trans (u4_main_arg5 V)
theorem u5_main_arg6 : U5 V (Proc.devRef .tc main_arg6) = V (Proc.devRef .tc main_arg6) :=
  (keep4 (U4 V) main_arg6 (by decide)).trans (u4_main_arg6 V)
theorem u5_main_arg7 : U5 V (Proc.devRef .tc main_arg7) = V (Proc.devRef .tc main_arg7) :=
  (keep4 (U4 V) main_arg7 (by decide)).trans (u4_main_arg7 V)
theorem u5_main_arg8 : U5 V (Proc.devRef .tc main_arg8) = V (Proc.devRef .tc main_arg8) :=
  (keep4 (U4 V) main_arg8 (by decide)).trans (u4_main_arg8 V)
theorem u5_main_arg9 : U5 V (Proc.devRef .tc main_arg9) = V (Proc.devRef .tc main_arg9) :=
  (keep4 (U4 V) main_arg9 (by decide)).trans (u4_main_arg9 V)
theorem u5_main_arg10 : U5 V (Proc.devRef .tc main_arg10) = V (Proc.devRef .tc main_arg10) :=
  (keep4 (U4 V) main_arg10 (by decide)).trans (u4_main_arg10 V)
theorem u5_main_arg11 : U5 V (Proc.devRef .tc main_arg11) = V (Proc.devRef .tc main_arg11) :=
  (keep4 (U4 V) main_arg11 (by decide)).trans (u4_main_arg11 V)
theorem u5_main_arg12 : U5 V (Proc.devRef .tc main_arg12) = V (Proc.devRef .tc main_arg12) :=
  (keep4 (U4 V) main_arg12 (by decide)).trans (u4_main_arg12 V)
theorem u5_main_arg13 : U5 V (Proc.devRef .tc main_arg13) = V (Proc.devRef .tc main_arg13) :=
  (keep4 (U4 V) main_arg13 (by decide)).trans (u4_main_arg13 V)
theorem u5_main_arg14 : U5 V (Proc.devRef .tc main_arg14) = V (Proc.devRef .tc main_arg14) :=
  (keep4 (U4 V) main_arg14 (by decide)).trans (u4_main_arg14 V)
theorem u5_main_arg15 : U5 V (Proc.devRef .tc main_arg15) = V (Proc.devRef .tc main_arg15) :=
  (keep4 (U4 V) main_arg15 (by decide)).trans (u4_main_arg15 V)
theorem u5_main_arg16 : U5 V (Proc.devRef .tc main_arg16) = V (Proc.devRef .tc main_arg16) :=
  (keep4 (U4 V) main_arg16 (by decide)).trans (u4_main_arg16 V)
theorem u5_main_arg17 : U5 V (Proc.devRef .tc main_arg17) = V (Proc.devRef .tc main_arg17) :=
  (keep4 (U4 V) main_arg17 (by decide)).trans (u4_main_arg17 V)
theorem u5_main_arg18 : U5 V (Proc.devRef .tc main_arg18) = V (Proc.devRef .tc main_arg18) :=
  (keep4 (U4 V) main_arg18 (by decide)).trans (u4_main_arg18 V)
theorem u5_main_arg19 : U5 V (Proc.devRef .tc main_arg19) = V (Proc.devRef .tc main_arg19) :=
  (keep4 (U4 V) main_arg19 (by decide)).trans (u4_main_arg19 V)
theorem u5_main_arg20 : U5 V (Proc.devRef .tc main_arg20) = V (Proc.devRef .tc main_arg20) :=
  (keep4 (U4 V) main_arg20 (by decide)).trans (u4_main_arg20 V)
theorem u5_main_arg21 : U5 V (Proc.devRef .tc main_arg21) = V (Proc.devRef .tc main_arg21) :=
  (keep4 (U4 V) main_arg21 (by decide)).trans (u4_main_arg21 V)
theorem u5_main_arg22 : U5 V (Proc.devRef .tc main_arg22) = V (Proc.devRef .tc main_arg22) :=
  (keep4 (U4 V) main_arg22 (by decide)).trans (u4_main_arg22 V)
theorem u5_main_arg23 : U5 V (Proc.devRef .tc main_arg23) = V (Proc.devRef .tc main_arg23) :=
  (keep4 (U4 V) main_arg23 (by decide)).trans (u4_main_arg23 V)
theorem u5_main_arg24 : U5 V (Proc.devRef .tc main_arg24) = V (Proc.devRef .tc main_arg24) :=
  (keep4 (U4 V) main_arg24 (by decide)).trans (u4_main_arg24 V)
theorem u5_main_arg25 : U5 V (Proc.devRef .tc main_arg25) = V (Proc.devRef .tc main_arg25) :=
  (keep4 (U4 V) main_arg25 (by decide)).trans (u4_main_arg25 V)
theorem u5_main_arg26 : U5 V (Proc.devRef .tc main_arg26) = V (Proc.devRef .tc main_arg26) :=
  (keep4 (U4 V) main_arg26 (by decide)).trans (u4_main_arg26 V)
theorem u5_main_arg27 : U5 V (Proc.devRef .tc main_arg27) = V (Proc.devRef .tc main_arg27) :=
  (keep4 (U4 V) main_arg27 (by decide)).trans (u4_main_arg27 V)
theorem u5_main_v1 : U5 V (Proc.devRef .tc main_v1) = val_main_v1 (F := F) (V (Proc.devRef .tc main_arg27)) :=
  (keep4 (U4 V) main_v1 (by decide)).trans (u4_main_v1 V)
theorem u5_main_v5 : U5 V (Proc.devRef .tc main_v5) = val_main_v5 (F := F) (V (Proc.devRef .tc main_arg27)) :=
  (keep4 (U4 V) main_v5 (by decide)).trans (u4_main_v5 V)
theorem u5_main_v88 : U5 V (Proc.devRef .tc main_v88) = val_main_v88 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) :=
  (keep4 (U4 V) main_v88 (by decide)).trans (u4_main_v88 V)
theorem u5_main_v128 : U5 V (Proc.devRef .tc main_v128) = val_main_v128 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) :=
  st4_main_v128 (U4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) (u4_main_arg6 V) (u4_main_v105 V) (u4_main_arg25 V) (u4_main_v101 V) (u4_main_arg24 V) (u4_main_v106 V) (u4_main_v92 V)
theorem u5_main_v132 : U5 V (Proc.devRef .tc main_v132) = val_main_v132 (F := F) (V (Proc.devRef .tc main_arg8)) :=
  st4_main_v132 (U4 V) (V (Proc.devRef .tc main_arg8)) (u4_main_arg8 V)

/-! After stretch 5. -/
theorem u6_main_arg0 : U6 V (Proc.devRef .tc main_arg0) = V (Proc.devRef .tc main_arg0) :=
  (keep5 (U5 V) main_arg0 (by decide)).trans (u5_main_arg0 V)
theorem u6_main_arg1 : U6 V (Proc.devRef .tc main_arg1) = V (Proc.devRef .tc main_arg1) :=
  (keep5 (U5 V) main_arg1 (by decide)).trans (u5_main_arg1 V)
theorem u6_main_arg2 : U6 V (Proc.devRef .tc main_arg2) = V (Proc.devRef .tc main_arg2) :=
  (keep5 (U5 V) main_arg2 (by decide)).trans (u5_main_arg2 V)
theorem u6_main_arg3 : U6 V (Proc.devRef .tc main_arg3) = V (Proc.devRef .tc main_arg3) :=
  (keep5 (U5 V) main_arg3 (by decide)).trans (u5_main_arg3 V)
theorem u6_main_arg4 : U6 V (Proc.devRef .tc main_arg4) = V (Proc.devRef .tc main_arg4) :=
  (keep5 (U5 V) main_arg4 (by decide)).trans (u5_main_arg4 V)
theorem u6_main_arg5 : U6 V (Proc.devRef .tc main_arg5) = V (Proc.devRef .tc main_arg5) :=
  (keep5 (U5 V) main_arg5 (by decide)).trans (u5_main_arg5 V)
theorem u6_main_arg6 : U6 V (Proc.devRef .tc main_arg6) = V (Proc.devRef .tc main_arg6) :=
  (keep5 (U5 V) main_arg6 (by decide)).trans (u5_main_arg6 V)
theorem u6_main_arg7 : U6 V (Proc.devRef .tc main_arg7) = V (Proc.devRef .tc main_arg7) :=
  (keep5 (U5 V) main_arg7 (by decide)).trans (u5_main_arg7 V)
theorem u6_main_arg8 : U6 V (Proc.devRef .tc main_arg8) = V (Proc.devRef .tc main_arg8) :=
  (keep5 (U5 V) main_arg8 (by decide)).trans (u5_main_arg8 V)
theorem u6_main_arg9 : U6 V (Proc.devRef .tc main_arg9) = V (Proc.devRef .tc main_arg9) :=
  (keep5 (U5 V) main_arg9 (by decide)).trans (u5_main_arg9 V)
theorem u6_main_arg10 : U6 V (Proc.devRef .tc main_arg10) = V (Proc.devRef .tc main_arg10) :=
  (keep5 (U5 V) main_arg10 (by decide)).trans (u5_main_arg10 V)
theorem u6_main_arg11 : U6 V (Proc.devRef .tc main_arg11) = V (Proc.devRef .tc main_arg11) :=
  (keep5 (U5 V) main_arg11 (by decide)).trans (u5_main_arg11 V)
theorem u6_main_arg12 : U6 V (Proc.devRef .tc main_arg12) = V (Proc.devRef .tc main_arg12) :=
  (keep5 (U5 V) main_arg12 (by decide)).trans (u5_main_arg12 V)
theorem u6_main_arg13 : U6 V (Proc.devRef .tc main_arg13) = V (Proc.devRef .tc main_arg13) :=
  (keep5 (U5 V) main_arg13 (by decide)).trans (u5_main_arg13 V)
theorem u6_main_arg14 : U6 V (Proc.devRef .tc main_arg14) = V (Proc.devRef .tc main_arg14) :=
  (keep5 (U5 V) main_arg14 (by decide)).trans (u5_main_arg14 V)
theorem u6_main_arg15 : U6 V (Proc.devRef .tc main_arg15) = V (Proc.devRef .tc main_arg15) :=
  (keep5 (U5 V) main_arg15 (by decide)).trans (u5_main_arg15 V)
theorem u6_main_arg16 : U6 V (Proc.devRef .tc main_arg16) = V (Proc.devRef .tc main_arg16) :=
  (keep5 (U5 V) main_arg16 (by decide)).trans (u5_main_arg16 V)
theorem u6_main_arg17 : U6 V (Proc.devRef .tc main_arg17) = V (Proc.devRef .tc main_arg17) :=
  (keep5 (U5 V) main_arg17 (by decide)).trans (u5_main_arg17 V)
theorem u6_main_arg18 : U6 V (Proc.devRef .tc main_arg18) = V (Proc.devRef .tc main_arg18) :=
  (keep5 (U5 V) main_arg18 (by decide)).trans (u5_main_arg18 V)
theorem u6_main_arg19 : U6 V (Proc.devRef .tc main_arg19) = V (Proc.devRef .tc main_arg19) :=
  (keep5 (U5 V) main_arg19 (by decide)).trans (u5_main_arg19 V)
theorem u6_main_arg20 : U6 V (Proc.devRef .tc main_arg20) = V (Proc.devRef .tc main_arg20) :=
  (keep5 (U5 V) main_arg20 (by decide)).trans (u5_main_arg20 V)
theorem u6_main_arg21 : U6 V (Proc.devRef .tc main_arg21) = V (Proc.devRef .tc main_arg21) :=
  (keep5 (U5 V) main_arg21 (by decide)).trans (u5_main_arg21 V)
theorem u6_main_arg22 : U6 V (Proc.devRef .tc main_arg22) = V (Proc.devRef .tc main_arg22) :=
  (keep5 (U5 V) main_arg22 (by decide)).trans (u5_main_arg22 V)
theorem u6_main_arg23 : U6 V (Proc.devRef .tc main_arg23) = V (Proc.devRef .tc main_arg23) :=
  (keep5 (U5 V) main_arg23 (by decide)).trans (u5_main_arg23 V)
theorem u6_main_arg24 : U6 V (Proc.devRef .tc main_arg24) = V (Proc.devRef .tc main_arg24) :=
  (keep5 (U5 V) main_arg24 (by decide)).trans (u5_main_arg24 V)
theorem u6_main_arg25 : U6 V (Proc.devRef .tc main_arg25) = V (Proc.devRef .tc main_arg25) :=
  (keep5 (U5 V) main_arg25 (by decide)).trans (u5_main_arg25 V)
theorem u6_main_arg26 : U6 V (Proc.devRef .tc main_arg26) = V (Proc.devRef .tc main_arg26) :=
  (keep5 (U5 V) main_arg26 (by decide)).trans (u5_main_arg26 V)
theorem u6_main_arg27 : U6 V (Proc.devRef .tc main_arg27) = V (Proc.devRef .tc main_arg27) :=
  (keep5 (U5 V) main_arg27 (by decide)).trans (u5_main_arg27 V)
theorem u6_main_v1 : U6 V (Proc.devRef .tc main_v1) = val_main_v1 (F := F) (V (Proc.devRef .tc main_arg27)) :=
  (keep5 (U5 V) main_v1 (by decide)).trans (u5_main_v1 V)
theorem u6_main_v5 : U6 V (Proc.devRef .tc main_v5) = val_main_v5 (F := F) (V (Proc.devRef .tc main_arg27)) :=
  (keep5 (U5 V) main_v5 (by decide)).trans (u5_main_v5 V)
theorem u6_main_v88 : U6 V (Proc.devRef .tc main_v88) = val_main_v88 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) :=
  (keep5 (U5 V) main_v88 (by decide)).trans (u5_main_v88 V)
theorem u6_main_v145 : U6 V (Proc.devRef .tc main_v145) = val_main_v145 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) :=
  st5_main_v145 (U5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) (u5_main_v132 V) (u5_main_v128 V)
theorem u6_main_v148 : U6 V (Proc.devRef .tc main_v148) = val_main_v148 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) :=
  st5_main_v148 (U5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) (u5_main_arg9 V) (u5_main_arg7 V) (u5_main_v88 V)
theorem u6_main_v155 : U6 V (Proc.devRef .tc main_v155) = val_main_v155 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) :=
  st5_main_v155 (U5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) (u5_main_arg9 V) (u5_main_arg7 V) (u5_main_v88 V) (u5_main_v132 V) (u5_main_v128 V)
theorem u6_main_v158 : U6 V (Proc.devRef .tc main_v158) = val_main_v158 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) :=
  st5_main_v158 (U5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) (u5_main_arg9 V) (u5_main_arg7 V) (u5_main_v88 V) (u5_main_v132 V) (u5_main_v128 V)
theorem u6_main_v159 : U6 V (Proc.devRef .tc main_v159) = val_main_v159 (F := F) :=
  st5_main_v159 (U5 V)

/-! After stretch 6. -/
theorem u7_main_arg0 : U7 V (Proc.devRef .tc main_arg0) = V (Proc.devRef .tc main_arg0) :=
  (keep6 (U6 V) main_arg0 (by decide)).trans (u6_main_arg0 V)
theorem u7_main_arg1 : U7 V (Proc.devRef .tc main_arg1) = V (Proc.devRef .tc main_arg1) :=
  (keep6 (U6 V) main_arg1 (by decide)).trans (u6_main_arg1 V)
theorem u7_main_arg2 : U7 V (Proc.devRef .tc main_arg2) = V (Proc.devRef .tc main_arg2) :=
  (keep6 (U6 V) main_arg2 (by decide)).trans (u6_main_arg2 V)
theorem u7_main_arg3 : U7 V (Proc.devRef .tc main_arg3) = V (Proc.devRef .tc main_arg3) :=
  (keep6 (U6 V) main_arg3 (by decide)).trans (u6_main_arg3 V)
theorem u7_main_arg4 : U7 V (Proc.devRef .tc main_arg4) = V (Proc.devRef .tc main_arg4) :=
  (keep6 (U6 V) main_arg4 (by decide)).trans (u6_main_arg4 V)
theorem u7_main_arg5 : U7 V (Proc.devRef .tc main_arg5) = V (Proc.devRef .tc main_arg5) :=
  (keep6 (U6 V) main_arg5 (by decide)).trans (u6_main_arg5 V)
theorem u7_main_arg6 : U7 V (Proc.devRef .tc main_arg6) = V (Proc.devRef .tc main_arg6) :=
  (keep6 (U6 V) main_arg6 (by decide)).trans (u6_main_arg6 V)
theorem u7_main_arg7 : U7 V (Proc.devRef .tc main_arg7) = V (Proc.devRef .tc main_arg7) :=
  (keep6 (U6 V) main_arg7 (by decide)).trans (u6_main_arg7 V)
theorem u7_main_arg8 : U7 V (Proc.devRef .tc main_arg8) = V (Proc.devRef .tc main_arg8) :=
  (keep6 (U6 V) main_arg8 (by decide)).trans (u6_main_arg8 V)
theorem u7_main_arg9 : U7 V (Proc.devRef .tc main_arg9) = V (Proc.devRef .tc main_arg9) :=
  (keep6 (U6 V) main_arg9 (by decide)).trans (u6_main_arg9 V)
theorem u7_main_arg10 : U7 V (Proc.devRef .tc main_arg10) = V (Proc.devRef .tc main_arg10) :=
  (keep6 (U6 V) main_arg10 (by decide)).trans (u6_main_arg10 V)
theorem u7_main_arg11 : U7 V (Proc.devRef .tc main_arg11) = V (Proc.devRef .tc main_arg11) :=
  (keep6 (U6 V) main_arg11 (by decide)).trans (u6_main_arg11 V)
theorem u7_main_arg12 : U7 V (Proc.devRef .tc main_arg12) = V (Proc.devRef .tc main_arg12) :=
  (keep6 (U6 V) main_arg12 (by decide)).trans (u6_main_arg12 V)
theorem u7_main_arg13 : U7 V (Proc.devRef .tc main_arg13) = V (Proc.devRef .tc main_arg13) :=
  (keep6 (U6 V) main_arg13 (by decide)).trans (u6_main_arg13 V)
theorem u7_main_arg14 : U7 V (Proc.devRef .tc main_arg14) = V (Proc.devRef .tc main_arg14) :=
  (keep6 (U6 V) main_arg14 (by decide)).trans (u6_main_arg14 V)
theorem u7_main_arg15 : U7 V (Proc.devRef .tc main_arg15) = V (Proc.devRef .tc main_arg15) :=
  (keep6 (U6 V) main_arg15 (by decide)).trans (u6_main_arg15 V)
theorem u7_main_arg16 : U7 V (Proc.devRef .tc main_arg16) = V (Proc.devRef .tc main_arg16) :=
  (keep6 (U6 V) main_arg16 (by decide)).trans (u6_main_arg16 V)
theorem u7_main_arg17 : U7 V (Proc.devRef .tc main_arg17) = V (Proc.devRef .tc main_arg17) :=
  (keep6 (U6 V) main_arg17 (by decide)).trans (u6_main_arg17 V)
theorem u7_main_arg18 : U7 V (Proc.devRef .tc main_arg18) = V (Proc.devRef .tc main_arg18) :=
  (keep6 (U6 V) main_arg18 (by decide)).trans (u6_main_arg18 V)
theorem u7_main_arg19 : U7 V (Proc.devRef .tc main_arg19) = V (Proc.devRef .tc main_arg19) :=
  (keep6 (U6 V) main_arg19 (by decide)).trans (u6_main_arg19 V)
theorem u7_main_arg20 : U7 V (Proc.devRef .tc main_arg20) = V (Proc.devRef .tc main_arg20) :=
  (keep6 (U6 V) main_arg20 (by decide)).trans (u6_main_arg20 V)
theorem u7_main_arg21 : U7 V (Proc.devRef .tc main_arg21) = V (Proc.devRef .tc main_arg21) :=
  (keep6 (U6 V) main_arg21 (by decide)).trans (u6_main_arg21 V)
theorem u7_main_arg22 : U7 V (Proc.devRef .tc main_arg22) = V (Proc.devRef .tc main_arg22) :=
  (keep6 (U6 V) main_arg22 (by decide)).trans (u6_main_arg22 V)
theorem u7_main_arg23 : U7 V (Proc.devRef .tc main_arg23) = V (Proc.devRef .tc main_arg23) :=
  (keep6 (U6 V) main_arg23 (by decide)).trans (u6_main_arg23 V)
theorem u7_main_arg24 : U7 V (Proc.devRef .tc main_arg24) = V (Proc.devRef .tc main_arg24) :=
  (keep6 (U6 V) main_arg24 (by decide)).trans (u6_main_arg24 V)
theorem u7_main_arg25 : U7 V (Proc.devRef .tc main_arg25) = V (Proc.devRef .tc main_arg25) :=
  (keep6 (U6 V) main_arg25 (by decide)).trans (u6_main_arg25 V)
theorem u7_main_arg26 : U7 V (Proc.devRef .tc main_arg26) = V (Proc.devRef .tc main_arg26) :=
  (keep6 (U6 V) main_arg26 (by decide)).trans (u6_main_arg26 V)
theorem u7_main_arg27 : U7 V (Proc.devRef .tc main_arg27) = V (Proc.devRef .tc main_arg27) :=
  (keep6 (U6 V) main_arg27 (by decide)).trans (u6_main_arg27 V)
theorem u7_main_v1 : U7 V (Proc.devRef .tc main_v1) = val_main_v1 (F := F) (V (Proc.devRef .tc main_arg27)) :=
  (keep6 (U6 V) main_v1 (by decide)).trans (u6_main_v1 V)
theorem u7_main_v171 : U7 V (Proc.devRef .tc main_v171) = val_main_v171 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) :=
  st6_main_v171 (U6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) (u6_main_v88 V) (u6_main_v158 V) (u6_main_v159 V) (u6_main_v148 V) (u6_main_v155 V) (u6_main_v145 V) (u6_main_v5 V)
theorem u7_main_v182 : U7 V (Proc.devRef .tc main_v182) = val_main_v182 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg24)) (V (Proc.devRef .tc main_arg25)) (V (Proc.devRef .tc main_arg27)) :=
  st6_main_v182 (U6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg24)) (V (Proc.devRef .tc main_arg25)) (V (Proc.devRef .tc main_arg27)) (u6_main_arg13 V) (u6_main_arg12 V) (u6_main_v88 V) (u6_main_v158 V) (u6_main_v159 V) (u6_main_v148 V) (u6_main_v155 V) (u6_main_v145 V) (u6_main_v5 V)
theorem u7_main_v184 : U7 V (Proc.devRef .tc main_v184) = val_main_v184 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg24)) (V (Proc.devRef .tc main_arg25)) (V (Proc.devRef .tc main_arg27)) :=
  st6_main_v184 (U6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg24)) (V (Proc.devRef .tc main_arg25)) (V (Proc.devRef .tc main_arg27)) (u6_main_arg10 V) (u6_main_v88 V) (u6_main_v158 V) (u6_main_v159 V) (u6_main_v148 V) (u6_main_v155 V) (u6_main_v145 V) (u6_main_v5 V)
theorem u7_main_v186 : U7 V (Proc.devRef .tc main_v186) = val_main_v186 (F := F) (V (Proc.devRef .tc main_arg11)) :=
  st6_main_v186 (U6 V) (V (Proc.devRef .tc main_arg11)) (u6_main_arg11 V)

/-! After stretch 7. -/
theorem u8_main_arg0 : U8 V (Proc.devRef .tc main_arg0) = V (Proc.devRef .tc main_arg0) :=
  (keep7 (U7 V) main_arg0 (by decide)).trans (u7_main_arg0 V)
theorem u8_main_arg1 : U8 V (Proc.devRef .tc main_arg1) = V (Proc.devRef .tc main_arg1) :=
  (keep7 (U7 V) main_arg1 (by decide)).trans (u7_main_arg1 V)
theorem u8_main_arg2 : U8 V (Proc.devRef .tc main_arg2) = V (Proc.devRef .tc main_arg2) :=
  (keep7 (U7 V) main_arg2 (by decide)).trans (u7_main_arg2 V)
theorem u8_main_arg3 : U8 V (Proc.devRef .tc main_arg3) = V (Proc.devRef .tc main_arg3) :=
  (keep7 (U7 V) main_arg3 (by decide)).trans (u7_main_arg3 V)
theorem u8_main_arg4 : U8 V (Proc.devRef .tc main_arg4) = V (Proc.devRef .tc main_arg4) :=
  (keep7 (U7 V) main_arg4 (by decide)).trans (u7_main_arg4 V)
theorem u8_main_arg5 : U8 V (Proc.devRef .tc main_arg5) = V (Proc.devRef .tc main_arg5) :=
  (keep7 (U7 V) main_arg5 (by decide)).trans (u7_main_arg5 V)
theorem u8_main_arg6 : U8 V (Proc.devRef .tc main_arg6) = V (Proc.devRef .tc main_arg6) :=
  (keep7 (U7 V) main_arg6 (by decide)).trans (u7_main_arg6 V)
theorem u8_main_arg7 : U8 V (Proc.devRef .tc main_arg7) = V (Proc.devRef .tc main_arg7) :=
  (keep7 (U7 V) main_arg7 (by decide)).trans (u7_main_arg7 V)
theorem u8_main_arg8 : U8 V (Proc.devRef .tc main_arg8) = V (Proc.devRef .tc main_arg8) :=
  (keep7 (U7 V) main_arg8 (by decide)).trans (u7_main_arg8 V)
theorem u8_main_arg9 : U8 V (Proc.devRef .tc main_arg9) = V (Proc.devRef .tc main_arg9) :=
  (keep7 (U7 V) main_arg9 (by decide)).trans (u7_main_arg9 V)
theorem u8_main_arg10 : U8 V (Proc.devRef .tc main_arg10) = V (Proc.devRef .tc main_arg10) :=
  (keep7 (U7 V) main_arg10 (by decide)).trans (u7_main_arg10 V)
theorem u8_main_arg11 : U8 V (Proc.devRef .tc main_arg11) = V (Proc.devRef .tc main_arg11) :=
  (keep7 (U7 V) main_arg11 (by decide)).trans (u7_main_arg11 V)
theorem u8_main_arg12 : U8 V (Proc.devRef .tc main_arg12) = V (Proc.devRef .tc main_arg12) :=
  (keep7 (U7 V) main_arg12 (by decide)).trans (u7_main_arg12 V)
theorem u8_main_arg13 : U8 V (Proc.devRef .tc main_arg13) = V (Proc.devRef .tc main_arg13) :=
  (keep7 (U7 V) main_arg13 (by decide)).trans (u7_main_arg13 V)
theorem u8_main_arg14 : U8 V (Proc.devRef .tc main_arg14) = V (Proc.devRef .tc main_arg14) :=
  (keep7 (U7 V) main_arg14 (by decide)).trans (u7_main_arg14 V)
theorem u8_main_arg15 : U8 V (Proc.devRef .tc main_arg15) = V (Proc.devRef .tc main_arg15) :=
  (keep7 (U7 V) main_arg15 (by decide)).trans (u7_main_arg15 V)
theorem u8_main_arg16 : U8 V (Proc.devRef .tc main_arg16) = V (Proc.devRef .tc main_arg16) :=
  (keep7 (U7 V) main_arg16 (by decide)).trans (u7_main_arg16 V)
theorem u8_main_arg17 : U8 V (Proc.devRef .tc main_arg17) = V (Proc.devRef .tc main_arg17) :=
  (keep7 (U7 V) main_arg17 (by decide)).trans (u7_main_arg17 V)
theorem u8_main_arg18 : U8 V (Proc.devRef .tc main_arg18) = V (Proc.devRef .tc main_arg18) :=
  (keep7 (U7 V) main_arg18 (by decide)).trans (u7_main_arg18 V)
theorem u8_main_arg19 : U8 V (Proc.devRef .tc main_arg19) = V (Proc.devRef .tc main_arg19) :=
  (keep7 (U7 V) main_arg19 (by decide)).trans (u7_main_arg19 V)
theorem u8_main_arg20 : U8 V (Proc.devRef .tc main_arg20) = V (Proc.devRef .tc main_arg20) :=
  (keep7 (U7 V) main_arg20 (by decide)).trans (u7_main_arg20 V)
theorem u8_main_arg21 : U8 V (Proc.devRef .tc main_arg21) = V (Proc.devRef .tc main_arg21) :=
  (keep7 (U7 V) main_arg21 (by decide)).trans (u7_main_arg21 V)
theorem u8_main_arg22 : U8 V (Proc.devRef .tc main_arg22) = V (Proc.devRef .tc main_arg22) :=
  (keep7 (U7 V) main_arg22 (by decide)).trans (u7_main_arg22 V)
theorem u8_main_arg23 : U8 V (Proc.devRef .tc main_arg23) = V (Proc.devRef .tc main_arg23) :=
  (keep7 (U7 V) main_arg23 (by decide)).trans (u7_main_arg23 V)
theorem u8_main_arg24 : U8 V (Proc.devRef .tc main_arg24) = V (Proc.devRef .tc main_arg24) :=
  (keep7 (U7 V) main_arg24 (by decide)).trans (u7_main_arg24 V)
theorem u8_main_arg25 : U8 V (Proc.devRef .tc main_arg25) = V (Proc.devRef .tc main_arg25) :=
  (keep7 (U7 V) main_arg25 (by decide)).trans (u7_main_arg25 V)
theorem u8_main_arg26 : U8 V (Proc.devRef .tc main_arg26) = V (Proc.devRef .tc main_arg26) :=
  (keep7 (U7 V) main_arg26 (by decide)).trans (u7_main_arg26 V)
theorem u8_main_arg27 : U8 V (Proc.devRef .tc main_arg27) = V (Proc.devRef .tc main_arg27) :=
  (keep7 (U7 V) main_arg27 (by decide)).trans (u7_main_arg27 V)
theorem u8_main_v1 : U8 V (Proc.devRef .tc main_v1) = val_main_v1 (F := F) (V (Proc.devRef .tc main_arg27)) :=
  (keep7 (U7 V) main_v1 (by decide)).trans (u7_main_v1 V)
theorem u8_main_v171 : U8 V (Proc.devRef .tc main_v171) = val_main_v171 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) :=
  (keep7 (U7 V) main_v171 (by decide)).trans (u7_main_v171 V)
theorem u8_main_v196 : U8 V (Proc.devRef .tc main_v196) = val_main_v196 (F := F) (V (Proc.devRef .tc main_arg26)) :=
  st7_main_v196 (U7 V) (V (Proc.devRef .tc main_arg26)) (u7_main_arg26 V)
theorem u8_main_v197 : U8 V (Proc.devRef .tc main_v197) = val_main_v197 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg19)) (V (Proc.devRef .tc main_arg24)) (V (Proc.devRef .tc main_arg25)) (V (Proc.devRef .tc main_arg27)) :=
  st7_main_v197 (U7 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg19)) (V (Proc.devRef .tc main_arg24)) (V (Proc.devRef .tc main_arg25)) (V (Proc.devRef .tc main_arg27)) (u7_main_arg19 V) (u7_main_arg18 V) (u7_main_v182 V) (u7_main_v186 V) (u7_main_v184 V) (u7_main_v1 V)
theorem u8_main_v198 : U8 V (Proc.devRef .tc main_v198) = val_main_v198 (F := F) (V (Proc.devRef .tc main_arg26)) :=
  st7_main_v198 (U7 V) (V (Proc.devRef .tc main_arg26)) (u7_main_arg26 V)
theorem u8_main_call4_v1 : U8 V (Proc.devRef .tc main_call4_v1) = val_main_call4_v1 (F := F) (V (Proc.devRef .tc main_arg26)) :=
  st7_main_call4_v1 (U7 V) (V (Proc.devRef .tc main_arg26)) (u7_main_arg26 V)
theorem u8_main_call4_v2 : U8 V (Proc.devRef .tc main_call4_v2) = val_main_call4_v2 (F := F) :=
  st7_main_call4_v2 (U7 V)

/-! After stretch 8. -/
theorem u9_main_arg0 : U9 V (Proc.devRef .tc main_arg0) = V (Proc.devRef .tc main_arg0) :=
  (keep8 (U8 V) main_arg0 (by decide)).trans (u8_main_arg0 V)
theorem u9_main_arg1 : U9 V (Proc.devRef .tc main_arg1) = V (Proc.devRef .tc main_arg1) :=
  (keep8 (U8 V) main_arg1 (by decide)).trans (u8_main_arg1 V)
theorem u9_main_arg2 : U9 V (Proc.devRef .tc main_arg2) = V (Proc.devRef .tc main_arg2) :=
  (keep8 (U8 V) main_arg2 (by decide)).trans (u8_main_arg2 V)
theorem u9_main_arg3 : U9 V (Proc.devRef .tc main_arg3) = V (Proc.devRef .tc main_arg3) :=
  (keep8 (U8 V) main_arg3 (by decide)).trans (u8_main_arg3 V)
theorem u9_main_arg4 : U9 V (Proc.devRef .tc main_arg4) = V (Proc.devRef .tc main_arg4) :=
  (keep8 (U8 V) main_arg4 (by decide)).trans (u8_main_arg4 V)
theorem u9_main_arg5 : U9 V (Proc.devRef .tc main_arg5) = V (Proc.devRef .tc main_arg5) :=
  (keep8 (U8 V) main_arg5 (by decide)).trans (u8_main_arg5 V)
theorem u9_main_arg6 : U9 V (Proc.devRef .tc main_arg6) = V (Proc.devRef .tc main_arg6) :=
  (keep8 (U8 V) main_arg6 (by decide)).trans (u8_main_arg6 V)
theorem u9_main_arg7 : U9 V (Proc.devRef .tc main_arg7) = V (Proc.devRef .tc main_arg7) :=
  (keep8 (U8 V) main_arg7 (by decide)).trans (u8_main_arg7 V)
theorem u9_main_arg8 : U9 V (Proc.devRef .tc main_arg8) = V (Proc.devRef .tc main_arg8) :=
  (keep8 (U8 V) main_arg8 (by decide)).trans (u8_main_arg8 V)
theorem u9_main_arg9 : U9 V (Proc.devRef .tc main_arg9) = V (Proc.devRef .tc main_arg9) :=
  (keep8 (U8 V) main_arg9 (by decide)).trans (u8_main_arg9 V)
theorem u9_main_arg10 : U9 V (Proc.devRef .tc main_arg10) = V (Proc.devRef .tc main_arg10) :=
  (keep8 (U8 V) main_arg10 (by decide)).trans (u8_main_arg10 V)
theorem u9_main_arg11 : U9 V (Proc.devRef .tc main_arg11) = V (Proc.devRef .tc main_arg11) :=
  (keep8 (U8 V) main_arg11 (by decide)).trans (u8_main_arg11 V)
theorem u9_main_arg12 : U9 V (Proc.devRef .tc main_arg12) = V (Proc.devRef .tc main_arg12) :=
  (keep8 (U8 V) main_arg12 (by decide)).trans (u8_main_arg12 V)
theorem u9_main_arg13 : U9 V (Proc.devRef .tc main_arg13) = V (Proc.devRef .tc main_arg13) :=
  (keep8 (U8 V) main_arg13 (by decide)).trans (u8_main_arg13 V)
theorem u9_main_arg14 : U9 V (Proc.devRef .tc main_arg14) = V (Proc.devRef .tc main_arg14) :=
  (keep8 (U8 V) main_arg14 (by decide)).trans (u8_main_arg14 V)
theorem u9_main_arg15 : U9 V (Proc.devRef .tc main_arg15) = V (Proc.devRef .tc main_arg15) :=
  (keep8 (U8 V) main_arg15 (by decide)).trans (u8_main_arg15 V)
theorem u9_main_arg16 : U9 V (Proc.devRef .tc main_arg16) = V (Proc.devRef .tc main_arg16) :=
  (keep8 (U8 V) main_arg16 (by decide)).trans (u8_main_arg16 V)
theorem u9_main_arg17 : U9 V (Proc.devRef .tc main_arg17) = V (Proc.devRef .tc main_arg17) :=
  (keep8 (U8 V) main_arg17 (by decide)).trans (u8_main_arg17 V)
theorem u9_main_arg18 : U9 V (Proc.devRef .tc main_arg18) = V (Proc.devRef .tc main_arg18) :=
  (keep8 (U8 V) main_arg18 (by decide)).trans (u8_main_arg18 V)
theorem u9_main_arg19 : U9 V (Proc.devRef .tc main_arg19) = V (Proc.devRef .tc main_arg19) :=
  (keep8 (U8 V) main_arg19 (by decide)).trans (u8_main_arg19 V)
theorem u9_main_arg20 : U9 V (Proc.devRef .tc main_arg20) = V (Proc.devRef .tc main_arg20) :=
  (keep8 (U8 V) main_arg20 (by decide)).trans (u8_main_arg20 V)
theorem u9_main_arg21 : U9 V (Proc.devRef .tc main_arg21) = V (Proc.devRef .tc main_arg21) :=
  (keep8 (U8 V) main_arg21 (by decide)).trans (u8_main_arg21 V)
theorem u9_main_arg22 : U9 V (Proc.devRef .tc main_arg22) = V (Proc.devRef .tc main_arg22) :=
  (keep8 (U8 V) main_arg22 (by decide)).trans (u8_main_arg22 V)
theorem u9_main_arg23 : U9 V (Proc.devRef .tc main_arg23) = V (Proc.devRef .tc main_arg23) :=
  (keep8 (U8 V) main_arg23 (by decide)).trans (u8_main_arg23 V)
theorem u9_main_arg24 : U9 V (Proc.devRef .tc main_arg24) = V (Proc.devRef .tc main_arg24) :=
  (keep8 (U8 V) main_arg24 (by decide)).trans (u8_main_arg24 V)
theorem u9_main_arg25 : U9 V (Proc.devRef .tc main_arg25) = V (Proc.devRef .tc main_arg25) :=
  (keep8 (U8 V) main_arg25 (by decide)).trans (u8_main_arg25 V)
theorem u9_main_arg26 : U9 V (Proc.devRef .tc main_arg26) = V (Proc.devRef .tc main_arg26) :=
  (keep8 (U8 V) main_arg26 (by decide)).trans (u8_main_arg26 V)
theorem u9_main_arg27 : U9 V (Proc.devRef .tc main_arg27) = V (Proc.devRef .tc main_arg27) :=
  (keep8 (U8 V) main_arg27 (by decide)).trans (u8_main_arg27 V)
theorem u9_main_v1 : U9 V (Proc.devRef .tc main_v1) = val_main_v1 (F := F) (V (Proc.devRef .tc main_arg27)) :=
  (keep8 (U8 V) main_v1 (by decide)).trans (u8_main_v1 V)
theorem u9_main_v171 : U9 V (Proc.devRef .tc main_v171) = val_main_v171 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) :=
  (keep8 (U8 V) main_v171 (by decide)).trans (u8_main_v171 V)
theorem u9_main_v203 : U9 V (Proc.devRef .tc main_v203) = val_main_v203 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg19)) (V (Proc.devRef .tc main_arg24)) (V (Proc.devRef .tc main_arg25)) (V (Proc.devRef .tc main_arg26)) (V (Proc.devRef .tc main_arg27)) :=
  st8_main_v203 (U8 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg19)) (V (Proc.devRef .tc main_arg24)) (V (Proc.devRef .tc main_arg25)) (V (Proc.devRef .tc main_arg26)) (V (Proc.devRef .tc main_arg27)) (u8_main_v198 V) (u8_main_call4_v2 V) (u8_main_call4_v1 V) (u8_main_v197 V)
theorem u9_main_v205 : U9 V (Proc.devRef .tc main_v205) = val_main_v205 (F := F) (V (Proc.devRef .tc main_arg26)) :=
  st8_main_v205 (U8 V) (V (Proc.devRef .tc main_arg26)) (u8_main_v196 V)
theorem u9_main_v207 : U9 V (Proc.devRef .tc main_v207) = val_main_v207 (F := F) (V (Proc.devRef .tc main_arg26)) :=
  st8_main_v207 (U8 V) (V (Proc.devRef .tc main_arg26)) (u8_main_v196 V)
theorem u9_main_v209 : U9 V (Proc.devRef .tc main_v209) = val_main_v209 (F := F) (V (Proc.devRef .tc main_arg26)) :=
  st8_main_v209 (U8 V) (V (Proc.devRef .tc main_arg26)) (u8_main_v196 V)

/-! After stretch 9. -/
theorem u10_main_arg0 : U10 V (Proc.devRef .tc main_arg0) = V (Proc.devRef .tc main_arg0) :=
  (keep9 (U9 V) main_arg0 (by decide)).trans (u9_main_arg0 V)
theorem u10_main_arg1 : U10 V (Proc.devRef .tc main_arg1) = V (Proc.devRef .tc main_arg1) :=
  (keep9 (U9 V) main_arg1 (by decide)).trans (u9_main_arg1 V)
theorem u10_main_arg2 : U10 V (Proc.devRef .tc main_arg2) = V (Proc.devRef .tc main_arg2) :=
  (keep9 (U9 V) main_arg2 (by decide)).trans (u9_main_arg2 V)
theorem u10_main_arg3 : U10 V (Proc.devRef .tc main_arg3) = V (Proc.devRef .tc main_arg3) :=
  (keep9 (U9 V) main_arg3 (by decide)).trans (u9_main_arg3 V)
theorem u10_main_arg4 : U10 V (Proc.devRef .tc main_arg4) = V (Proc.devRef .tc main_arg4) :=
  (keep9 (U9 V) main_arg4 (by decide)).trans (u9_main_arg4 V)
theorem u10_main_arg5 : U10 V (Proc.devRef .tc main_arg5) = V (Proc.devRef .tc main_arg5) :=
  (keep9 (U9 V) main_arg5 (by decide)).trans (u9_main_arg5 V)
theorem u10_main_arg6 : U10 V (Proc.devRef .tc main_arg6) = V (Proc.devRef .tc main_arg6) :=
  (keep9 (U9 V) main_arg6 (by decide)).trans (u9_main_arg6 V)
theorem u10_main_arg7 : U10 V (Proc.devRef .tc main_arg7) = V (Proc.devRef .tc main_arg7) :=
  (keep9 (U9 V) main_arg7 (by decide)).trans (u9_main_arg7 V)
theorem u10_main_arg8 : U10 V (Proc.devRef .tc main_arg8) = V (Proc.devRef .tc main_arg8) :=
  (keep9 (U9 V) main_arg8 (by decide)).trans (u9_main_arg8 V)
theorem u10_main_arg9 : U10 V (Proc.devRef .tc main_arg9) = V (Proc.devRef .tc main_arg9) :=
  (keep9 (U9 V) main_arg9 (by decide)).trans (u9_main_arg9 V)
theorem u10_main_arg10 : U10 V (Proc.devRef .tc main_arg10) = V (Proc.devRef .tc main_arg10) :=
  (keep9 (U9 V) main_arg10 (by decide)).trans (u9_main_arg10 V)
theorem u10_main_arg11 : U10 V (Proc.devRef .tc main_arg11) = V (Proc.devRef .tc main_arg11) :=
  (keep9 (U9 V) main_arg11 (by decide)).trans (u9_main_arg11 V)
theorem u10_main_arg12 : U10 V (Proc.devRef .tc main_arg12) = V (Proc.devRef .tc main_arg12) :=
  (keep9 (U9 V) main_arg12 (by decide)).trans (u9_main_arg12 V)
theorem u10_main_arg13 : U10 V (Proc.devRef .tc main_arg13) = V (Proc.devRef .tc main_arg13) :=
  (keep9 (U9 V) main_arg13 (by decide)).trans (u9_main_arg13 V)
theorem u10_main_arg14 : U10 V (Proc.devRef .tc main_arg14) = V (Proc.devRef .tc main_arg14) :=
  (keep9 (U9 V) main_arg14 (by decide)).trans (u9_main_arg14 V)
theorem u10_main_arg15 : U10 V (Proc.devRef .tc main_arg15) = V (Proc.devRef .tc main_arg15) :=
  (keep9 (U9 V) main_arg15 (by decide)).trans (u9_main_arg15 V)
theorem u10_main_arg16 : U10 V (Proc.devRef .tc main_arg16) = V (Proc.devRef .tc main_arg16) :=
  (keep9 (U9 V) main_arg16 (by decide)).trans (u9_main_arg16 V)
theorem u10_main_arg17 : U10 V (Proc.devRef .tc main_arg17) = V (Proc.devRef .tc main_arg17) :=
  (keep9 (U9 V) main_arg17 (by decide)).trans (u9_main_arg17 V)
theorem u10_main_arg18 : U10 V (Proc.devRef .tc main_arg18) = V (Proc.devRef .tc main_arg18) :=
  (keep9 (U9 V) main_arg18 (by decide)).trans (u9_main_arg18 V)
theorem u10_main_arg19 : U10 V (Proc.devRef .tc main_arg19) = V (Proc.devRef .tc main_arg19) :=
  (keep9 (U9 V) main_arg19 (by decide)).trans (u9_main_arg19 V)
theorem u10_main_arg20 : U10 V (Proc.devRef .tc main_arg20) = V (Proc.devRef .tc main_arg20) :=
  (keep9 (U9 V) main_arg20 (by decide)).trans (u9_main_arg20 V)
theorem u10_main_arg21 : U10 V (Proc.devRef .tc main_arg21) = V (Proc.devRef .tc main_arg21) :=
  (keep9 (U9 V) main_arg21 (by decide)).trans (u9_main_arg21 V)
theorem u10_main_arg22 : U10 V (Proc.devRef .tc main_arg22) = V (Proc.devRef .tc main_arg22) :=
  (keep9 (U9 V) main_arg22 (by decide)).trans (u9_main_arg22 V)
theorem u10_main_arg23 : U10 V (Proc.devRef .tc main_arg23) = V (Proc.devRef .tc main_arg23) :=
  (keep9 (U9 V) main_arg23 (by decide)).trans (u9_main_arg23 V)
theorem u10_main_arg24 : U10 V (Proc.devRef .tc main_arg24) = V (Proc.devRef .tc main_arg24) :=
  (keep9 (U9 V) main_arg24 (by decide)).trans (u9_main_arg24 V)
theorem u10_main_arg25 : U10 V (Proc.devRef .tc main_arg25) = V (Proc.devRef .tc main_arg25) :=
  (keep9 (U9 V) main_arg25 (by decide)).trans (u9_main_arg25 V)
theorem u10_main_arg26 : U10 V (Proc.devRef .tc main_arg26) = V (Proc.devRef .tc main_arg26) :=
  (keep9 (U9 V) main_arg26 (by decide)).trans (u9_main_arg26 V)
theorem u10_main_arg27 : U10 V (Proc.devRef .tc main_arg27) = V (Proc.devRef .tc main_arg27) :=
  (keep9 (U9 V) main_arg27 (by decide)).trans (u9_main_arg27 V)
theorem u10_main_v171 : U10 V (Proc.devRef .tc main_v171) = val_main_v171 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg24)) (V (Proc.devRef .tc main_arg25)) (V (Proc.devRef .tc main_arg27)) :=
  (keep9 (U9 V) main_v171 (by decide)).trans (u9_main_v171 V)
theorem u10_main_v203 : U10 V (Proc.devRef .tc main_v203) = val_main_v203 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg19)) (V (Proc.devRef .tc main_arg24)) (V (Proc.devRef .tc main_arg25)) (V (Proc.devRef .tc main_arg26)) (V (Proc.devRef .tc main_arg27)) :=
  (keep9 (U9 V) main_v203 (by decide)).trans (u9_main_v203 V)
theorem u10_main_v238 : U10 V (Proc.devRef .tc main_v238) = val_main_v238 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg14)) (V (Proc.devRef .tc main_arg15)) (V (Proc.devRef .tc main_arg16)) (V (Proc.devRef .tc main_arg17)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) :=
  st9_main_v238 (U9 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg14)) (V (Proc.devRef .tc main_arg15)) (V (Proc.devRef .tc main_arg16)) (V (Proc.devRef .tc main_arg17)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (u9_main_arg23 V) (u9_main_arg17 V) (u9_main_arg16 V) (u9_main_v171 V) (u9_main_arg15 V) (u9_main_arg14 V) (u9_main_v1 V) (u9_main_arg22 V) (u9_main_arg21 V) (u9_main_v205 V) (u9_main_v209 V) (u9_main_v207 V) (u9_main_arg20 V)

/-! After stretch 10. -/
theorem u11_main_arg0 : U11 V (Proc.devRef .tc main_arg0) = V (Proc.devRef .tc main_arg0) :=
  (keep10 (U10 V) main_arg0 (by decide)).trans (u10_main_arg0 V)
theorem u11_main_arg1 : U11 V (Proc.devRef .tc main_arg1) = V (Proc.devRef .tc main_arg1) :=
  (keep10 (U10 V) main_arg1 (by decide)).trans (u10_main_arg1 V)
theorem u11_main_arg2 : U11 V (Proc.devRef .tc main_arg2) = V (Proc.devRef .tc main_arg2) :=
  (keep10 (U10 V) main_arg2 (by decide)).trans (u10_main_arg2 V)
theorem u11_main_arg3 : U11 V (Proc.devRef .tc main_arg3) = V (Proc.devRef .tc main_arg3) :=
  (keep10 (U10 V) main_arg3 (by decide)).trans (u10_main_arg3 V)
theorem u11_main_arg4 : U11 V (Proc.devRef .tc main_arg4) = V (Proc.devRef .tc main_arg4) :=
  (keep10 (U10 V) main_arg4 (by decide)).trans (u10_main_arg4 V)
theorem u11_main_arg5 : U11 V (Proc.devRef .tc main_arg5) = V (Proc.devRef .tc main_arg5) :=
  (keep10 (U10 V) main_arg5 (by decide)).trans (u10_main_arg5 V)
theorem u11_main_arg6 : U11 V (Proc.devRef .tc main_arg6) = V (Proc.devRef .tc main_arg6) :=
  (keep10 (U10 V) main_arg6 (by decide)).trans (u10_main_arg6 V)
theorem u11_main_arg7 : U11 V (Proc.devRef .tc main_arg7) = V (Proc.devRef .tc main_arg7) :=
  (keep10 (U10 V) main_arg7 (by decide)).trans (u10_main_arg7 V)
theorem u11_main_arg8 : U11 V (Proc.devRef .tc main_arg8) = V (Proc.devRef .tc main_arg8) :=
  (keep10 (U10 V) main_arg8 (by decide)).trans (u10_main_arg8 V)
theorem u11_main_arg9 : U11 V (Proc.devRef .tc main_arg9) = V (Proc.devRef .tc main_arg9) :=
  (keep10 (U10 V) main_arg9 (by decide)).trans (u10_main_arg9 V)
theorem u11_main_arg10 : U11 V (Proc.devRef .tc main_arg10) = V (Proc.devRef .tc main_arg10) :=
  (keep10 (U10 V) main_arg10 (by decide)).trans (u10_main_arg10 V)
theorem u11_main_arg11 : U11 V (Proc.devRef .tc main_arg11) = V (Proc.devRef .tc main_arg11) :=
  (keep10 (U10 V) main_arg11 (by decide)).trans (u10_main_arg11 V)
theorem u11_main_arg12 : U11 V (Proc.devRef .tc main_arg12) = V (Proc.devRef .tc main_arg12) :=
  (keep10 (U10 V) main_arg12 (by decide)).trans (u10_main_arg12 V)
theorem u11_main_arg13 : U11 V (Proc.devRef .tc main_arg13) = V (Proc.devRef .tc main_arg13) :=
  (keep10 (U10 V) main_arg13 (by decide)).trans (u10_main_arg13 V)
theorem u11_main_arg14 : U11 V (Proc.devRef .tc main_arg14) = V (Proc.devRef .tc main_arg14) :=
  (keep10 (U10 V) main_arg14 (by decide)).trans (u10_main_arg14 V)
theorem u11_main_arg15 : U11 V (Proc.devRef .tc main_arg15) = V (Proc.devRef .tc main_arg15) :=
  (keep10 (U10 V) main_arg15 (by decide)).trans (u10_main_arg15 V)
theorem u11_main_arg16 : U11 V (Proc.devRef .tc main_arg16) = V (Proc.devRef .tc main_arg16) :=
  (keep10 (U10 V) main_arg16 (by decide)).trans (u10_main_arg16 V)
theorem u11_main_arg17 : U11 V (Proc.devRef .tc main_arg17) = V (Proc.devRef .tc main_arg17) :=
  (keep10 (U10 V) main_arg17 (by decide)).trans (u10_main_arg17 V)
theorem u11_main_arg18 : U11 V (Proc.devRef .tc main_arg18) = V (Proc.devRef .tc main_arg18) :=
  (keep10 (U10 V) main_arg18 (by decide)).trans (u10_main_arg18 V)
theorem u11_main_arg19 : U11 V (Proc.devRef .tc main_arg19) = V (Proc.devRef .tc main_arg19) :=
  (keep10 (U10 V) main_arg19 (by decide)).trans (u10_main_arg19 V)
theorem u11_main_arg20 : U11 V (Proc.devRef .tc main_arg20) = V (Proc.devRef .tc main_arg20) :=
  (keep10 (U10 V) main_arg20 (by decide)).trans (u10_main_arg20 V)
theorem u11_main_arg21 : U11 V (Proc.devRef .tc main_arg21) = V (Proc.devRef .tc main_arg21) :=
  (keep10 (U10 V) main_arg21 (by decide)).trans (u10_main_arg21 V)
theorem u11_main_arg22 : U11 V (Proc.devRef .tc main_arg22) = V (Proc.devRef .tc main_arg22) :=
  (keep10 (U10 V) main_arg22 (by decide)).trans (u10_main_arg22 V)
theorem u11_main_arg23 : U11 V (Proc.devRef .tc main_arg23) = V (Proc.devRef .tc main_arg23) :=
  (keep10 (U10 V) main_arg23 (by decide)).trans (u10_main_arg23 V)
theorem u11_main_arg24 : U11 V (Proc.devRef .tc main_arg24) = V (Proc.devRef .tc main_arg24) :=
  (keep10 (U10 V) main_arg24 (by decide)).trans (u10_main_arg24 V)
theorem u11_main_arg25 : U11 V (Proc.devRef .tc main_arg25) = V (Proc.devRef .tc main_arg25) :=
  (keep10 (U10 V) main_arg25 (by decide)).trans (u10_main_arg25 V)
theorem u11_main_arg26 : U11 V (Proc.devRef .tc main_arg26) = V (Proc.devRef .tc main_arg26) :=
  (keep10 (U10 V) main_arg26 (by decide)).trans (u10_main_arg26 V)
theorem u11_main_arg27 : U11 V (Proc.devRef .tc main_arg27) = V (Proc.devRef .tc main_arg27) :=
  (keep10 (U10 V) main_arg27 (by decide)).trans (u10_main_arg27 V)
theorem u11_main_v203 : U11 V (Proc.devRef .tc main_v203) = val_main_v203 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg19)) (V (Proc.devRef .tc main_arg24)) (V (Proc.devRef .tc main_arg25)) (V (Proc.devRef .tc main_arg26)) (V (Proc.devRef .tc main_arg27)) :=
  (keep10 (U10 V) main_v203 (by decide)).trans (u10_main_v203 V)
theorem u11_main_v239 : U11 V (Proc.devRef .tc main_v239) = val_main_v239 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg14)) (V (Proc.devRef .tc main_arg15)) (V (Proc.devRef .tc main_arg16)) (V (Proc.devRef .tc main_arg17)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) :=
  st10_main_v239 (U10 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg14)) (V (Proc.devRef .tc main_arg15)) (V (Proc.devRef .tc main_arg16)) (V (Proc.devRef .tc main_arg17)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (u10_main_v238 V) (u10_main_v171 V)

end Cert.ReferenceIdeal.RunH

end
-- ==== Proof.RRun.lean ====
/-
  The reference program's run, read back stage by stage: every weakly fair execution of its @main terminates with its
  two results at the stages' values of the argument arrays, the arguments unchanged. The operations are run in
  consecutive stretches; each stretch's buffers are read from the stretch before: the run of a straight line of host
  operations ends with every buffer at the operations' fold over the launch contents, the fold over all the operations is
  the stretches' folds one after the other, and after the last stretch the two results hold their stages' values and every
  argument what it held at launch.
-/
import proofs.«423165_j21801253994886_2_alg».proof.Proof.RRead
import proofs.«423165_j21801253994886_2_alg».proof.Proof.RRunOps
import proofs.«423165_j21801253994886_2_alg».proof.Proof.RRunU

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.RunOps

/-- On every device, from any memory with zero counters: every weakly fair execution of @main terminates with each
    result at its stage's value of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v239) = val_main_v239 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_v203) = val_main_v203 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨(h c main_v239).trans (by simp only [after_ops]; exact u11_main_v239 (launchContents m c)),
      (h c main_v203).trans (by simp only [after_ops]; exact u11_main_v203 (launchContents m c)),
      (h c main_arg0).trans (by simp only [after_ops]; exact u11_main_arg0 (launchContents m c)),
      (h c main_arg1).trans (by simp only [after_ops]; exact u11_main_arg1 (launchContents m c)),
      (h c main_arg2).trans (by simp only [after_ops]; exact u11_main_arg2 (launchContents m c)),
      (h c main_arg3).trans (by simp only [after_ops]; exact u11_main_arg3 (launchContents m c)),
      (h c main_arg4).trans (by simp only [after_ops]; exact u11_main_arg4 (launchContents m c)),
      (h c main_arg5).trans (by simp only [after_ops]; exact u11_main_arg5 (launchContents m c)),
      (h c main_arg6).trans (by simp only [after_ops]; exact u11_main_arg6 (launchContents m c)),
      (h c main_arg7).trans (by simp only [after_ops]; exact u11_main_arg7 (launchContents m c)),
      (h c main_arg8).trans (by simp only [after_ops]; exact u11_main_arg8 (launchContents m c)),
      (h c main_arg9).trans (by simp only [after_ops]; exact u11_main_arg9 (launchContents m c)),
      (h c main_arg10).trans (by simp only [after_ops]; exact u11_main_arg10 (launchContents m c)),
      (h c main_arg11).trans (by simp only [after_ops]; exact u11_main_arg11 (launchContents m c)),
      (h c main_arg12).trans (by simp only [after_ops]; exact u11_main_arg12 (launchContents m c)),
      (h c main_arg13).trans (by simp only [after_ops]; exact u11_main_arg13 (launchContents m c)),
      (h c main_arg14).trans (by simp only [after_ops]; exact u11_main_arg14 (launchContents m c)),
      (h c main_arg15).trans (by simp only [after_ops]; exact u11_main_arg15 (launchContents m c)),
      (h c main_arg16).trans (by simp only [after_ops]; exact u11_main_arg16 (launchContents m c)),
      (h c main_arg17).trans (by simp only [after_ops]; exact u11_main_arg17 (launchContents m c)),
      (h c main_arg18).trans (by simp only [after_ops]; exact u11_main_arg18 (launchContents m c)),
      (h c main_arg19).trans (by simp only [after_ops]; exact u11_main_arg19 (launchContents m c)),
      (h c main_arg20).trans (by simp only [after_ops]; exact u11_main_arg20 (launchContents m c)),
      (h c main_arg21).trans (by simp only [after_ops]; exact u11_main_arg21 (launchContents m c)),
      (h c main_arg22).trans (by simp only [after_ops]; exact u11_main_arg22 (launchContents m c)),
      (h c main_arg23).trans (by simp only [after_ops]; exact u11_main_arg23 (launchContents m c)),
      (h c main_arg24).trans (by simp only [after_ops]; exact u11_main_arg24 (launchContents m c)),
      (h c main_arg25).trans (by simp only [after_ops]; exact u11_main_arg25 (launchContents m c)),
      (h c main_arg26).trans (by simp only [after_ops]; exact u11_main_arg26 (launchContents m c)),
      (h c main_arg27).trans (by simp only [after_ops]; exact u11_main_arg27 (launchContents m c))⟩)
    (run_seq scopedRefs_eq scopedSems_eq defs main (fun _ => ops) main_eq (fun _ => ops_sub) m ρ (fun _ => ops_fresh))

end Cert.ReferenceIdeal.RunH

end
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.Spec.lean ====
/-
  The mathematics both programs are read against, index by index over the extended reals.

  A graph of 65536 nodes with 128 features each and 655360 edges. One propagation step sends along every edge a
  message  x[src e] · Wsrcᵀ + (x[dst e] · Wdestᵀ + bdest) + ef[e] · Wfeatᵀ  (256 numbers), sums at every node the
  messages of the edges that END there, and feeds that sum with the node's own row to a gated recurrent cell; a node
  whose owner word is a graph number in [0, 128) takes the cell's output, any other node keeps its row. One program sums
  the messages themselves (`aggR`); the other sums the gathered rows and the edge features first and multiplies
  afterwards, the middle term being the in-degree times the node's own projection (`aggK`). After two steps each graph
  sums, over the nodes it owns, a gated projection of the node rows (`pooled`).

  An edge's source word is read as a row number the way an array index is: a negative word first has 65536 added, then
  the word is clamped into [0, 65535] (`rowOf`). An edge ends at node n when its destination word, read signed, IS n.
-/
import proofs.«423165_j21801253994886_2_alg».proof.Proof.LibIndex
import Idealize.ShloMosaic.PureOps.Ideal

noncomputable section

namespace Cert.Gnn

open Idealize.ShloMosaic Idealize.ShloMosaic.ValueIdx

/-- A two-axis array as a function of its two coordinates. -/
abbrev m2 {α : Type} {a b : Nat} (A : (⟨2, ![a, b]⟩ : Shape).Idx → α) : Fin a → Fin b → α := fun i j => A (ix2 i j)
/-- A one-axis array as a function of its coordinate. -/
abbrev m1 {α : Type} {a : Nat} (A : (⟨1, ![a]⟩ : Shape).Idx → α) : Fin a → α := fun i => A (ix1 i)
/-- Layer `l` of a stack of matrices. -/
abbrev m3 {α : Type} {a b c : Nat} (A : (⟨3, ![a, b, c]⟩ : Shape).Idx → α) (l : Fin a) : Fin b → Fin c → α :=
  fun i j => A (ix3 l i j)
/-- Row `l` of a stack of vectors. -/
abbrev m2row {α : Type} {a b : Nat} (A : (⟨2, ![a, b]⟩ : Shape).Idx → α) (l : Fin a) : Fin b → α := fun i => A (ix2 l i)

/-- The float word of 1.0 read at the extended reals. -/
def one : EReal := Ideal.ofBits .f32 0x3F800000#32

/-- An index word wrapped the way array indexing wraps it: a negative word has the extent added. -/
def wrap (N : Nat) (v : BitVec 32) : BitVec 32 := if v.toInt < 0 then v + BitVec.ofNat 32 N else v

/-- The node row an index word names: wrapped, then clamped into the array. -/
def rowOf (v : BitVec 32) : Fin 65536 := Cert.Gcn.crow 65536 (by norm_num) (wrap 65536 v)

/-- The sum of `u` over the edges whose destination word, read signed, is node `n`. -/
def segSum (dst : Fin 655360 → BitVec 32) (n : Fin 65536) (u : Fin 655360 → EReal) : EReal :=
  ∑ e ∈ Finset.univ.filter (fun e : Fin 655360 => (dst e).toInt = (n.val : Int)), u e

/-- One step's parameters. -/
structure StepParams where
  Wsrc : Fin 256 → Fin 128 → EReal
  Wdest : Fin 256 → Fin 128 → EReal
  bdest : Fin 256 → EReal
  Wfeat : Fin 256 → Fin 128 → EReal
  Wih : Fin 384 → Fin 256 → EReal
  Whh : Fin 384 → Fin 128 → EReal
  bih : Fin 384 → EReal
  bhh : Fin 384 → EReal

/-- The graph: edge features, the edges' source and destination words, the nodes' owner words. -/
structure Graph where
  ef : Fin 655360 → Fin 128 → EReal
  src : Fin 655360 → BitVec 32
  dst : Fin 655360 → BitVec 32
  owner : Fin 65536 → BitVec 32

/-- A node's projection toward the edges that end at it. -/
def destT (p : StepParams) (x : Fin 65536 → Fin 128 → EReal) (n : Fin 65536) (j : Fin 256) : EReal :=
  (∑ k, x n k * p.Wdest j k) + p.bdest j

/-- The aggregated message at a node, multiplying AFTER the sums: the summed source rows through `Wsrc`, the in-degree
    times the node's own projection, the summed edge features through `Wfeat`. -/
def aggK (p : StepParams) (g : Graph) (x : Fin 65536 → Fin 128 → EReal) (n : Fin 65536) (j : Fin 256) : EReal :=
  (∑ k, segSum g.dst n (fun e => x (rowOf (g.src e)) k) * p.Wsrc j k)
    + segSum g.dst n (fun _ => one) * destT p x n j
    + ∑ k, segSum g.dst n (fun e => g.ef e k) * p.Wfeat j k

/-- The aggregated message at a node, summing the edges' messages themselves. -/
def aggR (p : StepParams) (g : Graph) (x : Fin 65536 → Fin 128 → EReal) (n : Fin 65536) (j : Fin 256) : EReal :=
  segSum g.dst n (fun e => (∑ k, x (rowOf (g.src e)) k * p.Wsrc j k) + destT p x (rowOf (g.dst e)) j
    + ∑ k, g.ef e k * p.Wfeat j k)

/-- Column `s` of the first, second, third block of 128 among 384. -/
def blk0 (s : Fin 128) : Fin 384 := ⟨s.val, by omega⟩
def blk1 (s : Fin 128) : Fin 384 := ⟨128 + s.val, by omega⟩
def blk2 (s : Fin 128) : Fin 384 := ⟨256 + s.val, by omega⟩

/-- The gated recurrent cell on one node: input `a` (the aggregated message), state `x` (the node's row). -/
def gru (p : StepParams) (x : Fin 128 → EReal) (a : Fin 256 → EReal) (s : Fin 128) : EReal :=
  let gi : Fin 384 → EReal := fun j => (∑ k, a k * p.Wih j k) + p.bih j
  let gh : Fin 384 → EReal := fun j => (∑ k, x k * p.Whh j k) + p.bhh j
  let r := Ideal.logistic (gi (blk0 s) + gh (blk0 s))
  let z := Ideal.logistic (gi (blk1 s) + gh (blk1 s))
  let c := Ideal.tanh (gi (blk2 s) + r * gh (blk2 s))
  (one - z) * c + z * x s

/-- A node is updated when its owner word is a graph number. -/
def Owned (o : BitVec 32) : Prop := 0 ≤ o.toInt ∧ o.toInt < 128

instance (o : BitVec 32) : Decidable (Owned o) := by unfold Owned; infer_instance

/-- Entry (n, b) of the owner table: 1 when node n's owner word is the word of b, else 0. -/
def hot (owner : Fin 65536 → BitVec 32) (n : Fin 65536) (b : Fin 128) : EReal :=
  if owner n = BitVec.ofNat 32 b.val then 1 else 0

/-- "The owner table's row n has a positive sum": the other spelling of `Owned`. -/
def RowPos (owner : Fin 65536 → BitVec 32) (n : Fin 65536) : Prop := 0 < ∑ b : Fin 128, hot owner n b

/-- One step with the messages multiplied after the sums, the update decided by the owner word's range. -/
def stepK (p : StepParams) (g : Graph) (x : Fin 65536 → Fin 128 → EReal) (n : Fin 65536) (s : Fin 128) : EReal :=
  if Owned (g.owner n) then gru p (x n) (aggK p g x n) s else x n s

/-- One step with the edges' messages summed, the update decided by the owner table's row sum. -/
def stepR (p : StepParams) (g : Graph) (x : Fin 65536 → Fin 128 → EReal) (n : Fin 65536) (s : Fin 128) : EReal :=
  open Classical in if RowPos g.owner n then gru p (x n) (aggR p g x n) s else x n s

/-- A pooling head's parameters: the data projection and the gate projection. -/
structure PoolParams where
  Wt : Fin 256 → Fin 128 → EReal
  bt : Fin 256 → EReal
  Wg : Fin 256 → Fin 128 → EReal
  bg : Fin 256 → EReal

/-- A node's gated projection. -/
def gated (q : PoolParams) (x : Fin 65536 → Fin 128 → EReal) (n : Fin 65536) (a : Fin 256) : EReal :=
  ((∑ k, x n k * q.Wt a k) + q.bt a) * Ideal.logistic ((∑ k, x n k * q.Wg a k) + q.bg a)

/-- Graph b's pooled vector: the gated projections of the nodes it owns, summed. -/
def pooled (q : PoolParams) (owner : Fin 65536 → BitVec 32) (x : Fin 65536 → Fin 128 → EReal) (b : Fin 128) (a : Fin 256) : EReal :=
  ∑ n : Fin 65536, hot owner n b * gated q x n a

/-- Layer `l` of the stacked step parameters. -/
def stepParams (l : Fin 2) (Wsrc Wdest : (⟨3, ![2, 256, 128]⟩ : Shape).Idx → EReal) (bdest : (⟨2, ![2, 256]⟩ : Shape).Idx → EReal)
    (Wfeat : (⟨3, ![2, 256, 128]⟩ : Shape).Idx → EReal) (Wih : (⟨3, ![2, 384, 256]⟩ : Shape).Idx → EReal)
    (Whh : (⟨3, ![2, 384, 128]⟩ : Shape).Idx → EReal) (bih bhh : (⟨2, ![2, 384]⟩ : Shape).Idx → EReal) : StepParams where
  Wsrc := m3 Wsrc l
  Wdest := m3 Wdest l
  bdest := m2row bdest l
  Wfeat := m3 Wfeat l
  Wih := m3 Wih l
  Whh := m3 Whh l
  bih := m2row bih l
  bhh := m2row bhh l

/-- The graph from its four arrays. -/
def graphOf (ef : (⟨2, ![655360, 128]⟩ : Shape).Idx → EReal) (src dst : (⟨1, ![655360]⟩ : Shape).Idx → BitVec 32)
    (owner : (⟨1, ![65536]⟩ : Shape).Idx → BitVec 32) : Graph where
  ef := m2 ef
  src := m1 src
  dst := m1 dst
  owner := m1 owner

/-- A pooling head from its four arrays. -/
def poolParams (Wt : (⟨2, ![256, 128]⟩ : Shape).Idx → EReal) (bt : (⟨1, ![256]⟩ : Shape).Idx → EReal)
    (Wg : (⟨2, ![256, 128]⟩ : Shape).Idx → EReal) (bg : (⟨1, ![256]⟩ : Shape).Idx → EReal) : PoolParams where
  Wt := m2 Wt
  bt := m1 bt
  Wg := m2 Wg
  bg := m1 bg

/-- Every entry of a table is a real number. -/
def Fin2 {a b : Nat} (A : Fin a → Fin b → EReal) : Prop := ∀ i j, A i j ≠ ⊥ ∧ A i j ≠ ⊤
def Fin1 {a : Nat} (A : Fin a → EReal) : Prop := ∀ i, A i ≠ ⊥ ∧ A i ≠ ⊤

/-- A step's parameters are real numbers. -/
structure StepParams.Finite (p : StepParams) : Prop where
  Wsrc : Fin2 p.Wsrc
  Wdest : Fin2 p.Wdest
  bdest : Fin1 p.bdest
  Wfeat : Fin2 p.Wfeat
  Wih : Fin2 p.Wih
  Whh : Fin2 p.Whh
  bih : Fin1 p.bih
  bhh : Fin1 p.bhh

end Cert.Gnn

end
-- ==== Proof.KArgs.lean ====
/-
  The kernel program's argument arrays at a core, typed by their literal shapes, and the step, graph and pooling
  parameters they hold.
-/
import proofs.«423165_j21801253994886_2_alg».proof.Proof.Gen.KernelIdeal.Frame
import proofs.«423165_j21801253994886_2_alg».proof.Proof.Spec

set_option maxRecDepth 16384

noncomputable section

namespace Cert.KernelIdeal.KV

open Idealize.ShloMosaic Idealize.ShloMosaic.TcCoe Idealize.ShloMosaic.ValueIdx Idealize.SL.Sem
open Cert.Gnn
open Cert.KernelIdeal Cert.KernelIdeal.Gen

variable (m : (ℓ : Loc nD τ sig) → Buf (Elt Ideal) ℓ)

/-- Argument 0 at core `c`. -/
abbrev a0 (c : Dev nD) : S65536x128.Idx → EReal := m ((c.tc : Thread nD τ).loc main_arg0)
/-- Argument 1 at core `c`. -/
abbrev a1 (c : Dev nD) : S655360x128.Idx → EReal := m ((c.tc : Thread nD τ).loc main_arg1)
/-- Argument 2 at core `c`. -/
abbrev a2 (c : Dev nD) : S2x256x128.Idx → EReal := m ((c.tc : Thread nD τ).loc main_arg2)
/-- Argument 3 at core `c`. -/
abbrev a3 (c : Dev nD) : S2x256x128.Idx → EReal := m ((c.tc : Thread nD τ).loc main_arg3)
/-- Argument 4 at core `c`. -/
abbrev a4 (c : Dev nD) : S2x256.Idx → EReal := m ((c.tc : Thread nD τ).loc main_arg4)
/-- Argument 5 at core `c`. -/
abbrev a5 (c : Dev nD) : S2x256x128.Idx → EReal := m ((c.tc : Thread nD τ).loc main_arg5)
/-- Argument 6 at core `c`. -/
abbrev a6 (c : Dev nD) : S2x384x256.Idx → EReal := m ((c.tc : Thread nD τ).loc main_arg6)
/-- Argument 7 at core `c`. -/
abbrev a7 (c : Dev nD) : S2x384x128.Idx → EReal := m ((c.tc : Thread nD τ).loc main_arg7)
/-- Argument 8 at core `c`. -/
abbrev a8 (c : Dev nD) : S2x384.Idx → EReal := m ((c.tc : Thread nD τ).loc main_arg8)
/-- Argument 9 at core `c`. -/
abbrev a9 (c : Dev nD) : S2x384.Idx → EReal := m ((c.tc : Thread nD τ).loc main_arg9)
/-- Argument 10 at core `c`. -/
abbrev a10 (c : Dev nD) : S256x128.Idx → EReal := m ((c.tc : Thread nD τ).loc main_arg10)
/-- Argument 11 at core `c`. -/
abbrev a11 (c : Dev nD) : S256.Idx → EReal := m ((c.tc : Thread nD τ).loc main_arg11)
/-- Argument 12 at core `c`. -/
abbrev a12 (c : Dev nD) : S256x128.Idx → EReal := m ((c.tc : Thread nD τ).loc main_arg12)
/-- Argument 13 at core `c`. -/
abbrev a13 (c : Dev nD) : S256.Idx → EReal := m ((c.tc : Thread nD τ).loc main_arg13)
/-- Argument 14 at core `c`. -/
abbrev a14 (c : Dev nD) : S256x128.Idx → EReal := m ((c.tc : Thread nD τ).loc main_arg14)
/-- Argument 15 at core `c`. -/
abbrev a15 (c : Dev nD) : S256.Idx → EReal := m ((c.tc : Thread nD τ).loc main_arg15)
/-- Argument 16 at core `c`. -/
abbrev a16 (c : Dev nD) : S256x128.Idx → EReal := m ((c.tc : Thread nD τ).loc main_arg16)
/-- Argument 17 at core `c`. -/
abbrev a17 (c : Dev nD) : S256.Idx → EReal := m ((c.tc : Thread nD τ).loc main_arg17)
/-- Argument 18 at core `c`. -/
abbrev a18 (c : Dev nD) : S33x256.Idx → EReal := m ((c.tc : Thread nD τ).loc main_arg18)
/-- Argument 19 at core `c`. -/
abbrev a19 (c : Dev nD) : S33.Idx → EReal := m ((c.tc : Thread nD τ).loc main_arg19)
/-- Argument 20 at core `c`. -/
abbrev a20 (c : Dev nD) : S32x128.Idx → EReal := m ((c.tc : Thread nD τ).loc main_arg20)
/-- Argument 21 at core `c`. -/
abbrev a21 (c : Dev nD) : S128x128.Idx → EReal := m ((c.tc : Thread nD τ).loc main_arg21)
/-- Argument 22 at core `c`. -/
abbrev a22 (c : Dev nD) : S128.Idx → EReal := m ((c.tc : Thread nD τ).loc main_arg22)
/-- Argument 23 at core `c`. -/
abbrev a23 (c : Dev nD) : S128x256.Idx → EReal := m ((c.tc : Thread nD τ).loc main_arg23)
/-- Argument 24 at core `c`. -/
abbrev a24 (c : Dev nD) : S655360.Idx → BitVec 32 := m ((c.tc : Thread nD τ).loc main_arg24)
/-- Argument 25 at core `c`. -/
abbrev a25 (c : Dev nD) : S655360.Idx → BitVec 32 := m ((c.tc : Thread nD τ).loc main_arg25)
/-- Argument 26 at core `c`. -/
abbrev a26 (c : Dev nD) : S128.Idx → BitVec 32 := m ((c.tc : Thread nD τ).loc main_arg26)
/-- Argument 27 at core `c`. -/
abbrev a27 (c : Dev nD) : S65536.Idx → BitVec 32 := m ((c.tc : Thread nD τ).loc main_arg27)

/-- Step `l`'s parameters. -/
def kp (l : Fin 2) (c : Dev nD) : StepParams := stepParams l (a2 m c) (a3 m c) (a4 m c) (a5 m c) (a6 m c) (a7 m c) (a8 m c) (a9 m c)
/-- The graph. -/
def kg (c : Dev nD) : Graph := graphOf (a1 m c) (a24 m c) (a25 m c) (a27 m c)
/-- The decision head and the initialisation head. -/
def kqDec (c : Dev nD) : PoolParams := poolParams (a10 m c) (a11 m c) (a12 m c) (a13 m c)
def kqInit (c : Dev nD) : PoolParams := poolParams (a14 m c) (a15 m c) (a16 m c) (a17 m c)

end Cert.KernelIdeal.KV

end
-- ==== Proof.SpecK.lean ====
/-
  What each kernel region computes from the arrays it is handed, index by index.

  The step region sees the summed source rows, the node rows, the summed edge features, the in-degree spread over 256
  columns, and the step's matrices TRANSPOSED (columns index the outputs); it forms the aggregated message and applies
  the recurrent cell. The pooling region sees the node rows, the owner table and a head's transposed matrices, and sums
  over all nodes the owner table's column times the node's gated projection.
-/
import proofs.«423165_j21801253994886_2_alg».proof.Proof.Spec

noncomputable section

namespace Cert.Gnn

open Idealize.ShloMosaic

/-- The cell's parameters from the transposed matrices the kernel is handed (only the cell's four fields matter). -/
def cellOfT (WihT : Fin 256 → Fin 384 → EReal) (WhhT : Fin 128 → Fin 384 → EReal) (bih bhh : Fin 384 → EReal) : StepParams where
  Wsrc := fun _ _ => 0
  Wdest := fun _ _ => 0
  bdest := fun _ => 0
  Wfeat := fun _ _ => 0
  Wih := fun j k => WihT k j
  Whh := fun j k => WhhT k j
  bih := bih
  bhh := bhh

/-- The aggregated message the step region forms at node `n`, column `j`. -/
def stepMsg (scat x efagg : Fin 65536 → Fin 128 → EReal) (degb : Fin 65536 → Fin 256 → EReal)
    (WsrcT WdestT WfeatT : Fin 128 → Fin 256 → EReal) (bdest : Fin 256 → EReal) (n : Fin 65536) (j : Fin 256) : EReal :=
  (∑ k, scat n k * WsrcT k j) + degb n j * ((∑ k, x n k * WdestT k j) + bdest j) + ∑ k, efagg n k * WfeatT k j

/-- The step region's output at node `n`, feature `s`. -/
def stepBody (scat x efagg : Fin 65536 → Fin 128 → EReal) (degb : Fin 65536 → Fin 256 → EReal)
    (WsrcT WdestT WfeatT : Fin 128 → Fin 256 → EReal) (bdest : Fin 256 → EReal)
    (WihT : Fin 256 → Fin 384 → EReal) (WhhT : Fin 128 → Fin 384 → EReal) (bih bhh : Fin 384 → EReal)
    (n : Fin 65536) (s : Fin 128) : EReal :=
  gru (cellOfT WihT WhhT bih bhh) (x n) (stepMsg scat x efagg degb WsrcT WdestT WfeatT bdest n) s

/-- The pooling region's output for graph `b`, column `a`. -/
def poolBody (x : Fin 65536 → Fin 128 → EReal) (hotA : Fin 65536 → Fin 128 → EReal)
    (WtT : Fin 128 → Fin 256 → EReal) (bt : Fin 256 → EReal) (WgT : Fin 128 → Fin 256 → EReal) (bg : Fin 256 → EReal)
    (b : Fin 128) (a : Fin 256) : EReal :=
  ∑ n : Fin 65536, hotA n b * (((∑ k, x n k * WtT k a) + bt a) * Ideal.logistic ((∑ k, x n k * WgT k a) + bg a))

end Cert.Gnn

end
-- ==== Proof.KStep0Pay.lean ====
/-
  The arithmetic of step region 0's body, read at one index of the stored block.

  Row p of the block depends on row p of the four row-blocked operands only. The aggregated message at column j is the
  summed source rows through the source matrix, plus the in-degree entry times the node's own projection with its bias,
  plus the summed edge features through the feature matrix; each of the three products is accumulated into zeros, so it
  is the plain sum over the contracted coordinate. The two 384-column products of the recurrent cell are cut into their
  three blocks of 128 columns (reset gate, update gate, candidate), and the stored value is the cell's blend.
-/
import proofs.«423165_j21801253994886_2_alg».proof.Proof.Gen.KernelIdeal.Skeleton
import proofs.«423165_j21801253994886_2_alg».proof.Proof.SpecK
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.KV

open Idealize.ShloMosaic Idealize.ShloMosaic.ValueIdx
open Cert.Gnn
open Cert.KernelIdeal Cert.KernelIdeal.Gen

/-! ## The three matrix products at an index -/

/-- [2048,128] × [128,256]: the left operand's row index is the output's. -/
theorem lhsA_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
/-- Its column index is the contracted coordinate. -/
theorem lhsA_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
/-- The right operand's row index is the contracted coordinate. -/
theorem rhsA_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
/-- Its column index is the output's. -/
theorem rhsA_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- A [2048,128] × [128,256] product into zeros, at (p, q): the sum over the 128 contracted coordinates. -/
theorem mmA_apply {φ₁ φ₂ : FTy} (A : FVec Ideal S2048x128 φ₁) (B : FVec Ideal S128x256 φ₂) (p : Fin 2048) (q : Fin 256) :
    matmul dot_S2048x128_S128x256_S2048x256_1_0_0_1_n_n none A B (constant S2048x256 .f32 0x00000000#32) (ix2 p q)
      = ∑ k : Fin 128, A (ix2 p k) * B (ix2 k q) := by
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p q) ((contrEquiv1 dot_S2048x128_S128x256_S2048x256_1_0_0_1_n_n 128 rfl rfl).symm k) = ix2 p k := funext fun a => Fin.ext (by
    match a with
    | ⟨0, _⟩ => exact lhsA_0 _ _
    | ⟨1, _⟩ => exact (lhsA_1 _ _).trans hk)
  have er : dot_S2048x128_S128x256_S2048x256_1_0_0_1_n_n.rhsIdx (ix2 p q) ((contrEquiv1 dot_S2048x128_S128x256_S2048x256_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- [2048,256] × [256,384]: the left operand's row index is the output's. -/
theorem lhsB_0 (i : S2048x384.Idx) (q : dot_S2048x256_S256x384_S2048x384_1_0_0_1_n_n.contr.Idx) :
    (dot_S2048x256_S256x384_S2048x384_1_0_0_1_n_n.lhsIdx i q 0).val = (i 0).val := by
  unfold DotDims.lhsIdx
  rw [dif_neg (show ¬(0 : Fin S2048x256.rank) ∈ dot_S2048x256_S256x384_S2048x384_1_0_0_1_n_n.lhsBatch by decide), dif_pos (show (0 : Fin S2048x256.rank) ∈ dot_S2048x256_S256x384_S2048x384_1_0_0_1_n_n.lhsNonContracting by decide)]
  rfl
/-- Its column index is the contracted coordinate. -/
theorem lhsB_1 (i : S2048x384.Idx) (q : dot_S2048x256_S256x384_S2048x384_1_0_0_1_n_n.contr.Idx) :
    (dot_S2048x256_S256x384_S2048x384_1_0_0_1_n_n.lhsIdx i q 1).val = (q ⟨0, by decide⟩).val :=
  dot_S2048x256_S256x384_S2048x384_1_0_0_1_n_n.lhsIdx_val_of_single rfl i q
/-- The right operand's row index is the contracted coordinate. -/
theorem rhsB_0 (i : S2048x384.Idx) (q : dot_S2048x256_S256x384_S2048x384_1_0_0_1_n_n.contr.Idx) :
    (dot_S2048x256_S256x384_S2048x384_1_0_0_1_n_n.rhsIdx i q 0).val = (q ⟨0, by decide⟩).val :=
  dot_S2048x256_S256x384_S2048x384_1_0_0_1_n_n.rhsIdx_val_of_single rfl i q
/-- Its column index is the output's. -/
theorem rhsB_1 (i : S2048x384.Idx) (q : dot_S2048x256_S256x384_S2048x384_1_0_0_1_n_n.contr.Idx) :
    (dot_S2048x256_S256x384_S2048x384_1_0_0_1_n_n.rhsIdx i q 1).val = (i 1).val := by
  unfold DotDims.rhsIdx
  rw [dif_neg (show ¬(1 : Fin S256x384.rank) ∈ dot_S2048x256_S256x384_S2048x384_1_0_0_1_n_n.rhsBatch by decide), dif_pos (show (1 : Fin S256x384.rank) ∈ dot_S2048x256_S256x384_S2048x384_1_0_0_1_n_n.rhsNonContracting by decide)]
  rfl

/-- A [2048,256] × [256,384] product into zeros, at (p, q): the sum over the 256 contracted coordinates. -/
theorem mmB_apply {φ₁ φ₂ : FTy} (A : FVec Ideal S2048x256 φ₁) (B : FVec Ideal S256x384 φ₂) (p : Fin 2048) (q : Fin 384) :
    matmul dot_S2048x256_S256x384_S2048x384_1_0_0_1_n_n none A B (constant S2048x384 .f32 0x00000000#32) (ix2 p q)
      = ∑ k : Fin 256, A (ix2 p k) * B (ix2 k q) := by
  simp only [matmul]
  rw [Ideal.matmul_constant_zero_apply, ← Equiv.sum_comp (contrEquiv1 dot_S2048x256_S256x384_S2048x384_1_0_0_1_n_n 256 rfl rfl).symm]
  refine Finset.sum_congr rfl fun k _ => ?_
  have hk := contrEquiv1_symm_val dot_S2048x256_S256x384_S2048x384_1_0_0_1_n_n 256 rfl rfl k
  have el : dot_S2048x256_S256x384_S2048x384_1_0_0_1_n_n.lhsIdx (ix2 p q) ((contrEquiv1 dot_S2048x256_S256x384_S2048x384_1_0_0_1_n_n 256 rfl rfl).symm k) = ix2 p k := funext fun a => Fin.ext (by
    match a with
    | ⟨0, _⟩ => exact lhsB_0 _ _
    | ⟨1, _⟩ => exact (lhsB_1 _ _).trans hk)
  have er : dot_S2048x256_S256x384_S2048x384_1_0_0_1_n_n.rhsIdx (ix2 p q) ((contrEquiv1 dot_S2048x256_S256x384_S2048x384_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-- [2048,128] × [128,384]: the left operand's row index is the output's. -/
theorem lhsC_0 (i : S2048x384.Idx) (q : dot_S2048x128_S128x384_S2048x384_1_0_0_1_n_n.contr.Idx) :
    (dot_S2048x128_S128x384_S2048x384_1_0_0_1_n_n.lhsIdx i q 0).val = (i 0).val := by
  unfold DotDims.lhsIdx
  rw [dif_neg (show ¬(0 : Fin S2048x128.rank) ∈ dot_S2048x128_S128x384_S2048x384_1_0_0_1_n_n.lhsBatch by decide), dif_pos (show (0 : Fin S2048x128.rank) ∈ dot_S2048x128_S128x384_S2048x384_1_0_0_1_n_n.lhsNonContracting by decide)]
  rfl
/-- Its column index is the contracted coordinate. -/
theorem lhsC_1 (i : S2048x384.Idx) (q : dot_S2048x128_S128x384_S2048x384_1_0_0_1_n_n.contr.Idx) :
    (dot_S2048x128_S128x384_S2048x384_1_0_0_1_n_n.lhsIdx i q 1).val = (q ⟨0, by decide⟩).val :=
  dot_S2048x128_S128x384_S2048x384_1_0_0_1_n_n.lhsIdx_val_of_single rfl i q
/-- The right operand's row index is the contracted coordinate. -/
theorem rhsC_0 (i : S2048x384.Idx) (q : dot_S2048x128_S128x384_S2048x384_1_0_0_1_n_n.contr.Idx) :
    (dot_S2048x128_S128x384_S2048x384_1_0_0_1_n_n.rhsIdx i q 0).val = (q ⟨0, by decide⟩).val :=
  dot_S2048x128_S128x384_S2048x384_1_0_0_1_n_n.rhsIdx_val_of_single rfl i q
/-- Its column index is the output's. -/
theorem rhsC_1 (i : S2048x384.Idx) (q : dot_S2048x128_S128x384_S2048x384_1_0_0_1_n_n.contr.Idx) :
    (dot_S2048x128_S128x384_S2048x384_1_0_0_1_n_n.rhsIdx i q 1).val = (i 1).val := by
  unfold DotDims.rhsIdx
  rw [dif_neg (show ¬(1 : Fin S128x384.rank) ∈ dot_S2048x128_S128x384_S2048x384_1_0_0_1_n_n.rhsBatch by decide), dif_pos (show (1 : Fin S128x384.rank) ∈ dot_S2048x128_S128x384_S2048x384_1_0_0_1_n_n.rhsNonContracting by decide)]
  rfl

/-- A [2048,128] × [128,384] product into zeros, at (p, q): the sum over the 128 contracted coordinates. -/
theorem mmC_apply {φ₁ φ₂ : FTy} (A : FVec Ideal S2048x128 φ₁) (B : FVec Ideal S128x384 φ₂) (p : Fin 2048) (q : Fin 384) :
    matmul dot_S2048x128_S128x384_S2048x384_1_0_0_1_n_n none A B (constant S2048x384 .f32 0x00000000#32) (ix2 p q)
      = ∑ k : Fin 128, A (ix2 p k) * B (ix2 k q) := by
  simp only [matmul]
  rw [Ideal.matmul_constant_zero_apply, ← Equiv.sum_comp (contrEquiv1 dot_S2048x128_S128x384_S2048x384_1_0_0_1_n_n 128 rfl rfl).symm]
  refine Finset.sum_congr rfl fun k _ => ?_
  have hk := contrEquiv1_symm_val dot_S2048x128_S128x384_S2048x384_1_0_0_1_n_n 128 rfl rfl k
  have el : dot_S2048x128_S128x384_S2048x384_1_0_0_1_n_n.lhsIdx (ix2 p q) ((contrEquiv1 dot_S2048x128_S128x384_S2048x384_1_0_0_1_n_n 128 rfl rfl).symm k) = ix2 p k := funext fun a => Fin.ext (by
    match a with
    | ⟨0, _⟩ => exact lhsC_0 _ _
    | ⟨1, _⟩ => exact (lhsC_1 _ _).trans hk)
  have er : dot_S2048x128_S128x384_S2048x384_1_0_0_1_n_n.rhsIdx (ix2 p q) ((contrEquiv1 dot_S2048x128_S128x384_S2048x384_1_0_0_1_n_n 128 rfl rfl).symm k) = ix2 k q := funext fun a => Fin.ext (by
    match a with
    | ⟨0, _⟩ => exact (rhsC_0 _ _).trans hk
    | ⟨1, _⟩ => exact rhsC_1 _ _)
  rw [el, er]

/-! ## The three 128-column blocks of a 384-column array -/

/-- Columns 0 … 127. -/
theorem slice0_apply {α : Type} (v : S2048x384.Idx → α) (p : Fin 2048) (s : Fin 128) :
    extractStridedSlice S2048x128 ![0, 0] v slices_S2048x384_o0_0_S2048x128 (ix2 p s) = v (ix2 p (blk0 s)) := by
  refine extractStridedSlice_apply _ v _ (ix2 p s) (ix2 p (blk0 s)) fun a => ?_
  match a with
  | ⟨0, _⟩ => show p.val = 0 + p.val; omega
  | ⟨1, _⟩ => show s.val = 0 + s.val; omega
/-- Columns 128 … 255. -/
theorem slice1_apply {α : Type} (v : S2048x384.Idx → α) (p : Fin 2048) (s : Fin 128) :
    extractStridedSlice S2048x128 ![0, 128] v slices_S2048x384_o0_128_S2048x128 (ix2 p s) = v (ix2 p (blk1 s)) := by
  refine extractStridedSlice_apply _ v _ (ix2 p s) (ix2 p (blk1 s)) fun a => ?_
  match a with
  | ⟨0, _⟩ => show p.val = 0 + p.val; omega
  | ⟨1, _⟩ => show 128 + s.val = 128 + s.val; rfl
/-- Columns 256 … 383. -/
theorem slice2_apply {α : Type} (v : S2048x384.Idx → α) (p : Fin 2048) (s : Fin 128) :
    extractStridedSlice S2048x128 ![0, 256] v slices_S2048x384_o0_256_S2048x128 (ix2 p s) = v (ix2 p (blk2 s)) := by
  refine extractStridedSlice_apply _ v _ (ix2 p s) (ix2 p (blk2 s)) fun a => ?_
  match a with
  | ⟨0, _⟩ => show p.val = 0 + p.val; omega
  | ⟨1, _⟩ => show 256 + s.val = 256 + s.val; rfl

/-- The logistic function of an array, at an index. -/
theorem logistic_at {S : Shape} {φ : FTy} (v : FVec Ideal S φ) (i : S.Idx) : logistic v i = Ideal.logistic (v i) := rfl
/-- The hyperbolic tangent of an array, at an index. -/
theorem tanh_at {S : Shape} {φ : FTy} (v : FVec Ideal S φ) (i : S.Idx) : tanh v i = Ideal.tanh (v i) := rfl

/-! ## The payloads at an index -/

/-- The aggregated message of row p at column j, from the loaded blocks. -/
def msgRow (x scat ef : S2048x128.Idx → EReal) (deg : S2048x256.Idx → EReal) (Ws Wd Wf : S128x256.Idx → EReal)
    (bd : S1x256.Idx → EReal) (p : Fin 2048) (j : Fin 256) : EReal :=
  (∑ k : Fin 128, scat (ix2 p k) * Ws (ix2 k j)) + deg (ix2 p j) * ((∑ k : Fin 128, x (ix2 p k) * Wd (ix2 k j)) + bd (ix2 (0 : Fin 1) j))
    + ∑ k : Fin 128, ef (ix2 p k) * Wf (ix2 k j)

/-- The message payload at (p, j). -/
theorem pay3_apply (x scat ef : Vec Ideal S2048x128 .f32) (Ws Wd Wf : Vec Ideal S128x256 .f32) (bd : Vec Ideal S1x256 .f32)
    (deg : Vec Ideal S2048x256 .f32) (p : Fin 2048) (j : Fin 256) :
    k0_pay3 (F := Ideal) x scat ef Ws Wd Wf bd deg (ix2 p j) = msgRow x scat ef deg Ws Wd Wf bd p j := by
  unfold k0_pay3 k0_pay2 msgRow
  simp only [shapeCast_self, truncf_apply, addf_apply, mulf_apply, mmA_apply, broadcastTo_1b_ab_apply]

/-- The stored value at (p, s): the recurrent cell on row p of the node block and row p's aggregated message, with the
    cell's matrices given transposed. -/
theorem pay1_apply (x scat ef : Vec Ideal S2048x128 .f32) (Ws Wd Wf : Vec Ideal S128x256 .f32) (bd : Vec Ideal S1x256 .f32)
    (deg : Vec Ideal S2048x256 .f32) (Wih : Vec Ideal S256x384 .f32) (Whh : Vec Ideal S128x384 .f32) (bih bhh : Vec Ideal S1x384 .f32)
    (p : Fin 2048) (s : Fin 128) :
    k0_pay1 (F := Ideal) x (k0_pay2 x) (k0_pay3 x scat ef Ws Wd Wf bd deg) (k0_pay4 Wih) (k0_pay5 Whh) bih bhh (ix2 p s)
      = gru (cellOfT (m2 Wih) (m2 Whh) (m2row bih 0) (m2row bhh 0)) (fun k => x (ix2 p k))
          (msgRow x scat ef deg Ws Wd Wf bd p) s := by
  unfold k0_pay1 k0_pay2 k0_pay4 k0_pay5 gru cellOfT
  simp only [shapeCast_self, truncf_apply, addf_apply, mulf_apply, subf_apply, logistic_at, tanh_at, broadcast_apply,
    slice0_apply, slice1_apply, slice2_apply, mmB_apply, mmC_apply, broadcastTo_1b_ab_apply, pay3_apply]
  rfl

end Cert.KernelIdeal.KV

end
-- ==== Proof.KStep0.lean ====
/-
  Step region 0 of the kernel program: what its output array holds after the region, from the arrays the region
  finds (any entry contents V): row n of the output is the recurrent cell on row n of the operands.

  Grid point t handles rows 2048·t … 2048·t + 2047: the four row-blocked operands and the output are cut into blocks of
  2048 rows at block index (t, 0), the eight parameter arrays are staged whole at block index (0, 0). So what point t
  writes back is block t of one function of the whole arrays, and since row r lies in the block of point r / 2048 the
  blocks cover the output array.
-/
import proofs.«423165_j21801253994886_2_alg».proof.Proof.Gen.KernelIdeal.Frame
import proofs.«423165_j21801253994886_2_alg».proof.Proof.SpecK
import proofs.«423165_j21801253994886_2_alg».proof.Proof.KStep0Pay
import Idealize.ShloMosaic.Lib.Pipeline.Value

set_option maxRecDepth 16384

noncomputable section

namespace Cert.KernelIdeal.KV

open Idealize.ShloMosaic Idealize.ShloMosaic.TcCoe Idealize.ShloMosaic.ValueIdx Idealize.SL.Sem
open Cert.Gnn
open Cert.KernelIdeal Cert.KernelIdeal.Gen

/-! ## From a row of the blocks to a row of the arrays -/

/-- The cell on row p of the blocks is the step's body on row n of the arrays, when row p of each row-blocked operand
    is row n of its array and each parameter block is its whole array. -/
theorem cell_of_blocks
    (X SC EF : S65536x128.Idx → EReal) (DG : S65536x256.Idx → EReal) (WS WD WF : S128x256.Idx → EReal)
    (BD : S1x256.Idx → EReal) (WIH : S256x384.Idx → EReal) (WHH : S128x384.Idx → EReal) (BIH BHH : S1x384.Idx → EReal)
    (x sc ef : S2048x128.Idx → EReal) (dg : S2048x256.Idx → EReal) (ws wd wf : S128x256.Idx → EReal)
    (bd : S1x256.Idx → EReal) (wih : S256x384.Idx → EReal) (whh : S128x384.Idx → EReal) (bih bhh : S1x384.Idx → EReal)
    (n : Fin 65536) (p : Fin 2048) (s : Fin 128)
    (hx : ∀ k, x (ix2 p k) = X (ix2 n k)) (hsc : ∀ k, sc (ix2 p k) = SC (ix2 n k)) (hef : ∀ k, ef (ix2 p k) = EF (ix2 n k))
    (hdg : ∀ j, dg (ix2 p j) = DG (ix2 n j))
    (hws : ws = WS) (hwd : wd = WD) (hwf : wf = WF) (hbd : bd = BD) (hwih : wih = WIH) (hwhh : whh = WHH)
    (hbih : bih = BIH) (hbhh : bhh = BHH) :
    gru (cellOfT (m2 wih) (m2 whh) (m2row bih 0) (m2row bhh 0)) (fun k => x (ix2 p k)) (msgRow x sc ef dg ws wd wf bd p) s
      = stepBody (m2 SC) (m2 X) (m2 EF) (m2 DG) (m2 WS) (m2 WD) (m2 WF) (m2row BD 0) (m2 WIH) (m2 WHH) (m2row BIH 0)
          (m2row BHH 0) n s := by
  subst hws hwd hwf hbd hwih hwhh hbih hbhh
  have hm : msgRow x sc ef dg ws wd wf bd p
      = stepMsg (m2 SC) (m2 X) (m2 EF) (m2 DG) (m2 ws) (m2 wd) (m2 wf) (m2row bd 0) n := by
    funext j
    unfold msgRow stepMsg
    simp only [hx, hsc, hef, hdg]
  have hxr : (fun k => x (ix2 p k)) = m2 X n := funext hx
  unfold stepBody
  rw [hm, hxr]

/-! ## The windows' blocks read off the arrays -/

variable (V : (c : Dev nD) → (b : Ref sig .tc) → Buf (Elt Ideal) ((c : Thread nD τ).loc b))

theorem zero_off : (![0, 0] : Fin 2 → Nat) = fun _ => 0 := funext fun a => by fin_cases a <;> rfl

/-- The windows' index maps over the grid: the row-blocked windows and the output sit at block (t, 0) … -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_12.index t (0 : Fin 2) = t.val ∧ win0_12.index t (1 : Fin 2) = 0 :=
  (by decide +kernel : ∀ t : Fin grid0.N, _)

/-- … and the parameter windows at block (0, 0). -/
theorem idx_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- The array row that row p of point t's blocks is. -/
def nodeAt (t : Fin cfg0.N) (p : Fin 2048) : Fin 65536 :=
  ⟨2048 * t.val + p.val, by have h : t.val < 32 := lt_of_lt_of_eq t.isLt N_0; omega⟩

/-- Row p of window 0's block at point t is row 2048·t + p of the summed source rows. -/
theorem blk0_row (c : Dev nD) (t : Fin cfg0.N) (p : Fin 2048) (k : Fin 128) :
    (iblk0 (F := Ideal) V c 0 t : S2048x128.Idx → EReal) (ix2 p k) = (V c main_v48 : S65536x128.Idx → EReal) (ix2 (nodeAt t p) k) := by
  obtain ⟨e0, e1, e2, e3, e4, e5, e6, e7, -⟩ := idx_rows t
  unfold iblk0
  rw [View.read_apply]
  show V c main_v48 _ = V c main_v48 _
  congr 1
  funext a
  apply Fin.ext
  match a with
  | ⟨0, _⟩ => show win0_0.index t (0 : Fin 2) * 2048 + 1 * p.val = 2048 * t.val + p.val; rw [e0]; omega
  | ⟨1, _⟩ => show win0_0.index t (1 : Fin 2) * 128 + 1 * k.val = k.val; rw [e1]; omega

/-- Row p of window 1's block at point t is row 2048·t + p of the node rows. -/
theorem blk1_row (c : Dev nD) (t : Fin cfg0.N) (p : Fin 2048) (k : Fin 128) :
    (iblk0 (F := Ideal) V c 1 t : S2048x128.Idx → EReal) (ix2 p k) = (V c main_arg0 : S65536x128.Idx → EReal) (ix2 (nodeAt t p) k) := by
  obtain ⟨e0, e1, e2, e3, e4, e5, e6, e7, -⟩ := idx_rows t
  unfold iblk0
  rw [View.read_apply]
  show V c main_arg0 _ = V c main_arg0 _
  congr 1
  funext a
  apply Fin.ext
  match a with
  | ⟨0, _⟩ => show win0_1.index t (0 : Fin 2) * 2048 + 1 * p.val = 2048 * t.val + p.val; rw [e2]; omega
  | ⟨1, _⟩ => show win0_1.index t (1 : Fin 2) * 128 + 1 * k.val = k.val; rw [e3]; omega

/-- Row p of window 2's block at point t is row 2048·t + p of the summed edge features. -/
theorem blk2_row (c : Dev nD) (t : Fin cfg0.N) (p : Fin 2048) (k : Fin 128) :
    (iblk0 (F := Ideal) V c 2 t : S2048x128.Idx → EReal) (ix2 p k) = (V c main_v8 : S65536x128.Idx → EReal) (ix2 (nodeAt t p) k) := by
  obtain ⟨e0, e1, e2, e3, e4, e5, e6, e7, -⟩ := idx_rows t
  unfold iblk0
  rw [View.read_apply]
  show V c main_v8 _ = V c main_v8 _
  congr 1
  funext a
  apply Fin.ext
  match a with
  | ⟨0, _⟩ => show win0_2.index t (0 : Fin 2) * 2048 + 1 * p.val = 2048 * t.val + p.val; rw [e4]; omega
  | ⟨1, _⟩ => show win0_2.index t (1 : Fin 2) * 128 + 1 * k.val = k.val; rw [e5]; omega

/-- Row p of window 3's block at point t is row 2048·t + p of the spread in-degrees. -/
theorem blk3_row (c : Dev nD) (t : Fin cfg0.N) (p : Fin 2048) (k : Fin 256) :
    (iblk0 (F := Ideal) V c 3 t : S2048x256.Idx → EReal) (ix2 p k) = (V c main_v14 : S65536x256.Idx → EReal) (ix2 (nodeAt t p) k) := by
  obtain ⟨e0, e1, e2, e3, e4, e5, e6, e7, -⟩ := idx_rows t
  unfold iblk0
  rw [View.read_apply]
  show V c main_v14 _ = V c main_v14 _
  congr 1
  funext a
  apply Fin.ext
  match a with
  | ⟨0, _⟩ => show win0_3.index t (0 : Fin 2) * 2048 + 1 * p.val = 2048 * t.val + p.val; rw [e6]; omega
  | ⟨1, _⟩ => show win0_3.index t (1 : Fin 2) * 256 + 1 * k.val = k.val; rw [e7]; omega

/-- Window 4's block is the source matrix, whole, at every point. -/
theorem blk4_whole (c : Dev nD) (t : Fin cfg0.N) :
    (iblk0 (F := Ideal) V c 4 t : S128x256.Idx → EReal) = (V c main_v17 : S128x256.Idx → EReal) := by
  obtain ⟨e8, e9, e10, e11, e12, e13, e14, e15, e16, e17, e18, e19, e20, e21, e22, e23⟩ := idx_whole t
  funext y
  unfold iblk0
  rw [View.read_apply]
  show V c main_v17 _ = V c main_v17 _
  congr 1
  funext a
  apply Fin.ext
  match a with
  | ⟨0, _⟩ => show win0_4.index t (0 : Fin 2) * 128 + 1 * (y 0).val = (y 0).val; rw [e8]; omega
  | ⟨1, _⟩ => show win0_4.index t (1 : Fin 2) * 256 + 1 * (y 1).val = (y 1).val; rw [e9]; omega

/-- Window 5's block is the node-projection matrix, whole, at every point. -/
theorem blk5_whole (c : Dev nD) (t : Fin cfg0.N) :
    (iblk0 (F := Ideal) V c 5 t : S128x256.Idx → EReal) = (V c main_v20 : S128x256.Idx → EReal) := by
  obtain ⟨e8, e9, e10, e11, e12, e13, e14, e15, e16, e17, e18, e19, e20, e21, e22, e23⟩ := idx_whole t
  funext y
  unfold iblk0
  rw [View.read_apply]
  show V c main_v20 _ = V c main_v20 _
  congr 1
  funext a
  apply Fin.ext
  match a with
  | ⟨0, _⟩ => show win0_5.index t (0 : Fin 2) * 128 + 1 * (y 0).val = (y 0).val; rw [e10]; omega
  | ⟨1, _⟩ => show win0_5.index t (1 : Fin 2) * 256 + 1 * (y 1).val = (y 1).val; rw [e11]; omega

/-- Window 6's block is the feature matrix, whole, at every point. -/
theorem blk6_whole (c : Dev nD) (t : Fin cfg0.N) :
    (iblk0 (F := Ideal) V c 6 t : S128x256.Idx → EReal) = (V c main_v23 : S128x256.Idx → EReal) := by
  obtain ⟨e8, e9, e10, e11, e12, e13, e14, e15, e16, e17, e18, e19, e20, e21, e22, e23⟩ := idx_whole t
  funext y
  unfold iblk0
  rw [View.read_apply]
  show V c main_v23 _ = V c main_v23 _
  congr 1
  funext a
  apply Fin.ext
  match a with
  | ⟨0, _⟩ => show win0_6.index t (0 : Fin 2) * 128 + 1 * (y 0).val = (y 0).val; rw [e12]; omega
  | ⟨1, _⟩ => show win0_6.index t (1 : Fin 2) * 256 + 1 * (y 1).val = (y 1).val; rw [e13]; omega

/-- Window 7's block is the projection's bias row, whole, at every point. -/
theorem blk7_whole (c : Dev nD) (t : Fin cfg0.N) :
    (iblk0 (F := Ideal) V c 7 t : S1x256.Idx → EReal) = (V c main_v32 : S1x256.Idx → EReal) := by
  obtain ⟨e8, e9, e10, e11, e12, e13, e14, e15, e16, e17, e18, e19, e20, e21, e22, e23⟩ := idx_whole t
  funext y
  unfold iblk0
  rw [View.read_apply]
  show V c main_v32 _ = V c main_v32 _
  congr 1
  funext a
  apply Fin.ext
  match a with
  | ⟨0, _⟩ => show win0_7.index t (0 : Fin 2) * 1 + 1 * (y 0).val = (y 0).val; rw [e14]; omega
  | ⟨1, _⟩ => show win0_7.index t (1 : Fin 2) * 256 + 1 * (y 1).val = (y 1).val; rw [e15]; omega

/-- Window 8's block is the cell's input matrix, whole, at every point. -/
theorem blk8_whole (c : Dev nD) (t : Fin cfg0.N) :
    (iblk0 (F := Ideal) V c 8 t : S256x384.Idx → EReal) = (V c main_v26 : S256x384.Idx → EReal) := by
  obtain ⟨e8, e9, e10, e11, e12, e13, e14, e15, e16, e17, e18, e19, e20, e21, e22, e23⟩ := idx_whole t
  funext y
  unfold iblk0
  rw [View.read_apply]
  show V c main_v26 _ = V c main_v26 _
  congr 1
  funext a
  apply Fin.ext
  match a with
  | ⟨0, _⟩ => show win0_8.index t (0 : Fin 2) * 256 + 1 * (y 0).val = (y 0).val; rw [e16]; omega
  | ⟨1, _⟩ => show win0_8.index t (1 : Fin 2) * 384 + 1 * (y 1).val = (y 1).val; rw [e17]; omega

/-- Window 9's block is the cell's state matrix, whole, at every point. -/
theorem blk9_whole (c : Dev nD) (t : Fin cfg0.N) :
    (iblk0 (F := Ideal) V c 9 t : S128x384.Idx → EReal) = (V c main_v29 : S128x384.Idx → EReal) := by
  obtain ⟨e8, e9, e10, e11, e12, e13, e14, e15, e16, e17, e18, e19, e20, e21, e22, e23⟩ := idx_whole t
  funext y
  unfold iblk0
  rw [View.read_apply]
  show V c main_v29 _ = V c main_v29 _
  congr 1
  funext a
  apply Fin.ext
  match a with
  | ⟨0, _⟩ => show win0_9.index t (0 : Fin 2) * 128 + 1 * (y 0).val = (y 0).val; rw [e18]; omega
  | ⟨1, _⟩ => show win0_9.index t (1 : Fin 2) * 384 + 1 * (y 1).val = (y 1).val; rw [e19]; omega

/-- Window 10's block is the cell's input bias row, whole, at every point. -/
theorem blk10_whole (c : Dev nD) (t : Fin cfg0.N) :
    (iblk0 (F := Ideal) V c 10 t : S1x384.Idx → EReal) = (V c main_v35 : S1x384.Idx → EReal) := by
  obtain ⟨e8, e9, e10, e11, e12, e13, e14, e15, e16, e17, e18, e19, e20, e21, e22, e23⟩ := idx_whole t
  funext y
  unfold iblk0
  rw [View.read_apply]
  show V c main_v35 _ = V c main_v35 _
  congr 1
  funext a
  apply Fin.ext
  match a with
  | ⟨0, _⟩ => show win0_10.index t (0 : Fin 2) * 1 + 1 * (y 0).val = (y 0).val; rw [e20]; omega
  | ⟨1, _⟩ => show win0_10.index t (1 : Fin 2) * 384 + 1 * (y 1).val = (y 1).val; rw [e21]; omega

/-- Window 11's block is the cell's state bias row, whole, at every point. -/
theorem blk11_whole (c : Dev nD) (t : Fin cfg0.N) :
    (iblk0 (F := Ideal) V c 11 t : S1x384.Idx → EReal) = (V c main_v38 : S1x384.Idx → EReal) := by
  obtain ⟨e8, e9, e10, e11, e12, e13, e14, e15, e16, e17, e18, e19, e20, e21, e22, e23⟩ := idx_whole t
  funext y
  unfold iblk0
  rw [View.read_apply]
  show V c main_v38 _ = V c main_v38 _
  congr 1
  funext a
  apply Fin.ext
  match a with
  | ⟨0, _⟩ => show win0_11.index t (0 : Fin 2) * 1 + 1 * (y 0).val = (y 0).val; rw [e22]; omega
  | ⟨1, _⟩ => show win0_11.index t (1 : Fin 2) * 384 + 1 * (y 1).val = (y 1).val; rw [e23]; omega

/-! ## What a point writes back, and the array after the region -/

/-- The output array as one function of the twelve operand arrays. -/
abbrev stepArr (c : Dev nD) : S65536x128.Idx → EReal := fun i =>
  stepBody (m2 (V c main_v48 : S65536x128.Idx → EReal)) (m2 (V c main_arg0 : S65536x128.Idx → EReal))
    (m2 (V c main_v8 : S65536x128.Idx → EReal)) (m2 (V c main_v14 : S65536x256.Idx → EReal))
    (m2 (V c main_v17 : S128x256.Idx → EReal)) (m2 (V c main_v20 : S128x256.Idx → EReal))
    (m2 (V c main_v23 : S128x256.Idx → EReal)) (m2row (V c main_v32 : S1x256.Idx → EReal) 0)
    (m2 (V c main_v26 : S256x384.Idx → EReal)) (m2 (V c main_v29 : S128x384.Idx → EReal))
    (m2row (V c main_v35 : S1x384.Idx → EReal) 0) (m2row (V c main_v38 : S1x384.Idx → EReal) 0) (i 0) (i 1)

/-- Two blocks of 2048 rows agree when they agree entry by entry. -/
theorem block_ext (f g : S2048x128.Idx → EReal) (h : ∀ (p : Fin 2048) (s : Fin 128), f (ix2 p s) = g (ix2 p s)) : f = g :=
  funext fun j => by rw [eq_ix2 j]; exact h _ _

/-- What point t writes back is block t of that function. -/
theorem flushed0 (c : Dev nD) (t : Fin cfg0.N) :
    (dat0 (F := Ideal) V c).flushed 12 t = ((cfg0.win 12).blk t).view.read (Elt Ideal) (stepArr V c) := by
  show (cfg0.win 12).cut (grid0.coords t) ((dat0 V c).after 12 t) = _
  rw [after0_12]
  unfold out0_12
  rw [View.canon_unit_zero zero_off]
  simp only [View.ld_unit_zero (S := S2048x128) zero_off, View.ld_unit_zero (S := S2048x256) zero_off,
    View.ld_unit_zero (S := S128x256) zero_off, View.ld_unit_zero (S := S1x256) zero_off,
    View.ld_unit_zero (S := S256x384) zero_off, View.ld_unit_zero (S := S128x384) zero_off,
    View.ld_unit_zero (S := S1x384) zero_off]
  refine block_ext _ _ fun p s => ?_
  refine (pay1_apply (iblk0 V c 1 t) (iblk0 V c 0 t) (iblk0 V c 2 t) (iblk0 V c 4 t) (iblk0 V c 5 t) (iblk0 V c 6 t)
    (iblk0 V c 7 t) (iblk0 V c 3 t) (iblk0 V c 8 t) (iblk0 V c 9 t) (iblk0 V c 10 t) (iblk0 V c 11 t) p s).trans ?_
  rw [View.read_apply]
  obtain ⟨-, -, -, -, -, -, -, -, e0, e1⟩ := idx_rows t
  have hn : ((View.whole main_v49).slice ((win0 12).rect t)).emb (ix2 p s) = (ix2 (nodeAt t p) s : S65536x128.Idx) := by
    funext a
    apply Fin.ext
    match a with
    | ⟨0, _⟩ => show win0_12.index t (0 : Fin 2) * 2048 + 1 * p.val = 2048 * t.val + p.val; rw [e0]; omega
    | ⟨1, _⟩ => show win0_12.index t (1 : Fin 2) * 128 + 1 * s.val = s.val; rw [e1]; omega
  refine Eq.trans ?_ (congrArg (stepArr V c) hn).symm
  exact cell_of_blocks (V c main_arg0) (V c main_v48) (V c main_v8) (V c main_v14) (V c main_v17) (V c main_v20)
    (V c main_v23) (V c main_v32) (V c main_v26) (V c main_v29) (V c main_v35) (V c main_v38)
    (iblk0 V c 1 t) (iblk0 V c 0 t) (iblk0 V c 2 t) (iblk0 V c 3 t) (iblk0 V c 4 t) (iblk0 V c 5 t) (iblk0 V c 6 t)
    (iblk0 V c 7 t) (iblk0 V c 8 t) (iblk0 V c 9 t) (iblk0 V c 10 t) (iblk0 V c 11 t) (nodeAt t p) p s
    (blk1_row V c t p) (blk0_row V c t p) (blk2_row V c t p) (blk3_row V c t p)
    (blk4_whole V c t) (blk5_whole V c t) (blk6_whole V c t) (blk7_whole V c t) (blk8_whole V c t) (blk9_whole V c t)
    (blk10_whole V c t) (blk11_whole V c t)

/-- An index of the output array is in point t's block iff each coordinate is in the block's range on its axis. -/
theorem mem_blk12 (t : Fin cfg0.N) (i : S65536x128.Idx) :
    i ∈ ((cfg0.win 12).blk t).view.set ↔ ∀ a : Fin 2, win0_12.index t a * S2048x128.size a ≤ (i a).val ∧ (i a).val < win0_12.index t a * S2048x128.size a + S2048x128.size a := by
  show i ∈ ((View.whole main_v49).slice (win0_12.rect t)).set ↔ _
  rw [View.set_slice_whole, Rect.mem_set_unit]
  exact Iff.rfl

/-- Row r of the output lies in the block of point r / 2048: the blocks cover the array. -/
theorem cover12 (i : S65536x128.Idx) :
    ∃ t : Fin cfg0.N, (cfg0.win 12).flush t = true ∧ i ∈ ((cfg0.win 12).blk t).view.set := by
  have hi0 : (i 0).val < 65536 := (i 0).isLt
  have hi1 : (i 1).val < 128 := (i 1).isLt
  let t : Fin cfg0.N := ⟨(i 0).val / 2048, lt_of_lt_of_eq (show (i 0).val / 2048 < 32 by omega) N_0.symm⟩
  obtain ⟨-, -, -, -, -, -, -, -, e0, e1⟩ := idx_rows t
  refine ⟨t, flush0_12 t, ?_⟩
  rw [mem_blk12]
  intro a
  match a with
  | ⟨0, _⟩ =>
    show win0_12.index t (0 : Fin 2) * 2048 ≤ (i 0).val ∧ (i 0).val < win0_12.index t (0 : Fin 2) * 2048 + 2048
    rw [e0]
    show (i 0).val / 2048 * 2048 ≤ (i 0).val ∧ (i 0).val < (i 0).val / 2048 * 2048 + 2048
    omega
  | ⟨1, _⟩ =>
    show win0_12.index t (1 : Fin 2) * 128 ≤ (i 1).val ∧ (i 1).val < win0_12.index t (1 : Fin 2) * 128 + 128
    rw [e1]
    omega

/-- The output array of step region 0 after the region, at node n, feature s. -/
theorem region0_out (c : Dev nD) (n : Fin 65536) (s : Fin 128) :
    ((dat0 (F := Ideal) V c).arrAt 12 cfg0.N : S65536x128.Idx → EReal) (ix2 n s)
      = stepBody (m2 (V c main_v48 : S65536x128.Idx → EReal)) (m2 (V c main_arg0 : S65536x128.Idx → EReal))
          (m2 (V c main_v8 : S65536x128.Idx → EReal)) (m2 (V c main_v14 : S65536x256.Idx → EReal))
          (m2 (V c main_v17 : S128x256.Idx → EReal)) (m2 (V c main_v20 : S128x256.Idx → EReal))
          (m2 (V c main_v23 : S128x256.Idx → EReal)) (m2row (V c main_v32 : S1x256.Idx → EReal) 0)
          (m2 (V c main_v26 : S256x384.Idx → EReal)) (m2 (V c main_v29 : S128x384.Idx → EReal))
          (m2row (V c main_v35 : S1x384.Idx → EReal) 0) (m2row (V c main_v38 : S1x384.Idx → EReal) 0) n s :=
  congrFun ((dat0 (F := Ideal) V c).arrAt_eq_of_cover 12 (stepArr V c) (fun t _ => flushed0 V c t) cover12) (ix2 n s)

end Cert.KernelIdeal.KV

end
-- ==== Proof.LibScatter.lean ====
/-
  Accumulating scatters read at an index, and a filtered sum over a concatenation split at the seam.

  At the extended reals the host's scatter-add holds, at each operand element, the element plus the sum of the updates whose
  result index is that element. For a scatter of elements (operand [N], indices [E, 1], updates [E]) update e lands on element
  idx[e, 0] read as a signed integer; for a scatter of rows (operand [N, D], updates [E, D]) update (e, q) lands on (idx[e, 0], q).
  An update whose row is outside the operand lands nowhere.
-/
import proofs.«423165_j21801253994886_2_alg».proof.Proof.LibIndex
import Idealize.ShloMosaic.PureOps.Ideal
import Idealize.ShloMosaic.PureOps.Ideal.Laws

noncomputable section

namespace Cert.Gcn

open Idealize.ShloMosaic Idealize.ShloMosaic.ValueIdx

/-- The dimension numbers of an element scatter: operand `[N]`, scatter indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A one-axis index set is the range of its coordinate. -/
def idxEquiv1 {n : Nat} : (⟨1, ![n]⟩ : Shape).Idx ≃ Fin n where
  toFun j := j 0
  invFun a := ix1 a
  left_inv j := (eq_ix1 j).symm
  right_inv _ := rfl

/-- A sum over a one-axis index type is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Element scatter, the one operand axis: it is named by the map, so the window starts at the signed index read at `[e, 0]`. -/
theorem scatterVec_start {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Element scatter, the one operand axis: it is inserted, so its window coordinate is zero. -/
theorem scatterVec_window {N E : Nat} (wf : ScatterDims.WF ⟨1, ![N]⟩ ⟨2, ![E, 1]⟩ ⟨1, ![E]⟩ [] [0] [0] 1)
    (j : (⟨1, ![E]⟩ : Shape).Idx) : (vecScatterDims N E wf).window j 0 = 0 := by
  unfold ScatterDims.window
  rw [dif_neg (show ¬ (0 : Fin 1) ∈ (vecScatterDims N E wf).sKept from
    (show ¬ (0 : Fin 1) ∈ (List.finRange 1).filter (fun a => a ∉ ([0] : List (Fin 1))) by decide))]

/-- Update `e` of an element scatter lands at element `n` exactly when `idx[e, 0] = n` as a signed integer. -/
theorem scatterVec_resultIdx_iff {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) (i : (⟨1, ![N]⟩ : Shape).Idx) :
    (vecScatterDims N E wf).resultIdx? j idx = some i ↔ (idx (ix2 (j 0) 0)).toInt = ((i 0).val : Int) := by
  have hs := scatterVec_start wf idx j
  have hw := scatterVec_window wf j
  have hi : (i 0).val < N := (i 0).isLt
  constructor
  · intro h
    unfold ScatterDims.resultIdx? at h
    split at h
    · rename_i hr
      have hf := Option.some.inj h
      have h0 : ((vecScatterDims N E wf).start j idx 0 + ((vecScatterDims N E wf).window j 0 : Nat)).toNat
          = (i 0).val := congrArg Fin.val (congrFun hf 0)
      have hr0 := hr 0
      rw [hs, hw] at h0 hr0
      simp only [Nat.cast_zero, Int.add_zero] at h0 hr0
      omega
    · exact absurd h (by simp)
  · intro h
    have hall : ∀ a, 0 ≤ (vecScatterDims N E wf).start j idx a + ((vecScatterDims N E wf).window j a : Nat) ∧
        (vecScatterDims N E wf).start j idx a + ((vecScatterDims N E wf).window j a : Nat)
          < ((⟨1, ![N]⟩ : Shape).size a : Nat) := by
      intro a
      obtain rfl : a = 0 := Subsingleton.elim _ _
      rw [hs, hw, h]
      simp only [Nat.cast_zero, Int.add_zero]
      refine ⟨by omega, ?_⟩
      show ((i 0).val : Int) < (N : Int)
      omega
    unfold ScatterDims.resultIdx?
    rw [dif_pos hall]
    congr 1
    funext a
    obtain rfl : a = 0 := Subsingleton.elim _ _
    refine Fin.ext ?_
    show ((vecScatterDims N E wf).start j idx 0 + ((vecScatterDims N E wf).window j 0 : Nat)).toNat = (i 0).val
    rw [hs, hw, h]
    simp only [Nat.cast_zero, Int.add_zero, Int.toNat_natCast]

/-- Row scatter, axis 0: it is named by the map, so the window starts at the signed index read at `[e, 0]`. -/
theorem scatterRows_start0 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j
      ⟨List.idxOf (0 : Fin 2) (rowScatterDims N E D wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Row scatter, axis 0: it is inserted, so its window coordinate is zero. -/
theorem scatterRows_window0 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 0 = 0 := by
  unfold ScatterDims.window
  rw [dif_neg (show ¬ (0 : Fin 2) ∈ (rowScatterDims N E D wf).sKept from
    (show ¬ (0 : Fin 2) ∈ (List.finRange 2).filter (fun a => a ∉ ([0] : List (Fin 2))) by decide))]

/-- Row scatter, axis 1: the map does not name it, so the window starts at zero. -/
theorem scatterRows_start1 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 1 = 0 := by
  unfold ScatterDims.start
  rw [dif_neg (show ¬ (1 : Fin 2) ∈ (rowScatterDims N E D wf).scatterDimsToOperandDims from
    (show ¬ (1 : Fin 2) ∈ ([0] : List (Fin 2)) by decide))]

/-- Row scatter, axis 1: it is the one window axis, so its window coordinate is the update's column. -/
theorem scatterRows_window1 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 1 = (j 1).val := by
  unfold ScatterDims.window
  rw [dif_pos (show (1 : Fin 2) ∈ (rowScatterDims N E D wf).sKept from
    (show (1 : Fin 2) ∈ (List.finRange 2).filter (fun a => a ∉ ([0] : List (Fin 2))) by decide))]
  rfl

/-- Update `(e, c)` of a row scatter lands at `(n, c')` exactly when `idx[e, 0] = n` as a signed integer and `c = c'`. -/
theorem scatterRows_resultIdx_iff {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx) :
    (rowScatterDims N E D wf).resultIdx? j idx = some i
      ↔ (idx (ix2 (j 0) 0)).toInt = ((i 0).val : Int) ∧ j 1 = i 1 := by
  constructor
  · intro h
    obtain ⟨h0, h1⟩ := scatterRows_resultIdx wf idx j i h
    exact ⟨h0, Fin.ext h1⟩
  · rintro ⟨h0, h1⟩
    have hs0 := scatterRows_start0 wf idx j
    have hw0 := scatterRows_window0 wf j
    have hs1 := scatterRows_start1 wf idx j
    have hw1 := scatterRows_window1 wf j
    have hi0 : (i 0).val < N := idx2_lt0 i
    have hi1 : (i 1).val < D := idx2_lt1 i
    have h1v : (j 1).val = (i 1).val := congrArg Fin.val h1
    have hall : ∀ a, 0 ≤ (rowScatterDims N E D wf).start j idx a + ((rowScatterDims N E D wf).window j a : Nat) ∧
        (rowScatterDims N E D wf).start j idx a + ((rowScatterDims N E D wf).window j a : Nat)
          < ((⟨2, ![N, D]⟩ : Shape).size a : Nat) := by
      intro a
      match a with
      | ⟨0, _⟩ =>
        show 0 ≤ (rowScatterDims N E D wf).start j idx 0 + ((rowScatterDims N E D wf).window j 0 : Nat) ∧
          (rowScatterDims N E D wf).start j idx 0 + ((rowScatterDims N E D wf).window j 0 : Nat) < (N : Int)
        rw [hs0, hw0, h0]
        simp only [Nat.cast_zero, Int.add_zero]
        omega
      | ⟨1, _⟩ =>
        show 0 ≤ (rowScatterDims N E D wf).start j idx 1 + ((rowScatterDims N E D wf).window j 1 : Nat) ∧
          (rowScatterDims N E D wf).start j idx 1 + ((rowScatterDims N E D wf).window j 1 : Nat) < (D : Int)
        rw [hs1, hw1, h1v]
        simp only [Int.zero_add]
        omega
    unfold ScatterDims.resultIdx?
    rw [dif_pos hall]
    congr 1
    funext a
    refine Fin.ext ?_
    match a with
    | ⟨0, _⟩ =>
      show ((rowScatterDims N E D wf).start j idx 0 + ((rowScatterDims N E D wf).window j 0 : Nat)).toNat = (i 0).val
      rw [hs0, hw0, h0]
      simp only [Nat.cast_zero, Int.add_zero, Int.toNat_natCast]
    | ⟨1, _⟩ =>
      show ((rowScatterDims N E D wf).start j idx 1 + ((rowScatterDims N E D wf).window j 1 : Nat)).toNat = (i 1).val
      rw [hs1, hw1, h1v]
      simp only [Int.zero_add, Int.toNat_natCast]

/-- An element scatter-add at element `i`: the operand there plus the updates whose index word, read signed, is `i`. -/
theorem scatterAddVec_apply {N E : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : Int)), upd (ix1 e) := by
  show x (ix1 i) + ∑ j ∈ Finset.univ.filter
      (fun j => (vecScatterDims N E wf).resultIdx? j idx = some (ix1 i)), upd j = _
  congr 1
  -- the updates that land at element `i` are, through the coordinate, the `e` whose index word is `i`
  refine Finset.sum_nbij' (fun j => j 0) (fun e => ix1 e) ?_ ?_ ?_ ?_ ?_
  · intro j hj
    exact Finset.mem_filter.mpr ⟨Finset.mem_univ _,
      (scatterVec_resultIdx_iff wf idx j (ix1 i)).mp (Finset.mem_filter.mp hj).2⟩
  · intro e he
    exact Finset.mem_filter.mpr ⟨Finset.mem_univ _,
      (scatterVec_resultIdx_iff wf idx (ix1 e) (ix1 i)).mpr (Finset.mem_filter.mp he).2⟩
  · intro j _
    exact (eq_ix1 j).symm
  · intro e _
    rfl
  · intro j _
    exact congrArg upd (eq_ix1 j)

/-- A row scatter-add at `(i, q)`: the operand there plus column `q` of the update rows whose index word, read signed, is `i`. -/
theorem scatterAddRows_apply {N E D : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ 32) (upd : (⟨2, ![E, D]⟩ : Shape).Idx → EReal)
    (i : Fin N) (q : Fin D) :
    Ideal.hostScatterAdd (rowScatterDims N E D wf) x idx upd (ix2 i q)
      = x (ix2 i q) + ∑ e ∈ Finset.univ.filter (fun e : Fin E => (idx (ix2 e (0 : Fin 1))).toInt = (i.val : Int)), upd (ix2 e q) := by
  show x (ix2 i q) + ∑ j ∈ Finset.univ.filter
      (fun j => (rowScatterDims N E D wf).resultIdx? j idx = some (ix2 i q)), upd j = _
  congr 1
  -- an update that lands at `(i, q)` has column `q`, so it is `(e, q)` for a row `e` whose index word is `i`
  have hcol : ∀ j : (⟨2, ![E, D]⟩ : Shape).Idx,
      (rowScatterDims N E D wf).resultIdx? j idx = some (ix2 i q) → ix2 (j 0) q = j := by
    intro j hj
    have hq : j 1 = q := ((scatterRows_resultIdx_iff wf idx j (ix2 i q)).mp hj).2
    rw [← hq]
    exact (eq_ix2 j).symm
  refine Finset.sum_nbij' (fun j => j 0) (fun e => ix2 e q) ?_ ?_ ?_ ?_ ?_
  · intro j hj
    exact Finset.mem_filter.mpr ⟨Finset.mem_univ _,
      ((scatterRows_resultIdx_iff wf idx j (ix2 i q)).mp (Finset.mem_filter.mp hj).2).1⟩
  · intro e he
    exact Finset.mem_filter.mpr ⟨Finset.mem_univ _,
      (scatterRows_resultIdx_iff wf idx (ix2 e q) (ix2 i q)).mpr ⟨(Finset.mem_filter.mp he).2, rfl⟩⟩
  · intro j hj
    exact hcol j (Finset.mem_filter.mp hj).2
  · intro e _
    rfl
  · intro j hj
    exact congrArg upd (hcol j (Finset.mem_filter.mp hj).2).symm

/-- A filtered sum over `Fin (A + B)` splits at `A`. -/
theorem sum_filter_fin_add {M : Type*} [AddCommMonoid M] (A B : Nat) (p : Fin (A + B) → Prop) [DecidablePred p]
    (u : Fin (A + B) → M) :
    ∑ j ∈ Finset.univ.filter p, u j
      = ∑ a ∈ Finset.univ.filter (fun a : Fin A => p (Fin.castAdd B a)), u (Fin.castAdd B a)
        + ∑ b ∈ Finset.univ.filter (fun b : Fin B => p (Fin.natAdd A b)), u (Fin.natAdd A b) := by
  -- a filtered sum is the sum of the terms switched off where the predicate fails; that sum splits at the seam
  rw [Finset.sum_filter, Finset.sum_filter, Finset.sum_filter, Fin.sum_univ_add]

end Cert.Gcn

end
-- ==== Proof.KHost0.lean ====
/-
  The arrays the first step region is handed, read index by index from the kernel program's arguments.

  Before the first step the host computes, once, the summed edge features (a row scatter-add of the edge features onto
  zero by destination word) and the in-degree (an element scatter-add of ones, then spread over 256 columns); for the
  step it cuts layer 0 out of every stacked parameter, the matrices transposed, gathers the node rows by source word
  (a negative word first has 65536 added: array indexing's wrap; the gather then clamps) and sums the gathered rows by
  destination word. An update lands on node n exactly when its destination word, read signed, is n, so each scatter-add
  onto zero is a segment sum. The ownership bit of a node is "owner word at least 0 and below 128".
-/
import proofs.«423165_j21801253994886_2_alg».proof.Proof.Gen.KernelIdeal.Frame
import proofs.«423165_j21801253994886_2_alg».proof.Proof.KArgs
import proofs.«423165_j21801253994886_2_alg».proof.Proof.LibScatter
import Idealize.ShloMosaic.Lib.ValueLayout
import Idealize.ShloMosaic.Lib.StableHlo.Predicate

set_option maxRecDepth 16384

noncomputable section

namespace Cert.KernelIdeal.KV.N1

open Idealize.ShloMosaic Idealize.ShloMosaic.TcCoe Idealize.ShloMosaic.ValueIdx Idealize.SL.Sem
open Cert.Gnn
open Cert.KernelIdeal Cert.KernelIdeal.Gen Cert.KernelIdeal.KV

variable (m : (ℓ : Loc nD τ sig) → Buf (Elt Ideal) ℓ) (ρ : Dev nD → PrngReg)

/-! ## Layout operations read at coordinates -/

section Layout
variable {α : Type}

/-- Layer `l` of a stack of two matrices, cut out, flattened to a matrix and transposed, reads at `(k, j)` the stack
    at `(l, j, k)`. -/
theorem layerT_apply {a b : Nat} (o : Nat) (l : Fin 2) (hl : l.val = o) (X : (⟨3, ![2, b, a]⟩ : Shape).Idx → α)
    (hs : (⟨3, ![2, b, a]⟩ : Shape).Slices ![o, 0, 0] ⟨3, ![1, b, a]⟩)
    (hc : (⟨3, ![1, b, a]⟩ : Shape).ShapeCasts ⟨2, ![b, a]⟩)
    (ht : (⟨2, ![b, a]⟩ : Shape).Transposes [1, 0] ⟨2, ![a, b]⟩) (k : Fin a) (j : Fin b) :
    transpose ⟨2, ![a, b]⟩ [1, 0] (shapeCast ⟨2, ![b, a]⟩ (extractStridedSlice ⟨3, ![1, b, a]⟩ ![o, 0, 0] X hs) hc) ht (ix2 k j)
      = X (ix3 l j k) := by
  rw [transpose_ix2_apply, shapeCast_1ab_ab_apply]
  exact extractStridedSlice_apply _ _ _ _ _ (fun ax => by
    match ax with
    | ⟨0, _⟩ => exact hl.trans (Nat.add_zero _).symm
    | ⟨1, _⟩ => exact (Nat.zero_add _).symm
    | ⟨2, _⟩ => exact (Nat.zero_add _).symm)

/-- Row `l` of a stack of two vectors, cut out, flattened to a vector and given a leading unit axis, reads at `(0, j)`
    the stack at `(l, j)`. -/
theorem layerRow_apply {b : Nat} (o : Nat) (l : Fin 2) (hl : l.val = o) (X : (⟨2, ![2, b]⟩ : Shape).Idx → α)
    (hs : (⟨2, ![2, b]⟩ : Shape).Slices ![o, 0] ⟨2, ![1, b]⟩)
    (hc : (⟨2, ![1, b]⟩ : Shape).ShapeCasts ⟨1, ![b]⟩) (hc' : (⟨1, ![b]⟩ : Shape).ShapeCasts ⟨2, ![1, b]⟩) (u : Fin 1) (j : Fin b) :
    shapeCast ⟨2, ![1, b]⟩ (shapeCast ⟨1, ![b]⟩ (extractStridedSlice ⟨2, ![1, b]⟩ ![o, 0] X hs) hc) hc' (ix2 u j)
      = X (ix2 l j) := by
  rw [shapeCast_a_1a_apply, shapeCast_1a_a_apply]
  exact slice2_axis0_apply o X hs 0 j l (hl.trans (Nat.add_zero _).symm)

/-- A vector kept as a column reads, at `(p, 0)`, the vector at `p`. -/
theorem asCol_apply {n : Nat} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) :=
  broadcastInDim_apply _ h v _ _ (fun a => by
    match a with
    | ⟨0, _⟩ =>
      show p.val = if n = 1 then 0 else p.val
      have := p.isLt
      split <;> omega)

/-- A column spread over `m` columns reads, at `(p, q)`, the column at `(p, 0)`. -/
theorem ofCol_apply {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) :=
  broadcastInDim_apply _ h v _ _ (fun a => by
    match a with
    | ⟨0, _⟩ =>
      show p.val = if n = 1 then 0 else p.val
      have := p.isLt
      split <;> omega
    | ⟨1, _⟩ => rfl)

/-- A scalar spread over any shape reads the scalar everywhere. -/
theorem ofScalar_apply {t : Shape} (h : (⟨0, ![]⟩ : Shape).BroadcastsInDim t ![]) (v : (⟨0, ![]⟩ : Shape).Idx → α) (j : t.Idx) :
    broadcastInDim t ![] h v j = v ix0 :=
  broadcastInDim_apply _ h v _ _ (fun a => a.elim0)

end Layout

/-! ## Signed compares of words -/

theorem cmpi_slt_iff (a b : BitVec 32) (z : Int) (hz : b.toInt = z) : IntOp.cmpi .slt a b = 1#1 ↔ a.toInt < z := by
  unfold IntOp.cmpi
  simp only [BitVec.slt, StableHlo.Predicate.ofBool_eq_one_iff, decide_eq_true_eq, hz]

theorem cmpi_sge_iff (a b : BitVec 32) (z : Int) (hz : b.toInt = z) : IntOp.cmpi .sge a b = 1#1 ↔ z ≤ a.toInt := by
  unfold IntOp.cmpi
  simp only [BitVec.sle, StableHlo.Predicate.ofBool_eq_one_iff, decide_eq_true_eq, hz]

/-- "Below zero, add the extent, else keep" on an index word is the wrap of array indexing. -/
theorem select_wrap (v : BitVec 32) :
    Scalar.select (IntOp.cmpi .slt v 0#32) (IntOp.addi v 65536#32) v = wrap 65536 v := by
  unfold wrap Scalar.select
  by_cases h : v.toInt < 0
  · rw [if_pos h, if_pos (show IntOp.cmpi .slt v 0#32 = 1 from (cmpi_slt_iff v 0#32 0 (by decide)).mpr h)]; rfl
  · rw [if_neg h, if_neg (show ¬ IntOp.cmpi .slt v 0#32 = 1 from fun hc => h ((cmpi_slt_iff v 0#32 0 (by decide)).mp hc))]

/-- "At least zero and below 128" as one bit is the ownership test. -/
theorem andi_owned (v : BitVec 32) :
    IntOp.andi (IntOp.cmpi .sge v 0#32) (IntOp.cmpi .slt v 128#32) = 1#1 ↔ Owned v := by
  unfold Owned
  rw [← cmpi_sge_iff v 0#32 0 (by decide), ← cmpi_slt_iff v 128#32 128 (by decide)]
  generalize IntOp.cmpi .sge v 0#32 = p
  generalize IntOp.cmpi .slt v 128#32 = q
  revert p q
  decide

/-! ## The step's matrices and biases as the first region finds them: layer 0 of each stack, the matrices transposed -/

/-- Window array `main_v17` (the source-row matrix) at `(k, j)` is layer 0 of its stack at `(j, k)`. -/
theorem v17_V1 (c : Dev nD) (k : Fin 128) (j : Fin 256) :
    (V1 m ρ c main_v17 : S128x256.Idx → EReal) (ix2 k j) = a2 m c (ix3 0 j k) := by
  have e : (V1 m ρ c main_v17 : S128x256.Idx → EReal)
      = transpose S128x256 [1, 0] (shapeCast S256x128 (extractStridedSlice S1x256x128 ![0, 0, 0] (a2 m c)
          slices_S2x256x128_S1x256x128_0_0_0) shapeCasts_S1x256x128_S256x128) transposes_S256x128_S128x256_1_0 := by
    dsimp only [V1, W1, hostOps0]; after_results; rfl
  rw [e]
  exact layerT_apply 0 0 rfl _ _ _ _ k j

/-- Window array `main_v20` (the destination matrix) at `(k, j)` is layer 0 of its stack at `(j, k)`. -/
theorem v20_V1 (c : Dev nD) (k : Fin 128) (j : Fin 256) :
    (V1 m ρ c main_v20 : S128x256.Idx → EReal) (ix2 k j) = a3 m c (ix3 0 j k) := by
  have e : (V1 m ρ c main_v20 : S128x256.Idx → EReal)
      = transpose S128x256 [1, 0] (shapeCast S256x128 (extractStridedSlice S1x256x128 ![0, 0, 0] (a3 m c)
          slices_S2x256x128_S1x256x128_0_0_0) shapeCasts_S1x256x128_S256x128) transposes_S256x128_S128x256_1_0 := by
    dsimp only [V1, W1, hostOps0]; after_results; rfl
  rw [e]
  exact layerT_apply 0 0 rfl _ _ _ _ k j

/-- Window array `main_v23` (the edge-feature matrix) at `(k, j)` is layer 0 of its stack at `(j, k)`. -/
theorem v23_V1 (c : Dev nD) (k : Fin 128) (j : Fin 256) :
    (V1 m ρ c main_v23 : S128x256.Idx → EReal) (ix2 k j) = a5 m c (ix3 0 j k) := by
  have e : (V1 m ρ c main_v23 : S128x256.Idx → EReal)
      = transpose S128x256 [1, 0] (shapeCast S256x128 (extractStridedSlice S1x256x128 ![0, 0, 0] (a5 m c)
          slices_S2x256x128_S1x256x128_0_0_0) shapeCasts_S1x256x128_S256x128) transposes_S256x128_S128x256_1_0 := by
    dsimp only [V1, W1, hostOps0]; after_results; rfl
  rw [e]
  exact layerT_apply 0 0 rfl _ _ _ _ k j

/-- Window array `main_v26` (the cell's input matrix) at `(k, j)` is layer 0 of its stack at `(j, k)`. -/
theorem v26_V1 (c : Dev nD) (k : Fin 256) (j : Fin 384) :
    (V1 m ρ c main_v26 : S256x384.Idx → EReal) (ix2 k j) = a6 m c (ix3 0 j k) := by
  have e : (V1 m ρ c main_v26 : S256x384.Idx → EReal)
      = transpose S256x384 [1, 0] (shapeCast S384x256 (extractStridedSlice S1x384x256 ![0, 0, 0] (a6 m c)
          slices_S2x384x256_S1x384x256_0_0_0) shapeCasts_S1x384x256_S384x256) transposes_S384x256_S256x384_1_0 := by
    dsimp only [V1, W1, hostOps0]; after_results; rfl
  rw [e]
  exact layerT_apply 0 0 rfl _ _ _ _ k j

/-- Window array `main_v29` (the cell's state matrix) at `(k, j)` is layer 0 of its stack at `(j, k)`. -/
theorem v29_V1 (c : Dev nD) (k : Fin 128) (j : Fin 384) :
    (V1 m ρ c main_v29 : S128x384.Idx → EReal) (ix2 k j) = a7 m c (ix3 0 j k) := by
  have e : (V1 m ρ c main_v29 : S128x384.Idx → EReal)
      = transpose S128x384 [1, 0] (shapeCast S384x128 (extractStridedSlice S1x384x128 ![0, 0, 0] (a7 m c)
          slices_S2x384x128_S1x384x128_0_0_0) shapeCasts_S1x384x128_S384x128) transposes_S384x128_S128x384_1_0 := by
    dsimp only [V1, W1, hostOps0]; after_results; rfl
  rw [e]
  exact layerT_apply 0 0 rfl _ _ _ _ k j

/-- Window array `main_v32` (the destination bias) at `(0, j)` is row 0 of its stack at `j`. -/
theorem v32_V1 (c : Dev nD) (j : Fin 256) :
    (V1 m ρ c main_v32 : S1x256.Idx → EReal) (ix2 0 j) = a4 m c (ix2 0 j) := by
  have e : (V1 m ρ c main_v32 : S1x256.Idx → EReal)
      = shapeCast S1x256 (shapeCast S256 (extractStridedSlice S1x256 ![0, 0] (a4 m c)
          slices_S2x256_S1x256_0_0) shapeCasts_S1x256_S256) shapeCasts_S256_S1x256 := by
    dsimp only [V1, W1, hostOps0]; after_results; rfl
  rw [e]
  exact layerRow_apply 0 0 rfl _ _ _ _ 0 j

/-- Window array `main_v35` (the cell's input bias) at `(0, j)` is row 0 of its stack at `j`. -/
theorem v35_V1 (c : Dev nD) (j : Fin 384) :
    (V1 m ρ c main_v35 : S1x384.Idx → EReal) (ix2 0 j) = a8 m c (ix2 0 j) := by
  have e : (V1 m ρ c main_v35 : S1x384.Idx → EReal)
      = shapeCast S1x384 (shapeCast S384 (extractStridedSlice S1x384 ![0, 0] (a8 m c)
          slices_S2x384_S1x384_0_0) shapeCasts_S1x384_S384) shapeCasts_S384_S1x384 := by
    dsimp only [V1, W1, hostOps0]; after_results; rfl
  rw [e]
  exact layerRow_apply 0 0 rfl _ _ _ _ 0 j

/-- Window array `main_v38` (the cell's state bias) at `(0, j)` is row 0 of its stack at `j`. -/
theorem v38_V1 (c : Dev nD) (j : Fin 384) :
    (V1 m ρ c main_v38 : S1x384.Idx → EReal) (ix2 0 j) = a9 m c (ix2 0 j) := by
  have e : (V1 m ρ c main_v38 : S1x384.Idx → EReal)
      = shapeCast S1x384 (shapeCast S384 (extractStridedSlice S1x384 ![0, 0] (a9 m c)
          slices_S2x384_S1x384_0_0) shapeCasts_S1x384_S384) shapeCasts_S384_S1x384 := by
    dsimp only [V1, W1, hostOps0]; after_results; rfl
  rw [e]
  exact layerRow_apply 0 0 rfl _ _ _ _ 0 j

/-! ## The printed dimension records are the row scatter, the element scatter and the row gather -/

theorem rowScatter_rec : scatter_S65536x128_S655360x1_S655360x128_1_0_0_1
    = Cert.Gcn.rowScatterDims 65536 655360 128 scatter_S65536x128_S655360x1_S655360x128_1_0_0_1_wf := rfl

theorem vecScatter_rec : scatter_S65536_S655360x1_S655360_n_0_0_1
    = Cert.Gcn.vecScatterDims 65536 655360 scatter_S65536_S655360x1_S655360_n_0_0_1_wf := rfl

theorem rowGather_rec : gather_S65536x128_S655360x1_S655360x128_1_0_n_n_0_1_1128
    = Cert.Gcn.rowGatherDims 65536 655360 128 gather_S65536x128_S655360x1_S655360x128_1_0_n_n_0_1_1128_wf := rfl

/-- The host's scatter-add at the extended reals is the exact sum. -/
theorem scatterAdd_ideal {s si su : Shape} (d : ScatterDims s si su) (x : FVec Ideal s .f32) (idx : IVec si 32) (upd : FVec Ideal su .f32) :
    Host.scatterAdd d x idx upd = Ideal.hostScatterAdd d x idx upd := rfl

/-! ## Segment sums and the gather, on arrays of the literal shapes -/

/-- A row scatter-add onto zero, the index words kept as a column: entry `(n, k)` is the sum of column `k` of the
    update rows whose word, read signed, is `n`. -/
theorem rowSegSum_apply (dst : IVec S655360 32) (upd : FVec Ideal S655360x128 .f32) (n : Fin 65536) (k : Fin 128) :
    Host.scatterAdd scatter_S65536x128_S655360x1_S655360x128_1_0_0_1
        (broadcastInDim S65536x128 ![] bcast_S_S65536x128 (constant (F := Ideal) S_ .f32 0x00000000#32))
        (broadcastInDim S655360x1 ![0] bcast_S655360_S655360x1_0 dst) upd (ix2 n k)
      = segSum (m1 dst) n (fun e => upd (ix2 e k)) := by
  rw [rowScatter_rec, scatterAdd_ideal, Cert.Gcn.scatterAddRows_apply, ofScalar_apply, constant_apply,
    Ideal.ofBits_zero_f32, zero_add]
  unfold segSum
  refine Finset.sum_congr (Finset.filter_congr fun e _ => by rw [asCol_apply]) (fun e _ => rfl)

/-- An element scatter-add of ones onto zero: entry `n` is the number of index words that read `n`, as a sum of ones. -/
theorem vecSegSum_apply (dst : IVec S655360 32) (n : Fin 65536) :
    Host.scatterAdd scatter_S65536_S655360x1_S655360_n_0_0_1
        (broadcastInDim S65536 ![] bcast_S_S65536 (constant (F := Ideal) S_ .f32 0x00000000#32))
        (broadcastInDim S655360x1 ![0] bcast_S655360_S655360x1_0 dst)
        (broadcastInDim S655360 ![] bcast_S_S655360 (constant (F := Ideal) S_ .f32 0x3F800000#32)) (ix1 n)
      = segSum (m1 dst) n (fun _ => one) := by
  rw [vecScatter_rec, scatterAdd_ideal, Cert.Gcn.scatterAddVec_apply, ofScalar_apply, constant_apply,
    Ideal.ofBits_zero_f32, zero_add]
  unfold segSum
  refine Finset.sum_congr (Finset.filter_congr fun e _ => by rw [asCol_apply]) (fun e _ => ?_)
  rw [ofScalar_apply, constant_apply]
  rfl

/-- The index column of the gather of node rows: the source word, wrapped. -/
theorem wrapCol_apply (src : IVec S655360 32) (e : Fin 655360) (u : Fin 1) :
    broadcastInDim S655360x1 ![0] bcast_S655360_S655360x1_0
        (select (cmpi .slt src (broadcastInDim S655360 ![] bcast_S_S655360 (constantI S_ 32 0#32)))
          (addi src (broadcastInDim S655360 ![] bcast_S_S655360 (constantI S_ 32 65536#32))) src) (ix2 e u)
      = wrap 65536 (src (ix1 e)) := by
  rw [asCol_apply, select_apply]
  show Scalar.select (IntOp.cmpi .slt (src (ix1 e)) (broadcastInDim S655360 ![] bcast_S_S655360 (constantI S_ 32 0#32) (ix1 e)))
      (IntOp.addi (src (ix1 e)) (broadcastInDim S655360 ![] bcast_S_S655360 (constantI S_ 32 65536#32) (ix1 e))) (src (ix1 e)) = _
  rw [ofScalar_apply, ofScalar_apply, constantI_apply, constantI_apply, select_wrap]

/-- The gather of node rows by wrapped source words: row `e` is the node row the source word names. -/
theorem gatherSrc_apply (x : FVec Ideal S65536x128 .f32) (src : IVec S655360 32) (e : Fin 655360) (k : Fin 128) :
    Host.gather gather_S65536x128_S655360x1_S655360x128_1_0_n_n_0_1_1128 x
        (broadcastInDim S655360x1 ![0] bcast_S655360_S655360x1_0
          (select (cmpi .slt src (broadcastInDim S655360 ![] bcast_S_S655360 (constantI S_ 32 0#32)))
            (addi src (broadcastInDim S655360 ![] bcast_S_S655360 (constantI S_ 32 65536#32))) src)) (ix2 e k)
      = x (ix2 (rowOf (src (ix1 e))) k) := by
  rw [rowGather_rec, Cert.Gcn.gatherRows_apply (by norm_num : 0 < 65536)]
  unfold rowOf
  rw [← wrapCol_apply src e 0]

/-! ## The arrays the first region finds: the summed edge features, the in-degree, the summed source rows, the node
    rows, the ownership bit -/

/-- The node rows are the argument's: no host operation writes them. -/
theorem arg0_V1 (c : Dev nD) : (V1 m ρ c main_arg0 : S65536x128.Idx → EReal) = a0 m c := by
  dsimp only [V1, W1, hostOps0]; after_results <;> rfl

/-- The summed edge features at `(n, k)`. -/
theorem v8_V1 (c : Dev nD) (n : Fin 65536) (k : Fin 128) :
    (V1 m ρ c main_v8 : S65536x128.Idx → EReal) (ix2 n k) = segSum (kg m c).dst n (fun e => (kg m c).ef e k) := by
  have e : (V1 m ρ c main_v8 : S65536x128.Idx → EReal)
      = Host.scatterAdd (F := Ideal) scatter_S65536x128_S655360x1_S655360x128_1_0_0_1
          (broadcastInDim S65536x128 ![] bcast_S_S65536x128 (constant (F := Ideal) S_ .f32 0x00000000#32))
          (broadcastInDim S655360x1 ![0] bcast_S655360_S655360x1_0 (a25 m c)) (a1 m c) := by
    dsimp only [V1, W1, hostOps0]; after_results <;> rfl
  rw [e]
  exact rowSegSum_apply (a25 m c) (a1 m c) n k

/-- The in-degree spread over 256 columns at `(n, j)`. -/
theorem v14_V1 (c : Dev nD) (n : Fin 65536) (j : Fin 256) :
    (V1 m ρ c main_v14 : S65536x256.Idx → EReal) (ix2 n j) = segSum (kg m c).dst n (fun _ => one) := by
  have e : (V1 m ρ c main_v14 : S65536x256.Idx → EReal)
      = broadcastInDim S65536x256 ![0, 1] bcast_S65536x1_S65536x256_0_1
          (broadcastInDim S65536x1 ![0] bcast_S65536_S65536x1_0
            (Host.scatterAdd (F := Ideal) scatter_S65536_S655360x1_S655360_n_0_0_1
              (broadcastInDim S65536 ![] bcast_S_S65536 (constant (F := Ideal) S_ .f32 0x00000000#32))
              (broadcastInDim S655360x1 ![0] bcast_S655360_S655360x1_0 (a25 m c))
              (broadcastInDim S655360 ![] bcast_S_S655360 (constant (F := Ideal) S_ .f32 0x3F800000#32)))) := by
    dsimp only [V1, W1, hostOps0]; after_results <;> rfl
  rw [e, ofCol_apply, asCol_apply]
  exact vecSegSum_apply (a25 m c) n

/-- The summed source rows at `(n, k)`. -/
theorem v48_V1 (c : Dev nD) (n : Fin 65536) (k : Fin 128) :
    (V1 m ρ c main_v48 : S65536x128.Idx → EReal) (ix2 n k)
      = segSum (kg m c).dst n (fun e => m2 (a0 m c) (rowOf ((kg m c).src e)) k) := by
  have e : (V1 m ρ c main_v48 : S65536x128.Idx → EReal)
      = Host.scatterAdd (F := Ideal) scatter_S65536x128_S655360x1_S655360x128_1_0_0_1
          (broadcastInDim S65536x128 ![] bcast_S_S65536x128 (constant (F := Ideal) S_ .f32 0x00000000#32))
          (broadcastInDim S655360x1 ![0] bcast_S655360_S655360x1_0 (a25 m c))
          (Host.gather gather_S65536x128_S655360x1_S655360x128_1_0_n_n_0_1_1128 (a0 m c)
            (broadcastInDim S655360x1 ![0] bcast_S655360_S655360x1_0
              (select (cmpi .slt (a24 m c) (broadcastInDim S655360 ![] bcast_S_S655360 (constantI S_ 32 0#32)))
                (addi (a24 m c) (broadcastInDim S655360 ![] bcast_S_S655360 (constantI S_ 32 65536#32))) (a24 m c)))) := by
    dsimp only [V1, W1, hostOps0]; after_results_simp <;> rfl
  rw [e]
  refine (rowSegSum_apply (a25 m c) _ n k).trans ?_
  refine congrArg (segSum (kg m c).dst n) (funext fun e => ?_)
  exact gatherSrc_apply (a0 m c) (a24 m c) e k

/-- The ownership bit, kept as a column, at `(n, 0)`. -/
theorem v5_V1 (c : Dev nD) (n : Fin 65536) :
    (V1 m ρ c main_v5 : S65536x1.Idx → BitVec 1) (ix2 n 0) = 1#1 ↔ Owned ((kg m c).owner n) := by
  have e : (V1 m ρ c main_v5 : S65536x1.Idx → BitVec 1)
      = broadcastInDim S65536x1 ![0] bcast_S65536_S65536x1_0
          (andi (cmpi .sge (a27 m c) (broadcastInDim S65536 ![] bcast_S_S65536 (constantI S_ 32 0#32)))
            (cmpi .slt (a27 m c) (broadcastInDim S65536 ![] bcast_S_S65536 (constantI S_ 32 128#32)))) := by
    dsimp only [V1, W1, hostOps0]; after_results <;> rfl
  rw [e, asCol_apply]
  exact andi_owned (a27 m c (ix1 n))

end Cert.KernelIdeal.KV.N1

end
-- ==== Proof.KNodes1.lean ====
/-
  The kernel program up to the end of the first step: the host operations before the first step region (the summed
  edge features, the in-degree, the gathered and summed source rows, the step's matrices), the region, and the choice
  between the cell's output and the old row.

  The region is handed the summed source rows, the node rows, the summed edge features, the in-degree and layer 0 of
  the parameters with the matrices transposed; on those operands its output row is the recurrent cell applied to the
  message aggregated by multiplying after the sums. The host then keeps, for each node, the cell's output when the
  node's owner word is a graph number and the old row otherwise; nothing after that writes the node table before the
  second region is entered.
-/
import proofs.«423165_j21801253994886_2_alg».proof.Proof.Gen.KernelIdeal.Frame
import proofs.«423165_j21801253994886_2_alg».proof.Proof.KArgs
import proofs.«423165_j21801253994886_2_alg».proof.Proof.KStep0
import proofs.«423165_j21801253994886_2_alg».proof.Proof.LibScatter
import proofs.«423165_j21801253994886_2_alg».proof.Proof.KHost0

set_option maxRecDepth 16384

noncomputable section

namespace Cert.KernelIdeal.KV

open Idealize.ShloMosaic Idealize.ShloMosaic.TcCoe Idealize.ShloMosaic.ValueIdx Idealize.SL.Sem
open Cert.Gnn
open Cert.KernelIdeal Cert.KernelIdeal.Gen

variable (m : (ℓ : Loc nD τ sig) → Buf (Elt Ideal) ℓ) (ρ : Dev nD → PrngReg)

namespace N1

/-! ## The region's output on the operands it finds -/

/-- The step region's output is the recurrent cell on the aggregated message, once its operand arrays are the summed
    source rows, the node rows, the summed edge features, the in-degree, and the step's parameters transposed. -/
theorem stepBody_eq (p : StepParams) (g : Graph) (x : Fin 65536 → Fin 128 → EReal)
    (scat xx efagg : Fin 65536 → Fin 128 → EReal) (degb : Fin 65536 → Fin 256 → EReal)
    (WsrcT WdestT WfeatT : Fin 128 → Fin 256 → EReal) (bdest : Fin 256 → EReal)
    (WihT : Fin 256 → Fin 384 → EReal) (WhhT : Fin 128 → Fin 384 → EReal) (bih bhh : Fin 384 → EReal)
    (h1 : ∀ n k, scat n k = segSum g.dst n (fun e => x (rowOf (g.src e)) k))
    (h2 : ∀ n k, xx n k = x n k)
    (h3 : ∀ n k, efagg n k = segSum g.dst n (fun e => g.ef e k))
    (h4 : ∀ n j, degb n j = segSum g.dst n (fun _ => one))
    (h5 : ∀ k j, WsrcT k j = p.Wsrc j k) (h6 : ∀ k j, WdestT k j = p.Wdest j k) (h7 : ∀ k j, WfeatT k j = p.Wfeat j k)
    (h8 : ∀ j, bdest j = p.bdest j) (h9 : ∀ k j, WihT k j = p.Wih j k) (h10 : ∀ k j, WhhT k j = p.Whh j k)
    (h11 : ∀ j, bih j = p.bih j) (h12 : ∀ j, bhh j = p.bhh j) (n : Fin 65536) (s : Fin 128) :
    stepBody scat xx efagg degb WsrcT WdestT WfeatT bdest WihT WhhT bih bhh n s = gru p (x n) (aggK p g x n) s := by
  obtain rfl : scat = fun n k => segSum g.dst n (fun e => x (rowOf (g.src e)) k) := funext fun n => funext fun k => h1 n k
  obtain rfl : xx = x := funext fun n => funext fun k => h2 n k
  obtain rfl : efagg = fun n k => segSum g.dst n (fun e => g.ef e k) := funext fun n => funext fun k => h3 n k
  obtain rfl : degb = fun n _ => segSum g.dst n (fun _ => one) := funext fun n => funext fun j => h4 n j
  obtain rfl : WsrcT = fun k j => p.Wsrc j k := funext fun k => funext fun j => h5 k j
  obtain rfl : WdestT = fun k j => p.Wdest j k := funext fun k => funext fun j => h6 k j
  obtain rfl : WfeatT = fun k j => p.Wfeat j k := funext fun k => funext fun j => h7 k j
  obtain rfl : bdest = p.bdest := funext h8
  obtain rfl : WihT = fun k j => p.Wih j k := funext fun k => funext fun j => h9 k j
  obtain rfl : WhhT = fun k j => p.Whh j k := funext fun k => funext fun j => h10 k j
  obtain rfl : bih = p.bih := funext h11
  obtain rfl : bhh = p.bhh := funext h12
  rfl

/-! ## The region's output, the choice, and the node table after the first step -/

section Where
variable {α : Type}

/-- A choice between two arrays by a column of bits spread over the columns reads, at `(n, s)`, the choice by the
    bit at `(n, 0)`. -/
theorem whereCol_apply {N D : Nat} (h : (⟨2, ![N, 1]⟩ : Shape).BroadcastsInDim ⟨2, ![N, D]⟩ ![0, 1])
    (mask : IVec ⟨2, ![N, 1]⟩ 1) (y x : (⟨2, ![N, D]⟩ : Shape).Idx → α) (n : Fin N) (s : Fin D) :
    select (broadcastInDim ⟨2, ![N, D]⟩ ![0, 1] h mask) y x (ix2 n s)
      = if mask (ix2 n 0) = 1#1 then y (ix2 n s) else x (ix2 n s) := by
  rw [select_apply, ofCol_apply]
  rfl

end Where

/-- The first step region's output at `(n, s)`: the recurrent cell on the aggregated message. -/
theorem region0_V1 (c : Dev nD) (n : Fin 65536) (s : Fin 128) :
    ((dat0 (F := Ideal) (V1 m ρ) c).arrAt 12 cfg0.N : S65536x128.Idx → EReal) (ix2 n s)
      = gru (kp m 0 c) (m2 (a0 m c) n) (aggK (kp m 0 c) (kg m c) (m2 (a0 m c)) n) s := by
  rw [region0_out (V1 m ρ) c n s]
  refine stepBody_eq (kp m 0 c) (kg m c) (m2 (a0 m c)) _ _ _ _ _ _ _ _ _ _ _ _
    (fun n k => v48_V1 m ρ c n k) (fun n k => congrFun (arg0_V1 m ρ c) (ix2 n k)) (fun n k => v8_V1 m ρ c n k)
    (fun n j => v14_V1 m ρ c n j) (fun k j => v17_V1 m ρ c k j) (fun k j => v20_V1 m ρ c k j)
    (fun k j => v23_V1 m ρ c k j) (fun j => v32_V1 m ρ c j) (fun k j => v26_V1 m ρ c k j)
    (fun k j => v29_V1 m ρ c k j) (fun j => v35_V1 m ρ c j) (fun j => v38_V1 m ρ c j) n s

/-- The node table after the first step: a node whose owner word is a graph number takes the cell's output, any other
    keeps its row. -/
theorem nodes1_apply (c : Dev nD) (n : Fin 65536) (s : Fin 128) :
    (W4 m ρ c (Proc.devRef .tc main_v50) : S65536x128.Idx → EReal) (ix2 n s)
      = stepK (kp m 0 c) (kg m c) (m2 (a0 m c)) n s := by
  -- the second stretch of host operations after the region does not write the node table
  have h4 : W4 m ρ c (Proc.devRef .tc main_v50) = W3 m ρ c (Proc.devRef .tc main_v50) :=
    StableHlo.after_of_forall_not_mem (b := Proc.devRef .tc main_v50) _ _ (List.forall_iff_forall_mem.mp (by
      simp only [hostOps1_1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
  -- the first stretch is the choice between the region's output and the old rows by the ownership bit
  have h3 : (W3 m ρ c (Proc.devRef .tc main_v50) : S65536x128.Idx → EReal)
      = select (broadcastInDim S65536x128 ![0, 1] bcast_S65536x1_S65536x128_0_1
            (W2 m ρ c (Proc.devRef .tc main_v5) : S65536x1.Idx → BitVec 1))
          (W2 m ρ c (Proc.devRef .tc main_v49) : S65536x128.Idx → EReal)
          (W2 m ρ c (Proc.devRef .tc main_arg0) : S65536x128.Idx → EReal) := by
    dsimp only [W3, hostOps1]; after_results <;> rfl
  -- across the region: the bit is not the region's, the output is what the pipeline leaves, the rows are only read
  have h5 : W2 m ρ c (Proc.devRef .tc main_v5) = V1 m ρ c main_v5 := W2_of_ne m ρ c main_v5 (by decide)
  have h49 : W2 m ρ c (Proc.devRef .tc main_v49) = (dat0 (V1 m ρ) c).arrAt 12 cfg0.N := W2_arr m ρ c 12
  have h0 : W2 m ρ c (Proc.devRef .tc main_arg0) = V1 m ρ c main_arg0 :=
    (W2_arr m ρ c 1).trans (((dat0 (V1 m ρ) c).arrAt_in 1 rfl _).trans (A_eq0 (V1 m ρ) c 1))
  rw [h4, h3, h5, h49, h0, whereCol_apply]
  unfold stepK
  by_cases ho : Owned ((kg m c).owner n)
  · rw [if_pos ho, if_pos ((v5_V1 m ρ c n).mpr ho)]
    exact region0_V1 m ρ c n s
  · rw [if_neg ho, if_neg (fun h => ho ((v5_V1 m ρ c n).mp h))]
    exact congrFun (arg0_V1 m ρ c) (ix2 n s)

end N1

open N1

/-- The summed edge features as the first step region finds them. -/
theorem efagg_V1 (c : Dev nD) (n : Fin 65536) (k : Fin 128) :
    (V1 m ρ c main_v8 : S65536x128.Idx → EReal) (ix2 n k) = segSum (kg m c).dst n (fun e => (kg m c).ef e k) :=
  v8_V1 m ρ c n k

/-- The in-degree, spread over 256 columns, as the first step region finds it. -/
theorem degb_V1 (c : Dev nD) (n : Fin 65536) (j : Fin 256) :
    (V1 m ρ c main_v14 : S65536x256.Idx → EReal) (ix2 n j) = segSum (kg m c).dst n (fun _ => one) :=
  v14_V1 m ρ c n j

/-- The node table after the first step. -/
theorem k_nodes1 (c : Dev nD) (n : Fin 65536) (s : Fin 128) :
    (W4 m ρ c (Proc.devRef .tc main_v50) : S65536x128.Idx → EReal) (ix2 n s)
      = stepK (kp m 0 c) (kg m c) (m2 (a0 m c)) n s :=
  nodes1_apply m ρ c n s

end Cert.KernelIdeal.KV

end
-- ==== Proof.KStep1Pay.lean ====
/-
  Step region 1 of the kernel program at ONE grid point: the block the body stores, read at row p and column q, is
  the recurrent cell on row p of the node block, fed the aggregated message of row p. The matrix unit's products
  are read as sums over the contracted coordinate (the narrowing casts are the identity on extended reals), the bias
  rows are one row read at every row, and the three gates are the three blocks of 128 columns of the two 384-column
  products.
-/
import proofs.«423165_j21801253994886_2_alg».proof.Proof.Gen.KernelIdeal.Skeleton
import proofs.«423165_j21801253994886_2_alg».proof.Proof.SpecK
import Idealize.ShloMosaic.Lib.ValueLayout
import Idealize.ShloMosaic.PureOps.Ideal.Laws

set_option maxRecDepth 16384

noncomputable section

namespace Cert.KernelIdeal.KV.Step1

open Idealize.ShloMosaic Idealize.ShloMosaic.ValueIdx
open Cert.Gnn Cert.KernelIdeal Cert.KernelIdeal.Gen

/-! ## The matrix unit's products at an index -/

/-! ### the 128-to-256 products (the three message terms) -/

theorem lhsA_0 (j : S2048x256.Idx) (k : dot_S2048x128_S128x256_S2048x256_1_0_0_1_n_n.contr.Idx) :
    (dot_S2048x128_S128x256_S2048x256_1_0_0_1_n_n.lhsIdx j k 0).val = (j 0).val := rfl
theorem lhsA_1 (j : S2048x256.Idx) (k : dot_S2048x128_S128x256_S2048x256_1_0_0_1_n_n.contr.Idx) :
    (dot_S2048x128_S128x256_S2048x256_1_0_0_1_n_n.lhsIdx j k 1).val = (k ⟨0, by decide⟩).val := rfl
theorem rhsA_0 (j : S2048x256.Idx) (k : dot_S2048x128_S128x256_S2048x256_1_0_0_1_n_n.contr.Idx) :
    (dot_S2048x128_S128x256_S2048x256_1_0_0_1_n_n.rhsIdx j k 0).val = (k ⟨0, by decide⟩).val := rfl
theorem rhsA_1 (j : S2048x256.Idx) (k : dot_S2048x128_S128x256_S2048x256_1_0_0_1_n_n.contr.Idx) :
    (dot_S2048x128_S128x256_S2048x256_1_0_0_1_n_n.rhsIdx j k 1).val = (j 1).val := rfl

/-- Into a zero accumulator the matrix unit's product at (p, q) is the sum over the contracted coordinate of row p of
    the left operand times column q of the right one. -/
theorem mmA {φ₁ φ₂ : FTy} (l : FVec Ideal S2048x128 φ₁) (r : FVec Ideal S128x256 φ₂) (p : Fin 2048) (q : Fin 256) :
    matmul dot_S2048x128_S128x256_S2048x256_1_0_0_1_n_n none l r (constant S2048x256 .f32 0x00000000#32) (ix2 p q)
      = ∑ k : Fin 128, l (ix2 p k) * r (ix2 k q) := by
  refine (Ideal.matmul_constant_zero_apply dot_S2048x128_S128x256_S2048x256_1_0_0_1_n_n none l r (ix2 p q)).trans ?_
  refine (Equiv.sum_comp (contrEquiv1 dot_S2048x128_S128x256_S2048x256_1_0_0_1_n_n 128 rfl rfl).symm _).symm.trans ?_
  refine Finset.sum_congr rfl fun k _ => ?_
  have hk := contrEquiv1_symm_val dot_S2048x128_S128x256_S2048x256_1_0_0_1_n_n 128 rfl rfl k
  congr 1
  · refine congrArg l (funext fun a => Fin.ext ?_)
    match a with
    | ⟨0, _⟩ => exact lhsA_0 _ _
    | ⟨1, _⟩ => exact (lhsA_1 _ _).trans hk
  · refine congrArg r (funext fun a => Fin.ext ?_)
    match a with
    | ⟨0, _⟩ => exact (rhsA_0 _ _).trans hk
    | ⟨1, _⟩ => exact rhsA_1 _ _

/-! ### the 256-to-384 product (the message through the input matrix) -/

theorem lhsB_0 (j : S2048x384.Idx) (k : dot_S2048x256_S256x384_S2048x384_1_0_0_1_n_n.contr.Idx) :
    (dot_S2048x256_S256x384_S2048x384_1_0_0_1_n_n.lhsIdx j k 0).val = (j 0).val := rfl
theorem lhsB_1 (j : S2048x384.Idx) (k : dot_S2048x256_S256x384_S2048x384_1_0_0_1_n_n.contr.Idx) :
    (dot_S2048x256_S256x384_S2048x384_1_0_0_1_n_n.lhsIdx j k 1).val = (k ⟨0, by decide⟩).val := rfl
theorem rhsB_0 (j : S2048x384.Idx) (k : dot_S2048x256_S256x384_S2048x384_1_0_0_1_n_n.contr.Idx) :
    (dot_S2048x256_S256x384_S2048x384_1_0_0_1_n_n.rhsIdx j k 0).val = (k ⟨0, by decide⟩).val := rfl
theorem rhsB_1 (j : S2048x384.Idx) (k : dot_S2048x256_S256x384_S2048x384_1_0_0_1_n_n.contr.Idx) :
    (dot_S2048x256_S256x384_S2048x384_1_0_0_1_n_n.rhsIdx j k 1).val = (j 1).val := rfl

/-- Into a zero accumulator the matrix unit's product at (p, q) is the sum over the contracted coordinate of row p of
    the left operand times column q of the right one. -/
theorem mmB {φ₁ φ₂ : FTy} (l : FVec Ideal S2048x256 φ₁) (r : FVec Ideal S256x384 φ₂) (p : Fin 2048) (q : Fin 384) :
    matmul dot_S2048x256_S256x384_S2048x384_1_0_0_1_n_n none l r (constant S2048x384 .f32 0x00000000#32) (ix2 p q)
      = ∑ k : Fin 256, l (ix2 p k) * r (ix2 k q) := by
  refine (Ideal.matmul_constant_zero_apply dot_S2048x256_S256x384_S2048x384_1_0_0_1_n_n none l r (ix2 p q)).trans ?_
  refine (Equiv.sum_comp (contrEquiv1 dot_S2048x256_S256x384_S2048x384_1_0_0_1_n_n 256 rfl rfl).symm _).symm.trans ?_
  refine Finset.sum_congr rfl fun k _ => ?_
  have hk := contrEquiv1_symm_val dot_S2048x256_S256x384_S2048x384_1_0_0_1_n_n 256 rfl rfl k
  congr 1
  · refine congrArg l (funext fun a => Fin.ext ?_)
    match a with
    | ⟨0, _⟩ => exact lhsB_0 _ _
    | ⟨1, _⟩ => exact (lhsB_1 _ _).trans hk
  · refine congrArg r (funext fun a => Fin.ext ?_)
    match a with
    | ⟨0, _⟩ => exact (rhsB_0 _ _).trans hk
    | ⟨1, _⟩ => exact rhsB_1 _ _

/-! ### the 128-to-384 product (the node rows through the state matrix) -/

theorem lhsC_0 (j : S2048x384.Idx) (k : dot_S2048x128_S128x384_S2048x384_1_0_0_1_n_n.contr.Idx) :
    (dot_S2048x128_S128x384_S2048x384_1_0_0_1_n_n.lhsIdx j k 0).val = (j 0).val := rfl
theorem lhsC_1 (j : S2048x384.Idx) (k : dot_S2048x128_S128x384_S2048x384_1_0_0_1_n_n.contr.Idx) :
    (dot_S2048x128_S128x384_S2048x384_1_0_0_1_n_n.lhsIdx j k 1).val = (k ⟨0, by decide⟩).val := rfl
theorem rhsC_0 (j : S2048x384.Idx) (k : dot_S2048x128_S128x384_S2048x384_1_0_0_1_n_n.contr.Idx) :
    (dot_S2048x128_S128x384_S2048x384_1_0_0_1_n_n.rhsIdx j k 0).val = (k ⟨0, by decide⟩).val := rfl
theorem rhsC_1 (j : S2048x384.Idx) (k : dot_S2048x128_S128x384_S2048x384_1_0_0_1_n_n.contr.Idx) :
    (dot_S2048x128_S128x384_S2048x384_1_0_0_1_n_n.rhsIdx j k 1).val = (j 1).val := rfl

/-- Into a zero accumulator the matrix unit's product at (p, q) is the sum over the contracted coordinate of row p of
    the left operand times column q of the right one. -/
theorem mmC {φ₁ φ₂ : FTy} (l : FVec Ideal S2048x128 φ₁) (r : FVec Ideal S128x384 φ₂) (p : Fin 2048) (q : Fin 384) :
    matmul dot_S2048x128_S128x384_S2048x384_1_0_0_1_n_n none l r (constant S2048x384 .f32 0x00000000#32) (ix2 p q)
      = ∑ k : Fin 128, l (ix2 p k) * r (ix2 k q) := by
  refine (Ideal.matmul_constant_zero_apply dot_S2048x128_S128x384_S2048x384_1_0_0_1_n_n none l r (ix2 p q)).trans ?_
  refine (Equiv.sum_comp (contrEquiv1 dot_S2048x128_S128x384_S2048x384_1_0_0_1_n_n 128 rfl rfl).symm _).symm.trans ?_
  refine Finset.sum_congr rfl fun k _ => ?_
  have hk := contrEquiv1_symm_val dot_S2048x128_S128x384_S2048x384_1_0_0_1_n_n 128 rfl rfl k
  congr 1
  · refine congrArg l (funext fun a => Fin.ext ?_)
    match a with
    | ⟨0, _⟩ => exact lhsC_0 _ _
    | ⟨1, _⟩ => exact (lhsC_1 _ _).trans hk
  · refine congrArg r (funext fun a => Fin.ext ?_)
    match a with
    | ⟨0, _⟩ => exact (rhsC_0 _ _).trans hk
    | ⟨1, _⟩ => exact rhsC_1 _ _

/-! ## The bias rows and the three column blocks -/

/-- The 256-column bias row read at every row. -/
theorem bias256 (v : S1x256.Idx → EReal) (p : Fin 2048) (j : Fin 256) :
    broadcastTo S2048x256 v broadcasts_S1x256_S2048x256 (ix2 p j) = v (ix2 (0 : Fin 1) j) :=
  broadcastTo_1b_ab_apply v _ p j

/-- The 384-column bias row read at every row. -/
theorem bias384 (v : S1x384.Idx → EReal) (p : Fin 2048) (j : Fin 384) :
    broadcastTo S2048x384 v broadcasts_S1x384_S2048x384 (ix2 p j) = v (ix2 (0 : Fin 1) j) :=
  broadcastTo_1b_ab_apply v _ p j

/-- Columns 0 … 127 of a 384-column block. -/
theorem cols0 (X : S2048x384.Idx → EReal) (p : Fin 2048) (q : Fin 128) :
    extractStridedSlice S2048x128 ![0, 0] X slices_S2048x384_o0_0_S2048x128 (ix2 p q) = X (ix2 p (blk0 q)) :=
  slice2_axis1_apply 0 X _ p q (blk0 q) (by show q.val = 0 + q.val; omega)

/-- Columns 128 … 255. -/
theorem cols1 (X : S2048x384.Idx → EReal) (p : Fin 2048) (q : Fin 128) :
    extractStridedSlice S2048x128 ![0, 128] X slices_S2048x384_o0_128_S2048x128 (ix2 p q) = X (ix2 p (blk1 q)) :=
  slice2_axis1_apply 128 X _ p q (blk1 q) rfl

/-- Columns 256 … 383. -/
theorem cols2 (X : S2048x384.Idx → EReal) (p : Fin 2048) (q : Fin 128) :
    extractStridedSlice S2048x128 ![0, 256] X slices_S2048x384_o0_256_S2048x128 (ix2 p q) = X (ix2 p (blk2 q)) :=
  slice2_axis1_apply 256 X _ p q (blk2 q) rfl

/-! ## The two gate functions at an index -/

/-- The logistic function of a block, at an index, is the logistic function of the entry. -/
theorem logistic_at {s : Shape} {φ : FTy} (v : FVec Ideal s φ) (i : s.Idx) : logistic v i = Ideal.logistic (v i) := rfl
/-- The hyperbolic tangent of a block, at an index, is that of the entry. -/
theorem tanh_at {s : Shape} {φ : FTy} (v : FVec Ideal s φ) (i : s.Idx) : tanh v i = Ideal.tanh (v i) := rfl

/-! ## The aggregated message and the cell at one grid point -/

/-- The message block at row p, column j: the summed source rows through the source matrix, the in-degree times the
    node's own projection, the summed edge features through the feature matrix. -/
theorem msg_apply (x xs ef : S2048x128.Idx → EReal) (Ws Wd Wf : S128x256.Idx → EReal) (bd : S1x256.Idx → EReal)
    (dg : S2048x256.Idx → EReal) (p : Fin 2048) (j : Fin 256) :
    (k1_pay4 (F := Ideal) x xs ef Ws Wd Wf bd dg) (ix2 p j)
      = (∑ k : Fin 128, xs (ix2 p k) * Ws (ix2 k j))
          + dg (ix2 p j) * ((∑ k : Fin 128, x (ix2 p k) * Wd (ix2 k j)) + bd (ix2 (0 : Fin 1) j))
          + ∑ k : Fin 128, ef (ix2 p k) * Wf (ix2 k j) := by
  unfold k1_pay4 k1_pay3 k1_pay2
  simp only [shapeCast_self, truncf_apply, addf_apply, mulf_apply, mmA, bias256]

/-- The stored block at row p, column q: the recurrent cell on row p of the node block `x`, fed row p of the message
    block `a`, with the transposed matrices `Wih`, `Whh` and the bias rows. -/
theorem cell_apply (x : S2048x128.Idx → EReal) (a : S2048x256.Idx → EReal) (Wih : S256x384.Idx → EReal)
    (Whh : S128x384.Idx → EReal) (bih bhh : S1x384.Idx → EReal) (p : Fin 2048) (q : Fin 128) :
    (k1_pay1 (F := Ideal) (k1_pay2 x) (k1_pay3 x) a (k1_pay5 Wih) (k1_pay6 Whh) bih bhh) (ix2 p q)
      = gru (cellOfT (m2 Wih) (m2 Whh) (m2row bih 0) (m2row bhh 0)) (fun k => x (ix2 p k)) (fun j => a (ix2 p j)) q := by
  unfold k1_pay1 k1_pay3 k1_pay2 k1_pay5 k1_pay6
  simp only [shapeCast_self, truncf_apply, addf_apply, mulf_apply, subf_apply, logistic_at, tanh_at, broadcast_apply,
    cols0, cols1, cols2, mmB, mmC, bias384]
  rfl

/-- The body's stored block at row p, column q, from the twelve input blocks: the recurrent cell on row p of the node
    block with the aggregated message of row p. -/
theorem pay_apply (xs x ef : S2048x128.Idx → EReal) (dg : S2048x256.Idx → EReal) (Ws Wd Wf : S128x256.Idx → EReal)
    (bd : S1x256.Idx → EReal) (Wih : S256x384.Idx → EReal) (Whh : S128x384.Idx → EReal) (bih bhh : S1x384.Idx → EReal)
    (p : Fin 2048) (q : Fin 128) :
    (k1_pay1 (F := Ideal) (k1_pay2 x) (k1_pay3 x) (k1_pay4 x xs ef Ws Wd Wf bd dg) (k1_pay5 Wih) (k1_pay6 Whh) bih bhh)
        (ix2 p q)
      = gru (cellOfT (m2 Wih) (m2 Whh) (m2row bih 0) (m2row bhh 0)) (fun k => x (ix2 p k))
          (fun j => (∑ k : Fin 128, xs (ix2 p k) * Ws (ix2 k j))
            + dg (ix2 p j) * ((∑ k : Fin 128, x (ix2 p k) * Wd (ix2 k j)) + bd (ix2 (0 : Fin 1) j))
            + ∑ k : Fin 128, ef (ix2 p k) * Wf (ix2 k j)) q :=
  (cell_apply x _ Wih Whh bih bhh p q).trans
    (congrArg (fun a => gru (cellOfT (m2 Wih) (m2 Whh) (m2row bih 0) (m2row bhh 0)) (fun k => x (ix2 p k)) a q)
      (funext fun j => msg_apply x xs ef Ws Wd Wf bd dg p j))

end Cert.KernelIdeal.KV.Step1

end
-- ==== Proof.KStep1.lean ====
/-
  Step region 1 of the kernel program: what its output array holds after the region, from the arrays the region
  finds (any entry contents `V`): row n of the output is the recurrent cell on row n of the operands.

  Grid point t handles rows 2048·t … 2048·t + 2047: the four row operands and the output are cut into blocks of 2048
  rows, the eight parameter operands are whole at every point. The stored block at (p, q) is the cell on row p of the
  node block with row p's aggregated message; read through the blocks this is the cell on row 2048·t + p of the
  arrays, so every point writes its block of ONE function of the arrays, and the 32 blocks cover the output.
-/
import proofs.«423165_j21801253994886_2_alg».proof.Proof.Gen.KernelIdeal.Frame
import proofs.«423165_j21801253994886_2_alg».proof.Proof.SpecK
import proofs.«423165_j21801253994886_2_alg».proof.Proof.KStep1Pay
import Idealize.ShloMosaic.Lib.Pipeline.Value

set_option maxRecDepth 16384

noncomputable section

namespace Cert.KernelIdeal.KV

open Idealize.ShloMosaic Idealize.ShloMosaic.TcCoe Idealize.ShloMosaic.ValueIdx Idealize.SL.Sem
open Cert.Gnn
open Cert.KernelIdeal Cert.KernelIdeal.Gen

variable (V : (c : Dev nD) → (b : Ref sig .tc) → Buf (Elt Ideal) ((c : Thread nD τ).loc b))

namespace Step1

theorem hz : (![0, 0] : Fin 2 → Nat) = fun _ => 0 := funext fun a => by fin_cases a <;> rfl

/-! ## Where each window's block sits -/

/-- The row operands (windows 0 to 3) and the output (window 12) sit at block index (t, 0) at point t. -/
theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_12.index t (0 : Fin 2) = t.val ∧ win1_12.index t (1 : Fin 2) = 0) :=
  (by decide +kernel : ∀ t : Fin grid1.N, _)

/-- The parameter operands (windows 4 to 11) sit at block index (0, 0) at every point. -/
theorem idx_whole : ∀ t : Fin cfg1.N,
    (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0) :=
  (by decide +kernel : ∀ t : Fin grid1.N, _)

/-- Row p of point t's blocks is row 2048·t + p of the arrays. -/
def row (t : Fin cfg1.N) (p : Fin 2048) : Fin 65536 :=
  ⟨2048 * t.val + p.val, by have h : t.val < 32 := lt_of_lt_of_eq t.isLt N_1; omega⟩

/-! ## The blocks read off the arrays -/

/-- Window 0's block at point t, row p, is row 2048·t + p of its array. -/
theorem rd0 (c : Dev nD) (t : Fin cfg1.N) (p : Fin 2048) (k : Fin 128) :
    (iblk1 (F := Ideal) V c 0 t : S2048x128.Idx → EReal) (ix2 p k) = (V c main_v84 : S65536x128.Idx → EReal) (ix2 (row t p) k) := by
  obtain ⟨h0, h1⟩ := (idx_rows t).1
  unfold iblk1
  rw [View.read_apply]
  show (V c main_v84 : S65536x128.Idx → EReal) _ = _
  congr 1
  funext a
  apply Fin.ext
  match a with
  | ⟨0, _⟩ => show win1_0.index t (0 : Fin 2) * 2048 + 1 * p.val = 2048 * t.val + p.val; rw [h0]; omega
  | ⟨1, _⟩ => show win1_0.index t (1 : Fin 2) * 128 + 1 * k.val = k.val; rw [h1]; omega

/-- Window 1's block at point t, row p, is row 2048·t + p of its array. -/
theorem rd1 (c : Dev nD) (t : Fin cfg1.N) (p : Fin 2048) (k : Fin 128) :
    (iblk1 (F := Ideal) V c 1 t : S2048x128.Idx → EReal) (ix2 p k) = (V c main_v50 : S65536x128.Idx → EReal) (ix2 (row t p) k) := by
  obtain ⟨h0, h1⟩ := (idx_rows t).2.1
  unfold iblk1
  rw [View.read_apply]
  show (V c main_v50 : S65536x128.Idx → EReal) _ = _
  congr 1
  funext a
  apply Fin.ext
  match a with
  | ⟨0, _⟩ => show win1_1.index t (0 : Fin 2) * 2048 + 1 * p.val = 2048 * t.val + p.val; rw [h0]; omega
  | ⟨1, _⟩ => show win1_1.index t (1 : Fin 2) * 128 + 1 * k.val = k.val; rw [h1]; omega

/-- Window 2's block at point t, row p, is row 2048·t + p of its array. -/
theorem rd2 (c : Dev nD) (t : Fin cfg1.N) (p : Fin 2048) (k : Fin 128) :
    (iblk1 (F := Ideal) V c 2 t : S2048x128.Idx → EReal) (ix2 p k) = (V c main_v8 : S65536x128.Idx → EReal) (ix2 (row t p) k) := by
  obtain ⟨h0, h1⟩ := (idx_rows t).2.2.1
  unfold iblk1
  rw [View.read_apply]
  show (V c main_v8 : S65536x128.Idx → EReal) _ = _
  congr 1
  funext a
  apply Fin.ext
  match a with
  | ⟨0, _⟩ => show win1_2.index t (0 : Fin 2) * 2048 + 1 * p.val = 2048 * t.val + p.val; rw [h0]; omega
  | ⟨1, _⟩ => show win1_2.index t (1 : Fin 2) * 128 + 1 * k.val = k.val; rw [h1]; omega

/-- Window 3's block at point t, row p, is row 2048·t + p of its array. -/
theorem rd3 (c : Dev nD) (t : Fin cfg1.N) (p : Fin 2048) (k : Fin 256) :
    (iblk1 (F := Ideal) V c 3 t : S2048x256.Idx → EReal) (ix2 p k) = (V c main_v14 : S65536x256.Idx → EReal) (ix2 (row t p) k) := by
  obtain ⟨h0, h1⟩ := (idx_rows t).2.2.2.1
  unfold iblk1
  rw [View.read_apply]
  show (V c main_v14 : S65536x256.Idx → EReal) _ = _
  congr 1
  funext a
  apply Fin.ext
  match a with
  | ⟨0, _⟩ => show win1_3.index t (0 : Fin 2) * 2048 + 1 * p.val = 2048 * t.val + p.val; rw [h0]; omega
  | ⟨1, _⟩ => show win1_3.index t (1 : Fin 2) * 256 + 1 * k.val = k.val; rw [h1]; omega

/-- Window 4's block at every point is its whole array. -/
theorem wh4 (c : Dev nD) (t : Fin cfg1.N) :
    (iblk1 (F := Ideal) V c 4 t : S128x256.Idx → EReal) = (V c main_v53 : S128x256.Idx → EReal) := by
  obtain ⟨h0, h1⟩ := (idx_whole t).1
  funext j
  unfold iblk1
  rw [View.read_apply]
  show (V c main_v53 : S128x256.Idx → EReal) _ = _
  congr 1
  funext a
  apply Fin.ext
  match a with
  | ⟨0, _⟩ => show win1_4.index t (0 : Fin 2) * 128 + 1 * (j 0).val = (j 0).val; rw [h0]; omega
  | ⟨1, _⟩ => show win1_4.index t (1 : Fin 2) * 256 + 1 * (j 1).val = (j 1).val; rw [h1]; omega

/-- Window 5's block at every point is its whole array. -/
theorem wh5 (c : Dev nD) (t : Fin cfg1.N) :
    (iblk1 (F := Ideal) V c 5 t : S128x256.Idx → EReal) = (V c main_v56 : S128x256.Idx → EReal) := by
  obtain ⟨h0, h1⟩ := (idx_whole t).2.1
  funext j
  unfold iblk1
  rw [View.read_apply]
  show (V c main_v56 : S128x256.Idx → EReal) _ = _
  congr 1
  funext a
  apply Fin.ext
  match a with
  | ⟨0, _⟩ => show win1_5.index t (0 : Fin 2) * 128 + 1 * (j 0).val = (j 0).val; rw [h0]; omega
  | ⟨1, _⟩ => show win1_5.index t (1 : Fin 2) * 256 + 1 * (j 1).val = (j 1).val; rw [h1]; omega

/-- Window 6's block at every point is its whole array. -/
theorem wh6 (c : Dev nD) (t : Fin cfg1.N) :
    (iblk1 (F := Ideal) V c 6 t : S128x256.Idx → EReal) = (V c main_v59 : S128x256.Idx → EReal) := by
  obtain ⟨h0, h1⟩ := (idx_whole t).2.2.1
  funext j
  unfold iblk1
  rw [View.read_apply]
  show (V c main_v59 : S128x256.Idx → EReal) _ = _
  congr 1
  funext a
  apply Fin.ext
  match a with
  | ⟨0, _⟩ => show win1_6.index t (0 : Fin 2) * 128 + 1 * (j 0).val = (j 0).val; rw [h0]; omega
  | ⟨1, _⟩ => show win1_6.index t (1 : Fin 2) * 256 + 1 * (j 1).val = (j 1).val; rw [h1]; omega

/-- Window 7's block at every point is its whole array. -/
theorem wh7 (c : Dev nD) (t : Fin cfg1.N) :
    (iblk1 (F := Ideal) V c 7 t : S1x256.Idx → EReal) = (V c main_v68 : S1x256.Idx → EReal) := by
  obtain ⟨h0, h1⟩ := (idx_whole t).2.2.2.1
  funext j
  unfold iblk1
  rw [View.read_apply]
  show (V c main_v68 : S1x256.Idx → EReal) _ = _
  congr 1
  funext a
  apply Fin.ext
  match a with
  | ⟨0, _⟩ => show win1_7.index t (0 : Fin 2) * 1 + 1 * (j 0).val = (j 0).val; rw [h0]; omega
  | ⟨1, _⟩ => show win1_7.index t (1 : Fin 2) * 256 + 1 * (j 1).val = (j 1).val; rw [h1]; omega

/-- Window 8's block at every point is its whole array. -/
theorem wh8 (c : Dev nD) (t : Fin cfg1.N) :
    (iblk1 (F := Ideal) V c 8 t : S256x384.Idx → EReal) = (V c main_v62 : S256x384.Idx → EReal) := by
  obtain ⟨h0, h1⟩ := (idx_whole t).2.2.2.2.1
  funext j
  unfold iblk1
  rw [View.read_apply]
  show (V c main_v62 : S256x384.Idx → EReal) _ = _
  congr 1
  funext a
  apply Fin.ext
  match a with
  | ⟨0, _⟩ => show win1_8.index t (0 : Fin 2) * 256 + 1 * (j 0).val = (j 0).val; rw [h0]; omega
  | ⟨1, _⟩ => show win1_8.index t (1 : Fin 2) * 384 + 1 * (j 1).val = (j 1).val; rw [h1]; omega

/-- Window 9's block at every point is its whole array. -/
theorem wh9 (c : Dev nD) (t : Fin cfg1.N) :
    (iblk1 (F := Ideal) V c 9 t : S128x384.Idx → EReal) = (V c main_v65 : S128x384.Idx → EReal) := by
  obtain ⟨h0, h1⟩ := (idx_whole t).2.2.2.2.2.1
  funext j
  unfold iblk1
  rw [View.read_apply]
  show (V c main_v65 : S128x384.Idx → EReal) _ = _
  congr 1
  funext a
  apply Fin.ext
  match a with
  | ⟨0, _⟩ => show win1_9.index t (0 : Fin 2) * 128 + 1 * (j 0).val = (j 0).val; rw [h0]; omega
  | ⟨1, _⟩ => show win1_9.index t (1 : Fin 2) * 384 + 1 * (j 1).val = (j 1).val; rw [h1]; omega

/-- Window 10's block at every point is its whole array. -/
theorem wh10 (c : Dev nD) (t : Fin cfg1.N) :
    (iblk1 (F := Ideal) V c 10 t : S1x384.Idx → EReal) = (V c main_v71 : S1x384.Idx → EReal) := by
  obtain ⟨h0, h1⟩ := (idx_whole t).2.2.2.2.2.2.1
  funext j
  unfold iblk1
  rw [View.read_apply]
  show (V c main_v71 : S1x384.Idx → EReal) _ = _
  congr 1
  funext a
  apply Fin.ext
  match a with
  | ⟨0, _⟩ => show win1_10.index t (0 : Fin 2) * 1 + 1 * (j 0).val = (j 0).val; rw [h0]; omega
  | ⟨1, _⟩ => show win1_10.index t (1 : Fin 2) * 384 + 1 * (j 1).val = (j 1).val; rw [h1]; omega

/-- Window 11's block at every point is its whole array. -/
theorem wh11 (c : Dev nD) (t : Fin cfg1.N) :
    (iblk1 (F := Ideal) V c 11 t : S1x384.Idx → EReal) = (V c main_v74 : S1x384.Idx → EReal) := by
  obtain ⟨h0, h1⟩ := (idx_whole t).2.2.2.2.2.2.2
  funext j
  unfold iblk1
  rw [View.read_apply]
  show (V c main_v74 : S1x384.Idx → EReal) _ = _
  congr 1
  funext a
  apply Fin.ext
  match a with
  | ⟨0, _⟩ => show win1_11.index t (0 : Fin 2) * 1 + 1 * (j 0).val = (j 0).val; rw [h0]; omega
  | ⟨1, _⟩ => show win1_11.index t (1 : Fin 2) * 384 + 1 * (j 1).val = (j 1).val; rw [h1]; omega

/-- The output window's block at point t, at (p, q), is the array's index (2048·t + p, q). -/
theorem emb12 (t : Fin cfg1.N) (p : Fin 2048) (q : Fin 128) :
    ((cfg1.win 12).blk t).view.emb (ix2 p q) = (ix2 (row t p) q : S65536x128.Idx) := by
  obtain ⟨h0, h1⟩ := (idx_rows t).2.2.2.2
  funext a
  apply Fin.ext
  match a with
  | ⟨0, _⟩ => show win1_12.index t (0 : Fin 2) * 2048 + 1 * p.val = 2048 * t.val + p.val; rw [h0]; omega
  | ⟨1, _⟩ => show win1_12.index t (1 : Fin 2) * 128 + 1 * q.val = q.val; rw [h1]; omega

/-! ## Every point writes its block of one function of the arrays -/

/-- The output array as ONE function of the twelve operand arrays: the recurrent cell, row by row. -/
abbrev G (c : Dev nD) : S65536x128.Idx → EReal := fun i =>
  stepBody (m2 (V c main_v84 : S65536x128.Idx → EReal)) (m2 (V c main_v50 : S65536x128.Idx → EReal))
    (m2 (V c main_v8 : S65536x128.Idx → EReal)) (m2 (V c main_v14 : S65536x256.Idx → EReal))
    (m2 (V c main_v53 : S128x256.Idx → EReal)) (m2 (V c main_v56 : S128x256.Idx → EReal))
    (m2 (V c main_v59 : S128x256.Idx → EReal)) (m2row (V c main_v68 : S1x256.Idx → EReal) 0)
    (m2 (V c main_v62 : S256x384.Idx → EReal)) (m2 (V c main_v65 : S128x384.Idx → EReal))
    (m2row (V c main_v71 : S1x384.Idx → EReal) 0) (m2row (V c main_v74 : S1x384.Idx → EReal) 0) (i 0) (i 1)

/-- Two blocks of 2048 rows and 128 columns that agree at every (p, q) are equal. -/
theorem blockext (B B' : S2048x128.Idx → EReal) (h : ∀ (p : Fin 2048) (q : Fin 128), B (ix2 p q) = B' (ix2 p q)) :
    B = B' := funext fun j => by rw [eq_ix2 j]; exact h _ _

/-- What point t writes back is block t of `G`. -/
theorem flushed_eq (c : Dev nD) (t : Fin cfg1.N) :
    (dat1 (F := Ideal) V c).flushed 12 t = ((cfg1.win 12).blk t).view.read (Elt Ideal) (G V c) := by
  show (cfg1.win 12).cut (grid1.coords t) ((dat1 (F := Ideal) V c).after 12 t) = _
  rw [after1_12]
  unfold out1_12
  rw [View.canon_unit_zero hz]
  simp only [View.ld_unit_zero (S := S2048x128) hz, View.ld_unit_zero (S := S128x256) hz,
    View.ld_unit_zero (S := S1x256) hz, View.ld_unit_zero (S := S2048x256) hz, View.ld_unit_zero (S := S256x384) hz,
    View.ld_unit_zero (S := S128x384) hz, View.ld_unit_zero (S := S1x384) hz]
  refine blockext _ _ fun p q => ?_
  refine (Step1.pay_apply (iblk1 (F := Ideal) V c 0 t) (iblk1 (F := Ideal) V c 1 t) (iblk1 (F := Ideal) V c 2 t)
    (iblk1 (F := Ideal) V c 3 t) (iblk1 (F := Ideal) V c 4 t) (iblk1 (F := Ideal) V c 5 t) (iblk1 (F := Ideal) V c 6 t)
    (iblk1 (F := Ideal) V c 7 t) (iblk1 (F := Ideal) V c 8 t) (iblk1 (F := Ideal) V c 9 t) (iblk1 (F := Ideal) V c 10 t)
    (iblk1 (F := Ideal) V c 11 t) p q).trans ?_
  rw [View.read_apply, emb12 t p q]
  show _ = G V c (ix2 (row t p) q)
  rw [wh4 V c t, wh5 V c t, wh6 V c t, wh7 V c t, wh8 V c t, wh9 V c t, wh10 V c t, wh11 V c t]
  simp only [rd0 V c t p, rd1 V c t p, rd2 V c t p, rd3 V c t p]
  rfl

/-! ## The 32 blocks cover the output -/

/-- Row r of the output is in the block of point r / 2048. -/
theorem cover (i : S65536x128.Idx) :
    ∃ t : Fin cfg1.N, (cfg1.win 12).flush t = true ∧ i ∈ ((cfg1.win 12).blk t).view.set := by
  have h0 : (i 0).val < 65536 := idx2_lt0 i
  have h1 : (i 1).val < 128 := idx2_lt1 i
  obtain ⟨t, ht⟩ : ∃ t : Fin cfg1.N, t.val = (i 0).val / 2048 :=
    ⟨⟨(i 0).val / 2048, lt_of_lt_of_eq (by omega : (i 0).val / 2048 < 32) N_1.symm⟩, rfl⟩
  obtain ⟨e0, e1⟩ := (idx_rows t).2.2.2.2
  refine ⟨t, flush1_12 t, ?_⟩
  show i ∈ ((View.whole main_v85).slice (win1_12.rect t)).set
  rw [View.set_slice_whole, Rect.mem_set_unit]
  intro a
  match a with
  | ⟨0, _⟩ =>
    show win1_12.index t (0 : Fin 2) * 2048 ≤ (i 0).val ∧ (i 0).val < win1_12.index t (0 : Fin 2) * 2048 + 2048
    rw [e0, ht]; omega
  | ⟨1, _⟩ =>
    show win1_12.index t (1 : Fin 2) * 128 ≤ (i 1).val ∧ (i 1).val < win1_12.index t (1 : Fin 2) * 128 + 128
    rw [e1]; omega

/-- The output array after the region is `G`. -/
theorem final (c : Dev nD) : (dat1 (F := Ideal) V c).arrAt 12 cfg1.N = G V c :=
  (dat1 (F := Ideal) V c).arrAt_eq_of_cover 12 (G V c) (fun t _ => flushed_eq V c t) cover

end Step1

/-- The output array of step region 1 after the region, at node `n`, feature `s`. -/
theorem region1_out (c : Dev nD) (n : Fin 65536) (s : Fin 128) :
    ((dat1 (F := Ideal) V c).arrAt 12 cfg1.N : S65536x128.Idx → EReal) (ix2 n s)
      = stepBody (m2 (V c main_v84 : S65536x128.Idx → EReal)) (m2 (V c main_v50 : S65536x128.Idx → EReal))
          (m2 (V c main_v8 : S65536x128.Idx → EReal)) (m2 (V c main_v14 : S65536x256.Idx → EReal))
          (m2 (V c main_v53 : S128x256.Idx → EReal)) (m2 (V c main_v56 : S128x256.Idx → EReal))
          (m2 (V c main_v59 : S128x256.Idx → EReal)) (m2row (V c main_v68 : S1x256.Idx → EReal) 0)
          (m2 (V c main_v62 : S256x384.Idx → EReal)) (m2 (V c main_v65 : S128x384.Idx → EReal))
          (m2row (V c main_v71 : S1x384.Idx → EReal) 0) (m2row (V c main_v74 : S1x384.Idx → EReal) 0) n s := by
  exact congrFun (Step1.final V c) (ix2 n s)

end Cert.KernelIdeal.KV

end
-- ==== Proof.KN2Cell.lean ====
/-
  The step region's row is the recurrent cell on the aggregated message.

  When the step region's operands are the summed source rows, the summed edge features, the in-degree spread over 256
  columns and the step's matrices transposed, the message it forms at a node is `aggK` (the three sums are the three
  terms, the middle one the in-degree times the node's own projection), and its output row is `gru` of the node's row
  and that message: the cell read through the transposed matrices is the cell of the step's parameters.
-/
import proofs.«423165_j21801253994886_2_alg».proof.Proof.SpecK

noncomputable section

namespace Cert.KernelIdeal.KV.N2

open Idealize.ShloMosaic Cert.Gnn

/-- The message the step region forms is the aggregated message multiplied after the sums. -/
theorem stepMsg_eq_aggK (p : StepParams) (g : Graph) (x scat efagg : Fin 65536 → Fin 128 → EReal)
    (degb : Fin 65536 → Fin 256 → EReal) (WsrcT WdestT WfeatT : Fin 128 → Fin 256 → EReal) (bdest : Fin 256 → EReal)
    (hscat : ∀ n k, scat n k = segSum g.dst n (fun e => x (rowOf (g.src e)) k))
    (hef : ∀ n k, efagg n k = segSum g.dst n (fun e => g.ef e k))
    (hdeg : ∀ n j, degb n j = segSum g.dst n (fun _ => one))
    (hWsrc : ∀ k j, WsrcT k j = p.Wsrc j k) (hWdest : ∀ k j, WdestT k j = p.Wdest j k)
    (hWfeat : ∀ k j, WfeatT k j = p.Wfeat j k) (hbdest : ∀ j, bdest j = p.bdest j) (n : Fin 65536) (j : Fin 256) :
    stepMsg scat x efagg degb WsrcT WdestT WfeatT bdest n j = aggK p g x n j := by
  unfold stepMsg aggK destT
  simp only [hscat, hef, hdeg, hWsrc, hWdest, hWfeat, hbdest]

/-- The step region's output row is the recurrent cell of the step's parameters on the node's row and `aggK`. -/
theorem stepBody_eq_gru (p : StepParams) (g : Graph) (x scat efagg : Fin 65536 → Fin 128 → EReal)
    (degb : Fin 65536 → Fin 256 → EReal) (WsrcT WdestT WfeatT : Fin 128 → Fin 256 → EReal) (bdest : Fin 256 → EReal)
    (WihT : Fin 256 → Fin 384 → EReal) (WhhT : Fin 128 → Fin 384 → EReal) (bih bhh : Fin 384 → EReal)
    (hscat : ∀ n k, scat n k = segSum g.dst n (fun e => x (rowOf (g.src e)) k))
    (hef : ∀ n k, efagg n k = segSum g.dst n (fun e => g.ef e k))
    (hdeg : ∀ n j, degb n j = segSum g.dst n (fun _ => one))
    (hWsrc : ∀ k j, WsrcT k j = p.Wsrc j k) (hWdest : ∀ k j, WdestT k j = p.Wdest j k)
    (hWfeat : ∀ k j, WfeatT k j = p.Wfeat j k) (hbdest : ∀ j, bdest j = p.bdest j)
    (hWih : ∀ k j, WihT k j = p.Wih j k) (hWhh : ∀ k j, WhhT k j = p.Whh j k)
    (hbih : ∀ j, bih j = p.bih j) (hbhh : ∀ j, bhh j = p.bhh j) (n : Fin 65536) (s : Fin 128) :
    stepBody scat x efagg degb WsrcT WdestT WfeatT bdest WihT WhhT bih bhh n s = gru p (x n) (aggK p g x n) s := by
  have hm : stepMsg scat x efagg degb WsrcT WdestT WfeatT bdest n = aggK p g x n :=
    funext fun j => stepMsg_eq_aggK p g x scat efagg degb WsrcT WdestT WfeatT bdest hscat hef hdeg hWsrc hWdest hWfeat hbdest n j
  unfold stepBody
  rw [hm]
  unfold gru cellOfT
  simp only [hWih, hWhh, hbih, hbhh]

end Cert.KernelIdeal.KV.N2

end
-- ==== Proof.KN2Host.lean ====
/-
  The host operations around the second step region, read at an index.

  From any buffer contents `V` the stretch between the two step regions leaves: in each matrix buffer the second layer of a stacked parameter array,
  transposed (entry (k, j) is entry (1, j, k) of the argument); in each bias buffer the second row of a stacked bias
  array as a one-row matrix; and in the scatter's result, at (n, k), the sum over the edges whose destination word read
  signed is n of column k of the node row their wrapped and clamped source word names — the rows being those of the
  node table `V` holds. The first stretch leaves a mask column that is set at node n exactly when the node's owner word is a
  graph number (two signed compares and their conjunction), and the stretch after the second step region chooses, row by
  row, the region's output where that column is set and the old row elsewhere.
-/
import proofs.«423165_j21801253994886_2_alg».proof.Proof.Gen.KernelIdeal.Launch
import proofs.«423165_j21801253994886_2_alg».proof.Proof.LibScatter
import proofs.«423165_j21801253994886_2_alg».proof.Proof.Spec
import Idealize.ShloMosaic.Lib.StableHlo.Run
import Idealize.ShloMosaic.Lib.ValueLayout
import Idealize.ShloMosaic.Lib.Pipeline.Value
import Idealize.ShloMosaic.Lib.IdealHost

set_option maxRecDepth 16384

noncomputable section

namespace Cert.KernelIdeal.KV.N2

open Idealize.ShloMosaic Idealize.ShloMosaic.TcCoe Idealize.ShloMosaic.ValueIdx Idealize.SL.Sem
open Cert.Gnn
open Cert.KernelIdeal Cert.KernelIdeal.Gen

/-! ## Layout operations at an index -/

/-- The slice that keeps one layer `o` of a stack, read at (u, i, j): the stack at (o, i, j). -/
theorem slice3_layer_apply {α : Type} {n0 n1 n2 : Nat} (o : Nat) (X : (⟨3, ![n0, n1, n2]⟩ : Shape).Idx → α)
    (h : (⟨3, ![n0, n1, n2]⟩ : Shape).Slices ![o, 0, 0] ⟨3, ![1, n1, n2]⟩) (u : Fin 1) (i : Fin n1) (j : Fin n2)
    (l : Fin n0) (hl : l.val = o) :
    extractStridedSlice ⟨3, ![1, n1, n2]⟩ ![o, 0, 0] X h (ix3 u i j) = X (ix3 l i j) :=
  extractStridedSlice_apply _ X h (ix3 u i j) (ix3 l i j) fun a => match a with
    | ⟨0, _⟩ => by show l.val = o + u.val; omega
    | ⟨1, _⟩ => by show i.val = 0 + i.val; omega
    | ⟨2, _⟩ => by show j.val = 0 + j.val; omega

/-- Layer 1 of a stack of two matrices, as a matrix, transposed: entry (k, j) is the stack at (1, j, k). -/
theorem layer1T_apply {α : Type} {a b : Nat} (X : (⟨3, ![2, a, b]⟩ : Shape).Idx → α)
    (hs : (⟨3, ![2, a, b]⟩ : Shape).Slices ![1, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) (k : Fin b) (j : Fin a) :
    transpose ⟨2, ![b, a]⟩ [1, 0] (shapeCast ⟨2, ![a, b]⟩ (extractStridedSlice ⟨3, ![1, a, b]⟩ ![1, 0, 0] X hs) hc) ht (ix2 k j)
      = X (ix3 1 j k) := by
  rw [transpose_ix2_apply, shapeCast_1ab_ab_apply]
  exact slice3_layer_apply 1 X hs 0 j k 1 rfl

/-- Row 1 of a stack of two vectors, flattened and made a one-row matrix: entry (u, j) is the stack at (1, j). -/
theorem row1_apply {α : Type} {a : Nat} (X : (⟨2, ![2, a]⟩ : Shape).Idx → α)
    (hs : (⟨2, ![2, a]⟩ : Shape).Slices ![1, 0] ⟨2, ![1, a]⟩)
    (hc1 : (⟨2, ![1, a]⟩ : Shape).ShapeCasts ⟨1, ![a]⟩) (hc2 : (⟨1, ![a]⟩ : Shape).ShapeCasts ⟨2, ![1, a]⟩)
    (u : Fin 1) (j : Fin a) :
    shapeCast ⟨2, ![1, a]⟩ (shapeCast ⟨1, ![a]⟩ (extractStridedSlice ⟨2, ![1, a]⟩ ![1, 0] X hs) hc1) hc2 (ix2 u j)
      = X (ix2 1 j) := by
  rw [shapeCast_a_1a_apply, shapeCast_1a_a_apply]
  exact slice2_axis0_apply 1 X hs 0 j 1 rfl

/-- A vector made a column, read at (e, u): the vector at e. -/
theorem column_apply {α : Type} {n : Nat} (h : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] h v (ix2 e u) = v (ix1 e) :=
  broadcastInDim_apply _ h v (ix2 e u) (ix1 e) fun a => match a with
    | ⟨0, _⟩ => by
      show e.val = if n = 1 then 0 else e.val
      split
      · have := e.isLt; omega
      · rfl

/-! ## The wrapped source word -/

/-- "If the word is negative add 65536, else keep it" is the wrap of array indexing. -/
theorem select_wrap (v : BitVec 32) :
    Scalar.select (IntOp.cmpi .slt v 0#32) (IntOp.addi v 65536#32) v = wrap 65536 v := by
  have h0 : (0#32 : BitVec 32).toInt = 0 := by decide
  show (if BitVec.ofBool (v.slt 0#32) = 1#1 then v + 65536#32 else v)
    = if v.toInt < 0 then v + BitVec.ofNat 32 65536 else v
  by_cases h : v.toInt < 0
  · have hb : v.slt 0#32 = true := by rw [BitVec.slt, h0]; exact decide_eq_true h
    rw [hb, if_pos h, if_pos (by decide)]
  · have hb : v.slt 0#32 = false := by rw [BitVec.slt, h0]; exact decide_eq_false h
    rw [hb, if_neg h, if_neg (by decide)]

/-! ## The segment sum of the gathered rows -/

/-- The printed scatter and gather records are the row scatter and the row gather at the literal sizes. -/
theorem scatterDims_eq : scatter_S65536x128_S655360x1_S655360x128_1_0_0_1
    = Cert.Gcn.rowScatterDims 65536 655360 128 scatter_S65536x128_S655360x1_S655360x128_1_0_0_1_wf := rfl
theorem gatherDims_eq : gather_S65536x128_S655360x1_S655360x128_1_0_n_n_0_1_1128
    = Cert.Gcn.rowGatherDims 65536 655360 128 gather_S65536x128_S655360x1_S655360x128_1_0_n_n_0_1_1128_wf := rfl

/-- The printed row scatter-add at (n, k): the operand there plus column k of the update rows whose index word, read
    signed, is n. -/
theorem scatterAdd_apply (x0 : FVec Ideal S65536x128 .f32) (idx : IVec S655360x1 32) (upd : FVec Ideal S655360x128 .f32)
    (n : Fin 65536) (k : Fin 128) :
    Host.scatterAdd (F := Ideal) scatter_S65536x128_S655360x1_S655360x128_1_0_0_1 x0 idx upd (ix2 n k)
      = x0 (ix2 n k) + ∑ e ∈ Finset.univ.filter (fun e : Fin 655360 => (idx (ix2 e (0 : Fin 1))).toInt = (n.val : Int)),
          upd (ix2 e k) := by
  unfold Host.scatterAdd
  rw [Ideal.hostScatterAdd_def, scatterDims_eq, Cert.Gcn.scatterAddRows_apply]

/-- The printed row gather at (e, k): the operand's row named by the index word at (e, 0), read signed and clamped. -/
theorem gather_apply (x : FVec Ideal S65536x128 .f32) (idx : IVec S655360x1 32) (e : Fin 655360) (k : Fin 128) :
    Host.gather gather_S65536x128_S655360x1_S655360x128_1_0_n_n_0_1_1128 x idx (ix2 e k)
      = x (ix2 (Cert.Gcn.crow 65536 (by norm_num) (idx (ix2 e (0 : Fin 1)))) k) := by
  rw [gatherDims_eq, Cert.Gcn.gatherRows_apply (by norm_num)]

/-- The scatter-add, onto zeros and along the destination words, of the rows gathered at the wrapped source words: at
    (n, k) the sum over the edges that end at n of column k of the row the edge's source word names. -/
theorem segsum_gather_apply (x : FVec Ideal S65536x128 .f32) (src dst : S655360.Idx → BitVec 32) (n : Fin 65536) (k : Fin 128) :
    Host.scatterAdd (F := Ideal) scatter_S65536x128_S655360x1_S655360x128_1_0_0_1
      (broadcastInDim S65536x128 ![] bcast_S_S65536x128 (constant (F := Ideal) S_ .f32 0x00000000#32))
      (broadcastInDim S655360x1 ![0] bcast_S655360_S655360x1_0 dst)
      (Host.gather gather_S65536x128_S655360x1_S655360x128_1_0_n_n_0_1_1128 x
        (broadcastInDim S655360x1 ![0] bcast_S655360_S655360x1_0
          (select (cmpi .slt src (broadcastInDim S655360 ![] bcast_S_S655360 (constantI S_ 32 0#32)))
            (addi src (broadcastInDim S655360 ![] bcast_S_S655360 (constantI S_ 32 65536#32))) src))) (ix2 n k)
      = segSum (m1 dst) n (fun e => x (ix2 (rowOf (src (ix1 e))) k)) := by
  refine (scatterAdd_apply _ _ _ n k).trans ?_
  have hz : broadcastInDim S65536x128 ![] bcast_S_S65536x128 (constant (F := Ideal) S_ .f32 0x00000000#32) (ix2 n k) = 0 := by
    rw [broadcastInDim_scalar_apply, constant_apply, Ideal.ofBits_zero_f32]
  rw [hz, zero_add]
  unfold segSum
  have hidx : ∀ e : Fin 655360,
      broadcastInDim S655360x1 ![0] bcast_S655360_S655360x1_0 dst (ix2 e (0 : Fin 1)) = dst (ix1 e) :=
    fun e => column_apply _ dst e 0
  have hf : (Finset.univ.filter fun e : Fin 655360 =>
        (broadcastInDim S655360x1 ![0] bcast_S655360_S655360x1_0 dst (ix2 e (0 : Fin 1))).toInt = (n.val : Int))
      = Finset.univ.filter fun e : Fin 655360 => (m1 dst e).toInt = (n.val : Int) :=
    Finset.filter_congr fun e _ => by rw [hidx e]
  rw [hf]
  refine Finset.sum_congr rfl fun e _ => ?_
  refine (gather_apply x _ e k).trans ?_
  rw [column_apply]
  show x (ix2 (Cert.Gcn.crow 65536 _ (Scalar.select (IntOp.cmpi .slt (src (ix1 e)) 0#32)
    (IntOp.addi (src (ix1 e)) 65536#32) (src (ix1 e)))) k) = _
  rw [select_wrap]
  rfl

/-! ## The stretch -/

variable (V : Valuation τ sig (Elt Ideal))

/-- The buffer contents after the stretch between the two step regions. -/
abbrev H : Valuation τ sig (Elt Ideal) := StableHlo.after (hostOps1_1 (F := Ideal)) V

theorem v53_eq :
    (H V (Proc.devRef .tc main_v53) : S128x256.Idx → EReal)
      = transpose S128x256 [1, 0] (shapeCast S256x128 (extractStridedSlice S1x256x128 ![1, 0, 0]
          (V (Proc.devRef .tc main_arg2) : S2x256x128.Idx → EReal) slices_S2x256x128_S1x256x128_1_0_0)
          shapeCasts_S1x256x128_S256x128) transposes_S256x128_S128x256_1_0 := by
  after_results
  rfl

/-- The source projection's buffer: entry (k, j) is the stacked argument at (1, j, k). -/
theorem v53_apply (k : Fin 128) (j : Fin 256) :
    (H V (Proc.devRef .tc main_v53) : S128x256.Idx → EReal) (ix2 k j)
      = (V (Proc.devRef .tc main_arg2) : S2x256x128.Idx → EReal) (ix3 1 j k) :=
  (congrFun (v53_eq V) (ix2 k j)).trans (layer1T_apply _ _ _ _ k j)

theorem v56_eq :
    (H V (Proc.devRef .tc main_v56) : S128x256.Idx → EReal)
      = transpose S128x256 [1, 0] (shapeCast S256x128 (extractStridedSlice S1x256x128 ![1, 0, 0]
          (V (Proc.devRef .tc main_arg3) : S2x256x128.Idx → EReal) slices_S2x256x128_S1x256x128_1_0_0)
          shapeCasts_S1x256x128_S256x128) transposes_S256x128_S128x256_1_0 := by
  after_results
  rfl

/-- The destination projection's buffer: entry (k, j) is the stacked argument at (1, j, k). -/
theorem v56_apply (k : Fin 128) (j : Fin 256) :
    (H V (Proc.devRef .tc main_v56) : S128x256.Idx → EReal) (ix2 k j)
      = (V (Proc.devRef .tc main_arg3) : S2x256x128.Idx → EReal) (ix3 1 j k) :=
  (congrFun (v56_eq V) (ix2 k j)).trans (layer1T_apply _ _ _ _ k j)

theorem v59_eq :
    (H V (Proc.devRef .tc main_v59) : S128x256.Idx → EReal)
      = transpose S128x256 [1, 0] (shapeCast S256x128 (extractStridedSlice S1x256x128 ![1, 0, 0]
          (V (Proc.devRef .tc main_arg5) : S2x256x128.Idx → EReal) slices_S2x256x128_S1x256x128_1_0_0)
          shapeCasts_S1x256x128_S256x128) transposes_S256x128_S128x256_1_0 := by
  after_results
  rfl

/-- The edge-feature projection's buffer: entry (k, j) is the stacked argument at (1, j, k). -/
theorem v59_apply (k : Fin 128) (j : Fin 256) :
    (H V (Proc.devRef .tc main_v59) : S128x256.Idx → EReal) (ix2 k j)
      = (V (Proc.devRef .tc main_arg5) : S2x256x128.Idx → EReal) (ix3 1 j k) :=
  (congrFun (v59_eq V) (ix2 k j)).trans (layer1T_apply _ _ _ _ k j)

theorem v62_eq :
    (H V (Proc.devRef .tc main_v62) : S256x384.Idx → EReal)
      = transpose S256x384 [1, 0] (shapeCast S384x256 (extractStridedSlice S1x384x256 ![1, 0, 0]
          (V (Proc.devRef .tc main_arg6) : S2x384x256.Idx → EReal) slices_S2x384x256_S1x384x256_1_0_0)
          shapeCasts_S1x384x256_S384x256) transposes_S384x256_S256x384_1_0 := by
  after_results
  rfl

/-- The cell's input matrix buffer: entry (k, j) is the stacked argument at (1, j, k). -/
theorem v62_apply (k : Fin 256) (j : Fin 384) :
    (H V (Proc.devRef .tc main_v62) : S256x384.Idx → EReal) (ix2 k j)
      = (V (Proc.devRef .tc main_arg6) : S2x384x256.Idx → EReal) (ix3 1 j k) :=
  (congrFun (v62_eq V) (ix2 k j)).trans (layer1T_apply _ _ _ _ k j)

theorem v65_eq :
    (H V (Proc.devRef .tc main_v65) : S128x384.Idx → EReal)
      = transpose S128x384 [1, 0] (shapeCast S384x128 (extractStridedSlice S1x384x128 ![1, 0, 0]
          (V (Proc.devRef .tc main_arg7) : S2x384x128.Idx → EReal) slices_S2x384x128_S1x384x128_1_0_0)
          shapeCasts_S1x384x128_S384x128) transposes_S384x128_S128x384_1_0 := by
  after_results
  rfl

/-- The cell's state matrix buffer: entry (k, j) is the stacked argument at (1, j, k). -/
theorem v65_apply (k : Fin 128) (j : Fin 384) :
    (H V (Proc.devRef .tc main_v65) : S128x384.Idx → EReal) (ix2 k j)
      = (V (Proc.devRef .tc main_arg7) : S2x384x128.Idx → EReal) (ix3 1 j k) :=
  (congrFun (v65_eq V) (ix2 k j)).trans (layer1T_apply _ _ _ _ k j)

theorem v68_eq :
    (H V (Proc.devRef .tc main_v68) : S1x256.Idx → EReal)
      = shapeCast S1x256 (shapeCast S256 (extractStridedSlice S1x256 ![1, 0]
          (V (Proc.devRef .tc main_arg4) : S2x256.Idx → EReal) slices_S2x256_S1x256_1_0)
          shapeCasts_S1x256_S256) shapeCasts_S256_S1x256 := by
  after_results
  rfl

/-- The destination bias buffer, a one-row matrix: entry (u, j) is the stacked argument at (1, j). -/
theorem v68_apply (u : Fin 1) (j : Fin 256) :
    (H V (Proc.devRef .tc main_v68) : S1x256.Idx → EReal) (ix2 u j)
      = (V (Proc.devRef .tc main_arg4) : S2x256.Idx → EReal) (ix2 1 j) :=
  (congrFun (v68_eq V) (ix2 u j)).trans (row1_apply _ _ _ _ u j)

theorem v71_eq :
    (H V (Proc.devRef .tc main_v71) : S1x384.Idx → EReal)
      = shapeCast S1x384 (shapeCast S384 (extractStridedSlice S1x384 ![1, 0]
          (V (Proc.devRef .tc main_arg8) : S2x384.Idx → EReal) slices_S2x384_S1x384_1_0)
          shapeCasts_S1x384_S384) shapeCasts_S384_S1x384 := by
  after_results
  rfl

/-- The cell's input bias buffer, a one-row matrix: entry (u, j) is the stacked argument at (1, j). -/
theorem v71_apply (u : Fin 1) (j : Fin 384) :
    (H V (Proc.devRef .tc main_v71) : S1x384.Idx → EReal) (ix2 u j)
      = (V (Proc.devRef .tc main_arg8) : S2x384.Idx → EReal) (ix2 1 j) :=
  (congrFun (v71_eq V) (ix2 u j)).trans (row1_apply _ _ _ _ u j)

theorem v74_eq :
    (H V (Proc.devRef .tc main_v74) : S1x384.Idx → EReal)
      = shapeCast S1x384 (shapeCast S384 (extractStridedSlice S1x384 ![1, 0]
          (V (Proc.devRef .tc main_arg9) : S2x384.Idx → EReal) slices_S2x384_S1x384_1_0)
          shapeCasts_S1x384_S384) shapeCasts_S384_S1x384 := by
  after_results
  rfl

/-- The cell's state bias buffer, a one-row matrix: entry (u, j) is the stacked argument at (1, j). -/
theorem v74_apply (u : Fin 1) (j : Fin 384) :
    (H V (Proc.devRef .tc main_v74) : S1x384.Idx → EReal) (ix2 u j)
      = (V (Proc.devRef .tc main_arg9) : S2x384.Idx → EReal) (ix2 1 j) :=
  (congrFun (v74_eq V) (ix2 u j)).trans (row1_apply _ _ _ _ u j)

set_option maxHeartbeats 4000000 in
theorem v84_eq :
    (H V (Proc.devRef .tc main_v84) : S65536x128.Idx → EReal)
      = Host.scatterAdd (F := Ideal) scatter_S65536x128_S655360x1_S655360x128_1_0_0_1
          (broadcastInDim S65536x128 ![] bcast_S_S65536x128 (constant (F := Ideal) S_ .f32 0x00000000#32))
          (broadcastInDim S655360x1 ![0] bcast_S655360_S655360x1_0 (V (Proc.devRef .tc main_arg25) : S655360.Idx → BitVec 32))
          (Host.gather gather_S65536x128_S655360x1_S655360x128_1_0_n_n_0_1_1128
            (V (Proc.devRef .tc main_v50) : S65536x128.Idx → EReal)
            (broadcastInDim S655360x1 ![0] bcast_S655360_S655360x1_0
              (select (cmpi .slt (V (Proc.devRef .tc main_arg24) : S655360.Idx → BitVec 32)
                  (broadcastInDim S655360 ![] bcast_S_S655360 (constantI S_ 32 0#32)))
                (addi (V (Proc.devRef .tc main_arg24) : S655360.Idx → BitVec 32)
                  (broadcastInDim S655360 ![] bcast_S_S655360 (constantI S_ 32 65536#32)))
                (V (Proc.devRef .tc main_arg24) : S655360.Idx → BitVec 32)))) := by
  after_results

/-- The summed source rows' buffer: at (n, k) the sum, over the edges whose destination word read signed is n, of column k
    of the node row the edge's source word names, the rows being those of the node table the stretch found. -/
theorem v84_apply (n : Fin 65536) (k : Fin 128) :
    (H V (Proc.devRef .tc main_v84) : S65536x128.Idx → EReal) (ix2 n k)
      = segSum (m1 (V (Proc.devRef .tc main_arg25) : S655360.Idx → BitVec 32)) n
          (fun e => (V (Proc.devRef .tc main_v50) : S65536x128.Idx → EReal)
            (ix2 (rowOf ((V (Proc.devRef .tc main_arg24) : S655360.Idx → BitVec 32) (ix1 e))) k)) :=
  (congrFun (v84_eq V) (ix2 n k)).trans (segsum_gather_apply _ _ _ n k)

/-! ## The update mask and the choice -/

/-- The two word compares and their conjunction say that the owner word is a graph number. -/
theorem mask_iff_owned (o : BitVec 32) :
    IntOp.andi (IntOp.cmpi .sge o 0#32) (IntOp.cmpi .slt o 128#32) = 1#1 ↔ Owned o := by
  have h0 : (0#32 : BitVec 32).toInt = 0 := by decide
  have h1 : (128#32 : BitVec 32).toInt = 128 := by decide
  show BitVec.ofBool ((0#32 : BitVec 32).sle o) &&& BitVec.ofBool (o.slt 128#32) = 1#1 ↔ (0 ≤ o.toInt ∧ o.toInt < 128)
  rw [BitVec.sle, BitVec.slt, h0, h1]
  by_cases a : 0 ≤ o.toInt
  · by_cases b : o.toInt < 128
    · rw [decide_eq_true a, decide_eq_true b]
      exact ⟨fun _ => ⟨a, b⟩, fun _ => by decide⟩
    · rw [decide_eq_true a, decide_eq_false b]
      exact ⟨fun h => absurd h (by decide), fun h => absurd h.2 b⟩
  · rw [decide_eq_false a]
    refine ⟨fun h => absurd h ?_, fun h => absurd h.1 a⟩
    cases decide (o.toInt < 128) <;> decide

set_option maxHeartbeats 4000000 in
/-- The mask column the first stretch leaves. -/
theorem v5_eq :
    (StableHlo.after (hostOps0 (F := Ideal)) V (Proc.devRef .tc main_v5) : S65536x1.Idx → BitVec 1)
      = broadcastInDim S65536x1 ![0] bcast_S65536_S65536x1_0
          (andi (cmpi .sge (V (Proc.devRef .tc main_arg27) : S65536.Idx → BitVec 32)
              (broadcastInDim S65536 ![] bcast_S_S65536 (constantI S_ 32 0#32)))
            (cmpi .slt (V (Proc.devRef .tc main_arg27) : S65536.Idx → BitVec 32)
              (broadcastInDim S65536 ![] bcast_S_S65536 (constantI S_ 32 128#32)))) := by
  after_results

/-- The mask column at node n is set exactly when the node's owner word is a graph number. -/
theorem v5_apply (n : Fin 65536) (u : Fin 1) :
    (StableHlo.after (hostOps0 (F := Ideal)) V (Proc.devRef .tc main_v5) : S65536x1.Idx → BitVec 1) (ix2 n u) = 1#1
      ↔ Owned ((V (Proc.devRef .tc main_arg27) : S65536.Idx → BitVec 32) (ix1 n)) := by
  rw [v5_eq, column_apply]
  exact mask_iff_owned _

/-- A column spread over the columns of a matrix, read at (n, s): the column at (n, 0). -/
theorem spread_apply {α : Type} {a b : Nat} (h : (⟨2, ![a, 1]⟩ : Shape).BroadcastsInDim ⟨2, ![a, b]⟩ ![0, 1])
    (v : (⟨2, ![a, 1]⟩ : Shape).Idx → α) (n : Fin a) (s : Fin b) :
    broadcastInDim ⟨2, ![a, b]⟩ ![0, 1] h v (ix2 n s) = v (ix2 n 0) :=
  broadcastInDim_apply _ h v (ix2 n s) (ix2 n 0) fun x => match x with
    | ⟨0, _⟩ => by
      show n.val = if a = 1 then 0 else n.val
      split
      · have := n.isLt; omega
      · rfl
    | ⟨1, _⟩ => rfl

/-- The choice after the second step region. -/
theorem v86_eq :
    (StableHlo.after (hostOps2 (F := Ideal)) V (Proc.devRef .tc main_v86) : S65536x128.Idx → EReal)
      = select (broadcastInDim S65536x128 ![0, 1] bcast_S65536x1_S65536x128_0_1
          (V (Proc.devRef .tc main_v5) : S65536x1.Idx → BitVec 1))
          (V (Proc.devRef .tc main_v85) : S65536x128.Idx → EReal) (V (Proc.devRef .tc main_v50) : S65536x128.Idx → EReal) := by
  after_results
  rfl

/-- At (n, s) the choice takes the step region's output where the mask column is set at n and the old row elsewhere. -/
theorem v86_apply (n : Fin 65536) (s : Fin 128) :
    (StableHlo.after (hostOps2 (F := Ideal)) V (Proc.devRef .tc main_v86) : S65536x128.Idx → EReal) (ix2 n s)
      = if (V (Proc.devRef .tc main_v5) : S65536x1.Idx → BitVec 1) (ix2 n 0) = 1#1
          then (V (Proc.devRef .tc main_v85) : S65536x128.Idx → EReal) (ix2 n s)
          else (V (Proc.devRef .tc main_v50) : S65536x128.Idx → EReal) (ix2 n s) := by
  rw [v86_eq, select_apply, spread_apply]
  rfl

end Cert.KernelIdeal.KV.N2

end
-- ==== Proof.KN2Carry.lean ====
/-
  Buffers carried along the run of the kernel program, from the launch to the third region's entry.

  A host stretch leaves a buffer it does not write as it found it; a kernel region leaves a buffer that is none of its
  arrays as it found it, and an array it only reads through an input window too. So: the stacked step parameters and
  the edge words hold their launch contents when the second stretch of step 1 begins; the summed edge features and the
  spread in-degree are at the second step region's entry what they were at the first's; the update mask is at the
  second choice what the first stretch computed; the node table after the first step is the same from its choice to
  the second choice, through the second step region that reads it; and the table after the second step is not touched
  again before the pooling region.
-/
import proofs.«423165_j21801253994886_2_alg».proof.Proof.Gen.KernelIdeal.Frame
import Idealize.ShloMosaic.PureOps.Ideal

set_option maxRecDepth 16384

noncomputable section

namespace Cert.KernelIdeal.KV.N2

open Idealize.ShloMosaic Idealize.ShloMosaic.TcCoe Idealize.SL.Sem
open Cert.KernelIdeal Cert.KernelIdeal.Gen

/-- Closes `after ops W b = W b` for a listed stretch `ops` none of whose operations writes the reference `b`. -/
macro "not_written " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

variable (m : (ℓ : Loc nD τ sig) → Buf (Elt Ideal) ℓ) (ρ : Dev nD → PrngReg)

/-! ## The arguments when the second stretch of step 1 begins -/

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by not_written hostOps1
    _ = W1 m ρ c (Proc.devRef .tc main_arg2) := W2_of_ne m ρ c main_arg2 (by decide)
    _ = W0 m ρ c (Proc.devRef .tc main_arg2) := by not_written hostOps0
    _ = m ((c : Thread nD τ).loc main_arg2) := rfl
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by not_written hostOps1
    _ = W1 m ρ c (Proc.devRef .tc main_arg3) := W2_of_ne m ρ c main_arg3 (by decide)
    _ = W0 m ρ c (Proc.devRef .tc main_arg3) := by not_written hostOps0
    _ = m ((c : Thread nD τ).loc main_arg3) := rfl
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by not_written hostOps1
    _ = W1 m ρ c (Proc.devRef .tc main_arg4) := W2_of_ne m ρ c main_arg4 (by decide)
    _ = W0 m ρ c (Proc.devRef .tc main_arg4) := by not_written hostOps0
    _ = m ((c : Thread nD τ).loc main_arg4) := rfl
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by not_written hostOps1
    _ = W1 m ρ c (Proc.devRef .tc main_arg5) := W2_of_ne m ρ c main_arg5 (by decide)
    _ = W0 m ρ c (Proc.devRef .tc main_arg5) := by not_written hostOps0
    _ = m ((c : Thread nD τ).loc main_arg5) := rfl
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by not_written hostOps1
    _ = W1 m ρ c (Proc.devRef .tc main_arg6) := W2_of_ne m ρ c main_arg6 (by decide)
    _ = W0 m ρ c (Proc.devRef .tc main_arg6) := by not_written hostOps0
    _ = m ((c : Thread nD τ).loc main_arg6) := rfl
theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by not_written hostOps1
    _ = W1 m ρ c (Proc.devRef .tc main_arg7) := W2_of_ne m ρ c main_arg7 (by decide)
    _ = W0 m ρ c (Proc.devRef .tc main_arg7) := by not_written hostOps0
    _ = m ((c : Thread nD τ).loc main_arg7) := rfl
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by not_written hostOps1
    _ = W1 m ρ c (Proc.devRef .tc main_arg8) := W2_of_ne m ρ c main_arg8 (by decide)
    _ = W0 m ρ c (Proc.devRef .tc main_arg8) := by not_written hostOps0
    _ = m ((c : Thread nD τ).loc main_arg8) := rfl
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := by not_written hostOps1
    _ = W1 m ρ c (Proc.devRef .tc main_arg9) := W2_of_ne m ρ c main_arg9 (by decide)
    _ = W0 m ρ c (Proc.devRef .tc main_arg9) := by not_written hostOps0
    _ = m ((c : Thread nD τ).loc main_arg9) := rfl
theorem W3_arg24 (c : Dev nD) : W3 m ρ c (Proc.devRef .tc main_arg24) = m ((c : Thread nD τ).loc main_arg24) :=
  calc W3 m ρ c (Proc.devRef .tc main_arg24)
    _ = W2 m ρ c (Proc.devRef .tc main_arg24) := by not_written hostOps1
    _ = W1 m ρ c (Proc.devRef .tc main_arg24) := W2_of_ne m ρ c main_arg24 (by decide)
    _ = W0 m ρ c (Proc.devRef .tc main_arg24) := by not_written hostOps0
    _ = m ((c : Thread nD τ).loc main_arg24) := rfl
theorem W3_arg25 (c : Dev nD) : W3 m ρ c (Proc.devRef .tc main_arg25) = m ((c : Thread nD τ).loc main_arg25) :=
  calc W3 m ρ c (Proc.devRef .tc main_arg25)
    _ = W2 m ρ c (Proc.devRef .tc main_arg25) := by not_written hostOps1
    _ = W1 m ρ c (Proc.devRef .tc main_arg25) := W2_of_ne m ρ c main_arg25 (by decide)
    _ = W0 m ρ c (Proc.devRef .tc main_arg25) := by not_written hostOps0
    _ = m ((c : Thread nD τ).loc main_arg25) := rfl

/-! ## The summed edge features and the spread in-degree at the second step region's entry -/

theorem W4_v8 (c : Dev nD) : W4 m ρ c (Proc.devRef .tc main_v8) = W1 m ρ c (Proc.devRef .tc main_v8) :=
  calc W4 m ρ c (Proc.devRef .tc main_v8)
    _ = W3 m ρ c (Proc.devRef .tc main_v8) := by not_written hostOps1_1
    _ = W2 m ρ c (Proc.devRef .tc main_v8) := by not_written hostOps1
    _ = W1 m ρ c (Proc.devRef .tc main_v8) :=
        (W2_arr m ρ c 2).trans (((dat0 (V1 m ρ) c).arrAt_in 2 rfl _).trans (A_eq0 (V1 m ρ) c 2))

theorem W4_v14 (c : Dev nD) : W4 m ρ c (Proc.devRef .tc main_v14) = W1 m ρ c (Proc.devRef .tc main_v14) :=
  calc W4 m ρ c (Proc.devRef .tc main_v14)
    _ = W3 m ρ c (Proc.devRef .tc main_v14) := by not_written hostOps1_1
    _ = W2 m ρ c (Proc.devRef .tc main_v14) := by not_written hostOps1
    _ = W1 m ρ c (Proc.devRef .tc main_v14) :=
        (W2_arr m ρ c 3).trans (((dat0 (V1 m ρ) c).arrAt_in 3 rfl _).trans (A_eq0 (V1 m ρ) c 3))

/-! ## The node table after the first step, from its choice to the second choice -/

theorem W4_v50 (c : Dev nD) : W4 m ρ c (Proc.devRef .tc main_v50) = W3 m ρ c (Proc.devRef .tc main_v50) := by
  not_written hostOps1_1

theorem W5_v50 (c : Dev nD) : W5 m ρ c (Proc.devRef .tc main_v50) = W4 m ρ c (Proc.devRef .tc main_v50) :=
  (W5_arr m ρ c 1).trans (((dat1 (V4 m ρ) c).arrAt_in 1 rfl _).trans (A_eq1 (V4 m ρ) c 1))

/-! ## The update mask at the second choice -/

theorem W5_v5 (c : Dev nD) : W5 m ρ c (Proc.devRef .tc main_v5) = W1 m ρ c (Proc.devRef .tc main_v5) :=
  calc W5 m ρ c (Proc.devRef .tc main_v5)
    _ = W4 m ρ c (Proc.devRef .tc main_v5) := W5_of_ne m ρ c main_v5 (by decide)
    _ = W3 m ρ c (Proc.devRef .tc main_v5) := by not_written hostOps1_1
    _ = W2 m ρ c (Proc.devRef .tc main_v5) := by not_written hostOps1
    _ = W1 m ρ c (Proc.devRef .tc main_v5) := W2_of_ne m ρ c main_v5 (by decide)

/-! ## The node table after the second step, up to the pooling region's entry -/

theorem W8_v86 (c : Dev nD) : W8 m ρ c (Proc.devRef .tc main_v86) = W6 m ρ c (Proc.devRef .tc main_v86) :=
  calc W8 m ρ c (Proc.devRef .tc main_v86)
    _ = W7 m ρ c (Proc.devRef .tc main_v86) := by not_written hostOps2_2
    _ = W6 m ρ c (Proc.devRef .tc main_v86) := by not_written hostOps2_1

end Cert.KernelIdeal.KV.N2

end
-- ==== Proof.KNodes2.lean ====
/-
  The kernel program's second step: the host operations between the two step regions (the second step's matrices, the
  gathered and summed source rows of the updated node table), the second step region, and the choice between the
  cell's output and the old row.

  The choice reads the mask column the first stretch computed: it is set at a node exactly when the node's owner word is a
  graph number. Where it is set the row is the second step region's output, which is the recurrent cell on the node's row
  and on the message formed from the region's operands: the summed source rows of the table after the first step, the
  summed edge features and the in-degree as the first step region found them, and the second layers of the stacked
  parameters, transposed. That message is the aggregated message multiplied after the sums, so the row is one step of
  step 1's parameters on the table after the first step; elsewhere the row is that table's own.
-/
import proofs.«423165_j21801253994886_2_alg».proof.Proof.Gen.KernelIdeal.Frame
import proofs.«423165_j21801253994886_2_alg».proof.Proof.KArgs
import proofs.«423165_j21801253994886_2_alg».proof.Proof.KStep1
import proofs.«423165_j21801253994886_2_alg».proof.Proof.KNodes1
import proofs.«423165_j21801253994886_2_alg».proof.Proof.LibScatter
import proofs.«423165_j21801253994886_2_alg».proof.Proof.KN2Cell
import proofs.«423165_j21801253994886_2_alg».proof.Proof.KN2Host
import proofs.«423165_j21801253994886_2_alg».proof.Proof.KN2Carry

set_option maxRecDepth 16384

noncomputable section

namespace Cert.KernelIdeal.KV

open Idealize.ShloMosaic Idealize.ShloMosaic.TcCoe Idealize.ShloMosaic.ValueIdx Idealize.SL.Sem
open Cert.Gnn
open Cert.KernelIdeal Cert.KernelIdeal.Gen

variable (m : (ℓ : Loc nD τ sig) → Buf (Elt Ideal) ℓ) (ρ : Dev nD → PrngReg)

namespace N2

/-- The node table after the first step, as the second step's input. -/
abbrev x1 (c : Dev nD) : Fin 65536 → Fin 128 → EReal :=
  m2 (W4 m ρ c (Proc.devRef .tc main_v50) : S65536x128.Idx → EReal)

/-- The summed source rows the second step region finds: those of the table after the first step. -/
theorem scat_V4 (c : Dev nD) (n : Fin 65536) (k : Fin 128) :
    (V4 m ρ c main_v84 : S65536x128.Idx → EReal) (ix2 n k)
      = segSum (kg m c).dst n (fun e => x1 m ρ c (rowOf ((kg m c).src e)) k) := by
  show (H (W3 m ρ c) (Proc.devRef .tc main_v84) : S65536x128.Idx → EReal) (ix2 n k) = _
  rw [v84_apply (W3 m ρ c) n k, W3_arg25 m ρ c, W3_arg24 m ρ c, ← W4_v50 m ρ c]
  rfl

/-- The summed edge features the second step region finds. -/
theorem efagg_V4 (c : Dev nD) (n : Fin 65536) (k : Fin 128) :
    (V4 m ρ c main_v8 : S65536x128.Idx → EReal) (ix2 n k) = segSum (kg m c).dst n (fun e => (kg m c).ef e k) := by
  show (W4 m ρ c (Proc.devRef .tc main_v8) : S65536x128.Idx → EReal) (ix2 n k) = _
  rw [W4_v8 m ρ c]
  exact efagg_V1 m ρ c n k

/-- The in-degree, spread over 256 columns, the second step region finds. -/
theorem degb_V4 (c : Dev nD) (n : Fin 65536) (j : Fin 256) :
    (V4 m ρ c main_v14 : S65536x256.Idx → EReal) (ix2 n j) = segSum (kg m c).dst n (fun _ => one) := by
  show (W4 m ρ c (Proc.devRef .tc main_v14) : S65536x256.Idx → EReal) (ix2 n j) = _
  rw [W4_v14 m ρ c]
  exact degb_V1 m ρ c n j

/-- The second step's matrices and biases as the second step region finds them. -/
theorem Wsrc_V4 (c : Dev nD) (k : Fin 128) (j : Fin 256) :
    (V4 m ρ c main_v53 : S128x256.Idx → EReal) (ix2 k j) = (kp m 1 c).Wsrc j k := by
  show (H (W3 m ρ c) (Proc.devRef .tc main_v53) : S128x256.Idx → EReal) (ix2 k j) = _
  rw [v53_apply (W3 m ρ c) k j, W3_arg2 m ρ c]
  rfl
theorem Wdest_V4 (c : Dev nD) (k : Fin 128) (j : Fin 256) :
    (V4 m ρ c main_v56 : S128x256.Idx → EReal) (ix2 k j) = (kp m 1 c).Wdest j k := by
  show (H (W3 m ρ c) (Proc.devRef .tc main_v56) : S128x256.Idx → EReal) (ix2 k j) = _
  rw [v56_apply (W3 m ρ c) k j, W3_arg3 m ρ c]
  rfl
theorem Wfeat_V4 (c : Dev nD) (k : Fin 128) (j : Fin 256) :
    (V4 m ρ c main_v59 : S128x256.Idx → EReal) (ix2 k j) = (kp m 1 c).Wfeat j k := by
  show (H (W3 m ρ c) (Proc.devRef .tc main_v59) : S128x256.Idx → EReal) (ix2 k j) = _
  rw [v59_apply (W3 m ρ c) k j, W3_arg5 m ρ c]
  rfl
theorem Wih_V4 (c : Dev nD) (k : Fin 256) (j : Fin 384) :
    (V4 m ρ c main_v62 : S256x384.Idx → EReal) (ix2 k j) = (kp m 1 c).Wih j k := by
  show (H (W3 m ρ c) (Proc.devRef .tc main_v62) : S256x384.Idx → EReal) (ix2 k j) = _
  rw [v62_apply (W3 m ρ c) k j, W3_arg6 m ρ c]
  rfl
theorem Whh_V4 (c : Dev nD) (k : Fin 128) (j : Fin 384) :
    (V4 m ρ c main_v65 : S128x384.Idx → EReal) (ix2 k j) = (kp m 1 c).Whh j k := by
  show (H (W3 m ρ c) (Proc.devRef .tc main_v65) : S128x384.Idx → EReal) (ix2 k j) = _
  rw [v65_apply (W3 m ρ c) k j, W3_arg7 m ρ c]
  rfl
theorem bdest_V4 (c : Dev nD) (j : Fin 256) :
    (V4 m ρ c main_v68 : S1x256.Idx → EReal) (ix2 0 j) = (kp m 1 c).bdest j := by
  show (H (W3 m ρ c) (Proc.devRef .tc main_v68) : S1x256.Idx → EReal) (ix2 0 j) = _
  rw [v68_apply (W3 m ρ c) 0 j, W3_arg4 m ρ c]
  rfl
theorem bih_V4 (c : Dev nD) (j : Fin 384) :
    (V4 m ρ c main_v71 : S1x384.Idx → EReal) (ix2 0 j) = (kp m 1 c).bih j := by
  show (H (W3 m ρ c) (Proc.devRef .tc main_v71) : S1x384.Idx → EReal) (ix2 0 j) = _
  rw [v71_apply (W3 m ρ c) 0 j, W3_arg8 m ρ c]
  rfl
theorem bhh_V4 (c : Dev nD) (j : Fin 384) :
    (V4 m ρ c main_v74 : S1x384.Idx → EReal) (ix2 0 j) = (kp m 1 c).bhh j := by
  show (H (W3 m ρ c) (Proc.devRef .tc main_v74) : S1x384.Idx → EReal) (ix2 0 j) = _
  rw [v74_apply (W3 m ρ c) 0 j, W3_arg9 m ρ c]
  rfl

/-- The second step region's output: the recurrent cell of step 1's parameters on the node's row and the aggregated
    message, over the table after the first step. -/
theorem out_W5 (c : Dev nD) (n : Fin 65536) (s : Fin 128) :
    (W5 m ρ c (Proc.devRef .tc main_v85) : S65536x128.Idx → EReal) (ix2 n s)
      = gru (kp m 1 c) (x1 m ρ c n) (aggK (kp m 1 c) (kg m c) (x1 m ρ c) n) s := by
  have e : (W5 m ρ c (Proc.devRef .tc main_v85) : S65536x128.Idx → EReal)
      = ((dat1 (F := Ideal) (V4 m ρ) c).arrAt 12 cfg1.N : S65536x128.Idx → EReal) := W5_arr m ρ c 12
  refine ((congrFun e (ix2 n s)).trans (region1_out (V4 m ρ) c n s)).trans ?_
  exact stepBody_eq_gru (kp m 1 c) (kg m c) (x1 m ρ c) _ _ _ _ _ _ _ _ _ _ _
    (fun n k => scat_V4 m ρ c n k) (fun n k => efagg_V4 m ρ c n k) (fun n j => degb_V4 m ρ c n j)
    (fun k j => Wsrc_V4 m ρ c k j) (fun k j => Wdest_V4 m ρ c k j) (fun k j => Wfeat_V4 m ρ c k j)
    (fun j => bdest_V4 m ρ c j) (fun k j => Wih_V4 m ρ c k j) (fun k j => Whh_V4 m ρ c k j)
    (fun j => bih_V4 m ρ c j) (fun j => bhh_V4 m ρ c j) n s

/-- The mask column at the second choice is set at node n exactly when the node's owner word is a graph number. -/
theorem mask_W5 (c : Dev nD) (n : Fin 65536) :
    (W5 m ρ c (Proc.devRef .tc main_v5) : S65536x1.Idx → BitVec 1) (ix2 n 0) = 1#1 ↔ Owned ((kg m c).owner n) := by
  rw [W5_v5 m ρ c]
  exact v5_apply (W0 m ρ c) n 0

end N2

open N2 in
/-- The node table after the second step, from the table after the first. -/
theorem k_nodes2 (c : Dev nD) (n : Fin 65536) (s : Fin 128) :
    (W8 m ρ c (Proc.devRef .tc main_v86) : S65536x128.Idx → EReal) (ix2 n s)
      = stepK (kp m 1 c) (kg m c) (m2 (W4 m ρ c (Proc.devRef .tc main_v50) : S65536x128.Idx → EReal)) n s := by
  rw [W8_v86 m ρ c]
  show (StableHlo.after (hostOps2 (F := Ideal)) (W5 m ρ c) (Proc.devRef .tc main_v86) : S65536x128.Idx → EReal) (ix2 n s) = _
  rw [v86_apply (W5 m ρ c) n s, W5_v50 m ρ c]
  unfold stepK
  by_cases ho : Owned ((kg m c).owner n)
  · rw [if_pos ((mask_W5 m ρ c n).mpr ho), if_pos ho]
    exact out_W5 m ρ c n s
  · rw [if_neg (mt (mask_W5 m ρ c n).mp ho), if_neg ho]

end Cert.KernelIdeal.KV

end
-- ==== Proof.KPool.lean ====
/-
  The pooling region of the kernel program: what its two output arrays hold after the region, from the arrays the
  region finds (any entry contents V): the sum over all 65536 nodes, taken 2048 nodes at a grid point into an
  accumulator that the first point clears.

  At grid point t the body reads tile t of the node rows and of the owner table (rows 2048 t … 2048 t + 2047) and the
  two heads' matrices and bias rows whole. For each head it forms, per row of the tile, the projection plus bias times
  the logistic of the gate's projection plus bias, and adds to the head's [128, 256] accumulator the product of the
  transposed owner tile with those 2048 rows: entry (b, a) grows by the sum over the tile's rows of
  owner[row, b] · product[row, a]. The first point stores zeros before it adds; every later point adds onto what the
  point before left; the last point's accumulator is written back and its one block is the whole array. Narrowing a
  number to sixteen bits changes nothing over the extended reals, and a sum there may be regrouped freely, so the 32
  tile sums are the one sum over the nodes n = 2048 t + r.
-/
import proofs.«423165_j21801253994886_2_alg».proof.Proof.Gen.KernelIdeal.Frame
import proofs.«423165_j21801253994886_2_alg».proof.Proof.SpecK
import Idealize.ShloMosaic.Lib.Pipeline.Value
import Idealize.ShloMosaic.Lib.Tactic
import Idealize.ShloMosaic.Lib.ValueLayout
import Idealize.ShloMosaic.PureOps.Ideal.Laws
import Mathlib.Algebra.BigOperators.Group.Finset.Basic
import Mathlib.Data.Fintype.BigOperators

set_option maxRecDepth 16384

noncomputable section

namespace Cert.KernelIdeal.KV

open Idealize.ShloMosaic Idealize.ShloMosaic.TcCoe Idealize.ShloMosaic.ValueIdx Idealize.SL.Sem
open Cert.Gnn
open Cert.KernelIdeal Cert.KernelIdeal.Gen

namespace Pool

/-! ## The two matrix products at an index -/

theorem lhsRows_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide),
    dif_pos (show (0 : Fin S2048x128.rank) ∈ dot_S2048x128_S128x256_S2048x256_1_0_0_1_n_n.lhsNonContracting by decide)]
  rfl
theorem lhsRows_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem rhsRows_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem rhsRows_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide),
    dif_pos (show (1 : Fin S128x256.rank) ∈ dot_S2048x128_S128x256_S2048x256_1_0_0_1_n_n.rhsNonContracting by decide)]
  rfl

/-- A tile of rows times a [128, 256] matrix, into a cleared accumulator: entry (r, a) sums over the 128 features. -/
theorem rowsProj_apply {φ₁ φ₂ : FTy} (lhs : FVec Ideal S2048x128 φ₁) (rhs : FVec Ideal S128x256 φ₂) (r : Fin 2048) (a : Fin 256) :
    matmul dot_S2048x128_S128x256_S2048x256_1_0_0_1_n_n none lhs rhs (constant (F := Ideal) S2048x256 .f32 0x00000000#32) (ix2 r a)
      = ∑ k : Fin 128, lhs (ix2 r k) * rhs (ix2 k a) := by
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 r a) ((contrEquiv1 dot_S2048x128_S128x256_S2048x256_1_0_0_1_n_n 128 rfl rfl).symm k) = ix2 r k := funext fun ax => Fin.ext (by
    match ax with
    | ⟨0, _⟩ => exact lhsRows_0 _ _
    | ⟨1, _⟩ => exact (lhsRows_1 _ _).trans hk)
  have er : dot_S2048x128_S128x256_S2048x256_1_0_0_1_n_n.rhsIdx (ix2 r a) ((contrEquiv1 dot_S2048x128_S128x256_S2048x256_1_0_0_1_n_n 128 rfl rfl).symm k) = ix2 k a := funext fun ax => Fin.ext (by
    match ax with
    | ⟨0, _⟩ => exact (rhsRows_0 _ _).trans hk
    | ⟨1, _⟩ => exact rhsRows_1 _ _)
  rw [el, er]

theorem lhsPool_0 (i : S128x256.Idx) (q : dot_S128x2048_S2048x256_S128x256_1_0_0_1_n_n.contr.Idx) :
    (dot_S128x2048_S2048x256_S128x256_1_0_0_1_n_n.lhsIdx i q 0).val = (i 0).val := by
  unfold DotDims.lhsIdx
  rw [dif_neg (show ¬(0 : Fin S128x2048.rank) ∈ dot_S128x2048_S2048x256_S128x256_1_0_0_1_n_n.lhsBatch by decide),
    dif_pos (show (0 : Fin S128x2048.rank) ∈ dot_S128x2048_S2048x256_S128x256_1_0_0_1_n_n.lhsNonContracting by decide)]
  rfl
theorem lhsPool_1 (i : S128x256.Idx) (q : dot_S128x2048_S2048x256_S128x256_1_0_0_1_n_n.contr.Idx) :
    (dot_S128x2048_S2048x256_S128x256_1_0_0_1_n_n.lhsIdx i q 1).val = (q ⟨0, by decide⟩).val :=
  dot_S128x2048_S2048x256_S128x256_1_0_0_1_n_n.lhsIdx_val_of_single rfl i q
theorem rhsPool_0 (i : S128x256.Idx) (q : dot_S128x2048_S2048x256_S128x256_1_0_0_1_n_n.contr.Idx) :
    (dot_S128x2048_S2048x256_S128x256_1_0_0_1_n_n.rhsIdx i q 0).val = (q ⟨0, by decide⟩).val :=
  dot_S128x2048_S2048x256_S128x256_1_0_0_1_n_n.rhsIdx_val_of_single rfl i q
theorem rhsPool_1 (i : S128x256.Idx) (q : dot_S128x2048_S2048x256_S128x256_1_0_0_1_n_n.contr.Idx) :
    (dot_S128x2048_S2048x256_S128x256_1_0_0_1_n_n.rhsIdx i q 1).val = (i 1).val := by
  unfold DotDims.rhsIdx
  rw [dif_neg (show ¬(1 : Fin S2048x256.rank) ∈ dot_S128x2048_S2048x256_S128x256_1_0_0_1_n_n.rhsBatch by decide),
    dif_pos (show (1 : Fin S2048x256.rank) ∈ dot_S128x2048_S2048x256_S128x256_1_0_0_1_n_n.rhsNonContracting by decide)]
  rfl

/-- The [128, 2048] transposed owner tile times the tile's [2048, 256] products, into a cleared accumulator: entry
    (b, a) sums over the tile's 2048 rows. -/
theorem poolProj_apply {φ₁ φ₂ : FTy} (lhs : FVec Ideal S128x2048 φ₁) (rhs : FVec Ideal S2048x256 φ₂) (b : Fin 128) (a : Fin 256) :
    matmul dot_S128x2048_S2048x256_S128x256_1_0_0_1_n_n none lhs rhs (constant (F := Ideal) S128x256 .f32 0x00000000#32) (ix2 b a)
      = ∑ r : Fin 2048, lhs (ix2 b r) * rhs (ix2 r a) := by
  simp only [matmul]
  rw [Ideal.matmul_constant_zero_apply, ← Equiv.sum_comp (contrEquiv1 dot_S128x2048_S2048x256_S128x256_1_0_0_1_n_n 2048 rfl rfl).symm]
  refine Finset.sum_congr rfl fun k _ => ?_
  have hk := contrEquiv1_symm_val dot_S128x2048_S2048x256_S128x256_1_0_0_1_n_n 2048 rfl rfl k
  have el : dot_S128x2048_S2048x256_S128x256_1_0_0_1_n_n.lhsIdx (ix2 b a) ((contrEquiv1 dot_S128x2048_S2048x256_S128x256_1_0_0_1_n_n 2048 rfl rfl).symm k) = ix2 b k := funext fun ax => Fin.ext (by
    match ax with
    | ⟨0, _⟩ => exact lhsPool_0 _ _
    | ⟨1, _⟩ => exact (lhsPool_1 _ _).trans hk)
  have er : dot_S128x2048_S2048x256_S128x256_1_0_0_1_n_n.rhsIdx (ix2 b a) ((contrEquiv1 dot_S128x2048_S2048x256_S128x256_1_0_0_1_n_n 2048 rfl rfl).symm k) = ix2 k a := funext fun ax => Fin.ext (by
    match ax with
    | ⟨0, _⟩ => exact (rhsPool_0 _ _).trans hk
    | ⟨1, _⟩ => exact rhsPool_1 _ _)
  rw [el, er]

/-! ## What one grid point adds -/

/-- What one tile adds for graph b and column a: over the tile's rows, the owner entry times the row's projection
    plus bias times the logistic of its gate. -/
def tileSum (hot x : S2048x128.Idx → EReal) (Wt Wg : S128x256.Idx → EReal) (bt bg : S1x256.Idx → EReal)
    (b : Fin 128) (a : Fin 256) : EReal :=
  ∑ r : Fin 2048, hot (ix2 r b) * (((∑ k : Fin 128, x (ix2 r k) * Wt (ix2 k a)) + bt (ix2 (0 : Fin 1) a))
    * Ideal.logistic ((∑ k : Fin 128, x (ix2 r k) * Wg (ix2 k a)) + bg (ix2 (0 : Fin 1) a)))

/-- The transposed owner tile at (b, r) is the owner tile at (r, b). -/
theorem hotT_apply (v6 : Vec Ideal S2048x128 .f32) (b : Fin 128) (r : Fin 2048) :
    (k2_pay6 (F := Ideal) v6 : S128x2048.Idx → EReal) (ix2 b r) = (v6 : S2048x128.Idx → EReal) (ix2 r b) := by
  unfold k2_pay6
  simp only [shapeCast_self]
  exact transpose_ix2_apply _ transposes_S2048x128_p1_0_S128x2048 b r

/-- The decision head's product tile at (r, a). -/
theorem gated_apply (v3 : Vec Ideal S2048x128 .f32) (v10 v13 : Vec Ideal S128x256 .f32) (v17 v22 : Vec Ideal S1x256 .f32)
    (r : Fin 2048) (a : Fin 256) :
    (k2_pay7 (F := Ideal) v3 v10 v13 v17 v22 : S2048x256.Idx → EReal) (ix2 r a)
      = ((∑ k : Fin 128, (v3 : S2048x128.Idx → EReal) (ix2 r k) * (v10 : S128x256.Idx → EReal) (ix2 k a)) + (v17 : S1x256.Idx → EReal) (ix2 (0 : Fin 1) a))
        * Ideal.logistic ((∑ k : Fin 128, (v3 : S2048x128.Idx → EReal) (ix2 r k) * (v13 : S128x256.Idx → EReal) (ix2 k a)) + (v22 : S1x256.Idx → EReal) (ix2 (0 : Fin 1) a)) := by
  unfold k2_pay7 k2_pay5
  simp only [shapeCast_self]
  exact congrArg₂ (· * ·)
    (congrArg₂ (· + ·) (rowsProj_apply _ _ r a) (broadcastTo_1b_ab_apply _ broadcasts_S1x256_S2048x256 r a))
    (congrArg Ideal.logistic (congrArg₂ (· + ·) (rowsProj_apply _ _ r a) (broadcastTo_1b_ab_apply _ broadcasts_S1x256_S2048x256 r a)))

/-- The decision head's store: the accumulator as found plus the tile's sum. -/
theorem decStore_apply (v3 v6 : Vec Ideal S2048x128 .f32) (v10 v13 : Vec Ideal S128x256 .f32) (v17 v22 : Vec Ideal S1x256 .f32)
    (v48 : Vec Ideal S128x256 .f32) (b : Fin 128) (a : Fin 256) :
    (k2_pay1 (F := Ideal) (k2_pay6 v6) (k2_pay7 v3 v10 v13 v17 v22) v48 : S128x256.Idx → EReal) (ix2 b a)
      = (v48 : S128x256.Idx → EReal) (ix2 b a) + tileSum v6 v3 v10 v13 v17 v22 b a := by
  unfold k2_pay1
  simp only [shapeCast_self]
  refine congrArg₂ (· + ·) rfl ((poolProj_apply _ _ b a).trans ?_)
  exact Finset.sum_congr rfl fun r _ => congrArg₂ (· * ·) (hotT_apply v6 b r) (gated_apply v3 v10 v13 v17 v22 r a)

/-- The initialisation head's store: the accumulator as found plus the tile's sum. -/
theorem initStore_apply (v3 v6 : Vec Ideal S2048x128 .f32) (v29 v32 : Vec Ideal S128x256 .f32) (v36 v41 : Vec Ideal S1x256 .f32)
    (v53 : Vec Ideal S128x256 .f32) (b : Fin 128) (a : Fin 256) :
    (k2_pay2 (F := Ideal) (k2_pay5 v3) (k2_pay6 v6) (k2_pay8 v32) (k2_pay9 v3 v29) v36 v41 v53 : S128x256.Idx → EReal) (ix2 b a)
      = (v53 : S128x256.Idx → EReal) (ix2 b a) + tileSum v6 v3 v29 v32 v36 v41 b a := by
  unfold k2_pay2 k2_pay9 k2_pay8 k2_pay5
  simp only [shapeCast_self]
  refine congrArg₂ (· + ·) rfl ((poolProj_apply _ _ b a).trans ?_)
  refine Finset.sum_congr rfl fun r _ => congrArg₂ (· * ·) (hotT_apply v6 b r) ?_
  exact congrArg₂ (· * ·)
    (congrArg₂ (· + ·) (rowsProj_apply _ _ r a) (broadcastTo_1b_ab_apply _ broadcasts_S1x256_S2048x256 r a))
    (congrArg Ideal.logistic (congrArg₂ (· + ·) (rowsProj_apply _ _ r a) (broadcastTo_1b_ab_apply _ broadcasts_S1x256_S2048x256 r a)))

/-- The cleared accumulators are zero everywhere. -/
theorem decClear_apply (j : S128x256.Idx) : (k2_pay3 (F := Ideal) : S128x256.Idx → EReal) j = 0 := by
  unfold k2_pay3
  exact Ideal.ofBits_zero_f32
theorem initClear_apply (j : S128x256.Idx) : (k2_pay4 (F := Ideal) : S128x256.Idx → EReal) j = 0 := by
  unfold k2_pay4
  exact Ideal.ofBits_zero_f32

/-! ## What the body leaves in the two accumulators, case by case -/

theorem hz : (![0, 0] : Fin 2 → Nat) = fun _ => 0 := funext fun a => by fin_cases a <;> rfl

section Pieces
variable {F : FTy → Type} [FloatOps F]

/-- A later point leaves in the decision accumulator its one store: the accumulator as found plus the tile's product. -/
theorem decStep (c : Dev nD) (i : grid2.Coords) (a1 : Memref sig .tc .vmem S2048x128 .f32) (h1 : a1.IsWhole) (a2 : Memref sig .tc .vmem S2048x128 .f32) (h2 : a2.IsWhole) (a3 : Memref sig .tc .vmem S128x256 .f32) (h3 : a3.IsWhole) (a4 : Memref sig .tc .vmem S1x256 .f32) (h4 : a4.IsWhole) (a5 : Memref sig .tc .vmem S128x256 .f32) (h5 : a5.IsWhole) (a6 : Memref sig .tc .vmem S1x256 .f32) (h6 : a6.IsWhole) (a7 : Memref sig .tc .vmem S128x256 .f32) (h7 : a7.IsWhole) (a8 : Memref sig .tc .vmem S1x256 .f32) (h8 : a8.IsWhole) (a9 : Memref sig .tc .vmem S128x256 .f32) (h9 : a9.IsWhole) (a10 : Memref sig .tc .vmem S1x256 .f32) (h10 : a10.IsWhole) (a11 : Memref sig .tc .vmem S128x256 .f32) (h11 : a11.IsWhole) (a12 : Memref sig .tc .vmem S128x256 .f32) (h12 : a12.IsWhole) (hc : ¬cond2_0 i) (x0 : Vec F S2048x128 .f32) (x1 : Vec F S2048x128 .f32) (x2 : Vec F S128x256 .f32) (x3 : Vec F S1x256 .f32) (x4 : Vec F S128x256 .f32) (x5 : Vec F S1x256 .f32) (x6 : Vec F S128x256 .f32) (x7 : Vec F S1x256 .f32) (x8 : Vec F S128x256 .f32) (x9 : Vec F S1x256 .f32) (xo10 xo11 : Vec F S128x256 .f32) :
    out2_B_10 c i a1 h1 a2 h2 a3 h3 a4 h4 a5 h5 a6 h6 a7 h7 a8 h8 a9 h9 a10 h10 a11 h11 a12 h12 hc x0 x1 x2 x3 x4 x5 x6 x7 x8 x9 xo10 xo11 = k2_pay1 (k2_pay6 x1) (k2_pay7 x0 x2 x4 x3 x5) xo10 := by
  unfold out2_B_10
  rw [View.read_writes_eq_canon _ _ _ (cover2_B_10 c i a1 h1 a2 h2 a3 h3 a4 h4 a5 h5 a6 h6 a7 h7 a8 h8 a9 h9 a10 h10 a11 h11 a12 h12 hc x0 x1 x2 x3 x4 x5 x6 x7 x8 x9 xo10 xo11)]
  unfold kernelRun2_B
  dsimp only
  sl_unfold_words
  rw [View.canon_unit_zero (S := S128x256) hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S2048x128) hz, View.ld_unit_zero (S := S128x256) hz, View.ld_unit_zero (S := S1x256) hz]

/-- A later point leaves in the initialisation accumulator its one store. -/
theorem initStep (c : Dev nD) (i : grid2.Coords) (a1 : Memref sig .tc .vmem S2048x128 .f32) (h1 : a1.IsWhole) (a2 : Memref sig .tc .vmem S2048x128 .f32) (h2 : a2.IsWhole) (a3 : Memref sig .tc .vmem S128x256 .f32) (h3 : a3.IsWhole) (a4 : Memref sig .tc .vmem S1x256 .f32) (h4 : a4.IsWhole) (a5 : Memref sig .tc .vmem S128x256 .f32) (h5 : a5.IsWhole) (a6 : Memref sig .tc .vmem S1x256 .f32) (h6 : a6.IsWhole) (a7 : Memref sig .tc .vmem S128x256 .f32) (h7 : a7.IsWhole) (a8 : Memref sig .tc .vmem S1x256 .f32) (h8 : a8.IsWhole) (a9 : Memref sig .tc .vmem S128x256 .f32) (h9 : a9.IsWhole) (a10 : Memref sig .tc .vmem S1x256 .f32) (h10 : a10.IsWhole) (a11 : Memref sig .tc .vmem S128x256 .f32) (h11 : a11.IsWhole) (a12 : Memref sig .tc .vmem S128x256 .f32) (h12 : a12.IsWhole) (hc : ¬cond2_0 i) (x0 : Vec F S2048x128 .f32) (x1 : Vec F S2048x128 .f32) (x2 : Vec F S128x256 .f32) (x3 : Vec F S1x256 .f32) (x4 : Vec F S128x256 .f32) (x5 : Vec F S1x256 .f32) (x6 : Vec F S128x256 .f32) (x7 : Vec F S1x256 .f32) (x8 : Vec F S128x256 .f32) (x9 : Vec F S1x256 .f32) (xo10 xo11 : Vec F S128x256 .f32) :
    out2_B_11 c i a1 h1 a2 h2 a3 h3 a4 h4 a5 h5 a6 h6 a7 h7 a8 h8 a9 h9 a10 h10 a11 h11 a12 h12 hc x0 x1 x2 x3 x4 x5 x6 x7 x8 x9 xo10 xo11 = k2_pay2 (k2_pay5 x0) (k2_pay6 x1) (k2_pay8 x8) (k2_pay9 x0 x6) x7 x9 xo11 := by
  unfold out2_B_11
  rw [View.read_writes_eq_canon _ _ _ (cover2_B_11 c i a1 h1 a2 h2 a3 h3 a4 h4 a5 h5 a6 h6 a7 h7 a8 h8 a9 h9 a10 h10 a11 h11 a12 h12 hc x0 x1 x2 x3 x4 x5 x6 x7 x8 x9 xo10 xo11)]
  unfold kernelRun2_B
  dsimp only
  sl_unfold_words
  rw [View.canon_unit_zero (S := S128x256) hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S2048x128) hz, View.ld_unit_zero (S := S128x256) hz, View.ld_unit_zero (S := S1x256) hz]

/-- The first point clears the decision accumulator, reads the cleared block back and stores it plus the tile's product. -/
theorem decFirst (c : Dev nD) (i : grid2.Coords) (a1 : Memref sig .tc .vmem S2048x128 .f32) (h1 : a1.IsWhole) (a2 : Memref sig .tc .vmem S2048x128 .f32) (h2 : a2.IsWhole) (a3 : Memref sig .tc .vmem S128x256 .f32) (h3 : a3.IsWhole) (a4 : Memref sig .tc .vmem S1x256 .f32) (h4 : a4.IsWhole) (a5 : Memref sig .tc .vmem S128x256 .f32) (h5 : a5.IsWhole) (a6 : Memref sig .tc .vmem S1x256 .f32) (h6 : a6.IsWhole) (a7 : Memref sig .tc .vmem S128x256 .f32) (h7 : a7.IsWhole) (a8 : Memref sig .tc .vmem S1x256 .f32) (h8 : a8.IsWhole) (a9 : Memref sig .tc .vmem S128x256 .f32) (h9 : a9.IsWhole) (a10 : Memref sig .tc .vmem S1x256 .f32) (h10 : a10.IsWhole) (a11 : Memref sig .tc .vmem S128x256 .f32) (h11 : a11.IsWhole) (a12 : Memref sig .tc .vmem S128x256 .f32) (h12 : a12.IsWhole) (hc : cond2_0 i) (x0 : Vec F S2048x128 .f32) (x1 : Vec F S2048x128 .f32) (x2 : Vec F S128x256 .f32) (x3 : Vec F S1x256 .f32) (x4 : Vec F S128x256 .f32) (x5 : Vec F S1x256 .f32) (x6 : Vec F S128x256 .f32) (x7 : Vec F S1x256 .f32) (x8 : Vec F S128x256 .f32) (x9 : Vec F S1x256 .f32) :
    out2_A_10 c i a1 h1 a2 h2 a3 h3 a4 h4 a5 h5 a6 h6 a7 h7 a8 h8 a9 h9 a10 h10 a11 h11 a12 h12 hc x0 x1 x2 x3 x4 x5 x6 x7 x8 x9 = k2_pay1 (k2_pay6 x1) (k2_pay7 x0 x2 x4 x3 x5) (k2_pay3 (F := F)) := by
  unfold out2_A_10
  rw [View.read_writes_eq_canon _ _ _ (cover2_A_10 c i a1 h1 a2 h2 a3 h3 a4 h4 a5 h5 a6 h6 a7 h7 a8 h8 a9 h9 a10 h10 a11 h11 a12 h12 hc x0 x1 x2 x3 x4 x5 x6 x7 x8 x9)]
  unfold kernelRun2_A
  dsimp only
  sl_unfold_words
  rw [View.canon_cons_unit_zero (S := S128x256) hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S2048x128) hz, View.ld_unit_zero (S := S128x256) hz, View.ld_unit_zero (S := S1x256) hz, View.readCov_unit_zero (S := S128x256) _ hz]

/-- The first point does the same to the initialisation accumulator. -/
theorem initFirst (c : Dev nD) (i : grid2.Coords) (a1 : Memref sig .tc .vmem S2048x128 .f32) (h1 : a1.IsWhole) (a2 : Memref sig .tc .vmem S2048x128 .f32) (h2 : a2.IsWhole) (a3 : Memref sig .tc .vmem S128x256 .f32) (h3 : a3.IsWhole) (a4 : Memref sig .tc .vmem S1x256 .f32) (h4 : a4.IsWhole) (a5 : Memref sig .tc .vmem S128x256 .f32) (h5 : a5.IsWhole) (a6 : Memref sig .tc .vmem S1x256 .f32) (h6 : a6.IsWhole) (a7 : Memref sig .tc .vmem S128x256 .f32) (h7 : a7.IsWhole) (a8 : Memref sig .tc .vmem S1x256 .f32) (h8 : a8.IsWhole) (a9 : Memref sig .tc .vmem S128x256 .f32) (h9 : a9.IsWhole) (a10 : Memref sig .tc .vmem S1x256 .f32) (h10 : a10.IsWhole) (a11 : Memref sig .tc .vmem S128x256 .f32) (h11 : a11.IsWhole) (a12 : Memref sig .tc .vmem S128x256 .f32) (h12 : a12.IsWhole) (hc : cond2_0 i) (x0 : Vec F S2048x128 .f32) (x1 : Vec F S2048x128 .f32) (x2 : Vec F S128x256 .f32) (x3 : Vec F S1x256 .f32) (x4 : Vec F S128x256 .f32) (x5 : Vec F S1x256 .f32) (x6 : Vec F S128x256 .f32) (x7 : Vec F S1x256 .f32) (x8 : Vec F S128x256 .f32) (x9 : Vec F S1x256 .f32) :
    out2_A_11 c i a1 h1 a2 h2 a3 h3 a4 h4 a5 h5 a6 h6 a7 h7 a8 h8 a9 h9 a10 h10 a11 h11 a12 h12 hc x0 x1 x2 x3 x4 x5 x6 x7 x8 x9 = k2_pay2 (k2_pay5 x0) (k2_pay6 x1) (k2_pay8 x8) (k2_pay9 x0 x6) x7 x9 (k2_pay4 (F := F)) := by
  unfold out2_A_11
  rw [View.read_writes_eq_canon _ _ _ (cover2_A_11 c i a1 h1 a2 h2 a3 h3 a4 h4 a5 h5 a6 h6 a7 h7 a8 h8 a9 h9 a10 h10 a11 h11 a12 h12 hc x0 x1 x2 x3 x4 x5 x6 x7 x8 x9)]
  unfold kernelRun2_A
  dsimp only
  sl_unfold_words
  rw [View.canon_cons_unit_zero (S := S128x256) hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S2048x128) hz, View.ld_unit_zero (S := S128x256) hz, View.ld_unit_zero (S := S1x256) hz, View.readCov_unit_zero (S := S128x256) _ hz]

end Pieces

/-! ## One node's term, and the regrouping of tiles and rows into nodes -/

/-- What node n contributes to graph b, column a. -/
def nodeTerm (x hot : Fin 65536 → Fin 128 → EReal) (WtT : Fin 128 → Fin 256 → EReal) (bt : Fin 256 → EReal)
    (WgT : Fin 128 → Fin 256 → EReal) (bg : Fin 256 → EReal) (b : Fin 128) (a : Fin 256) (n : Fin 65536) : EReal :=
  hot n b * (((∑ k, x n k * WtT k a) + bt a) * Ideal.logistic ((∑ k, x n k * WgT k a) + bg a))

theorem poolBody_eq_sum (x hot : Fin 65536 → Fin 128 → EReal) (WtT : Fin 128 → Fin 256 → EReal) (bt : Fin 256 → EReal)
    (WgT : Fin 128 → Fin 256 → EReal) (bg : Fin 256 → EReal) (b : Fin 128) (a : Fin 256) :
    poolBody x hot WtT bt WgT bg b a = ∑ n : Fin 65536, nodeTerm x hot WtT bt WgT bg b a n := rfl

/-- Row r of tile s is node 2048 s + r. -/
def node (s : ℕ) (hs : s < 32) (r : Fin 2048) : Fin 65536 := ⟨2048 * s + r.val, by have := r.isLt; omega⟩

/-- Tile and row against node number. -/
def nodeEquiv : Fin 32 × Fin 2048 ≃ Fin 65536 where
  toFun p := node p.1.val p.1.isLt p.2
  invFun n := (⟨n.val / 2048, by have := n.isLt; omega⟩, ⟨n.val % 2048, by omega⟩)
  left_inv p := by
    obtain ⟨⟨s, hs⟩, ⟨r, hr⟩⟩ := p
    refine Prod.ext (Fin.ext ?_) (Fin.ext ?_)
    · show (2048 * s + r) / 2048 = s; omega
    · show (2048 * s + r) % 2048 = r; omega
  right_inv n := by
    refine Fin.ext ?_
    show 2048 * (n.val / 2048) + n.val % 2048 = n.val
    omega

/-- What tile s adds, as a function of every natural number (nothing past the grid). -/
def tileAdd (f : Fin 65536 → EReal) (s : ℕ) : EReal := if hs : s < 32 then ∑ r : Fin 2048, f (node s hs r) else 0

/-- The 32 tiles' sums add up to the sum over all nodes: a sum in the extended reals regroups freely. -/
theorem sum_tiles (f : Fin 65536 → EReal) : ∑ s ∈ Finset.range 32, tileAdd f s = ∑ n : Fin 65536, f n := by
  rw [← Fin.sum_univ_eq_sum_range (tileAdd f) 32]
  have e : ∀ s : Fin 32, tileAdd f s.val = ∑ r : Fin 2048, f (nodeEquiv (s, r)) := fun s => dif_pos s.isLt
  rw [Finset.sum_congr rfl fun s _ => e s, ← Fintype.sum_prod_type' (fun s r => f (nodeEquiv (s, r)))]
  exact Fintype.sum_equiv nodeEquiv _ _ fun p => rfl

/-! ## The run: the accumulators after each grid point -/

section Run
variable (V : (c : Dev nD) → (b : Ref sig .tc) → Buf (Elt Ideal) ((c : Thread nD τ).loc b))

theorem idxAt0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idxAt1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)
theorem idxAt2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idxAt4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idxAt6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
theorem idxAt8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)
theorem idxAt3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idxAt5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem idxAt7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)
theorem idxAt9 : ∀ t : Fin cfg2.N, win2_9.index t (0 : Fin 2) = 0 ∧ win2_9.index t (1 : Fin 2) = 0 :=
  (by decide +kernel : ∀ t : Fin grid2.N, win2_9.index t (0 : Fin 2) = 0 ∧ win2_9.index t (1 : Fin 2) = 0)

/-- Window 0's block at point t, row r: the array's row 2048 t + r. -/
theorem blk0_apply (c : Dev nD) (t : Fin cfg2.N) (ht : t.val < 32) (r : Fin 2048) (k : Fin 128) :
    (iblk2 V c 0 t : S2048x128.Idx → EReal) (ix2 r k) = (V c main_v86 : S65536x128.Idx → EReal) (ix2 (node t.val ht r) k) := by
  unfold iblk2
  rw [View.read_apply]
  show V c main_v86 _ = V c main_v86 _
  congr 1
  funext ax
  apply Fin.ext
  match ax with
  | ⟨0, _⟩ => show win2_0.index t 0 * 2048 + 1 * r.val = 2048 * t.val + r.val; rw [(idxAt0 t).1]; omega
  | ⟨1, _⟩ => show win2_0.index t 1 * 128 + 1 * k.val = k.val; rw [(idxAt0 t).2]; omega

/-- Window 1's block at point t, row r: the array's row 2048 t + r. -/
theorem blk1_apply (c : Dev nD) (t : Fin cfg2.N) (ht : t.val < 32) (r : Fin 2048) (k : Fin 128) :
    (iblk2 V c 1 t : S2048x128.Idx → EReal) (ix2 r k) = (V c main_v87 : S65536x128.Idx → EReal) (ix2 (node t.val ht r) k) := by
  unfold iblk2
  rw [View.read_apply]
  show V c main_v87 _ = V c main_v87 _
  congr 1
  funext ax
  apply Fin.ext
  match ax with
  | ⟨0, _⟩ => show win2_1.index t 0 * 2048 + 1 * r.val = 2048 * t.val + r.val; rw [(idxAt1 t).1]; omega
  | ⟨1, _⟩ => show win2_1.index t 1 * 128 + 1 * k.val = k.val; rw [(idxAt1 t).2]; omega

/-- Window 2's block at any point is its whole array. -/
theorem blk2_apply (c : Dev nD) (t : Fin cfg2.N) (k : Fin 128) (a : Fin 256) :
    (iblk2 V c 2 t : S128x256.Idx → EReal) (ix2 k a) = (V c main_v88 : S128x256.Idx → EReal) (ix2 k a) := by
  unfold iblk2
  rw [View.read_apply]
  show V c main_v88 _ = V c main_v88 _
  congr 1
  funext ax
  apply Fin.ext
  match ax with
  | ⟨0, _⟩ => show win2_2.index t 0 * 128 + 1 * k.val = k.val; rw [(idxAt2 t).1]; omega
  | ⟨1, _⟩ => show win2_2.index t 1 * 256 + 1 * a.val = a.val; rw [(idxAt2 t).2]; omega

/-- Window 4's block at any point is its whole array. -/
theorem blk4_apply (c : Dev nD) (t : Fin cfg2.N) (k : Fin 128) (a : Fin 256) :
    (iblk2 V c 4 t : S128x256.Idx → EReal) (ix2 k a) = (V c main_v90 : S128x256.Idx → EReal) (ix2 k a) := by
  unfold iblk2
  rw [View.read_apply]
  show V c main_v90 _ = V c main_v90 _
  congr 1
  funext ax
  apply Fin.ext
  match ax with
  | ⟨0, _⟩ => show win2_4.index t 0 * 128 + 1 * k.val = k.val; rw [(idxAt4 t).1]; omega
  | ⟨1, _⟩ => show win2_4.index t 1 * 256 + 1 * a.val = a.val; rw [(idxAt4 t).2]; omega

/-- Window 6's block at any point is its whole array. -/
theorem blk6_apply (c : Dev nD) (t : Fin cfg2.N) (k : Fin 128) (a : Fin 256) :
    (iblk2 V c 6 t : S128x256.Idx → EReal) (ix2 k a) = (V c main_v92 : S128x256.Idx → EReal) (ix2 k a) := by
  unfold iblk2
  rw [View.read_apply]
  show V c main_v92 _ = V c main_v92 _
  congr 1
  funext ax
  apply Fin.ext
  match ax with
  | ⟨0, _⟩ => show win2_6.index t 0 * 128 + 1 * k.val = k.val; rw [(idxAt6 t).1]; omega
  | ⟨1, _⟩ => show win2_6.index t 1 * 256 + 1 * a.val = a.val; rw [(idxAt6 t).2]; omega

/-- Window 8's block at any point is its whole array. -/
theorem blk8_apply (c : Dev nD) (t : Fin cfg2.N) (k : Fin 128) (a : Fin 256) :
    (iblk2 V c 8 t : S128x256.Idx → EReal) (ix2 k a) = (V c main_v94 : S128x256.Idx → EReal) (ix2 k a) := by
  unfold iblk2
  rw [View.read_apply]
  show V c main_v94 _ = V c main_v94 _
  congr 1
  funext ax
  apply Fin.ext
  match ax with
  | ⟨0, _⟩ => show win2_8.index t 0 * 128 + 1 * k.val = k.val; rw [(idxAt8 t).1]; omega
  | ⟨1, _⟩ => show win2_8.index t 1 * 256 + 1 * a.val = a.val; rw [(idxAt8 t).2]; omega

/-- Window 3's block at any point is its whole one-row array. -/
theorem blk3_apply (c : Dev nD) (t : Fin cfg2.N) (z : Fin 1) (a : Fin 256) :
    (iblk2 V c 3 t : S1x256.Idx → EReal) (ix2 z a) = (V c main_v89 : S1x256.Idx → EReal) (ix2 z a) := by
  unfold iblk2
  rw [View.read_apply]
  show V c main_v89 _ = V c main_v89 _
  congr 1
  funext ax
  apply Fin.ext
  match ax with
  | ⟨0, _⟩ => show win2_3.index t 0 * 1 + 1 * z.val = z.val; rw [(idxAt3 t).1]; omega
  | ⟨1, _⟩ => show win2_3.index t 1 * 256 + 1 * a.val = a.val; rw [(idxAt3 t).2]; omega

/-- Window 5's block at any point is its whole one-row array. -/
theorem blk5_apply (c : Dev nD) (t : Fin cfg2.N) (z : Fin 1) (a : Fin 256) :
    (iblk2 V c 5 t : S1x256.Idx → EReal) (ix2 z a) = (V c main_v91 : S1x256.Idx → EReal) (ix2 z a) := by
  unfold iblk2
  rw [View.read_apply]
  show V c main_v91 _ = V c main_v91 _
  congr 1
  funext ax
  apply Fin.ext
  match ax with
  | ⟨0, _⟩ => show win2_5.index t 0 * 1 + 1 * z.val = z.val; rw [(idxAt5 t).1]; omega
  | ⟨1, _⟩ => show win2_5.index t 1 * 256 + 1 * a.val = a.val; rw [(idxAt5 t).2]; omega

/-- Window 7's block at any point is its whole one-row array. -/
theorem blk7_apply (c : Dev nD) (t : Fin cfg2.N) (z : Fin 1) (a : Fin 256) :
    (iblk2 V c 7 t : S1x256.Idx → EReal) (ix2 z a) = (V c main_v93 : S1x256.Idx → EReal) (ix2 z a) := by
  unfold iblk2
  rw [View.read_apply]
  show V c main_v93 _ = V c main_v93 _
  congr 1
  funext ax
  apply Fin.ext
  match ax with
  | ⟨0, _⟩ => show win2_7.index t 0 * 1 + 1 * z.val = z.val; rw [(idxAt7 t).1]; omega
  | ⟨1, _⟩ => show win2_7.index t 1 * 256 + 1 * a.val = a.val; rw [(idxAt7 t).2]; omega

/-- Window 9's block at any point is its whole one-row array. -/
theorem blk9_apply (c : Dev nD) (t : Fin cfg2.N) (z : Fin 1) (a : Fin 256) :
    (iblk2 V c 9 t : S1x256.Idx → EReal) (ix2 z a) = (V c main_v95 : S1x256.Idx → EReal) (ix2 z a) := by
  unfold iblk2
  rw [View.read_apply]
  show V c main_v95 _ = V c main_v95 _
  congr 1
  funext ax
  apply Fin.ext
  match ax with
  | ⟨0, _⟩ => show win2_9.index t 0 * 1 + 1 * z.val = z.val; rw [(idxAt9 t).1]; omega
  | ⟨1, _⟩ => show win2_9.index t 1 * 256 + 1 * a.val = a.val; rw [(idxAt9 t).2]; omega

/-- The decision head's term of node n, from the arrays as the region finds them. -/
abbrev decTerm (c : Dev nD) (b : Fin 128) (a : Fin 256) : Fin 65536 → EReal :=
  nodeTerm (m2 (V c main_v86 : S65536x128.Idx → EReal)) (m2 (V c main_v87 : S65536x128.Idx → EReal))
    (m2 (V c main_v88 : S128x256.Idx → EReal)) (m2row (V c main_v89 : S1x256.Idx → EReal) 0)
    (m2 (V c main_v90 : S128x256.Idx → EReal)) (m2row (V c main_v91 : S1x256.Idx → EReal) 0) b a

/-- The initialisation head's term of node n. -/
abbrev initTerm (c : Dev nD) (b : Fin 128) (a : Fin 256) : Fin 65536 → EReal :=
  nodeTerm (m2 (V c main_v86 : S65536x128.Idx → EReal)) (m2 (V c main_v87 : S65536x128.Idx → EReal))
    (m2 (V c main_v92 : S128x256.Idx → EReal)) (m2row (V c main_v93 : S1x256.Idx → EReal) 0)
    (m2 (V c main_v94 : S128x256.Idx → EReal)) (m2row (V c main_v95 : S1x256.Idx → EReal) 0) b a

/-- The tile sum of the blocks at point t is the sum of the decision terms of the tile's nodes. -/
theorem decTile (c : Dev nD) (t : Fin cfg2.N) (ht : t.val < 32) (b : Fin 128) (a : Fin 256) :
    tileSum (iblk2 V c 1 t) (iblk2 V c 0 t) (iblk2 V c 2 t) (iblk2 V c 4 t) (iblk2 V c 3 t) (iblk2 V c 5 t) b a
      = tileAdd (decTerm V c b a) t.val := by
  unfold tileSum tileAdd
  rw [dif_pos ht]
  refine Finset.sum_congr rfl fun r _ => ?_
  unfold decTerm nodeTerm
  refine congrArg₂ (· * ·) (blk1_apply V c t ht r b) (congrArg₂ (· * ·) (congrArg₂ (· + ·) ?_ (blk3_apply V c t 0 a)) (congrArg Ideal.logistic (congrArg₂ (· + ·) ?_ (blk5_apply V c t 0 a))))
  · exact Finset.sum_congr rfl fun k _ => congrArg₂ (· * ·) (blk0_apply V c t ht r k) (blk2_apply V c t k a)
  · exact Finset.sum_congr rfl fun k _ => congrArg₂ (· * ·) (blk0_apply V c t ht r k) (blk4_apply V c t k a)

/-- The same for the initialisation head. -/
theorem initTile (c : Dev nD) (t : Fin cfg2.N) (ht : t.val < 32) (b : Fin 128) (a : Fin 256) :
    tileSum (iblk2 V c 1 t) (iblk2 V c 0 t) (iblk2 V c 6 t) (iblk2 V c 8 t) (iblk2 V c 7 t) (iblk2 V c 9 t) b a
      = tileAdd (initTerm V c b a) t.val := by
  unfold tileSum tileAdd
  rw [dif_pos ht]
  refine Finset.sum_congr rfl fun r _ => ?_
  unfold initTerm nodeTerm
  refine congrArg₂ (· * ·) (blk1_apply V c t ht r b) (congrArg₂ (· * ·) (congrArg₂ (· + ·) ?_ (blk7_apply V c t 0 a)) (congrArg Ideal.logistic (congrArg₂ (· + ·) ?_ (blk9_apply V c t 0 a))))
  · exact Finset.sum_congr rfl fun k _ => congrArg₂ (· * ·) (blk0_apply V c t ht r k) (blk6_apply V c t k a)
  · exact Finset.sum_congr rfl fun k _ => congrArg₂ (· * ·) (blk0_apply V c t ht r k) (blk8_apply V c t k a)

/-- After point n the decision accumulator holds the sum of the terms of the nodes of tiles 0 … n. -/
theorem decAt (c : Dev nD) (b : Fin 128) (a : Fin 256) : ∀ (n : ℕ) (h : n < cfg2.N),
    ((outsAt2 (F := Ideal) V c n h).1 : S128x256.Idx → EReal) (ix2 b a) = ∑ s ∈ Finset.range (n + 1), tileAdd (decTerm V c b a) s
  | 0, h => by
    rw [outsAt2_A V c ⟨0, h⟩ rfl]
    dsimp only
    rw [decFirst]
    refine (decStore_apply _ _ _ _ _ _ _ b a).trans ?_
    rw [decClear_apply, zero_add, Finset.sum_range_one]
    exact decTile V c ⟨0, h⟩ (by show (0 : ℕ) < 32; omega) b a
  | n + 1, h => by
    have hN : cfg2.N = 32 := N_2
    have hB : ¬(⟨n + 1, h⟩ : Fin cfg2.N).val % 32 = 0 := by dsimp only; omega
    rw [outsAt2_B V c ⟨n + 1, h⟩ hB]
    dsimp only
    rw [decStep]
    refine (decStore_apply _ _ _ _ _ _ _ b a).trans ?_
    rw [Finset.sum_range_succ]
    exact congrArg₂ (· + ·) (decAt c b a n (Nat.lt_of_succ_lt h)) (decTile V c ⟨n + 1, h⟩ (by dsimp only; omega) b a)

/-- After point n the initialisation accumulator holds the sum of the terms of the nodes of tiles 0 … n. -/
theorem initAt (c : Dev nD) (b : Fin 128) (a : Fin 256) : ∀ (n : ℕ) (h : n < cfg2.N),
    ((outsAt2 (F := Ideal) V c n h).2 : S128x256.Idx → EReal) (ix2 b a) = ∑ s ∈ Finset.range (n + 1), tileAdd (initTerm V c b a) s
  | 0, h => by
    rw [outsAt2_A V c ⟨0, h⟩ rfl]
    dsimp only
    rw [initFirst]
    refine (initStore_apply _ _ _ _ _ _ _ b a).trans ?_
    rw [initClear_apply, zero_add, Finset.sum_range_one]
    exact initTile V c ⟨0, h⟩ (by show (0 : ℕ) < 32; omega) b a
  | n + 1, h => by
    have hN : cfg2.N = 32 := N_2
    have hB : ¬(⟨n + 1, h⟩ : Fin cfg2.N).val % 32 = 0 := by dsimp only; omega
    rw [outsAt2_B V c ⟨n + 1, h⟩ hB]
    dsimp only
    rw [initStep]
    refine (initStore_apply _ _ _ _ _ _ _ b a).trans ?_
    rw [Finset.sum_range_succ]
    exact congrArg₂ (· + ·) (initAt c b a n (Nat.lt_of_succ_lt h)) (initTile V c ⟨n + 1, h⟩ (by dsimp only; omega) b a)

/-! ## The arrays after the region: what the last point writes back -/

/-- The last grid point. -/
abbrev tLast : Fin cfg2.N := ⟨31, by rw [show cfg2.N = 32 from N_2]; decide⟩

/-- The decision accumulator after the last point, as contents of its array (the one block is the array). -/
abbrev decResult (c : Dev nD) : Buf (Elt Ideal) ((c : Thread nD τ).loc main_v96_0) := (outsAt2 (F := Ideal) V c tLast.val tLast.isLt).1
/-- The initialisation accumulator after the last point. -/
abbrev initResult (c : Dev nD) : Buf (Elt Ideal) ((c : Thread nD τ).loc main_v96_1) := (outsAt2 (F := Ideal) V c tLast.val tLast.isLt).2

theorem decFlushed (c : Dev nD) (t : Fin cfg2.N) (hf : (cfg2.win 10).flush t = true) :
    (dat2 (F := Ideal) V c).flushed 10 t = ((cfg2.win 10).blk t).view.read (Elt Ideal) (decResult V c) := by
  have hN : cfg2.N = 32 := N_2
  have h31 : t.val = 31 := by have := (flush2_10 t).mp hf; have := t.isLt; omega
  obtain rfl : t = tLast := Fin.ext h31
  show (cfg2.win 10).cut (grid2.coords tLast) ((dat2 (F := Ideal) V c).after 10 tLast) = _
  rw [after2_10]
  have hz' : (fun a => win2_10.index tLast a * main_v96_0.ty.shape.size a) = fun _ => 0 := funext fun a => by fin_cases a <;> decide
  exact (Memref.read_access_unit_zero (Elt Ideal) main_v96_0 hz' (fun a => by rw [congrFun hz' a]; simp) (decResult V c)).symm

theorem initFlushed (c : Dev nD) (t : Fin cfg2.N) (hf : (cfg2.win 11).flush t = true) :
    (dat2 (F := Ideal) V c).flushed 11 t = ((cfg2.win 11).blk t).view.read (Elt Ideal) (initResult V c) := by
  have hN : cfg2.N = 32 := N_2
  have h31 : t.val = 31 := by have := (flush2_11 t).mp hf; have := t.isLt; omega
  obtain rfl : t = tLast := Fin.ext h31
  show (cfg2.win 11).cut (grid2.coords tLast) ((dat2 (F := Ideal) V c).after 11 tLast) = _
  rw [after2_11]
  have hz' : (fun a => win2_11.index tLast a * main_v96_1.ty.shape.size a) = fun _ => 0 := funext fun a => by fin_cases a <;> decide
  exact (Memref.read_access_unit_zero (Elt Ideal) main_v96_1 hz' (fun a => by rw [congrFun hz' a]; simp) (initResult V c)).symm

/-- The decision array ends holding the accumulator after the last point: that point's block covers the array. -/
theorem decFinal (c : Dev nD) : (dat2 (F := Ideal) V c).arrAt 10 cfg2.N = decResult V c :=
  (dat2 (F := Ideal) V c).arrAt_eq_of_cover 10 (decResult V c) (decFlushed V c) fun i =>
    ⟨tLast, (flush2_10 tLast).mpr rfl, by
      show i ∈ ((View.whole main_v96_0).slice (win2_10.rect tLast)).set
      rw [View.set_slice_whole, Rect.mem_set_unit]
      intro ax
      have h0 : (i 0 : Nat) < 128 := (i 0).isLt
      have h1 : (i 1 : Nat) < 256 := (i 1).isLt
      match ax with
      | ⟨0, _⟩ => show win2_10.index tLast 0 * win2_10.size 0 ≤ (i 0 : Nat) ∧ (i 0 : Nat) < win2_10.index tLast 0 * win2_10.size 0 + win2_10.xsize (grid2.coords tLast) 0
                  rw [show win2_10.index tLast 0 * win2_10.size 0 = 0 from by decide +kernel, show win2_10.xsize (grid2.coords tLast) 0 = 128 from by decide +kernel]; omega
      | ⟨1, _⟩ => show win2_10.index tLast 1 * win2_10.size 1 ≤ (i 1 : Nat) ∧ (i 1 : Nat) < win2_10.index tLast 1 * win2_10.size 1 + win2_10.xsize (grid2.coords tLast) 1
                  rw [show win2_10.index tLast 1 * win2_10.size 1 = 0 from by decide +kernel, show win2_10.xsize (grid2.coords tLast) 1 = 256 from by decide +kernel]; omega⟩

/-- The initialisation array likewise. -/
theorem initFinal (c : Dev nD) : (dat2 (F := Ideal) V c).arrAt 11 cfg2.N = initResult V c :=
  (dat2 (F := Ideal) V c).arrAt_eq_of_cover 11 (initResult V c) (initFlushed V c) fun i =>
    ⟨tLast, (flush2_11 tLast).mpr rfl, by
      show i ∈ ((View.whole main_v96_1).slice (win2_11.rect tLast)).set
      rw [View.set_slice_whole, Rect.mem_set_unit]
      intro ax
      have h0 : (i 0 : Nat) < 128 := (i 0).isLt
      have h1 : (i 1 : Nat) < 256 := (i 1).isLt
      match ax with
      | ⟨0, _⟩ => show win2_11.index tLast 0 * win2_11.size 0 ≤ (i 0 : Nat) ∧ (i 0 : Nat) < win2_11.index tLast 0 * win2_11.size 0 + win2_11.xsize (grid2.coords tLast) 0
                  rw [show win2_11.index tLast 0 * win2_11.size 0 = 0 from by decide +kernel, show win2_11.xsize (grid2.coords tLast) 0 = 128 from by decide +kernel]; omega
      | ⟨1, _⟩ => show win2_11.index tLast 1 * win2_11.size 1 ≤ (i 1 : Nat) ∧ (i 1 : Nat) < win2_11.index tLast 1 * win2_11.size 1 + win2_11.xsize (grid2.coords tLast) 1
                  rw [show win2_11.index tLast 1 * win2_11.size 1 = 0 from by decide +kernel, show win2_11.xsize (grid2.coords tLast) 1 = 256 from by decide +kernel]; omega⟩

end Run

end Pool

open Pool

variable (V : (c : Dev nD) → (b : Ref sig .tc) → Buf (Elt Ideal) ((c : Thread nD τ).loc b))

/-- The decision head's pooled array after the region. -/
theorem region2_out10 (c : Dev nD) (b : Fin 128) (a : Fin 256) :
    ((dat2 (F := Ideal) V c).arrAt 10 cfg2.N : S128x256.Idx → EReal) (ix2 b a)
      = poolBody (m2 (V c main_v86 : S65536x128.Idx → EReal)) (m2 (V c main_v87 : S65536x128.Idx → EReal))
          (m2 (V c main_v88 : S128x256.Idx → EReal)) (m2row (V c main_v89 : S1x256.Idx → EReal) 0)
          (m2 (V c main_v90 : S128x256.Idx → EReal)) (m2row (V c main_v91 : S1x256.Idx → EReal) 0) b a := by
  rw [decFinal V c, poolBody_eq_sum]
  exact (decAt V c b a 31 tLast.isLt).trans (sum_tiles (decTerm V c b a))

/-- The initialisation head's pooled array after the region. -/
theorem region2_out11 (c : Dev nD) (b : Fin 128) (a : Fin 256) :
    ((dat2 (F := Ideal) V c).arrAt 11 cfg2.N : S128x256.Idx → EReal) (ix2 b a)
      = poolBody (m2 (V c main_v86 : S65536x128.Idx → EReal)) (m2 (V c main_v87 : S65536x128.Idx → EReal))
          (m2 (V c main_v92 : S128x256.Idx → EReal)) (m2row (V c main_v93 : S1x256.Idx → EReal) 0)
          (m2 (V c main_v94 : S128x256.Idx → EReal)) (m2row (V c main_v95 : S1x256.Idx → EReal) 0) b a := by
  rw [initFinal V c, poolBody_eq_sum]
  exact (initAt V c b a 31 tLast.isLt).trans (sum_tiles (initTerm V c b a))

end Cert.KernelIdeal.KV

end
-- ==== Proof.KPooled.lean ====
/-
  The kernel program's pooling: the host operations before the pooling region (the owner table, the heads' transposed
  matrices), and the region's two output arrays.

  The pooling region is handed the node table, the owner table and, per head, the data and gate matrices TRANSPOSED and
  the two biases as one-row arrays. The owner table is built on the host from the owner words: entry (n, b) is the
  number of the one-bit word "owner word n equals the word of b", so it is 1 or 0. A transposed matrix read at (k, a) is
  the argument at (a, k); a one-row bias read at (0, a) is the argument at a. The arguments themselves are written by
  nothing that runs before the pooling region, so they are still what was launched. With these, the sum the region
  forms over all nodes is, term by term, the pooled sum of the specification.
-/
import proofs.«423165_j21801253994886_2_alg».proof.Proof.Gen.KernelIdeal.Frame
import proofs.«423165_j21801253994886_2_alg».proof.Proof.KArgs
import proofs.«423165_j21801253994886_2_alg».proof.Proof.KPool
import Idealize.ShloMosaic.Lib.ValueLayout
import Idealize.ShloMosaic.Lib.Pipeline.Value

set_option maxRecDepth 16384

noncomputable section

namespace Cert.KernelIdeal.KV

open Idealize.ShloMosaic Idealize.ShloMosaic.TcCoe Idealize.ShloMosaic.ValueIdx Idealize.SL.Sem
open Cert.Gnn
open Cert.KernelIdeal Cert.KernelIdeal.Gen

variable (m : (ℓ : Loc nD τ sig) → Buf (Elt Ideal) ℓ) (ρ : Dev nD → PrngReg)

/-! ## The arguments the pooling stage reads are still as launched -/

/-- A buffer that no operation of a host stretch writes is carried across the stretch. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The decision head's data matrix (argument 10) at the second step region's exit: still as launched. -/
theorem launched_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := by host_keeps hostOps1_1
    _ = W2 m ρ c (Proc.devRef .tc main_arg10) := by host_keeps hostOps1
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl

/-- The decision head's data bias (argument 11) at the second step region's exit: still as launched. -/
theorem launched_arg11 (c : Dev nD) : W5 m ρ c (Proc.devRef .tc main_arg11) = m ((c : Thread nD τ).loc main_arg11) :=
  calc W5 m ρ c (Proc.devRef .tc main_arg11)
    _ = W4 m ρ c (Proc.devRef .tc main_arg11) := W5_of_ne m ρ c main_arg11 (by decide)
    _ = W3 m ρ c (Proc.devRef .tc main_arg11) := by host_keeps hostOps1_1
    _ = W2 m ρ c (Proc.devRef .tc main_arg11) := by host_keeps hostOps1
    _ = W1 m ρ c (Proc.devRef .tc main_arg11) := W2_of_ne m ρ c main_arg11 (by decide)
    _ = W0 m ρ c (Proc.devRef .tc main_arg11) := by host_keeps hostOps0
    _ = m ((c : Thread nD τ).loc main_arg11) := rfl

/-- The decision head's gate matrix (argument 12) at the second step region's exit: still as launched. -/
theorem launched_arg12 (c : Dev nD) : W5 m ρ c (Proc.devRef .tc main_arg12) = m ((c : Thread nD τ).loc main_arg12) :=
  calc W5 m ρ c (Proc.devRef .tc main_arg12)
    _ = W4 m ρ c (Proc.devRef .tc main_arg12) := W5_of_ne m ρ c main_arg12 (by decide)
    _ = W3 m ρ c (Proc.devRef .tc main_arg12) := by host_keeps hostOps1_1
    _ = W2 m ρ c (Proc.devRef .tc main_arg12) := by host_keeps hostOps1
    _ = W1 m ρ c (Proc.devRef .tc main_arg12) := W2_of_ne m ρ c main_arg12 (by decide)
    _ = W0 m ρ c (Proc.devRef .tc main_arg12) := by host_keeps hostOps0
    _ = m ((c : Thread nD τ).loc main_arg12) := rfl

/-- The decision head's gate bias (argument 13) at the second step region's exit: still as launched. -/
theorem launched_arg13 (c : Dev nD) : W5 m ρ c (Proc.devRef .tc main_arg13) = m ((c : Thread nD τ).loc main_arg13) :=
  calc W5 m ρ c (Proc.devRef .tc main_arg13)
    _ = W4 m ρ c (Proc.devRef .tc main_arg13) := W5_of_ne m ρ c main_arg13 (by decide)
    _ = W3 m ρ c (Proc.devRef .tc main_arg13) := by host_keeps hostOps1_1
    _ = W2 m ρ c (Proc.devRef .tc main_arg13) := by host_keeps hostOps1
    _ = W1 m ρ c (Proc.devRef .tc main_arg13) := W2_of_ne m ρ c main_arg13 (by decide)
    _ = W0 m ρ c (Proc.devRef .tc main_arg13) := by host_keeps hostOps0
    _ = m ((c : Thread nD τ).loc main_arg13) := rfl

/-- The initialisation head's data matrix (argument 14) at the second step region's exit: still as launched. -/
theorem launched_arg14 (c : Dev nD) : W5 m ρ c (Proc.devRef .tc main_arg14) = m ((c : Thread nD τ).loc main_arg14) :=
  calc W5 m ρ c (Proc.devRef .tc main_arg14)
    _ = W4 m ρ c (Proc.devRef .tc main_arg14) := W5_of_ne m ρ c main_arg14 (by decide)
    _ = W3 m ρ c (Proc.devRef .tc main_arg14) := by host_keeps hostOps1_1
    _ = W2 m ρ c (Proc.devRef .tc main_arg14) := by host_keeps hostOps1
    _ = W1 m ρ c (Proc.devRef .tc main_arg14) := W2_of_ne m ρ c main_arg14 (by decide)
    _ = W0 m ρ c (Proc.devRef .tc main_arg14) := by host_keeps hostOps0
    _ = m ((c : Thread nD τ).loc main_arg14) := rfl

/-- The initialisation head's data bias (argument 15) at the second step region's exit: still as launched. -/
theorem launched_arg15 (c : Dev nD) : W5 m ρ c (Proc.devRef .tc main_arg15) = m ((c : Thread nD τ).loc main_arg15) :=
  calc W5 m ρ c (Proc.devRef .tc main_arg15)
    _ = W4 m ρ c (Proc.devRef .tc main_arg15) := W5_of_ne m ρ c main_arg15 (by decide)
    _ = W3 m ρ c (Proc.devRef .tc main_arg15) := by host_keeps hostOps1_1
    _ = W2 m ρ c (Proc.devRef .tc main_arg15) := by host_keeps hostOps1
    _ = W1 m ρ c (Proc.devRef .tc main_arg15) := W2_of_ne m ρ c main_arg15 (by decide)
    _ = W0 m ρ c (Proc.devRef .tc main_arg15) := by host_keeps hostOps0
    _ = m ((c : Thread nD τ).loc main_arg15) := rfl

/-- The initialisation head's gate matrix (argument 16) at the second step region's exit: still as launched. -/
theorem launched_arg16 (c : Dev nD) : W5 m ρ c (Proc.devRef .tc main_arg16) = m ((c : Thread nD τ).loc main_arg16) :=
  calc W5 m ρ c (Proc.devRef .tc main_arg16)
    _ = W4 m ρ c (Proc.devRef .tc main_arg16) := W5_of_ne m ρ c main_arg16 (by decide)
    _ = W3 m ρ c (Proc.devRef .tc main_arg16) := by host_keeps hostOps1_1
    _ = W2 m ρ c (Proc.devRef .tc main_arg16) := by host_keeps hostOps1
    _ = W1 m ρ c (Proc.devRef .tc main_arg16) := W2_of_ne m ρ c main_arg16 (by decide)
    _ = W0 m ρ c (Proc.devRef .tc main_arg16) := by host_keeps hostOps0
    _ = m ((c : Thread nD τ).loc main_arg16) := rfl

/-- The initialisation head's gate bias (argument 17) at the second step region's exit: still as launched. -/
theorem launched_arg17 (c : Dev nD) : W5 m ρ c (Proc.devRef .tc main_arg17) = m ((c : Thread nD τ).loc main_arg17) :=
  calc W5 m ρ c (Proc.devRef .tc main_arg17)
    _ = W4 m ρ c (Proc.devRef .tc main_arg17) := W5_of_ne m ρ c main_arg17 (by decide)
    _ = W3 m ρ c (Proc.devRef .tc main_arg17) := by host_keeps hostOps1_1
    _ = W2 m ρ c (Proc.devRef .tc main_arg17) := by host_keeps hostOps1
    _ = W1 m ρ c (Proc.devRef .tc main_arg17) := W2_of_ne m ρ c main_arg17 (by decide)
    _ = W0 m ρ c (Proc.devRef .tc main_arg17) := by host_keeps hostOps0
    _ = m ((c : Thread nD τ).loc main_arg17) := rfl

/-- The owner words (argument 27) at the second step region's exit: still as launched. -/
theorem launched_arg27 (c : Dev nD) : W5 m ρ c (Proc.devRef .tc main_arg27) = m ((c : Thread nD τ).loc main_arg27) :=
  calc W5 m ρ c (Proc.devRef .tc main_arg27)
    _ = W4 m ρ c (Proc.devRef .tc main_arg27) := W5_of_ne m ρ c main_arg27 (by decide)
    _ = W3 m ρ c (Proc.devRef .tc main_arg27) := by host_keeps hostOps1_1
    _ = W2 m ρ c (Proc.devRef .tc main_arg27) := by host_keeps hostOps1
    _ = W1 m ρ c (Proc.devRef .tc main_arg27) := W2_of_ne m ρ c main_arg27 (by decide)
    _ = W0 m ρ c (Proc.devRef .tc main_arg27) := by host_keeps hostOps0
    _ = m ((c : Thread nD τ).loc main_arg27) := rfl

/-! ## The owner table -/

/-- The one-bit word of "x equals y", read as a number, is 1 when they are equal and 0 otherwise. -/
theorem toNat_cmpi_eq (x y : BitVec 32) : (((IntOp.cmpi .eq x y).toNat : ℝ) : EReal) = if x = y then 1 else 0 := by
  unfold IntOp.cmpi
  by_cases h : x = y
  · simp [h]
  · simp [h]

/-- The owner table as the pooling region finds it: entry (n, b) is 1 when node n's owner word is the word of b, else 0. -/
theorem owner_table (c : Dev nD) :
    m2 (V8 m ρ c main_v87 : S65536x128.Idx → EReal) = hot (m1 (a27 m c)) := by
  have e : (V8 m ρ c main_v87 : S65536x128.Idx → EReal)
      = uitofp (F := Ideal) .f32 (cmpi .eq
          (broadcastInDim S65536x128 ![0, 1] bcast_S65536x1_S65536x128_0_1
            (broadcastInDim S65536x1 ![0] bcast_S65536_S65536x1_0 (W5 m ρ c (Proc.devRef .tc main_arg27) : S65536.Idx → BitVec 32)))
          (broadcastInDim S65536x128 ![0, 1] bcast_S1x128_S65536x128_0_1 (iotaInDim S1x128 32 1))) := by
    show StableHlo.after hostOps2_2 (W7 m ρ c) (Proc.devRef .tc main_v87) = _
    rw [show StableHlo.after hostOps2_2 (W7 m ρ c) (Proc.devRef .tc main_v87) = W7 m ρ c (Proc.devRef .tc main_v87) by host_keeps hostOps2_2]
    show StableHlo.after hostOps2_1 (W6 m ρ c) (Proc.devRef .tc main_v87) = _
    after_results
    rfl
  funext n b
  show (V8 m ρ c main_v87 : S65536x128.Idx → EReal) (ix2 n b) = hot (m1 (a27 m c)) n b
  rw [e, launched_arg27]
  show ((((IntOp.cmpi .eq _ _ : BitVec 1).toNat : ℝ) : EReal)) = _
  rw [toNat_cmpi_eq]
  rw [broadcastInDim_apply _ _ _ (ix2 n b) (ix2 n (0 : Fin 1)) (fun a => match a with | ⟨0, _⟩ => rfl | ⟨1, _⟩ => rfl),
    broadcastInDim_apply _ _ _ (ix2 n (0 : Fin 1)) (ix1 n) (fun a => match a with | ⟨0, _⟩ => rfl),
    broadcastInDim_apply _ _ _ (ix2 n b) (ix2 (0 : Fin 1) b) (fun a => match a with | ⟨0, _⟩ => rfl | ⟨1, _⟩ => rfl)]
  rfl

/-! ## The heads' parameters as the pooling region finds them -/

/-- The decision head's data matrix as the pooling region finds it: argument 10 transposed. -/
theorem dec_data_matrix (c : Dev nD) :
    m2 (V8 m ρ c main_v88 : S128x256.Idx → EReal) = fun k a => m2 (a10 m c) a k := by
  have e : (V8 m ρ c main_v88 : S128x256.Idx → EReal)
      = transpose S128x256 [1, 0] (W5 m ρ c (Proc.devRef .tc main_arg10) : S256x128.Idx → EReal) transposes_S256x128_S128x256_1_0 := by
    show StableHlo.after hostOps2_2 (W7 m ρ c) (Proc.devRef .tc main_v88) = _
    after_results
  funext k a
  show (V8 m ρ c main_v88 : S128x256.Idx → EReal) (ix2 k a) = a10 m c (ix2 a k)
  rw [e, launched_arg10]
  exact transpose_ix2_apply _ _ k a

/-- The decision head's data bias as the pooling region finds it: argument 11 as one row. -/
theorem dec_data_bias (c : Dev nD) :
    m2row (V8 m ρ c main_v89 : S1x256.Idx → EReal) 0 = m1 (a11 m c) := by
  have e : (V8 m ρ c main_v89 : S1x256.Idx → EReal)
      = shapeCast S1x256 (W5 m ρ c (Proc.devRef .tc main_arg11) : S256.Idx → EReal) shapeCasts_S256_S1x256 := by
    show StableHlo.after hostOps2_2 (W7 m ρ c) (Proc.devRef .tc main_v89) = _
    after_results
    rfl
  funext a
  show (V8 m ρ c main_v89 : S1x256.Idx → EReal) (ix2 0 a) = a11 m c (ix1 a)
  rw [e, launched_arg11]
  exact shapeCast_a_1a_apply _ _ 0 a

/-- The decision head's gate matrix as the pooling region finds it: argument 12 transposed. -/
theorem dec_gate_matrix (c : Dev nD) :
    m2 (V8 m ρ c main_v90 : S128x256.Idx → EReal) = fun k a => m2 (a12 m c) a k := by
  have e : (V8 m ρ c main_v90 : S128x256.Idx → EReal)
      = transpose S128x256 [1, 0] (W5 m ρ c (Proc.devRef .tc main_arg12) : S256x128.Idx → EReal) transposes_S256x128_S128x256_1_0 := by
    show StableHlo.after hostOps2_2 (W7 m ρ c) (Proc.devRef .tc main_v90) = _
    after_results
  funext k a
  show (V8 m ρ c main_v90 : S128x256.Idx → EReal) (ix2 k a) = a12 m c (ix2 a k)
  rw [e, launched_arg12]
  exact transpose_ix2_apply _ _ k a

/-- The decision head's gate bias as the pooling region finds it: argument 13 as one row. -/
theorem dec_gate_bias (c : Dev nD) :
    m2row (V8 m ρ c main_v91 : S1x256.Idx → EReal) 0 = m1 (a13 m c) := by
  have e : (V8 m ρ c main_v91 : S1x256.Idx → EReal)
      = shapeCast S1x256 (W5 m ρ c (Proc.devRef .tc main_arg13) : S256.Idx → EReal) shapeCasts_S256_S1x256 := by
    show StableHlo.after hostOps2_2 (W7 m ρ c) (Proc.devRef .tc main_v91) = _
    after_results
    rfl
  funext a
  show (V8 m ρ c main_v91 : S1x256.Idx → EReal) (ix2 0 a) = a13 m c (ix1 a)
  rw [e, launched_arg13]
  exact shapeCast_a_1a_apply _ _ 0 a

/-- The initialisation head's data matrix as the pooling region finds it: argument 14 transposed. -/
theorem init_data_matrix (c : Dev nD) :
    m2 (V8 m ρ c main_v92 : S128x256.Idx → EReal) = fun k a => m2 (a14 m c) a k := by
  have e : (V8 m ρ c main_v92 : S128x256.Idx → EReal)
      = transpose S128x256 [1, 0] (W5 m ρ c (Proc.devRef .tc main_arg14) : S256x128.Idx → EReal) transposes_S256x128_S128x256_1_0 := by
    show StableHlo.after hostOps2_2 (W7 m ρ c) (Proc.devRef .tc main_v92) = _
    after_results
  funext k a
  show (V8 m ρ c main_v92 : S128x256.Idx → EReal) (ix2 k a) = a14 m c (ix2 a k)
  rw [e, launched_arg14]
  exact transpose_ix2_apply _ _ k a

/-- The initialisation head's data bias as the pooling region finds it: argument 15 as one row. -/
theorem init_data_bias (c : Dev nD) :
    m2row (V8 m ρ c main_v93 : S1x256.Idx → EReal) 0 = m1 (a15 m c) := by
  have e : (V8 m ρ c main_v93 : S1x256.Idx → EReal)
      = shapeCast S1x256 (W5 m ρ c (Proc.devRef .tc main_arg15) : S256.Idx → EReal) shapeCasts_S256_S1x256 := by
    show StableHlo.after hostOps2_2 (W7 m ρ c) (Proc.devRef .tc main_v93) = _
    after_results
    rfl
  funext a
  show (V8 m ρ c main_v93 : S1x256.Idx → EReal) (ix2 0 a) = a15 m c (ix1 a)
  rw [e, launched_arg15]
  exact shapeCast_a_1a_apply _ _ 0 a

/-- The initialisation head's gate matrix as the pooling region finds it: argument 16 transposed. -/
theorem init_gate_matrix (c : Dev nD) :
    m2 (V8 m ρ c main_v94 : S128x256.Idx → EReal) = fun k a => m2 (a16 m c) a k := by
  have e : (V8 m ρ c main_v94 : S128x256.Idx → EReal)
      = transpose S128x256 [1, 0] (W5 m ρ c (Proc.devRef .tc main_arg16) : S256x128.Idx → EReal) transposes_S256x128_S128x256_1_0 := by
    show StableHlo.after hostOps2_2 (W7 m ρ c) (Proc.devRef .tc main_v94) = _
    after_results
  funext k a
  show (V8 m ρ c main_v94 : S128x256.Idx → EReal) (ix2 k a) = a16 m c (ix2 a k)
  rw [e, launched_arg16]
  exact transpose_ix2_apply _ _ k a

/-- The initialisation head's gate bias as the pooling region finds it: argument 17 as one row. -/
theorem init_gate_bias (c : Dev nD) :
    m2row (V8 m ρ c main_v95 : S1x256.Idx → EReal) 0 = m1 (a17 m c) := by
  have e : (V8 m ρ c main_v95 : S1x256.Idx → EReal)
      = shapeCast S1x256 (W5 m ρ c (Proc.devRef .tc main_arg17) : S256.Idx → EReal) shapeCasts_S256_S1x256 := by
    show StableHlo.after hostOps2_2 (W7 m ρ c) (Proc.devRef .tc main_v95) = _
    after_results
    rfl
  funext a
  show (V8 m ρ c main_v95 : S1x256.Idx → EReal) (ix2 0 a) = a17 m c (ix1 a)
  rw [e, launched_arg17]
  exact shapeCast_a_1a_apply _ _ 0 a

/-! ## The pooling region's arrays after the region -/

/-- The pooling region reads the node table and leaves it as it found it. -/
theorem k_nodes_kept (c : Dev nD) :
    W9 m ρ c (Proc.devRef .tc main_v86) = W8 m ρ c (Proc.devRef .tc main_v86) :=
  (W9_arr m ρ c 0).trans (((dat2 (V8 m ρ) c).arrAt_in 0 rfl _).trans (A_eq2 (V8 m ρ) c 0))

/-- The decision head's pooled array. -/
theorem k_dec (c : Dev nD) (b : Fin 128) (a : Fin 256) :
    (W9 m ρ c (Proc.devRef .tc main_v96_0) : S128x256.Idx → EReal) (ix2 b a)
      = pooled (kqDec m c) (kg m c).owner (m2 (W8 m ρ c (Proc.devRef .tc main_v86) : S65536x128.Idx → EReal)) b a := by
  rw [show (W9 m ρ c (Proc.devRef .tc main_v96_0) : S128x256.Idx → EReal)
      = ((dat2 (F := Ideal) (V8 m ρ) c).arrAt 10 cfg2.N : S128x256.Idx → EReal) from W9_arr m ρ c 10]
  rw [region2_out10 (V8 m ρ) c b a, owner_table, dec_data_matrix, dec_data_bias, dec_gate_matrix, dec_gate_bias]
  rfl

/-- The initialisation head's pooled array. -/
theorem k_init (c : Dev nD) (b : Fin 128) (a : Fin 256) :
    (W9 m ρ c (Proc.devRef .tc main_v96_1) : S128x256.Idx → EReal) (ix2 b a)
      = pooled (kqInit m c) (kg m c).owner (m2 (W8 m ρ c (Proc.devRef .tc main_v86) : S65536x128.Idx → EReal)) b a := by
  rw [show (W9 m ρ c (Proc.devRef .tc main_v96_1) : S128x256.Idx → EReal)
      = ((dat2 (F := Ideal) (V8 m ρ) c).arrAt 11 cfg2.N : S128x256.Idx → EReal) from W9_arr m ρ c 11]
  rw [region2_out11 (V8 m ρ) c b a, owner_table, init_data_matrix, init_data_bias, init_gate_matrix, init_gate_bias]
  rfl

end Cert.KernelIdeal.KV

end
-- ==== Proof.RStep0.lean ====
/-
  The reference program's first propagation step read index by index: the edges' messages summed at their destination
  node, the recurrent cell, and the choice by the owner table's row sum.
-/
import proofs.«423165_j21801253994886_2_alg».proof.Proof.RRead
import proofs.«423165_j21801253994886_2_alg».proof.Proof.Spec
import proofs.«423165_j21801253994886_2_alg».proof.Proof.LibScatter

set_option maxRecDepth 16384

noncomputable section

namespace Cert.ReferenceIdeal.RV

open Idealize.ShloMosaic Idealize.ShloMosaic.TcCoe Idealize.ShloMosaic.ValueIdx Idealize.SL.Sem
open Cert.Gnn Cert.ReferenceIdeal Cert.ReferenceIdeal.ReadP

namespace Step0

/-- A one-bit equality word converted to a float is 1 or 0. -/
theorem uitofp_cmpi_eq (a c : BitVec 32) :
    (FloatOps.uitofp (F := Ideal) .f32 (IntOp.cmpi .eq a c) : EReal) = if a = c then 1 else 0 := by
  show (((IntOp.cmpi .eq a c).toNat : ℝ) : EReal) = _
  unfold IntOp.cmpi
  by_cases h : a = c
  · simp [h]
  · simp [h]

/-- Entry (k, n) of the transposed owner table: 1 when node n's owner word is the word of k, else 0. -/
theorem owner_entry (x27 : (⟨S65536, .i32⟩ : BufTy).Contents (Elt Ideal)) (n : Fin 65536) (k : Fin 128) :
    val_main_v1 (F := Ideal) x27 (ix2 k n) = hot (m1 x27) n k := by
  have e1 : idx_main_v1 (ix2 k n) = ix2 n k := funext fun a => Fin.ext (by match a with | ⟨0, _⟩ => rfl | ⟨1, _⟩ => rfl)
  have e2 : idx_main_call0_v2 (ix2 n k) = ix2 n (0 : Fin 1) := funext fun a => Fin.ext (by match a with | ⟨0, _⟩ => rfl | ⟨1, _⟩ => rfl)
  have e3 : idx_main_call0_v0 (ix2 n (0 : Fin 1)) = ix1 n := funext fun a => Fin.ext (by match a with | ⟨0, _⟩ => rfl)
  have e4 : idx_main_call0_v3 (ix2 n k) = ix2 (0 : Fin 1) k := funext fun a => Fin.ext (by match a with | ⟨0, _⟩ => rfl | ⟨1, _⟩ => rfl)
  rw [val_main_v1_apply, e1, val_main_v0_apply, val_main_call0_v4_apply, val_main_call0_v2_apply, e2, val_main_call0_v0_apply, e3,
    val_main_call0_v3_apply, e4, val_main_call0_v1_apply, uitofp_cmpi_eq]
  rfl

/-- A choice by the one-bit word of `b < a` is the choice by `b < a`. -/
theorem select_cmp_ogt {α : Type} (a b : EReal) (u v : α) [Decidable (b < a)] :
    Scalar.select (Ideal.cmp .ogt a b) u v = if b < a then u else v := by
  unfold Ideal.cmp Scalar.select
  by_cases h : b < a <;> simp [h]

/-- The broadcast update mask at (n, s): the one-bit word of "the owner table's row n has a positive sum". -/
theorem mask_apply (x27 : (⟨S65536, .i32⟩ : BufTy).Contents (Elt Ideal)) (n : Fin 65536) (s : Fin 128) :
    val_main_call1_v0 (F := Ideal) x27 (ix2 n s) = Ideal.cmp .ogt (∑ b : Fin 128, hot (m1 x27) n b) 0 := by
  have e1 : idx_main_call1_v0 (ix2 n s) = ix2 n (0 : Fin 1) := funext fun a => Fin.ext (by match a with | ⟨0, _⟩ => rfl | ⟨1, _⟩ => rfl)
  have e2 : idx_main_v5 (ix2 n (0 : Fin 1)) = ix1 n := funext fun a => Fin.ext (by match a with | ⟨0, _⟩ => rfl)
  have e3 : ∀ k : Fin 128, idx_main_v2 (ix1 n) k = ix2 k n := fun k => funext fun a => Fin.ext (by match a with | ⟨0, _⟩ => rfl | ⟨1, _⟩ => rfl)
  rw [val_main_call1_v0_apply, e1, val_main_v5_apply, e2, val_main_v4_apply, val_main_v2_apply, val_main_v3_apply, val_main_cst_apply, val_main_cst_0_apply]
  simp only [e3, owner_entry, Ideal.ofBits_def, Ideal.ofBits_zero_f32, zero_add]
  rfl
/-- Layer 0 of a stack of 256 x 128 matrices, sliced, flattened and transposed, at (k, j) is the stack at (0, j, k). -/
theorem w8 (x2 : (⟨S2x256x128, .f32⟩ : BufTy).Contents (Elt Ideal)) (k : Fin 128) (j : Fin 256) :
    val_main_v8 (F := Ideal) x2 (ix2 k j) = x2 (ix3 (0 : Fin 2) j k) := by
  have e1 : idx_main_v8 (ix2 k j) = ix2 j k := funext fun a => Fin.ext (by match a with | ⟨0, _⟩ => rfl | ⟨1, _⟩ => rfl)
  have e2 : idx_main_v6 (idx_main_v7 (ix2 j k)) = ix3 (0 : Fin 2) j k := funext fun a => Fin.ext (by
    have hj := j.isLt; have hk := k.isLt
    match a with
    | ⟨0, _⟩ => rfl
    | ⟨1, _⟩ => show (j.val * 128 + k.val) / 128 % 256 = j.val; omega
    | ⟨2, _⟩ => show (j.val * 128 + k.val) % 128 = k.val; omega)
  rw [val_main_v8_apply, e1, val_main_v7_apply, val_main_v6_apply, e2]

/-- The source word of edge e, compared with 0, 65536 added, selected: the wrapped word. -/
theorem wrap_src (x24 : (⟨S655360, .i32⟩ : BufTy).Contents (Elt Ideal)) (e : Fin 655360) :
    val_main_v27 (F := Ideal) x24 (ix1 e) = wrap 65536 (x24 (ix1 e)) := by
  rw [val_main_v27_apply, val_main_v24_apply, val_main_v26_apply, val_main_v23_apply, val_main_v25_apply, val_main_c_apply, val_main_c_1_apply]
  unfold wrap Scalar.select IntOp.cmpi IntOp.addi
  by_cases h : (x24 (ix1 e)).toInt < 0
  · simp [h, BitVec.slt]
  · simp [h, BitVec.slt]

/-- The row gather of this program at (e, j): the operand at the row its index word names, clamped, column j. -/
theorem gather_apply (op : (⟨S65536x256, .f32⟩ : BufTy).Contents (Elt Ideal)) (ix : (⟨S655360x1, .i32⟩ : BufTy).Contents (Elt Ideal)) (e : Fin 655360) (j : Fin 256) :
    Host.gather gather_S65536x256_S655360x1_S655360x256_1_0_n_n_0_1_1256 op ix (ix2 e j)
      = op (ix2 (Cert.Gcn.crow 65536 (by norm_num) (ix (ix2 e (0 : Fin 1)))) j) :=
  Cert.Gcn.gatherRows_apply (by norm_num) gather_S65536x256_S655360x1_S655360x256_1_0_n_n_0_1_1256.wf op ix (ix2 e j)

/-- The row scatter-add of this program at (n, j): the operand there plus column j of the update rows whose index word, read signed, is n. -/
theorem scatter_apply (op : (⟨S65536x256, .f32⟩ : BufTy).Contents (Elt Ideal)) (ix : (⟨S655360x1, .i32⟩ : BufTy).Contents (Elt Ideal)) (up : (⟨S655360x256, .f32⟩ : BufTy).Contents (Elt Ideal)) (n : Fin 65536) (j : Fin 256) :
    Host.scatterAdd (F := Ideal) (φ := .f32) scatter_S65536x256_S655360x1_S655360x256_1_0_0_1 op ix up (ix2 n j)
      = op (ix2 n j) + ∑ e ∈ Finset.univ.filter (fun e : Fin 655360 => (ix (ix2 e (0 : Fin 1))).toInt = (n.val : Int)), up (ix2 e j) :=
  Cert.Gcn.scatterAddRows_apply scatter_S65536x256_S655360x1_S655360x256_1_0_0_1.wf op ix up n j

/-- Layer 0 of a stack of 256 x 128 matrices, sliced out, flattened and transposed: at (k, j) it is the stack at (0, j, k). -/
theorem w12 (x3 : (⟨S2x256x128, .f32⟩ : BufTy).Contents (Elt Ideal)) (k : Fin 128) (j : Fin 256) :
    val_main_v12 (F := Ideal) x3 (ix2 k j) = x3 (ix3 (0 : Fin 2) j k) := by
  have e1 : idx_main_v12 (ix2 k j) = ix2 j k := funext fun a => Fin.ext (by match a with | ⟨0, _⟩ => rfl | ⟨1, _⟩ => rfl)
  have e2 : idx_main_v10 (idx_main_v11 (ix2 j k)) = ix3 (0 : Fin 2) j k := funext fun a => Fin.ext (by
    have hj := j.isLt; have hk := k.isLt
    match a with
    | ⟨0, _⟩ => rfl
    | ⟨1, _⟩ => show (j.val * 128 + k.val) / 128 % 256 = j.val; omega
    | ⟨2, _⟩ => show (j.val * 128 + k.val) % 128 = k.val; omega)
  rw [val_main_v12_apply, e1, val_main_v11_apply, val_main_v10_apply, e2]

/-- Layer 0 of a stack of 256 x 128 matrices, sliced out, flattened and transposed: at (k, j) it is the stack at (0, j, k). -/
theorem w21 (x5 : (⟨S2x256x128, .f32⟩ : BufTy).Contents (Elt Ideal)) (k : Fin 128) (j : Fin 256) :
    val_main_v21 (F := Ideal) x5 (ix2 k j) = x5 (ix3 (0 : Fin 2) j k) := by
  have e1 : idx_main_v21 (ix2 k j) = ix2 j k := funext fun a => Fin.ext (by match a with | ⟨0, _⟩ => rfl | ⟨1, _⟩ => rfl)
  have e2 : idx_main_v19 (idx_main_v20 (ix2 j k)) = ix3 (0 : Fin 2) j k := funext fun a => Fin.ext (by
    have hj := j.isLt; have hk := k.isLt
    match a with
    | ⟨0, _⟩ => rfl
    | ⟨1, _⟩ => show (j.val * 128 + k.val) / 128 % 256 = j.val; omega
    | ⟨2, _⟩ => show (j.val * 128 + k.val) % 128 = k.val; omega)
  rw [val_main_v21_apply, e1, val_main_v20_apply, val_main_v19_apply, e2]

/-- Row 0 of a stack of 256-vectors, sliced out, flattened and broadcast down the rows: at (r, j) it is the stack at (0, j). -/
theorem b17 (x4 : (⟨S2x256, .f32⟩ : BufTy).Contents (Elt Ideal)) (r : Fin 65536) (j : Fin 256) :
    val_main_v17 (F := Ideal) x4 (ix2 r j) = x4 (ix2 (0 : Fin 2) j) := by
  have e1 : idx_main_v17 (ix2 r j) = ix2 (0 : Fin 1) j := funext fun a => Fin.ext (by match a with | ⟨0, _⟩ => rfl | ⟨1, _⟩ => rfl)
  have e2 : idx_main_v16 (ix2 (0 : Fin 1) j) = ix1 j := funext fun a => Fin.ext (by match a with | ⟨0, _⟩ => rfl)
  have e3 : idx_main_v14 (idx_main_v15 (ix1 j)) = ix2 (0 : Fin 2) j := funext fun a => Fin.ext (by
    have hj := j.isLt
    match a with
    | ⟨0, _⟩ => rfl
    | ⟨1, _⟩ => show j.val % 256 = j.val; omega)
  rw [val_main_v17_apply, e1, val_main_v16_apply, e2, val_main_v15_apply, val_main_v14_apply, e3]

/-- The destination word of edge e, wrapped the same way. -/
theorem wrap_dst (x25 : (⟨S655360, .i32⟩ : BufTy).Contents (Elt Ideal)) (e : Fin 655360) :
    val_main_v34 (F := Ideal) x25 (ix1 e) = wrap 65536 (x25 (ix1 e)) := by
  rw [val_main_v34_apply, val_main_v31_apply, val_main_v33_apply, val_main_v30_apply, val_main_v32_apply, val_main_c_2_apply, val_main_c_3_apply]
  unfold wrap Scalar.select IntOp.cmpi IntOp.addi
  by_cases h : (x25 (ix1 e)).toInt < 0
  · simp [h, BitVec.slt]
  · simp [h, BitVec.slt]

/-- The gathered source projection of edge e: row rowOf (src e) of nodes times layer 0 of Wsrc, transposed. -/
theorem src_apply (x0 : (⟨S65536x128, .f32⟩ : BufTy).Contents (Elt Ideal)) (x2 : (⟨S2x256x128, .f32⟩ : BufTy).Contents (Elt Ideal)) (x24 : (⟨S655360, .i32⟩ : BufTy).Contents (Elt Ideal)) (e : Fin 655360) (j : Fin 256) :
    val_main_v29 (F := Ideal) x0 x2 x24 (ix2 e j) = ∑ k : Fin 128, x0 (ix2 (rowOf (x24 (ix1 e))) k) * x2 (ix3 (0 : Fin 2) j k) := by
  have e1 : idx_main_v28 (ix2 e (0 : Fin 1)) = ix1 e := funext fun a => Fin.ext (by match a with | ⟨0, _⟩ => rfl)
  have el : ∀ (r : Fin 65536) (k : Fin 128), lidx_main_v9 (ix2 r j) k = ix2 r k := fun r k => funext fun a => Fin.ext (by match a with | ⟨0, _⟩ => rfl | ⟨1, _⟩ => rfl)
  have er : ∀ (r : Fin 65536) (k : Fin 128), ridx_main_v9 (ix2 r j) k = ix2 k j := fun r k => funext fun a => Fin.ext (by match a with | ⟨0, _⟩ => rfl | ⟨1, _⟩ => rfl)
  unfold val_main_v29
  rw [gather_apply, val_main_v28_apply, e1, wrap_src, val_main_v9_apply]
  simp only [el, er, w8]
  rfl

/-- The gathered destination projection of edge e. -/
theorem dest_apply (x0 : (⟨S65536x128, .f32⟩ : BufTy).Contents (Elt Ideal)) (x3 : (⟨S2x256x128, .f32⟩ : BufTy).Contents (Elt Ideal)) (x4 : (⟨S2x256, .f32⟩ : BufTy).Contents (Elt Ideal)) (x25 : (⟨S655360, .i32⟩ : BufTy).Contents (Elt Ideal)) (e : Fin 655360) (j : Fin 256) :
    val_main_v36 (F := Ideal) x0 x3 x4 x25 (ix2 e j)
      = (∑ k : Fin 128, x0 (ix2 (rowOf (x25 (ix1 e))) k) * x3 (ix3 (0 : Fin 2) j k)) + x4 (ix2 (0 : Fin 2) j) := by
  have e1 : idx_main_v35 (ix2 e (0 : Fin 1)) = ix1 e := funext fun a => Fin.ext (by match a with | ⟨0, _⟩ => rfl)
  have el : ∀ (r : Fin 65536) (k : Fin 128), lidx_main_v13 (ix2 r j) k = ix2 r k := fun r k => funext fun a => Fin.ext (by match a with | ⟨0, _⟩ => rfl | ⟨1, _⟩ => rfl)
  have er : ∀ (r : Fin 65536) (k : Fin 128), ridx_main_v13 (ix2 r j) k = ix2 k j := fun r k => funext fun a => Fin.ext (by match a with | ⟨0, _⟩ => rfl | ⟨1, _⟩ => rfl)
  unfold val_main_v36
  rw [gather_apply, val_main_v35_apply, e1, wrap_dst, val_main_v18_apply, val_main_v13_apply, b17]
  simp only [el, er, w12, Ideal.addf_def]
  rfl

/-- The edge-feature projection of edge e. -/
theorem feat_apply (x1 : (⟨S655360x128, .f32⟩ : BufTy).Contents (Elt Ideal)) (x5 : (⟨S2x256x128, .f32⟩ : BufTy).Contents (Elt Ideal)) (e : Fin 655360) (j : Fin 256) :
    val_main_v22 (F := Ideal) x1 x5 (ix2 e j) = ∑ k : Fin 128, x1 (ix2 e k) * x5 (ix3 (0 : Fin 2) j k) := by
  have el : ∀ (k : Fin 128), lidx_main_v22 (ix2 e j) k = ix2 e k := fun k => funext fun a => Fin.ext (by match a with | ⟨0, _⟩ => rfl | ⟨1, _⟩ => rfl)
  have er : ∀ (k : Fin 128), ridx_main_v22 (ix2 e j) k = ix2 k j := fun k => funext fun a => Fin.ext (by match a with | ⟨0, _⟩ => rfl | ⟨1, _⟩ => rfl)
  rw [val_main_v22_apply]
  simp only [el, er, w21]

/-- The segment sum of the messages at node n, column j. -/
theorem agg_apply (x0 : (⟨S65536x128, .f32⟩ : BufTy).Contents (Elt Ideal)) (x1 : (⟨S655360x128, .f32⟩ : BufTy).Contents (Elt Ideal)) (x2 : (⟨S2x256x128, .f32⟩ : BufTy).Contents (Elt Ideal)) (x3 : (⟨S2x256x128, .f32⟩ : BufTy).Contents (Elt Ideal)) (x4 : (⟨S2x256, .f32⟩ : BufTy).Contents (Elt Ideal)) (x5 : (⟨S2x256x128, .f32⟩ : BufTy).Contents (Elt Ideal)) (x6 : (⟨S2x384x256, .f32⟩ : BufTy).Contents (Elt Ideal)) (x7 : (⟨S2x384x128, .f32⟩ : BufTy).Contents (Elt Ideal)) (x8 : (⟨S2x384, .f32⟩ : BufTy).Contents (Elt Ideal)) (x9 : (⟨S2x384, .f32⟩ : BufTy).Contents (Elt Ideal)) (x24 : (⟨S655360, .i32⟩ : BufTy).Contents (Elt Ideal)) (x25 : (⟨S655360, .i32⟩ : BufTy).Contents (Elt Ideal)) (x27 : (⟨S65536, .i32⟩ : BufTy).Contents (Elt Ideal)) (n : Fin 65536) (j : Fin 256) :
    val_main_v41 (F := Ideal) x0 x1 x2 x3 x4 x5 x24 x25 (ix2 n j)
      = aggR (stepParams 0 x2 x3 x4 x5 x6 x7 x8 x9) (graphOf x1 x24 x25 x27) (m2 x0) n j := by
  have hidx : ∀ e : Fin 655360, val_main_v40 (F := Ideal) x25 (ix2 e (0 : Fin 1)) = x25 (ix1 e) := fun e => by
    have e1 : idx_main_v40 (ix2 e (0 : Fin 1)) = ix1 e := funext fun a => Fin.ext (by match a with | ⟨0, _⟩ => rfl)
    rw [val_main_v40_apply, e1]
  unfold val_main_v41
  rw [scatter_apply, val_main_v39_apply, val_main_cst_4_apply, Ideal.ofBits_def, Ideal.ofBits_zero_f32, zero_add]
  simp only [hidx, val_main_v38_apply, val_main_v37_apply, src_apply, dest_apply, feat_apply, Ideal.addf_def]
  rfl

/-- Layer 0 of a stack of 384 x 256 matrices, sliced out, flattened and transposed: at (k, j) it is the stack at (0, j, k). -/
theorem w44 (x6 : (⟨S2x384x256, .f32⟩ : BufTy).Contents (Elt Ideal)) (k : Fin 256) (j : Fin 384) :
    val_main_v44 (F := Ideal) x6 (ix2 k j) = x6 (ix3 (0 : Fin 2) j k) := by
  have e1 : idx_main_v44 (ix2 k j) = ix2 j k := funext fun a => Fin.ext (by match a with | ⟨0, _⟩ => rfl | ⟨1, _⟩ => rfl)
  have e2 : idx_main_v42 (idx_main_v43 (ix2 j k)) = ix3 (0 : Fin 2) j k := funext fun a => Fin.ext (by
    have hj := j.isLt; have hk := k.isLt
    match a with
    | ⟨0, _⟩ => rfl
    | ⟨1, _⟩ => show (j.val * 256 + k.val) / 256 % 384 = j.val; omega
    | ⟨2, _⟩ => show (j.val * 256 + k.val) % 256 = k.val; omega)
  rw [val_main_v44_apply, e1, val_main_v43_apply, val_main_v42_apply, e2]

/-- Layer 0 of a stack of 384 x 128 matrices, sliced out, flattened and transposed: at (k, j) it is the stack at (0, j, k). -/
theorem w53 (x7 : (⟨S2x384x128, .f32⟩ : BufTy).Contents (Elt Ideal)) (k : Fin 128) (j : Fin 384) :
    val_main_v53 (F := Ideal) x7 (ix2 k j) = x7 (ix3 (0 : Fin 2) j k) := by
  have e1 : idx_main_v53 (ix2 k j) = ix2 j k := funext fun a => Fin.ext (by match a with | ⟨0, _⟩ => rfl | ⟨1, _⟩ => rfl)
  have e2 : idx_main_v51 (idx_main_v52 (ix2 j k)) = ix3 (0 : Fin 2) j k := funext fun a => Fin.ext (by
    have hj := j.isLt; have hk := k.isLt
    match a with
    | ⟨0, _⟩ => rfl
    | ⟨1, _⟩ => show (j.val * 128 + k.val) / 128 % 384 = j.val; omega
    | ⟨2, _⟩ => show (j.val * 128 + k.val) % 128 = k.val; omega)
  rw [val_main_v53_apply, e1, val_main_v52_apply, val_main_v51_apply, e2]

/-- Row 0 of a stack of 384-vectors, sliced out, flattened and broadcast down the rows: at (r, j) it is the stack at (0, j). -/
theorem b49 (x8 : (⟨S2x384, .f32⟩ : BufTy).Contents (Elt Ideal)) (r : Fin 65536) (j : Fin 384) :
    val_main_v49 (F := Ideal) x8 (ix2 r j) = x8 (ix2 (0 : Fin 2) j) := by
  have e1 : idx_main_v49 (ix2 r j) = ix2 (0 : Fin 1) j := funext fun a => Fin.ext (by match a with | ⟨0, _⟩ => rfl | ⟨1, _⟩ => rfl)
  have e2 : idx_main_v48 (ix2 (0 : Fin 1) j) = ix1 j := funext fun a => Fin.ext (by match a with | ⟨0, _⟩ => rfl)
  have e3 : idx_main_v46 (idx_main_v47 (ix1 j)) = ix2 (0 : Fin 2) j := funext fun a => Fin.ext (by
    have hj := j.isLt
    match a with
    | ⟨0, _⟩ => rfl
    | ⟨1, _⟩ => show j.val % 384 = j.val; omega)
  rw [val_main_v49_apply, e1, val_main_v48_apply, e2, val_main_v47_apply, val_main_v46_apply, e3]

/-- Row 0 of a stack of 384-vectors, sliced out, flattened and broadcast down the rows: at (r, j) it is the stack at (0, j). -/
theorem b58 (x9 : (⟨S2x384, .f32⟩ : BufTy).Contents (Elt Ideal)) (r : Fin 65536) (j : Fin 384) :
    val_main_v58 (F := Ideal) x9 (ix2 r j) = x9 (ix2 (0 : Fin 2) j) := by
  have e1 : idx_main_v58 (ix2 r j) = ix2 (0 : Fin 1) j := funext fun a => Fin.ext (by match a with | ⟨0, _⟩ => rfl | ⟨1, _⟩ => rfl)
  have e2 : idx_main_v57 (ix2 (0 : Fin 1) j) = ix1 j := funext fun a => Fin.ext (by match a with | ⟨0, _⟩ => rfl)
  have e3 : idx_main_v55 (idx_main_v56 (ix1 j)) = ix2 (0 : Fin 2) j := funext fun a => Fin.ext (by
    have hj := j.isLt
    match a with
    | ⟨0, _⟩ => rfl
    | ⟨1, _⟩ => show j.val % 384 = j.val; omega)
  rw [val_main_v58_apply, e1, val_main_v57_apply, e2, val_main_v56_apply, val_main_v55_apply, e3]

/-- The float word of 1.0 is the extended real 1. -/
theorem one_eq : Ideal.ofBits .f32 0x3F800000#32 = (1 : EReal) := by
  simp [Ideal.ofBits, Ideal.ieee, -EReal.coe_mul]; norm_num

/-- The input gates' pre-activation at node n, column c, over the aggregated message's row. -/
theorem gi_apply (x0 : (⟨S65536x128, .f32⟩ : BufTy).Contents (Elt Ideal)) (x1 : (⟨S655360x128, .f32⟩ : BufTy).Contents (Elt Ideal)) (x2 : (⟨S2x256x128, .f32⟩ : BufTy).Contents (Elt Ideal)) (x3 : (⟨S2x256x128, .f32⟩ : BufTy).Contents (Elt Ideal)) (x4 : (⟨S2x256, .f32⟩ : BufTy).Contents (Elt Ideal)) (x5 : (⟨S2x256x128, .f32⟩ : BufTy).Contents (Elt Ideal)) (x6 : (⟨S2x384x256, .f32⟩ : BufTy).Contents (Elt Ideal)) (x7 : (⟨S2x384x128, .f32⟩ : BufTy).Contents (Elt Ideal)) (x8 : (⟨S2x384, .f32⟩ : BufTy).Contents (Elt Ideal)) (x9 : (⟨S2x384, .f32⟩ : BufTy).Contents (Elt Ideal)) (x24 : (⟨S655360, .i32⟩ : BufTy).Contents (Elt Ideal)) (x25 : (⟨S655360, .i32⟩ : BufTy).Contents (Elt Ideal)) (x27 : (⟨S65536, .i32⟩ : BufTy).Contents (Elt Ideal)) (n : Fin 65536) (c : Fin 384) :
    val_main_v50 (F := Ideal) x0 x1 x2 x3 x4 x5 x6 x8 x24 x25 (ix2 n c)
      = (∑ k : Fin 256, val_main_v41 (F := Ideal) x0 x1 x2 x3 x4 x5 x24 x25 (ix2 n k) * x6 (ix3 (0 : Fin 2) c k)) + x8 (ix2 (0 : Fin 2) c) := by
  have el : ∀ (k : Fin 256), lidx_main_v45 (ix2 n c) k = ix2 n k := fun k => funext fun a => Fin.ext (by match a with | ⟨0, _⟩ => rfl | ⟨1, _⟩ => rfl)
  have er : ∀ (k : Fin 256), ridx_main_v45 (ix2 n c) k = ix2 k c := fun k => funext fun a => Fin.ext (by match a with | ⟨0, _⟩ => rfl | ⟨1, _⟩ => rfl)
  rw [val_main_v50_apply, val_main_v45_apply, b49]
  simp only [el, er, w44, Ideal.addf_def]

/-- The state gates' pre-activation at node n, column c. -/
theorem gh_apply (x0 : (⟨S65536x128, .f32⟩ : BufTy).Contents (Elt Ideal)) (x7 : (⟨S2x384x128, .f32⟩ : BufTy).Contents (Elt Ideal)) (x9 : (⟨S2x384, .f32⟩ : BufTy).Contents (Elt Ideal)) (n : Fin 65536) (c : Fin 384) :
    val_main_v59 (F := Ideal) x0 x7 x9 (ix2 n c)
      = (∑ k : Fin 128, x0 (ix2 n k) * x7 (ix3 (0 : Fin 2) c k)) + x9 (ix2 (0 : Fin 2) c) := by
  have el : ∀ (k : Fin 128), lidx_main_v54 (ix2 n c) k = ix2 n k := fun k => funext fun a => Fin.ext (by match a with | ⟨0, _⟩ => rfl | ⟨1, _⟩ => rfl)
  have er : ∀ (k : Fin 128), ridx_main_v54 (ix2 n c) k = ix2 k c := fun k => funext fun a => Fin.ext (by match a with | ⟨0, _⟩ => rfl | ⟨1, _⟩ => rfl)
  rw [val_main_v59_apply, val_main_v54_apply, b58]
  simp only [el, er, w53, Ideal.addf_def]

/-- The recurrent cell at node n, feature s, over the aggregated message's row. -/
theorem cell_apply (x0 : (⟨S65536x128, .f32⟩ : BufTy).Contents (Elt Ideal)) (x1 : (⟨S655360x128, .f32⟩ : BufTy).Contents (Elt Ideal)) (x2 : (⟨S2x256x128, .f32⟩ : BufTy).Contents (Elt Ideal)) (x3 : (⟨S2x256x128, .f32⟩ : BufTy).Contents (Elt Ideal)) (x4 : (⟨S2x256, .f32⟩ : BufTy).Contents (Elt Ideal)) (x5 : (⟨S2x256x128, .f32⟩ : BufTy).Contents (Elt Ideal)) (x6 : (⟨S2x384x256, .f32⟩ : BufTy).Contents (Elt Ideal)) (x7 : (⟨S2x384x128, .f32⟩ : BufTy).Contents (Elt Ideal)) (x8 : (⟨S2x384, .f32⟩ : BufTy).Contents (Elt Ideal)) (x9 : (⟨S2x384, .f32⟩ : BufTy).Contents (Elt Ideal)) (x24 : (⟨S655360, .i32⟩ : BufTy).Contents (Elt Ideal)) (x25 : (⟨S655360, .i32⟩ : BufTy).Contents (Elt Ideal)) (x27 : (⟨S65536, .i32⟩ : BufTy).Contents (Elt Ideal)) (n : Fin 65536) (s : Fin 128) :
    val_main_v87 (F := Ideal) x0 x1 x2 x3 x4 x5 x6 x7 x8 x9 x24 x25 (ix2 n s)
      = gru (stepParams 0 x2 x3 x4 x5 x6 x7 x8 x9) (m2 x0 n)
          (fun k => val_main_v41 (F := Ideal) x0 x1 x2 x3 x4 x5 x24 x25 (ix2 n k)) s := by
  have s60 : idx_main_v60 (ix2 n s) = ix2 n (blk0 s) := funext fun a => Fin.ext (by match a with | ⟨0, _⟩ => rfl | ⟨1, _⟩ => rfl)
  have s61 : idx_main_v61 (ix2 n s) = ix2 n (blk1 s) := funext fun a => Fin.ext (by match a with | ⟨0, _⟩ => rfl | ⟨1, _⟩ => rfl)
  have s62 : idx_main_v62 (ix2 n s) = ix2 n (blk2 s) := funext fun a => Fin.ext (by match a with | ⟨0, _⟩ => rfl | ⟨1, _⟩ => rfl)
  have s63 : idx_main_v63 (ix2 n s) = ix2 n (blk0 s) := funext fun a => Fin.ext (by match a with | ⟨0, _⟩ => rfl | ⟨1, _⟩ => rfl)
  have s64 : idx_main_v64 (ix2 n s) = ix2 n (blk1 s) := funext fun a => Fin.ext (by match a with | ⟨0, _⟩ => rfl | ⟨1, _⟩ => rfl)
  have s65 : idx_main_v65 (ix2 n s) = ix2 n (blk2 s) := funext fun a => Fin.ext (by match a with | ⟨0, _⟩ => rfl | ⟨1, _⟩ => rfl)
  rw [val_main_v87_apply, val_main_v85_apply, val_main_v86_apply, val_main_v84_apply, val_main_v82_apply, val_main_v81_apply,
    val_main_v80_apply, val_main_v79_apply, val_main_v77_apply, val_main_v75_apply, val_main_v74_apply, val_main_v73_apply,
    val_main_v72_apply, val_main_v70_apply, val_main_v68_apply, val_main_v67_apply, val_main_v66_apply,
    val_main_v60_apply, val_main_v61_apply, val_main_v62_apply, val_main_v63_apply, val_main_v64_apply, val_main_v65_apply,
    s60, s61, s62, s63, s64, s65,
    val_main_v83_apply, val_main_v78_apply, val_main_v76_apply, val_main_v71_apply, val_main_v69_apply,
    val_main_cst_9_apply, val_main_cst_8_apply, val_main_cst_7_apply, val_main_cst_6_apply, val_main_cst_5_apply]
  simp only [gi_apply x0 x1 x2 x3 x4 x5 x6 x7 x8 x9 x24 x25 x27, gh_apply, Ideal.addf_def, Ideal.subf_def, Ideal.mulf_def, Ideal.hostDivf_def, Ideal.hostNegf_def,
    Ideal.negf_def, Ideal.hostUnary_exp_def, Ideal.hostUnary_tanh_def, Ideal.ofBits_def]
  unfold gru Ideal.logistic Cert.Gnn.one
  simp only [one_eq]
  rfl

end Step0

open Step0 in
/-- The node table after the reference's first step, at node `n`, feature `s`. -/
theorem ref_nodes1 (x0 : (⟨S65536x128, .f32⟩ : BufTy).Contents (Elt Ideal)) (x1 : (⟨S655360x128, .f32⟩ : BufTy).Contents (Elt Ideal)) (x2 : (⟨S2x256x128, .f32⟩ : BufTy).Contents (Elt Ideal)) (x3 : (⟨S2x256x128, .f32⟩ : BufTy).Contents (Elt Ideal)) (x4 : (⟨S2x256, .f32⟩ : BufTy).Contents (Elt Ideal)) (x5 : (⟨S2x256x128, .f32⟩ : BufTy).Contents (Elt Ideal)) (x6 : (⟨S2x384x256, .f32⟩ : BufTy).Contents (Elt Ideal)) (x7 : (⟨S2x384x128, .f32⟩ : BufTy).Contents (Elt Ideal)) (x8 : (⟨S2x384, .f32⟩ : BufTy).Contents (Elt Ideal)) (x9 : (⟨S2x384, .f32⟩ : BufTy).Contents (Elt Ideal)) (x24 : (⟨S655360, .i32⟩ : BufTy).Contents (Elt Ideal)) (x25 : (⟨S655360, .i32⟩ : BufTy).Contents (Elt Ideal)) (x27 : (⟨S65536, .i32⟩ : BufTy).Contents (Elt Ideal)) (n : Fin 65536) (s : Fin 128) :
    val_main_v88 (F := Ideal) x0 x1 x2 x3 x4 x5 x6 x7 x8 x9 x24 x25 x27 (ix2 n s)
      = stepR (stepParams 0 x2 x3 x4 x5 x6 x7 x8 x9) (graphOf x1 x24 x25 x27) (m2 x0) n s := by
  have hagg : (fun k => val_main_v41 (F := Ideal) x0 x1 x2 x3 x4 x5 x24 x25 (ix2 n k))
      = aggR (stepParams 0 x2 x3 x4 x5 x6 x7 x8 x9) (graphOf x1 x24 x25 x27) (m2 x0) n :=
    funext fun k => agg_apply x0 x1 x2 x3 x4 x5 x6 x7 x8 x9 x24 x25 x27 n k
  rw [val_main_v88_apply, mask_apply, cell_apply x0 x1 x2 x3 x4 x5 x6 x7 x8 x9 x24 x25 x27, hagg, select_cmp_ogt]
  unfold stepR
  by_cases h : RowPos (graphOf x1 x24 x25 x27).owner n
  · have h' : (0 : EReal) < ∑ b : Fin 128, hot (m1 x27) n b := h
    rw [if_pos h', if_pos h]
  · have h' : ¬ (0 : EReal) < ∑ b : Fin 128, hot (m1 x27) n b := h
    rw [if_neg h', if_neg h]

end Cert.ReferenceIdeal.RV

end
-- ==== Proof.RStep1A.lean ====
/-
  The reference program's second propagation step up to the aggregated messages, read index by index: the three
  projections of the node table and of the edge features through layer 1 of the stacked weights, the rows the edges'
  index words pick, the messages, and their sum at every node over the edges that end there.
-/
import proofs.«423165_j21801253994886_2_alg».proof.Proof.RRead
import proofs.«423165_j21801253994886_2_alg».proof.Proof.Spec
import proofs.«423165_j21801253994886_2_alg».proof.Proof.LibScatter

set_option maxRecDepth 16384

noncomputable section

namespace Cert.ReferenceIdeal.RV1

open Idealize.ShloMosaic Idealize.ShloMosaic.TcCoe Idealize.ShloMosaic.ValueIdx Idealize.SL.Sem
open Cert.Gnn Cert.ReferenceIdeal Cert.ReferenceIdeal.ReadP

variable (x0 : (⟨S65536x128, .f32⟩ : BufTy).Contents (Elt Ideal)) (x1 : (⟨S655360x128, .f32⟩ : BufTy).Contents (Elt Ideal))
  (x2 x3 : (⟨S2x256x128, .f32⟩ : BufTy).Contents (Elt Ideal)) (x4 : (⟨S2x256, .f32⟩ : BufTy).Contents (Elt Ideal))
  (x5 : (⟨S2x256x128, .f32⟩ : BufTy).Contents (Elt Ideal)) (x6 : (⟨S2x384x256, .f32⟩ : BufTy).Contents (Elt Ideal))
  (x7 : (⟨S2x384x128, .f32⟩ : BufTy).Contents (Elt Ideal)) (x8 x9 : (⟨S2x384, .f32⟩ : BufTy).Contents (Elt Ideal))
  (x24 x25 : (⟨S655360, .i32⟩ : BufTy).Contents (Elt Ideal)) (x27 : (⟨S65536, .i32⟩ : BufTy).Contents (Elt Ideal))

/-- Layer 1 of a stack of 256 x 128 matrices, sliced, reshaped and transposed: entry (k, j) is the stack at (1, j, k). -/
theorem wsrcT_at (k : Fin 128) (j : Fin 256) :
    val_main_v91 (F := Ideal) x2 (ix2 k j) = x2 (ix3 1 j k) := by
  rw [val_main_v91_apply, val_main_v90_apply, val_main_v89_apply]
  refine congrArg x2 (funext fun a => Fin.ext ?_)
  match a with
  | ⟨0, _⟩ => rfl
  | ⟨1, _⟩ => show (j.val * 128 + k.val) / 128 % 256 = j.val; omega
  | ⟨2, _⟩ => show (j.val * 128 + k.val) % 128 = k.val; omega

theorem wdestT_at (k : Fin 128) (j : Fin 256) :
    val_main_v95 (F := Ideal) x3 (ix2 k j) = x3 (ix3 1 j k) := by
  rw [val_main_v95_apply, val_main_v94_apply, val_main_v93_apply]
  refine congrArg x3 (funext fun a => Fin.ext ?_)
  match a with
  | ⟨0, _⟩ => rfl
  | ⟨1, _⟩ => show (j.val * 128 + k.val) / 128 % 256 = j.val; omega
  | ⟨2, _⟩ => show (j.val * 128 + k.val) % 128 = k.val; omega

theorem wfeatT_at (k : Fin 128) (j : Fin 256) :
    val_main_v104 (F := Ideal) x5 (ix2 k j) = x5 (ix3 1 j k) := by
  rw [val_main_v104_apply, val_main_v103_apply, val_main_v102_apply]
  refine congrArg x5 (funext fun a => Fin.ext ?_)
  match a with
  | ⟨0, _⟩ => rfl
  | ⟨1, _⟩ => show (j.val * 128 + k.val) / 128 % 256 = j.val; omega
  | ⟨2, _⟩ => show (j.val * 128 + k.val) % 128 = k.val; omega

/-- Row 1 of the stacked bias, sliced, reshaped and broadcast down the rows: entry (n, j) is the stack at (1, j). -/
theorem bdest_at (n : Fin 65536) (j : Fin 256) :
    val_main_v100 (F := Ideal) x4 (ix2 n j) = x4 (ix2 1 j) := by
  rw [val_main_v100_apply, val_main_v99_apply, val_main_v98_apply, val_main_v97_apply]
  refine congrArg x4 (funext fun a => Fin.ext ?_)
  match a with
  | ⟨0, _⟩ => rfl
  | ⟨1, _⟩ => show j.val % 256 = j.val; omega

/-- The source projection of the node table: row n through layer 1 of `Wsrc`. -/
theorem srcT_at (n : Fin 65536) (j : Fin 256) :
    val_main_v92 (F := Ideal) x0 x1 x2 x3 x4 x5 x6 x7 x8 x9 x24 x25 x27 (ix2 n j)
      = ∑ k : Fin 128, val_main_v88 (F := Ideal) x0 x1 x2 x3 x4 x5 x6 x7 x8 x9 x24 x25 x27 (ix2 n k) * x2 (ix3 1 j k) := by
  rw [val_main_v92_apply]
  refine Finset.sum_congr rfl fun k _ => ?_
  have el : lidx_main_v92 (ix2 n j) k = ix2 n k :=
    funext fun a => Fin.ext (by match a with | ⟨0, _⟩ => rfl | ⟨1, _⟩ => rfl)
  have er : ridx_main_v92 (ix2 n j) k = ix2 k j :=
    funext fun a => Fin.ext (by match a with | ⟨0, _⟩ => rfl | ⟨1, _⟩ => rfl)
  rw [el, er, wsrcT_at]

/-- The destination projection of the node table: row n through layer 1 of `Wdest`, plus the bias. -/
theorem destT_at (n : Fin 65536) (j : Fin 256) :
    val_main_v101 (F := Ideal) x0 x1 x2 x3 x4 x5 x6 x7 x8 x9 x24 x25 x27 (ix2 n j)
      = (∑ k : Fin 128, val_main_v88 (F := Ideal) x0 x1 x2 x3 x4 x5 x6 x7 x8 x9 x24 x25 x27 (ix2 n k) * x3 (ix3 1 j k))
        + x4 (ix2 1 j) := by
  rw [val_main_v101_apply, val_main_v96_apply, bdest_at, Ideal.addf_def]
  refine congrArg (· + x4 (ix2 1 j)) (Finset.sum_congr rfl fun k _ => ?_)
  have el : lidx_main_v96 (ix2 n j) k = ix2 n k :=
    funext fun a => Fin.ext (by match a with | ⟨0, _⟩ => rfl | ⟨1, _⟩ => rfl)
  have er : ridx_main_v96 (ix2 n j) k = ix2 k j :=
    funext fun a => Fin.ext (by match a with | ⟨0, _⟩ => rfl | ⟨1, _⟩ => rfl)
  rw [el, er, wdestT_at]

/-- The projection of the edge features: row e through layer 1 of `Wfeat`. -/
theorem featT_at (e : Fin 655360) (j : Fin 256) :
    val_main_v105 (F := Ideal) x1 x5 (ix2 e j) = ∑ k : Fin 128, x1 (ix2 e k) * x5 (ix3 1 j k) := by
  rw [val_main_v105_apply]
  refine Finset.sum_congr rfl fun k _ => ?_
  have el : lidx_main_v105 (ix2 e j) k = ix2 e k :=
    funext fun a => Fin.ext (by match a with | ⟨0, _⟩ => rfl | ⟨1, _⟩ => rfl)
  have er : ridx_main_v105 (ix2 e j) k = ix2 k j :=
    funext fun a => Fin.ext (by match a with | ⟨0, _⟩ => rfl | ⟨1, _⟩ => rfl)
  rw [el, er, wfeatT_at]

/-- Comparing an index word with zero, adding the extent and selecting is the wrap of array indexing. -/
theorem wrap_eq (v : BitVec 32) :
    Scalar.select (IntOp.cmpi .slt v 0#32) (IntOp.addi v 65536#32) v = wrap 65536 v := by
  unfold Scalar.select IntOp.cmpi IntOp.addi wrap
  have key : (v.slt 0#32 = true) ↔ v.toInt < 0 := by
    rw [BitVec.slt_iff_toInt_lt]; rfl
  by_cases h : v.toInt < 0
  · rw [if_pos h, key.mpr h]; rfl
  · have hb : v.slt 0#32 = false := by
      cases hb : v.slt 0#32
      · rfl
      · exact absurd (key.mp hb) h
    rw [if_neg h, hb]; rfl

/-- The source index column at edge e is the wrapped source word. -/
theorem srcWord_at (e : Fin 655360) :
    val_main_v111 (F := Ideal) x24 (ix2 e 0) = wrap 65536 (x24 (ix1 e)) := by
  rw [val_main_v111_apply, val_main_v110_apply, val_main_v107_apply, val_main_v109_apply,
    val_main_v106_apply, val_main_v108_apply, val_main_c_10_apply, val_main_c_11_apply]
  have ei : idx_main_v111 (ix2 e 0) = ix1 e :=
    funext fun a => Fin.ext (by match a with | ⟨0, _⟩ => rfl)
  rw [ei]
  exact wrap_eq _

/-- The destination index column at edge e is the wrapped destination word. -/
theorem dstWord_at (e : Fin 655360) :
    val_main_v118 (F := Ideal) x25 (ix2 e 0) = wrap 65536 (x25 (ix1 e)) := by
  rw [val_main_v118_apply, val_main_v117_apply, val_main_v114_apply, val_main_v116_apply,
    val_main_v113_apply, val_main_v115_apply, val_main_c_12_apply, val_main_c_13_apply]
  have ei : idx_main_v118 (ix2 e 0) = ix1 e :=
    funext fun a => Fin.ext (by match a with | ⟨0, _⟩ => rfl)
  rw [ei]
  exact wrap_eq _

/-- The row gather of the program at (e, j): the operand at the clamped row its index column names, column j. -/
theorem gather_at (y : (⟨S65536x256, .f32⟩ : BufTy).Contents (Elt Ideal)) (idx : (⟨S655360x1, .i32⟩ : BufTy).Contents (Elt Ideal))
    (e : Fin 655360) (j : Fin 256) :
    Host.gather gather_S65536x256_S655360x1_S655360x256_1_0_n_n_0_1_1256 y idx (ix2 e j)
      = y (ix2 (Cert.Gcn.crow 65536 (by norm_num) (idx (ix2 e 0))) j) :=
  Cert.Gcn.gatherRows_apply (N := 65536) (E := 655360) (D := 256) (by norm_num)
    gather_S65536x256_S655360x1_S655360x256_1_0_n_n_0_1_1256.wf y idx (ix2 e j)

/-- The message of edge e: the source row's source projection, the destination row's destination projection, the
    edge's own feature projection. -/
theorem msg_at (e : Fin 655360) (j : Fin 256) :
    val_main_v121 (F := Ideal) x0 x1 x2 x3 x4 x5 x6 x7 x8 x9 x24 x25 x27 (ix2 e j)
      = (∑ k : Fin 128, val_main_v88 (F := Ideal) x0 x1 x2 x3 x4 x5 x6 x7 x8 x9 x24 x25 x27 (ix2 (rowOf (x24 (ix1 e))) k) * x2 (ix3 1 j k))
        + ((∑ k : Fin 128, val_main_v88 (F := Ideal) x0 x1 x2 x3 x4 x5 x6 x7 x8 x9 x24 x25 x27 (ix2 (rowOf (x25 (ix1 e))) k) * x3 (ix3 1 j k))
            + x4 (ix2 1 j))
        + ∑ k : Fin 128, x1 (ix2 e k) * x5 (ix3 1 j k) := by
  rw [val_main_v121_apply, val_main_v120_apply, featT_at, Ideal.addf_def, Ideal.addf_def]
  unfold val_main_v112 val_main_v119
  rw [gather_at, gather_at, srcWord_at, dstWord_at]
  show val_main_v92 (F := Ideal) x0 x1 x2 x3 x4 x5 x6 x7 x8 x9 x24 x25 x27 (ix2 (rowOf (x24 (ix1 e))) j)
      + val_main_v101 (F := Ideal) x0 x1 x2 x3 x4 x5 x6 x7 x8 x9 x24 x25 x27 (ix2 (rowOf (x25 (ix1 e))) j) + _ = _
  rw [srcT_at, destT_at]

/-- The row scatter-add of the program at (n, j): the operand there plus column j of the update rows whose index word,
    read signed, is n. -/
theorem scatter_at (op : (⟨S65536x256, .f32⟩ : BufTy).Contents (Elt Ideal)) (ix : (⟨S655360x1, .i32⟩ : BufTy).Contents (Elt Ideal))
    (up : (⟨S655360x256, .f32⟩ : BufTy).Contents (Elt Ideal)) (n : Fin 65536) (j : Fin 256) :
    Host.scatterAdd (F := Ideal) (φ := .f32) scatter_S65536x256_S655360x1_S655360x256_1_0_0_1 op ix up (ix2 n j)
      = op (ix2 n j) + ∑ e ∈ Finset.univ.filter (fun e : Fin 655360 => (ix (ix2 e (0 : Fin 1))).toInt = (n.val : Int)),
          up (ix2 e j) :=
  Cert.Gcn.scatterAddRows_apply scatter_S65536x256_S655360x1_S655360x256_1_0_0_1.wf op ix up n j

/-- The aggregated message at node n: the messages of the edges whose destination word, read signed, is n, summed. -/
theorem agg_at (n : Fin 65536) (j : Fin 256) :
    val_main_v124 (F := Ideal) x0 x1 x2 x3 x4 x5 x6 x7 x8 x9 x24 x25 x27 (ix2 n j)
      = aggR (stepParams 1 x2 x3 x4 x5 x6 x7 x8 x9) (graphOf x1 x24 x25 x27)
          (m2 (val_main_v88 (F := Ideal) x0 x1 x2 x3 x4 x5 x6 x7 x8 x9 x24 x25 x27)) n j := by
  unfold val_main_v124
  rw [scatter_at, val_main_v122_apply, val_main_cst_14_apply, Ideal.ofBits_def, Ideal.ofBits_zero_f32, zero_add]
  have hw : ∀ e : Fin 655360, val_main_v123 (F := Ideal) x25 (ix2 e 0) = x25 (ix1 e) := fun e => by
    rw [val_main_v123_apply]
    exact congrArg x25 (funext fun a => Fin.ext (by match a with | ⟨0, _⟩ => rfl))
  unfold aggR segSum
  refine Finset.sum_congr (Finset.filter_congr fun e _ => by rw [hw]; exact Iff.rfl) (fun e _ => ?_)
  rw [msg_at]
  rfl

end Cert.ReferenceIdeal.RV1

end
-- ==== Proof.RStep1C.lean ====
/-
  The recurrent cell of the reference program's second propagation step, read index by index: the two gate products
  through layer 1 of the stacked cell weights, their three blocks of 128 columns, and the gates.
-/
import proofs.«423165_j21801253994886_2_alg».proof.Proof.RRead
import proofs.«423165_j21801253994886_2_alg».proof.Proof.Spec

set_option maxRecDepth 16384

noncomputable section

namespace Cert.ReferenceIdeal.RV1

open Idealize.ShloMosaic Idealize.ShloMosaic.TcCoe Idealize.ShloMosaic.ValueIdx Idealize.SL.Sem
open Cert.Gnn Cert.ReferenceIdeal Cert.ReferenceIdeal.ReadP

variable (x0 : (⟨S65536x128, .f32⟩ : BufTy).Contents (Elt Ideal)) (x1 : (⟨S655360x128, .f32⟩ : BufTy).Contents (Elt Ideal))
  (x2 x3 : (⟨S2x256x128, .f32⟩ : BufTy).Contents (Elt Ideal)) (x4 : (⟨S2x256, .f32⟩ : BufTy).Contents (Elt Ideal))
  (x5 : (⟨S2x256x128, .f32⟩ : BufTy).Contents (Elt Ideal)) (x6 : (⟨S2x384x256, .f32⟩ : BufTy).Contents (Elt Ideal))
  (x7 : (⟨S2x384x128, .f32⟩ : BufTy).Contents (Elt Ideal)) (x8 x9 : (⟨S2x384, .f32⟩ : BufTy).Contents (Elt Ideal))
  (x24 x25 : (⟨S655360, .i32⟩ : BufTy).Contents (Elt Ideal)) (x27 : (⟨S65536, .i32⟩ : BufTy).Contents (Elt Ideal))

/-- Layer 1 of the stacked input weights, sliced, reshaped and transposed: entry (k, q) is the stack at (1, q, k). -/
theorem wihT_at (k : Fin 256) (q : Fin 384) :
    val_main_v127 (F := Ideal) x6 (ix2 k q) = x6 (ix3 1 q k) := by
  rw [val_main_v127_apply, val_main_v126_apply, val_main_v125_apply]
  refine congrArg x6 (funext fun a => Fin.ext ?_)
  match a with
  | ⟨0, _⟩ => rfl
  | ⟨1, _⟩ => show (q.val * 256 + k.val) / 256 % 384 = q.val; omega
  | ⟨2, _⟩ => show (q.val * 256 + k.val) % 256 = k.val; omega

/-- Layer 1 of the stacked state weights likewise. -/
theorem whhT_at (k : Fin 128) (q : Fin 384) :
    val_main_v136 (F := Ideal) x7 (ix2 k q) = x7 (ix3 1 q k) := by
  rw [val_main_v136_apply, val_main_v135_apply, val_main_v134_apply]
  refine congrArg x7 (funext fun a => Fin.ext ?_)
  match a with
  | ⟨0, _⟩ => rfl
  | ⟨1, _⟩ => show (q.val * 128 + k.val) / 128 % 384 = q.val; omega
  | ⟨2, _⟩ => show (q.val * 128 + k.val) % 128 = k.val; omega

/-- Row 1 of the stacked input bias, broadcast down the rows. -/
theorem bih_at (n : Fin 65536) (q : Fin 384) :
    val_main_v132 (F := Ideal) x8 (ix2 n q) = x8 (ix2 1 q) := by
  rw [val_main_v132_apply, val_main_v131_apply, val_main_v130_apply, val_main_v129_apply]
  refine congrArg x8 (funext fun a => Fin.ext ?_)
  match a with
  | ⟨0, _⟩ => rfl
  | ⟨1, _⟩ => show q.val % 384 = q.val; omega

/-- Row 1 of the stacked state bias, broadcast down the rows. -/
theorem bhh_at (n : Fin 65536) (q : Fin 384) :
    val_main_v141 (F := Ideal) x9 (ix2 n q) = x9 (ix2 1 q) := by
  rw [val_main_v141_apply, val_main_v140_apply, val_main_v139_apply, val_main_v138_apply]
  refine congrArg x9 (funext fun a => Fin.ext ?_)
  match a with
  | ⟨0, _⟩ => rfl
  | ⟨1, _⟩ => show q.val % 384 = q.val; omega

/-- The input product: the aggregated message of node n through layer 1 of `Wih`, plus the bias. -/
theorem gi_at (n : Fin 65536) (q : Fin 384) :
    val_main_v133 (F := Ideal) x0 x1 x2 x3 x4 x5 x6 x7 x8 x9 x24 x25 x27 (ix2 n q)
      = (∑ k : Fin 256, val_main_v124 (F := Ideal) x0 x1 x2 x3 x4 x5 x6 x7 x8 x9 x24 x25 x27 (ix2 n k) * x6 (ix3 1 q k))
        + x8 (ix2 1 q) := by
  rw [val_main_v133_apply, val_main_v128_apply, bih_at, Ideal.addf_def]
  refine congrArg (· + x8 (ix2 1 q)) (Finset.sum_congr rfl fun k _ => ?_)
  have el : lidx_main_v128 (ix2 n q) k = ix2 n k :=
    funext fun a => Fin.ext (by match a with | ⟨0, _⟩ => rfl | ⟨1, _⟩ => rfl)
  have er : ridx_main_v128 (ix2 n q) k = ix2 k q :=
    funext fun a => Fin.ext (by match a with | ⟨0, _⟩ => rfl | ⟨1, _⟩ => rfl)
  rw [el, er, wihT_at]

/-- The state product: row n of the node table through layer 1 of `Whh`, plus the bias. -/
theorem gh_at (n : Fin 65536) (q : Fin 384) :
    val_main_v142 (F := Ideal) x0 x1 x2 x3 x4 x5 x6 x7 x8 x9 x24 x25 x27 (ix2 n q)
      = (∑ k : Fin 128, val_main_v88 (F := Ideal) x0 x1 x2 x3 x4 x5 x6 x7 x8 x9 x24 x25 x27 (ix2 n k) * x7 (ix3 1 q k))
        + x9 (ix2 1 q) := by
  rw [val_main_v142_apply, val_main_v137_apply, bhh_at, Ideal.addf_def]
  refine congrArg (· + x9 (ix2 1 q)) (Finset.sum_congr rfl fun k _ => ?_)
  have el : lidx_main_v137 (ix2 n q) k = ix2 n k :=
    funext fun a => Fin.ext (by match a with | ⟨0, _⟩ => rfl | ⟨1, _⟩ => rfl)
  have er : ridx_main_v137 (ix2 n q) k = ix2 k q :=
    funext fun a => Fin.ext (by match a with | ⟨0, _⟩ => rfl | ⟨1, _⟩ => rfl)
  rw [el, er, whhT_at]

/-- The three blocks of 128 columns of a 384-column table. -/
theorem sl0 (n : Fin 65536) (s : Fin 128) : idx_main_v143 (ix2 n s) = ix2 n (blk0 s) :=
  funext fun a => Fin.ext (by match a with | ⟨0, _⟩ => rfl | ⟨1, _⟩ => rfl)
theorem sl1 (n : Fin 65536) (s : Fin 128) : idx_main_v144 (ix2 n s) = ix2 n (blk1 s) :=
  funext fun a => Fin.ext (by match a with | ⟨0, _⟩ => rfl | ⟨1, _⟩ => rfl)
theorem sl2 (n : Fin 65536) (s : Fin 128) : idx_main_v145 (ix2 n s) = ix2 n (blk2 s) :=
  funext fun a => Fin.ext (by match a with | ⟨0, _⟩ => rfl | ⟨1, _⟩ => rfl)
theorem sl3 (n : Fin 65536) (s : Fin 128) : idx_main_v146 (ix2 n s) = ix2 n (blk0 s) :=
  funext fun a => Fin.ext (by match a with | ⟨0, _⟩ => rfl | ⟨1, _⟩ => rfl)
theorem sl4 (n : Fin 65536) (s : Fin 128) : idx_main_v147 (ix2 n s) = ix2 n (blk1 s) :=
  funext fun a => Fin.ext (by match a with | ⟨0, _⟩ => rfl | ⟨1, _⟩ => rfl)
theorem sl5 (n : Fin 65536) (s : Fin 128) : idx_main_v148 (ix2 n s) = ix2 n (blk2 s) :=
  funext fun a => Fin.ext (by match a with | ⟨0, _⟩ => rfl | ⟨1, _⟩ => rfl)

/-- The float word of 1.0 is the extended real 1. -/
theorem one_eq : Ideal.ofBits .f32 0x3F800000#32 = (1 : EReal) := by
  show Ideal.ieee 8 23 (0x3F800000#32 : BitVec 32) = 1
  unfold Ideal.ieee
  -- sign bit clear, exponent field 127, fraction field 0: the value is 2 ^ 23 * 2 ^ (127 - 127 - 23)
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  simp only [hs, he, hf]
  norm_num

/-- Negate, exponential, add one, divide into one: the logistic function. -/
theorem sig_eq (t : EReal) :
    FloatOps.hostDivf (F := Ideal) (φ := .f32) (FloatOps.ofBits .f32 0x3F800000#32)
        (FloatOps.addf (FloatOps.ofBits .f32 0x3F800000#32) (FloatOps.hostUnary .exp (FloatOps.hostNegf t)))
      = Ideal.logistic t := by
  simp only [Ideal.hostDivf_def, Ideal.addf_def, Ideal.hostUnary_exp_def, Ideal.hostNegf_def, Ideal.negf_def,
    Ideal.ofBits_def, one_eq]
  rfl

/-- The cell's output at node n, feature s, from the aggregated message's row and the node's own row. -/
theorem cell_at (n : Fin 65536) (s : Fin 128) :
    val_main_v170 (F := Ideal) x0 x1 x2 x3 x4 x5 x6 x7 x8 x9 x24 x25 x27 (ix2 n s)
      = gru (stepParams 1 x2 x3 x4 x5 x6 x7 x8 x9)
          (m2 (val_main_v88 (F := Ideal) x0 x1 x2 x3 x4 x5 x6 x7 x8 x9 x24 x25 x27) n)
          (fun j => val_main_v124 (F := Ideal) x0 x1 x2 x3 x4 x5 x6 x7 x8 x9 x24 x25 x27 (ix2 n j)) s := by
  rw [val_main_v170_apply, val_main_v168_apply, val_main_v169_apply, val_main_v167_apply, val_main_v165_apply,
    val_main_v164_apply, val_main_v163_apply, val_main_v162_apply, val_main_v160_apply, val_main_v158_apply,
    val_main_v157_apply, val_main_v156_apply, val_main_v155_apply, val_main_v153_apply, val_main_v151_apply,
    val_main_v150_apply, val_main_v149_apply,
    val_main_v143_apply, val_main_v144_apply, val_main_v145_apply, val_main_v146_apply, val_main_v147_apply,
    val_main_v148_apply, sl0, sl1, sl2, sl3, sl4, sl5,
    val_main_v152_apply, val_main_v154_apply, val_main_v159_apply, val_main_v161_apply, val_main_v166_apply,
    val_main_cst_15_apply, val_main_cst_16_apply, val_main_cst_17_apply, val_main_cst_18_apply, val_main_cst_19_apply,
    sig_eq, sig_eq, gi_at, gi_at, gi_at, gh_at, gh_at, gh_at]
  simp only [Ideal.addf_def, Ideal.mulf_def, Ideal.subf_def, Ideal.hostUnary_tanh_def, Ideal.ofBits_def]
  rfl

end Cert.ReferenceIdeal.RV1

end
-- ==== Proof.RStep1M.lean ====
/-
  The update mask of the reference program read index by index: the owner table is the indicator of "node n's owner
  word is the word of graph b"; the mask at node n says that row n of the table has a positive sum.
-/
import proofs.«423165_j21801253994886_2_alg».proof.Proof.RRead
import proofs.«423165_j21801253994886_2_alg».proof.Proof.Spec

set_option maxRecDepth 16384

noncomputable section

namespace Cert.ReferenceIdeal.RV1

open Idealize.ShloMosaic Idealize.ShloMosaic.TcCoe Idealize.ShloMosaic.ValueIdx Idealize.SL.Sem
open Cert.Gnn Cert.ReferenceIdeal Cert.ReferenceIdeal.ReadP

variable (x27 : (⟨S65536, .i32⟩ : BufTy).Contents (Elt Ideal))

/-- Entry (n, k) of the owner table: the owner word of node n compared with the word of k, as a number. -/
theorem hot_at (n : Fin 65536) (k : Fin 128) :
    val_main_v0 (F := Ideal) x27 (ix2 n k) = hot (m1 x27) n k := by
  rw [val_main_v0_apply, val_main_call0_v4_apply, val_main_call0_v2_apply, val_main_call0_v0_apply,
    val_main_call0_v3_apply, val_main_call0_v1_apply]
  have e1 : idx_main_call0_v0 (idx_main_call0_v2 (ix2 n k)) = ix1 n :=
    funext fun a => Fin.ext (by match a with | ⟨0, _⟩ => rfl)
  rw [e1]
  show FloatOps.uitofp (F := Ideal) .f32 (IntOp.cmpi .eq (x27 (ix1 n)) (BitVec.ofNat 32 k.val)) = _
  unfold hot IntOp.cmpi
  show (((BitVec.ofBool (x27 (ix1 n) == BitVec.ofNat 32 k.val)).toNat : ℝ) : EReal)
    = if x27 (ix1 n) = BitVec.ofNat 32 k.val then 1 else 0
  by_cases h : x27 (ix1 n) = BitVec.ofNat 32 k.val
  · rw [if_pos h, h]; simp
  · rw [if_neg h]
    have hb : (x27 (ix1 n) == BitVec.ofNat 32 k.val) = false := by simpa using h
    rw [hb]; simp

/-- The mask at node n, any feature: set exactly when row n of the owner table has a positive sum. -/
theorem mask_iff (n : Fin 65536) (s : Fin 128) :
    val_main_call2_v0 (F := Ideal) x27 (ix2 n s) = 1 ↔ RowPos (m1 x27) n := by
  rw [val_main_call2_v0_apply, val_main_v5_apply, val_main_v4_apply, val_main_v3_apply, val_main_cst_0_apply,
    val_main_v2_apply, val_main_cst_apply]
  have e1 : idx_main_v5 (idx_main_call2_v0 (ix2 n s)) = ix1 n :=
    funext fun a => Fin.ext (by match a with | ⟨0, _⟩ => rfl)
  rw [e1]
  have e2 : ∀ k : Fin 128, val_main_v1 (F := Ideal) x27 (idx_main_v2 (ix1 n) k) = hot (m1 x27) n k := fun k => by
    rw [val_main_v1_apply]
    have e3 : idx_main_v1 (idx_main_v2 (ix1 n) k) = ix2 n k :=
      funext fun a => Fin.ext (by match a with | ⟨0, _⟩ => rfl | ⟨1, _⟩ => rfl)
    rw [e3, hot_at]
  simp only [e2, Ideal.ofBits_def, Ideal.ofBits_zero_f32, zero_add, Ideal.cmpf_def]
  unfold RowPos Ideal.cmp
  by_cases h : 0 < ∑ b : Fin 128, hot (m1 x27) n b
  · simp [h]
  · simp [h]

end Cert.ReferenceIdeal.RV1

end
-- ==== Proof.RStep1.lean ====
/-
  The reference program's second propagation step read index by index, from the node table its first step left: where
  the mask is set the cell's output on the aggregated messages, elsewhere the node's own row.
-/
import proofs.«423165_j21801253994886_2_alg».proof.Proof.RRead
import proofs.«423165_j21801253994886_2_alg».proof.Proof.Spec
import proofs.«423165_j21801253994886_2_alg».proof.Proof.LibScatter
import proofs.«423165_j21801253994886_2_alg».proof.Proof.RStep1A
import proofs.«423165_j21801253994886_2_alg».proof.Proof.RStep1C
import proofs.«423165_j21801253994886_2_alg».proof.Proof.RStep1M

set_option maxRecDepth 16384

noncomputable section

namespace Cert.ReferenceIdeal.RV

open Idealize.ShloMosaic Idealize.ShloMosaic.TcCoe Idealize.ShloMosaic.ValueIdx Idealize.SL.Sem
open Cert.Gnn Cert.ReferenceIdeal Cert.ReferenceIdeal.ReadP

/-- The node table after the reference's second step, at node `n`, feature `s`, from the table after its first. -/
theorem ref_nodes2 (x0 : (⟨S65536x128, .f32⟩ : BufTy).Contents (Elt Ideal)) (x1 : (⟨S655360x128, .f32⟩ : BufTy).Contents (Elt Ideal)) (x2 : (⟨S2x256x128, .f32⟩ : BufTy).Contents (Elt Ideal)) (x3 : (⟨S2x256x128, .f32⟩ : BufTy).Contents (Elt Ideal)) (x4 : (⟨S2x256, .f32⟩ : BufTy).Contents (Elt Ideal)) (x5 : (⟨S2x256x128, .f32⟩ : BufTy).Contents (Elt Ideal)) (x6 : (⟨S2x384x256, .f32⟩ : BufTy).Contents (Elt Ideal)) (x7 : (⟨S2x384x128, .f32⟩ : BufTy).Contents (Elt Ideal)) (x8 : (⟨S2x384, .f32⟩ : BufTy).Contents (Elt Ideal)) (x9 : (⟨S2x384, .f32⟩ : BufTy).Contents (Elt Ideal)) (x24 : (⟨S655360, .i32⟩ : BufTy).Contents (Elt Ideal)) (x25 : (⟨S655360, .i32⟩ : BufTy).Contents (Elt Ideal)) (x27 : (⟨S65536, .i32⟩ : BufTy).Contents (Elt Ideal)) (n : Fin 65536) (s : Fin 128) :
    val_main_v171 (F := Ideal) x0 x1 x2 x3 x4 x5 x6 x7 x8 x9 x24 x25 x27 (ix2 n s)
      = stepR (stepParams 1 x2 x3 x4 x5 x6 x7 x8 x9) (graphOf x1 x24 x25 x27)
          (m2 (val_main_v88 (F := Ideal) x0 x1 x2 x3 x4 x5 x6 x7 x8 x9 x24 x25 x27)) n s := by
  rw [val_main_v171_apply]
  unfold stepR Scalar.select
  by_cases h : RowPos (graphOf x1 x24 x25 x27).owner n
  · -- the node is updated: the select takes the cell's output, whose input row is the aggregated message
    rw [if_pos h, if_pos ((RV1.mask_iff x27 n s).mpr h), RV1.cell_at]
    refine congrArg (fun a => gru (stepParams 1 x2 x3 x4 x5 x6 x7 x8 x9)
      (m2 (val_main_v88 (F := Ideal) x0 x1 x2 x3 x4 x5 x6 x7 x8 x9 x24 x25 x27) n) a s) (funext fun j => ?_)
    exact RV1.agg_at x0 x1 x2 x3 x4 x5 x6 x7 x8 x9 x24 x25 x27 n j
  · -- the node keeps its row
    rw [if_neg h, if_neg (fun hm => h ((RV1.mask_iff x27 n s).mp hm))]

end Cert.ReferenceIdeal.RV

end
-- ==== Proof.RPool.lean ====
/-
  The reference program's two pooled arrays read index by index: the transposed owner table times the nodes' gated
  projections, one matrix product over all 65536 nodes.
-/
import proofs.«423165_j21801253994886_2_alg».proof.Proof.RRead
import proofs.«423165_j21801253994886_2_alg».proof.Proof.Spec
import Idealize.ShloMosaic.Lib.IdealHost

set_option maxRecDepth 16384

noncomputable section

namespace Cert.ReferenceIdeal.RV

open Idealize.ShloMosaic Idealize.ShloMosaic.TcCoe Idealize.ShloMosaic.ValueIdx Idealize.SL.Sem
open Cert.Gnn Cert.ReferenceIdeal Cert.ReferenceIdeal.ReadP

/-- A one-bit word read unsigned as a number: the comparison "equal" gives 1 when the words agree and 0 otherwise. -/
theorem eq_word_as_number (u v : BitVec 32) :
    (FloatOps.uitofp (F := Ideal) .f32 (IntOp.cmpi .eq u v) : EReal) = if u = v then 1 else 0 := by
  show (((IntOp.cmpi .eq u v).toNat : ℝ) : EReal) = _
  by_cases h : u = v
  · rw [if_pos h]; subst h; simp [IntOp.cmpi]
  · rw [if_neg h]; simp [IntOp.cmpi, h]

/-- Entry (b, n) of the transposed owner table is the owner table's entry (n, b): node `n`'s owner word compared
    with the word of `b`. -/
theorem owner_table_apply (x27 : (⟨S65536, .i32⟩ : BufTy).Contents (Elt Ideal)) (b : Fin 128) (n : Fin 65536) :
    val_main_v1 (F := Ideal) x27 (ix2 b n) = hot (m1 x27) n b := by
  have e1 : idx_main_v1 (ix2 b n) = ix2 n b := funext fun c => Fin.ext (by match c with | ⟨0, _⟩ => rfl | ⟨1, _⟩ => rfl)
  have e2 : idx_main_call0_v2 (ix2 n b) = ix2 n (0 : Fin 1) := funext fun c => Fin.ext (by match c with | ⟨0, _⟩ => rfl | ⟨1, _⟩ => rfl)
  have e0 : idx_main_call0_v0 (ix2 n (0 : Fin 1)) = ix1 n := funext fun c => Fin.ext (by match c with | ⟨0, _⟩ => rfl)
  have e3 : idx_main_call0_v3 (ix2 n b) = ix2 (0 : Fin 1) b := funext fun c => Fin.ext (by match c with | ⟨0, _⟩ => rfl | ⟨1, _⟩ => rfl)
  rw [val_main_v1_apply, e1, val_main_v0_apply, val_main_call0_v4_apply, val_main_call0_v2_apply, e2,
    val_main_call0_v0_apply, e0, val_main_call0_v3_apply, e3, val_main_call0_v1_apply]
  exact eq_word_as_number _ _

/-- The product of the data projection and the gate at node `n`, column `a`: the node's gated projection. -/
theorem gated_dec (x0 : (⟨S65536x128, .f32⟩ : BufTy).Contents (Elt Ideal)) (x1 : (⟨S655360x128, .f32⟩ : BufTy).Contents (Elt Ideal)) (x2 : (⟨S2x256x128, .f32⟩ : BufTy).Contents (Elt Ideal)) (x3 : (⟨S2x256x128, .f32⟩ : BufTy).Contents (Elt Ideal)) (x4 : (⟨S2x256, .f32⟩ : BufTy).Contents (Elt Ideal)) (x5 : (⟨S2x256x128, .f32⟩ : BufTy).Contents (Elt Ideal)) (x6 : (⟨S2x384x256, .f32⟩ : BufTy).Contents (Elt Ideal)) (x7 : (⟨S2x384x128, .f32⟩ : BufTy).Contents (Elt Ideal)) (x8 : (⟨S2x384, .f32⟩ : BufTy).Contents (Elt Ideal)) (x9 : (⟨S2x384, .f32⟩ : BufTy).Contents (Elt Ideal)) (x10 : (⟨S256x128, .f32⟩ : BufTy).Contents (Elt Ideal)) (x11 : (⟨S256, .f32⟩ : BufTy).Contents (Elt Ideal)) (x12 : (⟨S256x128, .f32⟩ : BufTy).Contents (Elt Ideal)) (x13 : (⟨S256, .f32⟩ : BufTy).Contents (Elt Ideal)) (x24 : (⟨S655360, .i32⟩ : BufTy).Contents (Elt Ideal)) (x25 : (⟨S655360, .i32⟩ : BufTy).Contents (Elt Ideal)) (x27 : (⟨S65536, .i32⟩ : BufTy).Contents (Elt Ideal)) (n : Fin 65536) (a : Fin 256) :
    val_main_v188 (F := Ideal) x0 x1 x2 x3 x4 x5 x6 x7 x8 x9 x10 x11 x12 x13 x24 x25 x27 (ix2 n a)
      = gated (poolParams x10 x11 x12 x13) (m2 (val_main_v171 (F := Ideal) x0 x1 x2 x3 x4 x5 x6 x7 x8 x9 x24 x25 x27)) n a := by
  have egl : ∀ k, lidx_main_v173 (ix2 n a) k = ix2 n k := fun k => funext fun c => Fin.ext (by match c with | ⟨0, _⟩ => rfl | ⟨1, _⟩ => rfl)
  have egr : ∀ k, ridx_main_v173 (ix2 n a) k = ix2 k a := fun k => funext fun c => Fin.ext (by match c with | ⟨0, _⟩ => rfl | ⟨1, _⟩ => rfl)
  have egt : ∀ k : Fin 128, idx_main_v172 (ix2 k a) = ix2 a k := fun k => funext fun c => Fin.ext (by match c with | ⟨0, _⟩ => rfl | ⟨1, _⟩ => rfl)
  have egb : idx_main_v175 (ix2 n a) = ix2 (0 : Fin 1) a := funext fun c => Fin.ext (by match c with | ⟨0, _⟩ => rfl | ⟨1, _⟩ => rfl)
  have egc : idx_main_v174 (ix2 (0 : Fin 1) a) = ix1 a := funext fun c => Fin.ext (by match c with | ⟨0, _⟩ => rfl)
  have edl : ∀ k, lidx_main_v184 (ix2 n a) k = ix2 n k := fun k => funext fun c => Fin.ext (by match c with | ⟨0, _⟩ => rfl | ⟨1, _⟩ => rfl)
  have edr : ∀ k, ridx_main_v184 (ix2 n a) k = ix2 k a := fun k => funext fun c => Fin.ext (by match c with | ⟨0, _⟩ => rfl | ⟨1, _⟩ => rfl)
  have edt : ∀ k : Fin 128, idx_main_v183 (ix2 k a) = ix2 a k := fun k => funext fun c => Fin.ext (by match c with | ⟨0, _⟩ => rfl | ⟨1, _⟩ => rfl)
  have edb : idx_main_v186 (ix2 n a) = ix2 (0 : Fin 1) a := funext fun c => Fin.ext (by match c with | ⟨0, _⟩ => rfl | ⟨1, _⟩ => rfl)
  have edc : idx_main_v185 (ix2 (0 : Fin 1) a) = ix1 a := funext fun c => Fin.ext (by match c with | ⟨0, _⟩ => rfl)
  rw [val_main_v188_apply, val_main_v187_apply, val_main_v184_apply, val_main_v186_apply, edb, val_main_v185_apply, edc,
    val_main_v182_apply, val_main_v181_apply, val_main_cst_21_apply, val_main_v180_apply, val_main_v179_apply, val_main_cst_20_apply,
    val_main_v178_apply, val_main_v177_apply, val_main_v176_apply, val_main_v173_apply, val_main_v175_apply, egb, val_main_v174_apply, egc]
  simp only [egl, egr, edl, edr, val_main_v172_apply, val_main_v183_apply, egt, edt, Ideal.mulf_def, Ideal.addf_def,
    Ideal.hostDivf_def, Ideal.hostNegf_def, Ideal.negf_def, Ideal.hostUnary_exp_def, Ideal.ofBits_def, Ideal.ofBits_one_f32]
  rfl

/-- The decision head's pooled array, graph `b`, column `a`. -/
theorem ref_dec (x0 : (⟨S65536x128, .f32⟩ : BufTy).Contents (Elt Ideal)) (x1 : (⟨S655360x128, .f32⟩ : BufTy).Contents (Elt Ideal)) (x2 : (⟨S2x256x128, .f32⟩ : BufTy).Contents (Elt Ideal)) (x3 : (⟨S2x256x128, .f32⟩ : BufTy).Contents (Elt Ideal)) (x4 : (⟨S2x256, .f32⟩ : BufTy).Contents (Elt Ideal)) (x5 : (⟨S2x256x128, .f32⟩ : BufTy).Contents (Elt Ideal)) (x6 : (⟨S2x384x256, .f32⟩ : BufTy).Contents (Elt Ideal)) (x7 : (⟨S2x384x128, .f32⟩ : BufTy).Contents (Elt Ideal)) (x8 : (⟨S2x384, .f32⟩ : BufTy).Contents (Elt Ideal)) (x9 : (⟨S2x384, .f32⟩ : BufTy).Contents (Elt Ideal)) (x10 : (⟨S256x128, .f32⟩ : BufTy).Contents (Elt Ideal)) (x11 : (⟨S256, .f32⟩ : BufTy).Contents (Elt Ideal)) (x12 : (⟨S256x128, .f32⟩ : BufTy).Contents (Elt Ideal)) (x13 : (⟨S256, .f32⟩ : BufTy).Contents (Elt Ideal)) (x24 : (⟨S655360, .i32⟩ : BufTy).Contents (Elt Ideal)) (x25 : (⟨S655360, .i32⟩ : BufTy).Contents (Elt Ideal)) (x27 : (⟨S65536, .i32⟩ : BufTy).Contents (Elt Ideal)) (b : Fin 128) (a : Fin 256) :
    val_main_v189 (F := Ideal) x0 x1 x2 x3 x4 x5 x6 x7 x8 x9 x10 x11 x12 x13 x24 x25 x27 (ix2 b a)
      = pooled (poolParams x10 x11 x12 x13) (m1 x27) (m2 (val_main_v171 (F := Ideal) x0 x1 x2 x3 x4 x5 x6 x7 x8 x9 x24 x25 x27)) b a := by
  have el : ∀ n, lidx_main_v189 (ix2 b a) n = ix2 b n := fun n => funext fun c => Fin.ext (by match c with | ⟨0, _⟩ => rfl | ⟨1, _⟩ => rfl)
  have er : ∀ n, ridx_main_v189 (ix2 b a) n = ix2 n a := fun n => funext fun c => Fin.ext (by match c with | ⟨0, _⟩ => rfl | ⟨1, _⟩ => rfl)
  rw [val_main_v189_apply]
  unfold pooled
  refine Finset.sum_congr rfl fun n _ => ?_
  rw [el, er, owner_table_apply, gated_dec]

/-- The same product for the initialisation head. -/
theorem gated_init (x0 : (⟨S65536x128, .f32⟩ : BufTy).Contents (Elt Ideal)) (x1 : (⟨S655360x128, .f32⟩ : BufTy).Contents (Elt Ideal)) (x2 : (⟨S2x256x128, .f32⟩ : BufTy).Contents (Elt Ideal)) (x3 : (⟨S2x256x128, .f32⟩ : BufTy).Contents (Elt Ideal)) (x4 : (⟨S2x256, .f32⟩ : BufTy).Contents (Elt Ideal)) (x5 : (⟨S2x256x128, .f32⟩ : BufTy).Contents (Elt Ideal)) (x6 : (⟨S2x384x256, .f32⟩ : BufTy).Contents (Elt Ideal)) (x7 : (⟨S2x384x128, .f32⟩ : BufTy).Contents (Elt Ideal)) (x8 : (⟨S2x384, .f32⟩ : BufTy).Contents (Elt Ideal)) (x9 : (⟨S2x384, .f32⟩ : BufTy).Contents (Elt Ideal)) (x14 : (⟨S256x128, .f32⟩ : BufTy).Contents (Elt Ideal)) (x15 : (⟨S256, .f32⟩ : BufTy).Contents (Elt Ideal)) (x16 : (⟨S256x128, .f32⟩ : BufTy).Contents (Elt Ideal)) (x17 : (⟨S256, .f32⟩ : BufTy).Contents (Elt Ideal)) (x24 : (⟨S655360, .i32⟩ : BufTy).Contents (Elt Ideal)) (x25 : (⟨S655360, .i32⟩ : BufTy).Contents (Elt Ideal)) (x27 : (⟨S65536, .i32⟩ : BufTy).Contents (Elt Ideal)) (n : Fin 65536) (a : Fin 256) :
    val_main_v229 (F := Ideal) x0 x1 x2 x3 x4 x5 x6 x7 x8 x9 x14 x15 x16 x17 x24 x25 x27 (ix2 n a)
      = gated (poolParams x14 x15 x16 x17) (m2 (val_main_v171 (F := Ideal) x0 x1 x2 x3 x4 x5 x6 x7 x8 x9 x24 x25 x27)) n a := by
  have egl : ∀ k, lidx_main_v214 (ix2 n a) k = ix2 n k := fun k => funext fun c => Fin.ext (by match c with | ⟨0, _⟩ => rfl | ⟨1, _⟩ => rfl)
  have egr : ∀ k, ridx_main_v214 (ix2 n a) k = ix2 k a := fun k => funext fun c => Fin.ext (by match c with | ⟨0, _⟩ => rfl | ⟨1, _⟩ => rfl)
  have egt : ∀ k : Fin 128, idx_main_v213 (ix2 k a) = ix2 a k := fun k => funext fun c => Fin.ext (by match c with | ⟨0, _⟩ => rfl | ⟨1, _⟩ => rfl)
  have egb : idx_main_v216 (ix2 n a) = ix2 (0 : Fin 1) a := funext fun c => Fin.ext (by match c with | ⟨0, _⟩ => rfl | ⟨1, _⟩ => rfl)
  have egc : idx_main_v215 (ix2 (0 : Fin 1) a) = ix1 a := funext fun c => Fin.ext (by match c with | ⟨0, _⟩ => rfl)
  have edl : ∀ k, lidx_main_v225 (ix2 n a) k = ix2 n k := fun k => funext fun c => Fin.ext (by match c with | ⟨0, _⟩ => rfl | ⟨1, _⟩ => rfl)
  have edr : ∀ k, ridx_main_v225 (ix2 n a) k = ix2 k a := fun k => funext fun c => Fin.ext (by match c with | ⟨0, _⟩ => rfl | ⟨1, _⟩ => rfl)
  have edt : ∀ k : Fin 128, idx_main_v224 (ix2 k a) = ix2 a k := fun k => funext fun c => Fin.ext (by match c with | ⟨0, _⟩ => rfl | ⟨1, _⟩ => rfl)
  have edb : idx_main_v227 (ix2 n a) = ix2 (0 : Fin 1) a := funext fun c => Fin.ext (by match c with | ⟨0, _⟩ => rfl | ⟨1, _⟩ => rfl)
  have edc : idx_main_v226 (ix2 (0 : Fin 1) a) = ix1 a := funext fun c => Fin.ext (by match c with | ⟨0, _⟩ => rfl)
  rw [val_main_v229_apply, val_main_v228_apply, val_main_v225_apply, val_main_v227_apply, edb, val_main_v226_apply, edc,
    val_main_v223_apply, val_main_v222_apply, val_main_cst_29_apply, val_main_v221_apply, val_main_v220_apply, val_main_cst_28_apply,
    val_main_v219_apply, val_main_v218_apply, val_main_v217_apply, val_main_v214_apply, val_main_v216_apply, egb, val_main_v215_apply, egc]
  simp only [egl, egr, edl, edr, val_main_v213_apply, val_main_v224_apply, egt, edt, Ideal.mulf_def, Ideal.addf_def,
    Ideal.hostDivf_def, Ideal.hostNegf_def, Ideal.negf_def, Ideal.hostUnary_exp_def, Ideal.ofBits_def, Ideal.ofBits_one_f32]
  rfl

/-- The initialisation head's pooled array, graph `b`, column `a`. -/
theorem ref_init (x0 : (⟨S65536x128, .f32⟩ : BufTy).Contents (Elt Ideal)) (x1 : (⟨S655360x128, .f32⟩ : BufTy).Contents (Elt Ideal)) (x2 : (⟨S2x256x128, .f32⟩ : BufTy).Contents (Elt Ideal)) (x3 : (⟨S2x256x128, .f32⟩ : BufTy).Contents (Elt Ideal)) (x4 : (⟨S2x256, .f32⟩ : BufTy).Contents (Elt Ideal)) (x5 : (⟨S2x256x128, .f32⟩ : BufTy).Contents (Elt Ideal)) (x6 : (⟨S2x384x256, .f32⟩ : BufTy).Contents (Elt Ideal)) (x7 : (⟨S2x384x128, .f32⟩ : BufTy).Contents (Elt Ideal)) (x8 : (⟨S2x384, .f32⟩ : BufTy).Contents (Elt Ideal)) (x9 : (⟨S2x384, .f32⟩ : BufTy).Contents (Elt Ideal)) (x14 : (⟨S256x128, .f32⟩ : BufTy).Contents (Elt Ideal)) (x15 : (⟨S256, .f32⟩ : BufTy).Contents (Elt Ideal)) (x16 : (⟨S256x128, .f32⟩ : BufTy).Contents (Elt Ideal)) (x17 : (⟨S256, .f32⟩ : BufTy).Contents (Elt Ideal)) (x24 : (⟨S655360, .i32⟩ : BufTy).Contents (Elt Ideal)) (x25 : (⟨S655360, .i32⟩ : BufTy).Contents (Elt Ideal)) (x27 : (⟨S65536, .i32⟩ : BufTy).Contents (Elt Ideal)) (b : Fin 128) (a : Fin 256) :
    val_main_v230 (F := Ideal) x0 x1 x2 x3 x4 x5 x6 x7 x8 x9 x14 x15 x16 x17 x24 x25 x27 (ix2 b a)
      = pooled (poolParams x14 x15 x16 x17) (m1 x27) (m2 (val_main_v171 (F := Ideal) x0 x1 x2 x3 x4 x5 x6 x7 x8 x9 x24 x25 x27)) b a := by
  have el : ∀ n, lidx_main_v230 (ix2 b a) n = ix2 b n := fun n => funext fun c => Fin.ext (by match c with | ⟨0, _⟩ => rfl | ⟨1, _⟩ => rfl)
  have er : ∀ n, ridx_main_v230 (ix2 b a) n = ix2 n a := fun n => funext fun c => Fin.ext (by match c with | ⟨0, _⟩ => rfl | ⟨1, _⟩ => rfl)
  rw [val_main_v230_apply]
  unfold pooled
  refine Finset.sum_congr rfl fun n _ => ?_
  rw [el, er, owner_table_apply, gated_init]

end Cert.ReferenceIdeal.RV

end
-- ==== Proof.Algebra.lean ====
/-
  The laws that join the two spellings of a propagation step.

  Summing the edges' messages and multiplying afterwards agree when every number involved is real: the matrix product
  distributes over the sum of the gathered rows and of the edge features, and an edge that ends at node n reads the
  destination projection of node n itself, so that term is the in-degree times it. "The owner table's row has a
  positive sum" says the owner word is one of the 128 graph numbers. The cell's output is always a real number when the
  node's own row is: both gates and the candidate lie in [-1, 1].
-/
import proofs.«423165_j21801253994886_2_alg».proof.Proof.Spec

noncomputable section

namespace Cert.Gnn

open Idealize.ShloMosaic

/-- The word of 1.0 is the real number 1. -/
theorem one_eq : one = 1 := by
  unfold one
  simp [Ideal.ofBits, Ideal.ieee]
  rw [← EReal.coe_mul, ← EReal.coe_one, EReal.coe_eq_coe_iff]
  norm_num

/-- A word below 128 read signed is itself. -/
theorem alg_toInt_ofNat_small (b : Nat) (hb : b < 128) : (BitVec.ofNat 32 b).toInt = (b : Int) := by
  rw [BitVec.toInt_eq_toNat_cond, BitVec.toNat_ofNat]
  omega

/-- A word whose signed reading is in [0, 128) is the word of that number. -/
theorem alg_eq_ofNat_of_small (v : BitVec 32) (h0 : 0 ≤ v.toInt) (h1 : v.toInt < 128) :
    v = BitVec.ofNat 32 v.toInt.toNat := by
  apply BitVec.eq_of_toNat_eq
  rw [BitVec.toNat_ofNat]
  rw [BitVec.toInt_eq_toNat_cond] at h0 h1 ⊢
  have := v.isLt
  split_ifs at h0 h1 ⊢ <;> omega

/-- Every entry of the owner table is 0 or 1, so never negative. -/
theorem alg_hot_nonneg (owner : Fin 65536 → BitVec 32) (n : Fin 65536) (b : Fin 128) : 0 ≤ hot owner n b := by
  unfold hot
  split_ifs
  · exact zero_le_one
  · exact le_refl _

/-- The owner table's row sum is positive exactly when the owner word is a graph number. -/
theorem rowPos_iff_owned (owner : Fin 65536 → BitVec 32) (n : Fin 65536) : RowPos owner n ↔ Owned (owner n) := by
  unfold RowPos Owned
  constructor
  · intro hpos
    by_contra hno
    have hz : ∑ b : Fin 128, hot owner n b = 0 := by
      apply Finset.sum_eq_zero
      intro b _
      unfold hot
      rw [if_neg]
      intro hb
      apply hno
      rw [hb, alg_toInt_ofNat_small b.val b.isLt]
      constructor <;> omega
    rw [hz] at hpos
    exact lt_irrefl _ hpos
  · rintro ⟨h0, h1⟩
    have hlt : (owner n).toInt.toNat < 128 := by omega
    have hone : hot owner n ⟨(owner n).toInt.toNat, hlt⟩ = 1 := by
      unfold hot
      rw [if_pos (alg_eq_ofNat_of_small _ h0 h1)]
    have hle : hot owner n ⟨(owner n).toInt.toNat, hlt⟩ ≤ ∑ b : Fin 128, hot owner n b :=
      Finset.single_le_sum (fun b _ => alg_hot_nonneg owner n b) (Finset.mem_univ _)
    rw [hone] at hle
    exact lt_of_lt_of_le zero_lt_one hle

/-- An edge that ends at node `n` names row `n` through its destination word. -/
theorem rowOf_of_ends (v : BitVec 32) (n : Fin 65536) (h : v.toInt = (n.val : Int)) : rowOf v = n := by
  have hn := n.isLt
  have h0 : 0 ≤ v.toInt := by omega
  have h1 : v.toInt < (65536 : Nat) := by omega
  unfold rowOf wrap
  rw [if_neg (by omega)]
  apply Fin.ext
  have := Cert.Gcn.crow_val_of_range (N := 65536) (by norm_num) v h0 h1
  omega

/-- A finite sum of real numbers, read at the extended reals, is the sum of the readings. -/
theorem alg_coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A table of real numbers is the reading of a real table. -/
theorem alg_lift2 {a b : Nat} {A : Fin a → Fin b → EReal} (h : Fin2 A) :
    ∃ R : Fin a → Fin b → ℝ, A = fun i j => ((R i j : ℝ) : EReal) :=
  ⟨fun i j => (A i j).toReal, by funext i j; exact (EReal.coe_toReal (h i j).2 (h i j).1).symm⟩

/-- A vector of real numbers is the reading of a real vector. -/
theorem alg_lift1 {a : Nat} {A : Fin a → EReal} (h : Fin1 A) :
    ∃ R : Fin a → ℝ, A = fun i => ((R i : ℝ) : EReal) :=
  ⟨fun i => (A i).toReal, by funext i; exact (EReal.coe_toReal (h i).2 (h i).1).symm⟩

/-- Over real numbers, multiplying after the sums is summing the messages. -/
theorem aggK_eq_aggR (p : StepParams) (hp : p.Finite) (g : Graph) (hef : Fin2 g.ef)
    (x : Fin 65536 → Fin 128 → EReal) (hx : Fin2 x) : aggK p g x = aggR p g x := by
  obtain ⟨Wsrc, Wdest, bdest, Wfeat, Wih, Whh, bih, bhh⟩ := p
  obtain ⟨ef, src, dst, owner⟩ := g
  obtain ⟨hWsrc, hWdest, hbdest, hWfeat, -, -, -, -⟩ := hp
  simp only at hWsrc hWdest hbdest hWfeat hef
  obtain ⟨Ws, rfl⟩ := alg_lift2 hWsrc
  obtain ⟨Wd, rfl⟩ := alg_lift2 hWdest
  obtain ⟨bd, rfl⟩ := alg_lift1 hbdest
  obtain ⟨Wf, rfl⟩ := alg_lift2 hWfeat
  obtain ⟨F, rfl⟩ := alg_lift2 hef
  obtain ⟨X, rfl⟩ := alg_lift2 hx
  funext n j
  unfold aggK aggR destT segSum
  simp only []
  -- every edge of the sum ends at n, so its destination word names row n
  have hrow : ∀ e ∈ Finset.univ.filter (fun e : Fin 655360 => (dst e).toInt = (n.val : Int)), rowOf (dst e) = n := by
    intro e he
    exact rowOf_of_ends _ _ (Finset.mem_filter.mp he).2
  refine Eq.trans ?_ (Finset.sum_congr rfl (fun e he => by rw [hrow e he]))
  simp only [one_eq, ← EReal.coe_one, ← EReal.coe_mul, ← EReal.coe_add, alg_coe_sum]
  rw [EReal.coe_eq_coe_iff]
  simp only [Finset.sum_add_distrib, Finset.sum_mul, one_mul]
  exact congrArg₂ (· + ·) (congrArg₂ (· + ·) Finset.sum_comm rfl) Finset.sum_comm

/-- The logistic function of any extended real is a real number. -/
theorem alg_logistic_real (y : EReal) : ∃ r : ℝ, Ideal.logistic y = (r : EReal) := by
  induction y using EReal.rec with
  | bot => exact ⟨0, by simp⟩
  | coe r => exact ⟨_, Ideal.logistic_coe (r := r)⟩
  | top => exact ⟨1, by simp⟩

/-- The hyperbolic tangent of any extended real is a real number. -/
theorem alg_tanh_real (y : EReal) : ∃ r : ℝ, Ideal.tanh y = (r : EReal) := by
  induction y using EReal.rec with
  | bot => exact ⟨-1, by simp⟩
  | coe r => exact ⟨_, Ideal.tanh_coe (r := r)⟩
  | top => exact ⟨1, by simp⟩

/-- A convex-looking combination of real numbers is a real number. -/
theorem alg_cell_real (z c xs : EReal) (hz : ∃ r : ℝ, z = (r : EReal)) (hc : ∃ r : ℝ, c = (r : EReal))
    (hx : xs ≠ ⊥ ∧ xs ≠ ⊤) : (one - z) * c + z * xs ≠ ⊥ ∧ (one - z) * c + z * xs ≠ ⊤ := by
  obtain ⟨z, rfl⟩ := hz
  obtain ⟨c, rfl⟩ := hc
  have hxs : xs = ((xs.toReal : ℝ) : EReal) := (EReal.coe_toReal hx.2 hx.1).symm
  rw [hxs, one_eq, ← EReal.coe_one, ← EReal.coe_sub, ← EReal.coe_mul, ← EReal.coe_mul, ← EReal.coe_add]
  exact ⟨EReal.coe_ne_bot _, EReal.coe_ne_top _⟩

/-- The cell's output is a real number when the node's own entry is. -/
theorem gru_finite (p : StepParams) (x : Fin 128 → EReal) (a : Fin 256 → EReal) (s : Fin 128)
    (hx : x s ≠ ⊥ ∧ x s ≠ ⊤) : gru p x a s ≠ ⊥ ∧ gru p x a s ≠ ⊤ := by
  unfold gru
  exact alg_cell_real _ _ _ (alg_logistic_real _) (alg_tanh_real _) hx

/-- The two spellings of a step agree on real inputs. -/
theorem stepK_eq_stepR (p : StepParams) (hp : p.Finite) (g : Graph) (hef : Fin2 g.ef)
    (x : Fin 65536 → Fin 128 → EReal) (hx : Fin2 x) : stepK p g x = stepR p g x := by
  funext n s
  unfold stepK stepR
  by_cases h : Owned (g.owner n)
  · rw [if_pos h, if_pos ((rowPos_iff_owned _ _).mpr h), aggK_eq_aggR p hp g hef x hx]
  · rw [if_neg h, if_neg (fun hr => h ((rowPos_iff_owned _ _).mp hr))]

/-- A step keeps the node table real. -/
theorem stepK_finite (p : StepParams) (g : Graph) (x : Fin 65536 → Fin 128 → EReal) (hx : Fin2 x) :
    Fin2 (stepK p g x) := by
  intro n s
  unfold stepK
  split_ifs
  · exact gru_finite p (x n) _ s (hx n s)
  · exact hx n s

end Cert.Gnn

end
-- ==== Proof.Finite.lean ====
/-
  The precondition read: every float argument holds real numbers. Used are the node table, the edge features and the
  two steps' parameters (the laws that join the two spellings of a step need nothing else).
-/
import proofs.«423165_j21801253994886_2_alg».proof.Defs
import proofs.«423165_j21801253994886_2_alg».proof.Proof.KArgs
import Idealize.ShloMosaic.Lib.ReduceAll

set_option maxRecDepth 16384

noncomputable section

namespace Cert.KernelIdeal.KV

open Idealize.ShloMosaic Idealize.ShloMosaic.TcCoe Idealize.ShloMosaic.ValueIdx Idealize.SL.Sem
open Cert.Gnn Cert.KernelIdeal

/-- The shape with no axes has one index. -/
instance : Subsingleton Cert.Pre_finite_inputs.S_.Idx := ⟨fun a b => funext fun d => d.elim0⟩

/-- An extended real whose absolute value, max x (-x), lies strictly below +∞ is a real number: at ⊥ and at ⊤ the
    absolute value is ⊤, which is not below itself. -/
theorem real_of_abs_lt (x : EReal) (h : Ideal.cmp .olt (max x (-x)) (Ideal.ofBits .f32 0x7F800000#32) = 1#1) :
    x ≠ ⊥ ∧ x ≠ ⊤ := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨EReal.coe_ne_bot r, EReal.coe_ne_top r⟩

/-- "All entries have absolute value below +∞", as the predicate spells it for one array (the comparison of |x| with
    the broadcast +∞, and-reduced over every axis from 1), says every entry is a real number. -/
theorem all_real {s : Shape} {axes : List (Fin s.rank)} (x : s.Idx → EReal)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf (F := Ideal) (φ := .f32) x)
            (broadcastInDim s ![] hb (constant (F := Ideal) Cert.Pre_finite_inputs.S_ .f32 0x7F800000#32)))
          (constantI Cert.Pre_finite_inputs.S_ 1 1#1) hr h0 ix0 = 1#1)
    (i : s.Idx) : x i ≠ ⊥ ∧ x i ≠ ⊤ :=
  real_of_abs_lt (x i) (Host.reduce_andi_all _ _ hr h0 ix0 e i)

/-- A conjunction of two one-index truth values that is 1 has both conjuncts 1. -/
theorem and_ix0 (A B : IVec Cert.Pre_finite_inputs.S_ 1) (h : andi A B ix0 = 1#1) : A ix0 = 1#1 ∧ B ix0 = 1#1 :=
  IntOp.andi_eq_one.1 h

/-- Under the precondition the node table, the edge features and both steps' parameters are real numbers. -/
theorem finite_of_pre [hP : Cert.Pre_finite_inputs.Facts] (m : (ℓ : Loc nD τ sig) → Buf (Elt Ideal) ℓ)
    (h : Cert.Pre_KernelIdeal m) (c : Dev nD) :
    Fin2 (m2 (a0 m c)) ∧ Fin2 (m2 (a1 m c)) ∧ (kp m 0 c).Finite ∧ (kp m 1 c).Finite := by
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h0
  -- the predicate is the conjunction, nested to the left, of one "all entries below +∞" per float argument, in the
  -- order of the arguments: strip the fourteen outer conjuncts (arguments 23 down to 10)
  have p1 := (and_ix0 _ _ h0).1
  have p2 := (and_ix0 _ _ p1).1
  have p3 := (and_ix0 _ _ p2).1
  have p4 := (and_ix0 _ _ p3).1
  have p5 := (and_ix0 _ _ p4).1
  have p6 := (and_ix0 _ _ p5).1
  have p7 := (and_ix0 _ _ p6).1
  have p8 := (and_ix0 _ _ p7).1
  have p9 := (and_ix0 _ _ p8).1
  have p10 := (and_ix0 _ _ p9).1
  have p11 := (and_ix0 _ _ p10).1
  have p12 := (and_ix0 _ _ p11).1
  have p13 := (and_ix0 _ _ p12).1
  have p14 := (and_ix0 _ _ p13).1
  -- then read arguments 9 down to 0, one conjunct each
  have q9 := and_ix0 _ _ p14
  have q8 := and_ix0 _ _ q9.1
  have q7 := and_ix0 _ _ q8.1
  have q6 := and_ix0 _ _ q7.1
  have q5 := and_ix0 _ _ q6.1
  have q4 := and_ix0 _ _ q5.1
  have q3 := and_ix0 _ _ q4.1
  have q2 := and_ix0 _ _ q3.1
  have q1 := and_ix0 _ _ q2.1
  have r0 := all_real _ _ _ _ q1.1
  have r1 := all_real _ _ _ _ q1.2
  have r2 := all_real _ _ _ _ q2.2
  have r3 := all_real _ _ _ _ q3.2
  have r4 := all_real _ _ _ _ q4.2
  have r5 := all_real _ _ _ _ q5.2
  have r6 := all_real _ _ _ _ q6.2
  have r7 := all_real _ _ _ _ q7.2
  have r8 := all_real _ _ _ _ q8.2
  have r9 := all_real _ _ _ _ q9.2
  -- layer l of each stacked parameter array is a view of the array: entry (i, j) of the layer is entry (l, i, j)
  have hk : ∀ l : Fin 2, (kp m l c).Finite := fun l =>
    { Wsrc := fun i j => r2 (ix3 l i j)
      Wdest := fun i j => r3 (ix3 l i j)
      bdest := fun i => r4 (ix2 l i)
      Wfeat := fun i j => r5 (ix3 l i j)
      Wih := fun i j => r6 (ix3 l i j)
      Whh := fun i j => r7 (ix3 l i j)
      bih := fun i => r8 (ix2 l i)
      bhh := fun i => r9 (ix2 l i) }
  exact ⟨fun i j => r0 (ix2 i j), fun i j => r1 (ix2 i j), hk 0, hk 1⟩

end Cert.KernelIdeal.KV

end
-- ==== Proof.Tail.lean ====
/-
  The two programs end with the same host operations on the final node table and the two pooled arrays: the decision
  logits, their log-softmax read at the reference type, the mean's negation; the type embedding, the two linear maps,
  and the new rows joined under the node table. Given equal tables and pooled arrays, the results are equal.
-/
import proofs.«423165_j21801253994886_2_alg».proof.Proof.Gen.KernelIdeal.Frame
import proofs.«423165_j21801253994886_2_alg».proof.Proof.KArgs
import proofs.«423165_j21801253994886_2_alg».proof.Proof.RRead

set_option maxRecDepth 16384

noncomputable section

namespace Cert.KernelIdeal.KV

open Idealize.ShloMosaic Idealize.ShloMosaic.TcCoe Idealize.ShloMosaic.ValueIdx Idealize.SL.Sem
open Cert.Gnn
open Cert.KernelIdeal Cert.KernelIdeal.Gen

variable (m : (ℓ : Loc nD τ sig) → Buf (Elt Ideal) ℓ) (ρ : Dev nD → PrngReg)

/-! ## The arguments the closing host operations read

No host operation writes an argument's buffer, so at the last region's exit each still holds what it was launched
with: the five closing stretches are walked back from the end, where the generated frame has the argument at its
launch contents. -/

/-- No operation of the named host stretch writes the buffer the goal reads, so the stretch leaves it as it was. -/
local macro "not_written " s:ident : tactic => `(tactic|
  exact StableHlo.after_of_forall_not_mem _ _ (List.forall_iff_forall_mem.mp (by
    simp only [$s:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- A buffer that none of the five closing host stretches writes holds after them what it held at the last region's
    exit. -/
local macro "closing_unwritten" : tactic => `(tactic|
  exact ((((Eq.trans (by not_written hostOps3_4) (by not_written hostOps3_3)).trans (by not_written hostOps3_2)).trans
    (by not_written hostOps3_1)).trans (by not_written hostOps3)))

/-- The decision layer's weights at the last region's exit. -/
private theorem W9_arg18 (c : Dev nD) : W9 m ρ c (Proc.devRef .tc main_arg18) = m ((c : Thread nD τ).loc main_arg18) :=
  (by closing_unwritten : W14 m ρ c (Proc.devRef .tc main_arg18) = W9 m ρ c (Proc.devRef .tc main_arg18)).symm.trans
    (W14_main_arg18 m ρ c)

/-- The decision layer's bias at the last region's exit. -/
private theorem W9_arg19 (c : Dev nD) : W9 m ρ c (Proc.devRef .tc main_arg19) = m ((c : Thread nD τ).loc main_arg19) :=
  (by closing_unwritten : W14 m ρ c (Proc.devRef .tc main_arg19) = W9 m ρ c (Proc.devRef .tc main_arg19)).symm.trans
    (W14_main_arg19 m ρ c)

/-- The type embedding table at the last region's exit. -/
private theorem W9_arg20 (c : Dev nD) : W9 m ρ c (Proc.devRef .tc main_arg20) = m ((c : Thread nD τ).loc main_arg20) :=
  (by closing_unwritten : W14 m ρ c (Proc.devRef .tc main_arg20) = W9 m ρ c (Proc.devRef .tc main_arg20)).symm.trans
    (W14_main_arg20 m ρ c)

/-- The first feature map's weights at the last region's exit. -/
private theorem W9_arg21 (c : Dev nD) : W9 m ρ c (Proc.devRef .tc main_arg21) = m ((c : Thread nD τ).loc main_arg21) :=
  (by closing_unwritten : W14 m ρ c (Proc.devRef .tc main_arg21) = W9 m ρ c (Proc.devRef .tc main_arg21)).symm.trans
    (W14_main_arg21 m ρ c)

/-- The first feature map's bias at the last region's exit. -/
private theorem W9_arg22 (c : Dev nD) : W9 m ρ c (Proc.devRef .tc main_arg22) = m ((c : Thread nD τ).loc main_arg22) :=
  (by closing_unwritten : W14 m ρ c (Proc.devRef .tc main_arg22) = W9 m ρ c (Proc.devRef .tc main_arg22)).symm.trans
    (W14_main_arg22 m ρ c)

/-- The second feature map's weights at the last region's exit. -/
private theorem W9_arg23 (c : Dev nD) : W9 m ρ c (Proc.devRef .tc main_arg23) = m ((c : Thread nD τ).loc main_arg23) :=
  (by closing_unwritten : W14 m ρ c (Proc.devRef .tc main_arg23) = W9 m ρ c (Proc.devRef .tc main_arg23)).symm.trans
    (W14_main_arg23 m ρ c)

/-- The reference types at the last region's exit. -/
private theorem W9_arg26 (c : Dev nD) : W9 m ρ c (Proc.devRef .tc main_arg26) = m ((c : Thread nD τ).loc main_arg26) :=
  (by closing_unwritten : W14 m ρ c (Proc.devRef .tc main_arg26) = W9 m ρ c (Proc.devRef .tc main_arg26)).symm.trans
    (W14_main_arg26 m ρ c)

/-! ## The two results

Each result is read back through the five closing stretches to a term over the last region's exit contents; the
arguments there are the launch's, the node table and the pooled arrays are the reference's by hypothesis. The
reference's stages are opened down to those three leaves, which stay closed: what is left on the two sides is the
same chain of operations over the same leaves, the shapes and dimension records of the two programs being the same
literals. -/

/-- Two arrays joined along an axis depend on nothing but the two arrays. -/
private theorem concatenate_pair_congr {α : Type} {t s₁ s₂ : Shape} (a : Fin t.rank) {x₁ y₁ : s₁.Idx → α} {x₂ y₂ : s₂.Idx → α}
    (h : Shape.Concatenates [s₁, s₂] t a) (h₁ : x₁ = y₁) (h₂ : x₂ = y₂) :
    concatenate t a [⟨s₁, x₁⟩, ⟨s₂, x₂⟩] h = concatenate t a [⟨s₁, y₁⟩, ⟨s₂, y₂⟩] h := by
  subst h₁; subst h₂; rfl

open Cert.ReferenceIdeal.ReadP in
/-- The kernel program's first result is the reference's stage, once the node table and the initialisation head's pooled
    array before the closing host operations are the reference's. -/
theorem tail_out (c : Dev nD)
    (hN : (W9 m ρ c (Proc.devRef .tc main_v86) : S65536x128.Idx → EReal)
      = Cert.ReferenceIdeal.ReadP.val_main_v171 (F := Ideal) (a0 m c) (a1 m c) (a2 m c) (a3 m c) (a4 m c) (a5 m c) (a6 m c) (a7 m c) (a8 m c) (a9 m c) (a24 m c) (a25 m c) (a27 m c))
    (hI : (W9 m ρ c (Proc.devRef .tc main_v96_1) : S128x256.Idx → EReal)
      = Cert.ReferenceIdeal.ReadP.val_main_v230 (F := Ideal) (a0 m c) (a1 m c) (a2 m c) (a3 m c) (a4 m c) (a5 m c) (a6 m c) (a7 m c) (a8 m c) (a9 m c) (a14 m c) (a15 m c) (a16 m c) (a17 m c) (a24 m c) (a25 m c) (a27 m c)) :
    (W14 m ρ c (Proc.devRef .tc main_v128) : S65664x128.Idx → EReal)
      = Cert.ReferenceIdeal.ReadP.val_main_v239 (F := Ideal) (a0 m c) (a1 m c) (a2 m c) (a3 m c) (a4 m c) (a5 m c) (a6 m c) (a7 m c) (a8 m c) (a9 m c) (a14 m c) (a15 m c) (a16 m c) (a17 m c) (a20 m c) (a21 m c) (a22 m c) (a23 m c) (a24 m c) (a25 m c) (a26 m c) (a27 m c) := by
  -- the result is the node table with the new rows joined under it: the two pieces are compared one by one
  show StableHlo.after hostOps3_4 (StableHlo.after hostOps3_3 (StableHlo.after hostOps3_2 (StableHlo.after hostOps3_1
    (StableHlo.after hostOps3 (W9 m ρ c))))) (Proc.devRef .tc main_v128) = _
  delta val_main_v239
  simp only [StableHlo.after_cons, StableHlo.after_nil]
  rw [StableHlo.binary_result]
  refine concatenate_pair_congr _ _ ?_ ?_
  · -- the node table: no closing operation writes it
    after_results_simp
    exact hN
  · -- the new rows: the embedding of the selected type through the first map, plus its bias, plus the pooled array
    -- through the second map
    after_results_simp
    rw [W9_arg20, W9_arg21, W9_arg22, W9_arg23, W9_arg26, hI]
    delta val_main_v238 val_main_v237 val_main_v236 val_main_v235 val_main_v234 val_main_v233 val_main_v232
      val_main_v231 val_main_v212 val_main_v211 val_main_v210 val_main_v209 val_main_v208 val_main_c_27 val_main_v207
      val_main_v206 val_main_c_26 val_main_v205 val_main_v204 val_main_c_25 val_main_v196 val_main_v195 val_main_c_22
    generalize val_main_v230 (F := Ideal) (a0 m c) (a1 m c) (a2 m c) (a3 m c) (a4 m c) (a5 m c) (a6 m c) (a7 m c) (a8 m c)
      (a9 m c) (a14 m c) (a15 m c) (a16 m c) (a17 m c) (a24 m c) (a25 m c) (a27 m c) = pooled
    rfl

open Cert.ReferenceIdeal.ReadP in
/-- The kernel program's second result is the reference's stage, once the decision head's pooled array is the
    reference's. -/
theorem tail_loss (c : Dev nD)
    (hD : (W9 m ρ c (Proc.devRef .tc main_v96_0) : S128x256.Idx → EReal)
      = Cert.ReferenceIdeal.ReadP.val_main_v189 (F := Ideal) (a0 m c) (a1 m c) (a2 m c) (a3 m c) (a4 m c) (a5 m c) (a6 m c) (a7 m c) (a8 m c) (a9 m c) (a10 m c) (a11 m c) (a12 m c) (a13 m c) (a24 m c) (a25 m c) (a27 m c)) :
    (W14 m ρ c (Proc.devRef .tc main_v110) : S_.Idx → EReal)
      = Cert.ReferenceIdeal.ReadP.val_main_v203 (F := Ideal) (a0 m c) (a1 m c) (a2 m c) (a3 m c) (a4 m c) (a5 m c) (a6 m c) (a7 m c) (a8 m c) (a9 m c) (a10 m c) (a11 m c) (a12 m c) (a13 m c) (a18 m c) (a19 m c) (a24 m c) (a25 m c) (a26 m c) (a27 m c) := by
  -- the negated mean of the log-softmax of the decision logits, read at the selected type
  show StableHlo.after hostOps3_4 (StableHlo.after hostOps3_3 (StableHlo.after hostOps3_2 (StableHlo.after hostOps3_1
    (StableHlo.after hostOps3 (W9 m ρ c))))) (Proc.devRef .tc main_v110) = _
  after_results_simp
  -- the log-softmax and the read along the axis are written over typed references: their transports are identities
  simp only [StableHlo.TRef.ofBuf, StableHlo.TRef.toBuf, cast_eq]
  rw [W9_arg18, W9_arg19, W9_arg26, hD]
  delta val_main_v203 val_main_v202 val_main_cst_24 val_main_v201 val_main_cst_23 val_main_v200 val_main_v199
    val_main_call4_v14 val_main_call4_cst val_main_call4_v13 val_main_call4_v12 val_main_call4_c_3 val_main_call4_v11
    val_main_call4_v10 val_main_call4_v9 val_main_call4_v8 val_main_call4_c_1 val_main_call4_v7 val_main_call4_v6
    val_main_call4_c_2 val_main_call4_v5 val_main_call4_v4 val_main_call4_v3 val_main_call4_v2 val_main_call4_c_0
    val_main_call4_v1 val_main_call4_v0 val_main_call4_c val_main_v198 val_main_v197 val_main_call3_v10 val_main_call3_v9
    val_main_call3_v8 val_main_call3_v7 val_main_call3_cst_1 val_main_call3_v6 val_main_call3_v5 val_main_call3_v4
    val_main_call3_v3 val_main_call3_v2 val_main_call3_v1 val_main_call3_cst_0 val_main_call3_v0 val_main_call3_cst
    val_main_v196 val_main_v195 val_main_c_22 val_main_v194 val_main_v193 val_main_v192 val_main_v191 val_main_v190
  generalize val_main_v189 (F := Ideal) (a0 m c) (a1 m c) (a2 m c) (a3 m c) (a4 m c) (a5 m c) (a6 m c) (a7 m c) (a8 m c)
    (a9 m c) (a10 m c) (a11 m c) (a12 m c) (a13 m c) (a24 m c) (a25 m c) (a27 m c) = pooled
  rfl

end Cert.KernelIdeal.KV

end
-- ==== Proof.Bridge.lean ====
/-
  The kernel program's results are the reference's stages of the kernel's own arguments.

  After each of the two propagation steps the two programs hold the same node table: each side's table is its spelling
  of the step applied to the table before, the two spellings agree on real inputs, and a step keeps the table real.
  The pooled arrays are then the same sums over the same table, and the closing host operations are shared.
-/
import proofs.«423165_j21801253994886_2_alg».proof.Proof.KNodes1
import proofs.«423165_j21801253994886_2_alg».proof.Proof.KNodes2
import proofs.«423165_j21801253994886_2_alg».proof.Proof.KPooled
import proofs.«423165_j21801253994886_2_alg».proof.Proof.RStep0
import proofs.«423165_j21801253994886_2_alg».proof.Proof.RStep1
import proofs.«423165_j21801253994886_2_alg».proof.Proof.RPool
import proofs.«423165_j21801253994886_2_alg».proof.Proof.Algebra
import proofs.«423165_j21801253994886_2_alg».proof.Proof.Finite
import proofs.«423165_j21801253994886_2_alg».proof.Proof.Tail

set_option maxRecDepth 16384

noncomputable section

namespace Cert.KernelIdeal.KV

open Idealize.ShloMosaic Idealize.ShloMosaic.TcCoe Idealize.ShloMosaic.ValueIdx Idealize.SL.Sem
open Cert.Gnn
open Cert.KernelIdeal Cert.KernelIdeal.Gen

variable (m : (ℓ : Loc nD τ sig) → Buf (Elt Ideal) ℓ) (ρ : Dev nD → PrngReg)
open Cert.ReferenceIdeal.RV

variable [hP : Cert.Pre_finite_inputs.Facts]

/-- After the first step both programs hold the same node table. -/
theorem nodes1_eq (h : Cert.Pre_KernelIdeal m) (c : Dev nD) :
    (W4 m ρ c (Proc.devRef .tc main_v50) : S65536x128.Idx → EReal)
      = Cert.ReferenceIdeal.ReadP.val_main_v88 (F := Ideal) (a0 m c) (a1 m c) (a2 m c) (a3 m c) (a4 m c) (a5 m c) (a6 m c) (a7 m c) (a8 m c) (a9 m c) (a24 m c) (a25 m c) (a27 m c) := by
  obtain ⟨hx, hef, hp0, -⟩ := finite_of_pre m h c
  funext i
  obtain ⟨n, s, rfl⟩ : ∃ (n : Fin 65536) (s : Fin 128), i = ix2 n s := ⟨i 0, i 1, eq_ix2 i⟩
  rw [k_nodes1, ref_nodes1]
  exact congrFun (congrFun (stepK_eq_stepR (kp m 0 c) hp0 (kg m c) hef (m2 (a0 m c)) hx) n) s

/-- The node table after the first step is real. -/
theorem nodes1_finite (h : Cert.Pre_KernelIdeal m) (c : Dev nD) :
    Fin2 (m2 (W4 m ρ c (Proc.devRef .tc main_v50) : S65536x128.Idx → EReal)) := by
  obtain ⟨hx, -, -, -⟩ := finite_of_pre m h c
  have e : m2 (W4 m ρ c (Proc.devRef .tc main_v50) : S65536x128.Idx → EReal)
      = stepK (kp m 0 c) (kg m c) (m2 (a0 m c)) := by
    funext n s
    exact k_nodes1 m ρ c n s
  rw [e]
  exact stepK_finite _ _ _ hx

/-- After the second step both programs hold the same node table. -/
theorem nodes2_eq (h : Cert.Pre_KernelIdeal m) (c : Dev nD) :
    (W9 m ρ c (Proc.devRef .tc main_v86) : S65536x128.Idx → EReal)
      = Cert.ReferenceIdeal.ReadP.val_main_v171 (F := Ideal) (a0 m c) (a1 m c) (a2 m c) (a3 m c) (a4 m c) (a5 m c) (a6 m c) (a7 m c) (a8 m c) (a9 m c) (a24 m c) (a25 m c) (a27 m c) := by
  obtain ⟨-, hef, -, hp1⟩ := finite_of_pre m h c
  rw [k_nodes_kept]
  funext i
  obtain ⟨n, s, rfl⟩ : ∃ (n : Fin 65536) (s : Fin 128), i = ix2 n s := ⟨i 0, i 1, eq_ix2 i⟩
  rw [k_nodes2, ref_nodes2, ← nodes1_eq m ρ h c]
  exact congrFun (congrFun (stepK_eq_stepR (kp m 1 c) hp1 (kg m c) hef _ (nodes1_finite m ρ h c)) n) s

/-- The decision head's pooled arrays agree. -/
theorem dec_eq (h : Cert.Pre_KernelIdeal m) (c : Dev nD) :
    (W9 m ρ c (Proc.devRef .tc main_v96_0) : S128x256.Idx → EReal)
      = Cert.ReferenceIdeal.ReadP.val_main_v189 (F := Ideal) (a0 m c) (a1 m c) (a2 m c) (a3 m c) (a4 m c) (a5 m c) (a6 m c) (a7 m c) (a8 m c) (a9 m c) (a10 m c) (a11 m c) (a12 m c) (a13 m c) (a24 m c) (a25 m c) (a27 m c) := by
  funext i
  obtain ⟨b, a, rfl⟩ : ∃ (b : Fin 128) (a : Fin 256), i = ix2 b a := ⟨i 0, i 1, eq_ix2 i⟩
  rw [k_dec, ref_dec, ← nodes2_eq m ρ h c, k_nodes_kept]
  rfl

/-- The initialisation head's pooled arrays agree. -/
theorem init_eq (h : Cert.Pre_KernelIdeal m) (c : Dev nD) :
    (W9 m ρ c (Proc.devRef .tc main_v96_1) : S128x256.Idx → EReal)
      = Cert.ReferenceIdeal.ReadP.val_main_v230 (F := Ideal) (a0 m c) (a1 m c) (a2 m c) (a3 m c) (a4 m c) (a5 m c) (a6 m c) (a7 m c) (a8 m c) (a9 m c) (a14 m c) (a15 m c) (a16 m c) (a17 m c) (a24 m c) (a25 m c) (a27 m c) := by
  funext i
  obtain ⟨b, a, rfl⟩ : ∃ (b : Fin 128) (a : Fin 256), i = ix2 b a := ⟨i 0, i 1, eq_ix2 i⟩
  rw [k_init, ref_init, ← nodes2_eq m ρ h c, k_nodes_kept]
  rfl

/-- The first result: the node table with the new rows under it. -/
theorem out_eq (h : Cert.Pre_KernelIdeal m) (c : Dev nD) :
    (W14 m ρ c (Proc.devRef .tc main_v128) : S65664x128.Idx → EReal)
      = Cert.ReferenceIdeal.ReadP.val_main_v239 (F := Ideal) (a0 m c) (a1 m c) (a2 m c) (a3 m c) (a4 m c) (a5 m c) (a6 m c) (a7 m c) (a8 m c) (a9 m c) (a14 m c) (a15 m c) (a16 m c) (a17 m c) (a20 m c) (a21 m c) (a22 m c) (a23 m c) (a24 m c) (a25 m c) (a26 m c) (a27 m c) :=
  tail_out m ρ c (nodes2_eq m ρ h c) (init_eq m ρ h c)

/-- The second result: the loss. -/
theorem loss_eq (h : Cert.Pre_KernelIdeal m) (c : Dev nD) :
    (W14 m ρ c (Proc.devRef .tc main_v110) : S_.Idx → EReal)
      = Cert.ReferenceIdeal.ReadP.val_main_v203 (F := Ideal) (a0 m c) (a1 m c) (a2 m c) (a3 m c) (a4 m c) (a5 m c) (a6 m c) (a7 m c) (a8 m c) (a9 m c) (a10 m c) (a11 m c) (a12 m c) (a13 m c) (a18 m c) (a19 m c) (a24 m c) (a25 m c) (a26 m c) (a27 m c) :=
  tail_loss m ρ c (dec_eq m ρ h c)

end Cert.KernelIdeal.KV

end
-- ==== Proof.lean ====
/-
  The proof of `Cert.Claim` for a message-passing step on a graph of 65536 nodes and 655360 edges, run twice, followed by
  a per-graph gated pooling and a small decision head.

  The kernel program sums, at each node, the gathered source rows and the edge features of the edges that end there and
  multiplies by the step's matrices afterwards (the destination term is the in-degree times the node's own projection);
  the reference multiplies first and sums the edges' messages. Over real inputs the two agree (the matrix product
  distributes over the sums), both apply the same recurrent cell, and both update exactly the nodes whose owner word is a
  graph number — the kernel by the word's range, the reference by the owner table's row sum. The pooled arrays are the same
  sums over the same node table, taken 2048 nodes at a time by the kernel and in one product by the reference, and the
  closing host operations are shared. The three frames: the two kernel programs' are the generated launch certificates; the
  reference's is its run, read stage by stage, with the results dropped.
-/
import proofs.«423165_j21801253994886_2_alg».proof.Defs
import proofs.«423165_j21801253994886_2_alg».proof.Proof.Gen.Kernel
import proofs.«423165_j21801253994886_2_alg».proof.Proof.Gen.Kernel.Skeleton
import proofs.«423165_j21801253994886_2_alg».proof.Proof.Gen.Kernel.Launch
import proofs.«423165_j21801253994886_2_alg».proof.Proof.Gen.Kernel.Points
import proofs.«423165_j21801253994886_2_alg».proof.Proof.Gen.Kernel.Frame
import proofs.«423165_j21801253994886_2_alg».proof.Proof.Gen.KernelIdeal
import proofs.«423165_j21801253994886_2_alg».proof.Proof.Gen.KernelIdeal.Skeleton
import proofs.«423165_j21801253994886_2_alg».proof.Proof.Gen.KernelIdeal.Launch
import proofs.«423165_j21801253994886_2_alg».proof.Proof.Gen.KernelIdeal.Points
import proofs.«423165_j21801253994886_2_alg».proof.Proof.Gen.KernelIdeal.Frame
import proofs.«423165_j21801253994886_2_alg».proof.Proof.Gen.ReferenceIdeal
import proofs.«423165_j21801253994886_2_alg».proof.Proof.Gen.Pre_finite_inputs
import proofs.«423165_j21801253994886_2_alg».proof.Proof.KRun
import proofs.«423165_j21801253994886_2_alg».proof.Proof.RRun
import proofs.«423165_j21801253994886_2_alg».proof.Proof.Bridge
import Idealize.ShloMosaic.Adequacy
import Idealize.ShloMosaic.Init

set_option maxRecDepth 16384

noncomputable section

namespace Cert.Proof

open Idealize.ShloMosaic Idealize.SL.Sem

/-- The word-level kernel program runs and keeps its arguments: the generated launch certificate. -/
theorem frame_k [hK : Cert.Kernel.Facts] [hP : Cert.Pre_finite_inputs.Facts] : Cert.frame_Kernel :=
  fun m ρ _ => Cert.Kernel.Gen.frame m ρ

/-- The idealized kernel program runs and keeps its arguments: the generated launch certificate. -/
theorem frame_ki [hK : Cert.KernelIdeal.Facts] [hP : Cert.Pre_finite_inputs.Facts] : Cert.frame_KernelIdeal :=
  fun m ρ _ => Cert.KernelIdeal.Gen.frame m ρ

/-- The reference runs and keeps its arguments: its run with the two results dropped. -/
theorem frame_ri [hR : Cert.ReferenceIdeal.Facts] [hP : Cert.Pre_finite_inputs.Facts] : Cert.frame_ReferenceIdeal :=
  fun m ρ _ => (θ_run Cert.ReferenceIdeal.defs _ _).mono (fun _ h c => (h c).2.2) (Cert.ReferenceIdeal.RunH.run m ρ)

/-- From memories that agree on the arguments both idealized programs run, and their results are equal: the kernel's are
    the reference's stages of the kernel's own arguments, and the reference's run ends at those stages of its arguments,
    which are the kernel's. -/
theorem algebraic [hK : Cert.KernelIdeal.Facts] [hR : Cert.ReferenceIdeal.Facts] [hP : Cert.Pre_finite_inputs.Facts] :
    Cert.algebraic_KernelIdeal_ReferenceIdeal := by
  intro m ρ m' ρ' hpre hagree
  refine ⟨fun c => Cert.KernelIdeal.Gen.W14 m ρ c (Proc.devRef .tc Cert.KernelIdeal.main_v128),
    fun c => Cert.KernelIdeal.Gen.W14 m ρ c (Proc.devRef .tc Cert.KernelIdeal.main_v110),
    Cert.KernelIdeal.KRun.run_named (F := Ideal) m ρ, ?_⟩
  refine (θ_run Cert.ReferenceIdeal.defs _ _).mono (fun r h c => ⟨(h c).1.trans ?_, (h c).2.1.trans ?_, (h c).2.2⟩)
    (Cert.ReferenceIdeal.RunH.run m' ρ')
  · obtain ⟨h0, h1, h2, h3, h4, h5, h6, h7, h8, h9, h10, h11, h12, h13, h14, h15, h16, h17, h18, h19, h20, h21, h22, h23, h24, h25, h26, h27⟩ := hagree c
    simp only [h0, h1, h2, h3, h4, h5, h6, h7, h8, h9, h10, h11, h12, h13, h14, h15, h16, h17, h18, h19, h20, h21, h22, h23, h24, h25, h26, h27]
    exact (Cert.KernelIdeal.KV.out_eq m ρ hpre c).symm
  · obtain ⟨h0, h1, h2, h3, h4, h5, h6, h7, h8, h9, h10, h11, h12, h13, h14, h15, h16, h17, h18, h19, h20, h21, h22, h23, h24, h25, h26, h27⟩ := hagree c
    simp only [h0, h1, h2, h3, h4, h5, h6, h7, h8, h9, h10, h11, h12, h13, h14, h15, h16, h17, h18, h19, h20, h21, h22, h23, h24, h25, h26, h27]
    exact (Cert.KernelIdeal.KV.loss_eq m ρ hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
